-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x28749 : Shape := ⟨3, ![2048, 2, 28749]⟩
abbrev S50x28749 : Shape := ⟨2, ![50, 28749]⟩
abbrev S22x50 : Shape := ⟨2, ![22, 50]⟩
abbrev S2200x2200 : Shape := ⟨2, ![2200, 2200]⟩
abbrev S2200 : Shape := ⟨1, ![2200]⟩
abbrev S1000x2200 : Shape := ⟨2, ![1000, 2200]⟩
abbrev S1000 : Shape := ⟨1, ![1000]⟩
abbrev S50x1000 : Shape := ⟨2, ![50, 1000]⟩
abbrev S50 : Shape := ⟨1, ![50]⟩
abbrev S13x50 : Shape := ⟨2, ![13, 50]⟩
abbrev S13 : Shape := ⟨1, ![13]⟩
abbrev S_ : Shape := ⟨0, ![]⟩

class Facts : Prop where
  bcast_S_S2048x2x28749 : S_.BroadcastsInDim S2048x2x28749 (![] : Fin 0 → Fin S2048x2x28749.rank)
  reducesTo_S2048x2x28749_S_d0_1_2 : S2048x2x28749.ReducesTo [0, 1, 2] S_
  h_S_ : 0 < S_.numel
  bcast_S_S50x28749 : S_.BroadcastsInDim S50x28749 (![] : Fin 0 → Fin S50x28749.rank)
  reducesTo_S50x28749_S_d0_1 : S50x28749.ReducesTo [0, 1] S_
  bcast_S_S22x50 : S_.BroadcastsInDim S22x50 (![] : Fin 0 → Fin S22x50.rank)
  reducesTo_S22x50_S_d0_1 : S22x50.ReducesTo [0, 1] S_
  bcast_S_S2200x2200 : S_.BroadcastsInDim S2200x2200 (![] : Fin 0 → Fin S2200x2200.rank)
  reducesTo_S2200x2200_S_d0_1 : S2200x2200.ReducesTo [0, 1] S_
  bcast_S_S2200 : S_.BroadcastsInDim S2200 (![] : Fin 0 → Fin S2200.rank)
  reducesTo_S2200_S_d0 : S2200.ReducesTo [0] S_
  bcast_S_S1000x2200 : S_.BroadcastsInDim S1000x2200 (![] : Fin 0 → Fin S1000x2200.rank)
  reducesTo_S1000x2200_S_d0_1 : S1000x2200.ReducesTo [0, 1] S_
  bcast_S_S1000 : S_.BroadcastsInDim S1000 (![] : Fin 0 → Fin S1000.rank)
  reducesTo_S1000_S_d0 : S1000.ReducesTo [0] S_
  bcast_S_S50x1000 : S_.BroadcastsInDim S50x1000 (![] : Fin 0 → Fin S50x1000.rank)
  reducesTo_S50x1000_S_d0_1 : S50x1000.ReducesTo [0, 1] S_
  bcast_S_S50 : S_.BroadcastsInDim S50 (![] : Fin 0 → Fin S50.rank)
  reducesTo_S50_S_d0 : S50.ReducesTo [0] S_
  bcast_S_S13x50 : S_.BroadcastsInDim S13x50 (![] : Fin 0 → Fin S13x50.rank)
  reducesTo_S13x50_S_d0_1 : S13x50.ReducesTo [0, 1] S_
  bcast_S_S13 : S_.BroadcastsInDim S13 (![] : Fin 0 → Fin S13.rank)
  reducesTo_S13_S_d0 : S13.ReducesTo [0] S_

variable [Facts]

def fn_part3 {F : FTy → Type} [FloatOps F] (main_v48 : IVec S_ 1) (main_v49 : FVec F S13 .f32) (main_v50 : FVec F S13 .f32) : IVec S_ 1 :=
  let main_v51 : IVec S13 1 := cmpf .olt main_v49 main_v50
  let main_c_19 : IVec S_ 1 := constantI S_ 1 1#1
  let main_v52 : IVec S_ 1 := (fun x v => Host.reduce IntOp.andi x v reducesTo_S13_S_d0 h_S_) main_v51 main_c_19
  let main_v53 : IVec S_ 1 := andi main_v48 main_v52
  main_v53

def fn_part2 {F : FTy → Type} [FloatOps F] (main_arg7 : FVec F S50x1000 .f32) (main_arg8 : FVec F S50 .f32) (main_arg9 : FVec F S13x50 .f32) (main_arg10 : FVec F S13 .f32) (main_v33 : IVec S_ 1) : IVec S_ 1 :=
  let main_v34 : FVec F S50x1000 .f32 := Host.absf main_arg7
  let main_cst_12 : FVec F S_ .f32 := constant S_ .f32 0x7F800000#32
  let main_v35 : FVec F S50x1000 .f32 := broadcastInDim S50x1000 ![] bcast_S_S50x1000 main_cst_12
  let main_v36 : IVec S50x1000 1 := cmpf .olt main_v34 main_v35
  let main_c_13 : IVec S_ 1 := constantI S_ 1 1#1
  let main_v37 : IVec S_ 1 := (fun x v => Host.reduce IntOp.andi x v reducesTo_S50x1000_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S13x50 .f32 := Host.absf main_arg9
  let main_cst_16 : FVec F S_ .f32 := constant S_ .f32 0x7F800000#32
  let main_v45 : FVec F S13x50 .f32 := broadcastInDim S13x50 ![] bcast_S_S13x50 main_cst_16
  let main_v46 : IVec S13x50 1 := cmpf .olt main_v44 main_v45
  let main_c_17 : IVec S_ 1 := constantI S_ 1 1#1
  let main_v47 : IVec S_ 1 := (fun x v => Host.reduce IntOp.andi x v reducesTo_S13x50_S_d0_1 h_S_) main_v46 main_c_17
  let main_v48 : IVec S_ 1 := andi main_v43 main_v47
  let main_v49 : FVec F S13 .f32 := Host.absf main_arg10
  let main_cst_18 : FVec F S_ .f32 := constant S_ .f32 0x7F800000#32
  let main_v50 : FVec F S13 .f32 := broadcastInDim S13 ![] bcast_S_S13 main_cst_18
  fn_part3 (F := F) main_v48 main_v49 main_v50

def fn_part1 {F : FTy → Type} [FloatOps F] (main_arg4 : FVec F S2200 .f32) (main_arg5 : FVec F S1000x2200 .f32) (main_arg6 : FVec F S1000 .f32) (main_arg7 : FVec F S50x1000 .f32) (main_arg8 : FVec F S50 .f32) (main_arg9 : FVec F S13x50 .f32) (main_arg10 : FVec F S13 .f32) (main_v13 : IVec S_ 1) (main_v16 : IVec S2200x2200 1) : IVec S_ 1 :=
  let main_c_5 : IVec S_ 1 := constantI S_ 1 1#1
  let main_v17 : IVec S_ 1 := (fun x v => Host.reduce IntOp.andi x v reducesTo_S2200x2200_S_d0_1 h_S_) main_v16 main_c_5
  let main_v18 : IVec S_ 1 := andi main_v13 main_v17
  let main_v19 : FVec F S2200 .f32 := Host.absf main_arg4
  let main_cst_6 : FVec F S_ .f32 := constant S_ .f32 0x7F800000#32
  let main_v20 : FVec F S2200 .f32 := broadcastInDim S2200 ![] bcast_S_S2200 main_cst_6
  let main_v21 : IVec S2200 1 := cmpf .olt main_v19 main_v20
  let main_c_7 : IVec S_ 1 := constantI S_ 1 1#1
  let main_v22 : IVec S_ 1 := (fun x v => Host.reduce IntOp.andi x v reducesTo_S2200_S_d0 h_S_) main_v21 main_c_7
  let main_v23 : IVec S_ 1 := andi main_v18 main_v22
  let main_v24 : FVec F S1000x2200 .f32 := Host.absf main_arg5
  let main_cst_8 : FVec F S_ .f32 := constant S_ .f32 0x7F800000#32
  let main_v25 : FVec F S1000x2200 .f32 := broadcastInDim S1000x2200 ![] bcast_S_S1000x2200 main_cst_8
  let main_v26 : IVec S1000x2200 1 := cmpf .olt main_v24 main_v25
  let main_c_9 : IVec S_ 1 := constantI S_ 1 1#1
  let main_v27 : IVec S_ 1 := (fun x v => Host.reduce IntOp.andi x v reducesTo_S1000x2200_S_d0_1 h_S_) main_v26 main_c_9
  let main_v28 : IVec S_ 1 := andi main_v23 main_v27
  let main_v29 : FVec F S1000 .f32 := Host.absf main_arg6
  let main_cst_10 : FVec F S_ .f32 := constant S_ .f32 0x7F800000#32
  let main_v30 : FVec F S1000 .f32 := broadcastInDim S1000 ![] bcast_S_S1000 main_cst_10
  let main_v31 : IVec S1000 1 := cmpf .olt main_v29 main_v30
  let main_c_11 : IVec S_ 1 := constantI S_ 1 1#1
  let main_v32 : IVec S_ 1 := (fun x v => Host.reduce IntOp.andi x v reducesTo_S1000_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x2x28749 .f32) (main_arg1 : FVec F S50x28749 .f32) (main_arg2 : FVec F S22x50 .f32) (main_arg3 : FVec F S2200x2200 .f32) (main_arg4 : FVec F S2200 .f32) (main_arg5 : FVec F S1000x2200 .f32) (main_arg6 : FVec F S1000 .f32) (main_arg7 : FVec F S50x1000 .f32) (main_arg8 : FVec F S50 .f32) (main_arg9 : FVec F S13x50 .f32) (main_arg10 : FVec F S13 .f32) : IVec S_ 1 :=
  let main_v0 : FVec F S2048x2x28749 .f32 := Host.absf main_arg0
  let main_cst : FVec F S_ .f32 := constant S_ .f32 0x7F800000#32
  let main_v1 : FVec F S2048x2x28749 .f32 := broadcastInDim S2048x2x28749 ![] bcast_S_S2048x2x28749 main_cst
  let main_v2 : IVec S2048x2x28749 1 := cmpf .olt main_v0 main_v1
  let main_c : IVec S_ 1 := constantI S_ 1 1#1
  let main_v3 : IVec S_ 1 := (fun x v => Host.reduce IntOp.andi x v reducesTo_S2048x2x28749_S_d0_1_2 h_S_) main_v2 main_c
  let main_v4 : FVec F S50x28749 .f32 := Host.absf main_arg1
  let main_cst_0 : FVec F S_ .f32 := constant S_ .f32 0x7F800000#32
  let main_v5 : FVec F S50x28749 .f32 := broadcastInDim S50x28749 ![] bcast_S_S50x28749 main_cst_0
  let main_v6 : IVec S50x28749 1 := cmpf .olt main_v4 main_v5
  let main_c_1 : IVec S_ 1 := constantI S_ 1 1#1
  let main_v7 : IVec S_ 1 := (fun x v => Host.reduce IntOp.andi x v reducesTo_S50x28749_S_d0_1 h_S_) main_v6 main_c_1
  let main_v8 : IVec S_ 1 := andi main_v3 main_v7
  let main_v9 : FVec F S22x50 .f32 := Host.absf main_arg2
  let main_cst_2 : FVec F S_ .f32 := constant S_ .f32 0x7F800000#32
  let main_v10 : FVec F S22x50 .f32 := broadcastInDim S22x50 ![] bcast_S_S22x50 main_cst_2
  let main_v11 : IVec S22x50 1 := cmpf .olt main_v9 main_v10
  let main_c_3 : IVec S_ 1 := constantI S_ 1 1#1
  let main_v12 : IVec S_ 1 := (fun x v => Host.reduce IntOp.andi x v reducesTo_S22x50_S_d0_1 h_S_) main_v11 main_c_3
  let main_v13 : IVec S_ 1 := andi main_v8 main_v12
  let main_v14 : FVec F S2200x2200 .f32 := Host.absf main_arg3
  let main_cst_4 : FVec F S_ .f32 := constant S_ .f32 0x7F800000#32
  let main_v15 : FVec F S2200x2200 .f32 := broadcastInDim S2200x2200 ![] bcast_S_S2200x2200 main_cst_4
  let main_v16 : IVec S2200x2200 1 := cmpf .olt main_v14 main_v15
  fn_part1 (F := F) main_arg4 main_arg5 main_arg6 main_arg7 main_arg8 main_arg9 main_arg10 main_v13 main_v16
-- ==== Kernel.lean ====
abbrev S2048x2x28749 : Shape := ⟨3, ![2048, 2, 28749]⟩
abbrev S50x28749 : Shape := ⟨2, ![50, 28749]⟩
abbrev S22x50 : Shape := ⟨2, ![22, 50]⟩
abbrev S2200x2200 : Shape := ⟨2, ![2200, 2200]⟩
abbrev S2200 : Shape := ⟨1, ![2200]⟩
abbrev S1000x2200 : Shape := ⟨2, ![1000, 2200]⟩
abbrev S1000 : Shape := ⟨1, ![1000]⟩
abbrev S50x1000 : Shape := ⟨2, ![50, 1000]⟩
abbrev S50 : Shape := ⟨1, ![50]⟩
abbrev S13x50 : Shape := ⟨2, ![13, 50]⟩
abbrev S13 : Shape := ⟨1, ![13]⟩
abbrev S2048x57498 : Shape := ⟨2, ![2048, 57498]⟩
abbrev S2048x13 : Shape := ⟨2, ![2048, 13]⟩
abbrev S64x57498 : Shape := ⟨2, ![64, 57498]⟩
abbrev S64x13 : Shape := ⟨2, ![64, 13]⟩
abbrev S64x2490 : Shape := ⟨2, ![64, 2490]⟩
abbrev S128x2490 : Shape := ⟨2, ![128, 2490]⟩
abbrev S50x2490 : Shape := ⟨2, ![50, 2490]⟩
abbrev S128x50 : Shape := ⟨2, ![128, 50]⟩
abbrev S1x50 : Shape := ⟨2, ![1, 50]⟩
abbrev S64x50 : Shape := ⟨2, ![64, 50]⟩
abbrev S64x2422 : Shape := ⟨2, ![64, 2422]⟩
abbrev S128x2422 : Shape := ⟨2, ![128, 2422]⟩
abbrev S50x2422 : Shape := ⟨2, ![50, 2422]⟩
abbrev S64x1983 : Shape := ⟨2, ![64, 1983]⟩
abbrev S128x1983 : Shape := ⟨2, ![128, 1983]⟩
abbrev S50x1983 : Shape := ⟨2, ![50, 1983]⟩
abbrev S64x1902 : Shape := ⟨2, ![64, 1902]⟩
abbrev S128x1902 : Shape := ⟨2, ![128, 1902]⟩
abbrev S50x1902 : Shape := ⟨2, ![50, 1902]⟩
abbrev S64x1815 : Shape := ⟨2, ![64, 1815]⟩
abbrev S128x1815 : Shape := ⟨2, ![128, 1815]⟩
abbrev S50x1815 : Shape := ⟨2, ![50, 1815]⟩
abbrev S64x1708 : Shape := ⟨2, ![64, 1708]⟩
abbrev S128x1708 : Shape := ⟨2, ![128, 1708]⟩
abbrev S50x1708 : Shape := ⟨2, ![50, 1708]⟩
abbrev S64x1593 : Shape := ⟨2, ![64, 1593]⟩
abbrev S128x1593 : Shape := ⟨2, ![128, 1593]⟩
abbrev S50x1593 : Shape := ⟨2, ![50, 1593]⟩
abbrev S64x1451 : Shape := ⟨2, ![64, 1451]⟩
abbrev S128x1451 : Shape := ⟨2, ![128, 1451]⟩
abbrev S50x1451 : Shape := ⟨2, ![50, 1451]⟩
abbrev S64x1384 : Shape := ⟨2, ![64, 1384]⟩
abbrev S128x1384 : Shape := ⟨2, ![128, 1384]⟩
abbrev S50x1384 : Shape := ⟨2, ![50, 1384]⟩
abbrev S64x1338 : Shape := ⟨2, ![64, 1338]⟩
abbrev S128x1338 : Shape := ⟨2, ![128, 1338]⟩
abbrev S50x1338 : Shape := ⟨2, ![50, 1338]⟩
abbrev S64x1351 : Shape := ⟨2, ![64, 1351]⟩
abbrev S128x1351 : Shape := ⟨2, ![128, 1351]⟩
abbrev S50x1351 : Shape := ⟨2, ![50, 1351]⟩
abbrev S64x1333 : Shape := ⟨2, ![64, 1333]⟩
abbrev S128x1333 : Shape := ⟨2, ![128, 1333]⟩
abbrev S50x1333 : Shape := ⟨2, ![50, 1333]⟩
abbrev S64x1144 : Shape := ⟨2, ![64, 1144]⟩
abbrev S128x1144 : Shape := ⟨2, ![128, 1144]⟩
abbrev S50x1144 : Shape := ⟨2, ![50, 1144]⟩
abbrev S64x1070 : Shape := ⟨2, ![64, 1070]⟩
abbrev S128x1070 : Shape := ⟨2, ![128, 1070]⟩
abbrev S50x1070 : Shape := ⟨2, ![50, 1070]⟩
abbrev S64x1020 : Shape := ⟨2, ![64, 1020]⟩
abbrev S128x1020 : Shape := ⟨2, ![128, 1020]⟩
abbrev S50x1020 : Shape := ⟨2, ![50, 1020]⟩
abbrev S64x903 : Shape := ⟨2, ![64, 903]⟩
abbrev S128x903 : Shape := ⟨2, ![128, 903]⟩
abbrev S50x903 : Shape := ⟨2, ![50, 903]⟩
abbrev S64x833 : Shape := ⟨2, ![64, 833]⟩
abbrev S128x833 : Shape := ⟨2, ![128, 833]⟩
abbrev S50x833 : Shape := ⟨2, ![50, 833]⟩
abbrev S64x804 : Shape := ⟨2, ![64, 804]⟩
abbrev S128x804 : Shape := ⟨2, ![128, 804]⟩
abbrev S50x804 : Shape := ⟨2, ![50, 804]⟩
abbrev S64x586 : Shape := ⟨2, ![64, 586]⟩
abbrev S128x586 : Shape := ⟨2, ![128, 586]⟩
abbrev S50x586 : Shape := ⟨2, ![50, 586]⟩
abbrev S64x644 : Shape := ⟨2, ![64, 644]⟩
abbrev S128x644 : Shape := ⟨2, ![128, 644]⟩
abbrev S50x644 : Shape := ⟨2, ![50, 644]⟩
abbrev S64x467 : Shape := ⟨2, ![64, 467]⟩
abbrev S128x467 : Shape := ⟨2, ![128, 467]⟩
abbrev S50x467 : Shape := ⟨2, ![50, 467]⟩
abbrev S64x508 : Shape := ⟨2, ![64, 508]⟩
abbrev S128x508 : Shape := ⟨2, ![128, 508]⟩
abbrev S50x508 : Shape := ⟨2, ![50, 508]⟩
abbrev S64x2200 : Shape := ⟨2, ![64, 2200]⟩
abbrev S1x2200 : Shape := ⟨2, ![1, 2200]⟩
abbrev S64x1000 : Shape := ⟨2, ![64, 1000]⟩
abbrev S1x1000 : Shape := ⟨2, ![1, 1000]⟩
abbrev S1x13 : Shape := ⟨2, ![1, 13]⟩

abbrev nBuf : Space → Nat
  | .hbm => 18
  | .vmem => 14
  | .smem => 0
  | _ => 0

abbrev bufTy : (tb : Table) → Fin (tcTables nBuf tb) → BufTy
  | .hbm, ⟨0, _⟩ => ⟨S2048x2x28749, .f32⟩
  | .hbm, ⟨1, _⟩ => ⟨S50x28749, .f32⟩
  | .hbm, ⟨2, _⟩ => ⟨S22x50, .f32⟩
  | .hbm, ⟨3, _⟩ => ⟨S2200x2200, .f32⟩
  | .hbm, ⟨4, _⟩ => ⟨S2200, .f32⟩
  | .hbm, ⟨5, _⟩ => ⟨S1000x2200, .f32⟩
  | .hbm, ⟨6, _⟩ => ⟨S1000, .f32⟩
  | .hbm, ⟨7, _⟩ => ⟨S50x1000, .f32⟩
  | .hbm, ⟨8, _⟩ => ⟨S50, .f32⟩
  | .hbm, ⟨9, _⟩ => ⟨S13x50, .f32⟩
  | .hbm, ⟨10, _⟩ => ⟨S13, .f32⟩
  | .hbm, ⟨11, _⟩ => ⟨S2048x57498, .f32⟩
  | .hbm, ⟨12, _⟩ => ⟨S50x28749, .bf16⟩
  | .hbm, ⟨13, _⟩ => ⟨S2200x2200, .bf16⟩
  | .hbm, ⟨14, _⟩ => ⟨S1000x2200, .bf16⟩
  | .hbm, ⟨15, _⟩ => ⟨S50x1000, .bf16⟩
  | .hbm, ⟨16, _⟩ => ⟨S13x50, .bf16⟩
  | .hbm, ⟨17, _⟩ => ⟨S2048x13, .f32⟩
  | .local _ .vmem, ⟨0, _⟩ => ⟨S64x57498, .f32⟩
  | .local _ .vmem, ⟨1, _⟩ => ⟨S64x57498, .f32⟩
  | .local _ .vmem, ⟨2, _⟩ => ⟨S50x28749, .bf16⟩
  | .local _ .vmem, ⟨3, _⟩ => ⟨S22x50, .f32⟩
  | .local _ .vmem, ⟨4, _⟩ => ⟨S2200x2200, .bf16⟩
  | .local _ .vmem, ⟨5, _⟩ => ⟨S2200, .f32⟩
  | .local _ .vmem, ⟨6, _⟩ => ⟨S1000x2200, .bf16⟩
  | .local _ .vmem, ⟨7, _⟩ => ⟨S1000, .f32⟩
  | .local _ .vmem, ⟨8, _⟩ => ⟨S50x1000, .bf16⟩
  | .local _ .vmem, ⟨9, _⟩ => ⟨S50, .f32⟩
  | .local _ .vmem, ⟨10, _⟩ => ⟨S13x50, .bf16⟩
  | .local _ .vmem, ⟨11, _⟩ => ⟨S13, .f32⟩
  | .local _ .vmem, ⟨12, _⟩ => ⟨S64x13, .f32⟩
  | .local _ .vmem, ⟨13, _⟩ => ⟨S64x13, .f32⟩
  | _, _ => ⟨S2048x2x28749, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x57498 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x28749 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2200x2200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000x2200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x1000 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S13x50 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S13 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x13 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2048x2x28749_S2048x57498 : S2048x2x28749.ShapeCasts S2048x57498
  bitsLt_bf16_f32 : FTy.bits .bf16 < FTy.bits .f32
  inb_S64x57498_S64x57498_0_0 : ∀ a, (![0, 0] : Fin 2 → Nat) a + S64x57498.size a ≤ S64x57498.size a
  h_S64x57498 : 0 < S64x57498.numel
  shapeCasts_S64x57498_S64x57498 : S64x57498.ShapeCasts S64x57498
  slices_S64x57498_o0_0_S64x2490 : S64x57498.Slices ![0, 0] S64x2490
  slices_S64x57498_o0_28749_S64x2490 : S64x57498.Slices ![0, 28749] S64x2490
  concatenates_S64x2490_S64x2490_S128x2490_d0 : Shape.Concatenates [S64x2490, S64x2490] S128x2490 0
  inb_S50x28749_S50x2490_0_0 : ∀ a, (![0, 0] : Fin 2 → Nat) a + S50x2490.size a ≤ S50x28749.size a
  h_S50x2490 : 0 < S50x2490.numel
  shapeCasts_S50x2490_S50x2490 : S50x2490.ShapeCasts S50x2490
  inb_S22x50_S1x50_0_0 : ∀ a, (![0, 0] : Fin 2 → Nat) a + S1x50.size a ≤ S22x50.size a
  h_S1x50 : 0 < S1x50.numel
  shapeCasts_S1x50_S50 : S1x50.ShapeCasts S50
  shapeCasts_S50_S1x50 : S50.ShapeCasts S1x50
  broadcasts_S1x50_S128x50 : S1x50.Broadcasts S128x50
  slices_S128x50_o0_0_S64x50 : S128x50.Slices ![0, 0] S64x50
  slices_S128x50_o64_0_S64x50 : S128x50.Slices ![64, 0] S64x50
  slices_S64x57498_o0_2490_S64x2422 : S64x57498.Slices ![0, 2490] S64x2422
  slices_S64x57498_o0_31239_S64x2422 : S64x57498.Slices ![0, 31239] S64x2422
  concatenates_S64x2422_S64x2422_S128x2422_d0 : Shape.Concatenates [S64x2422, S64x2422] S128x2422 0
  inb_S50x28749_S50x2422_0_2490 : ∀ a, (![0, 2490] : Fin 2 → Nat) a + S50x2422.size a ≤ S50x28749.size a
  h_S50x2422 : 0 < S50x2422.numel
  shapeCasts_S50x2422_S50x2422 : S50x2422.ShapeCasts S50x2422
  inb_S22x50_S1x50_1_0 : ∀ a, (![1, 0] : Fin 2 → Nat) a + S1x50.size a ≤ S22x50.size a
  slices_S64x57498_o0_4912_S64x1983 : S64x57498.Slices ![0, 4912] S64x1983
  slices_S64x57498_o0_33661_S64x1983 : S64x57498.Slices ![0, 33661] S64x1983
  concatenates_S64x1983_S64x1983_S128x1983_d0 : Shape.Concatenates [S64x1983, S64x1983] S128x1983 0
  inb_S50x28749_S50x1983_0_4912 : ∀ a, (![0, 4912] : Fin 2 → Nat) a + S50x1983.size a ≤ S50x28749.size a
  h_S50x1983 : 0 < S50x1983.numel
  shapeCasts_S50x1983_S50x1983 : S50x1983.ShapeCasts S50x1983
  inb_S22x50_S1x50_2_0 : ∀ a, (![2, 0] : Fin 2 → Nat) a + S1x50.size a ≤ S22x50.size a
  slices_S64x57498_o0_6895_S64x1902 : S64x57498.Slices ![0, 6895] S64x1902
  slices_S64x57498_o0_35644_S64x1902 : S64x57498.Slices ![0, 35644] S64x1902
  concatenates_S64x1902_S64x1902_S128x1902_d0 : Shape.Concatenates [S64x1902, S64x1902] S128x1902 0
  inb_S50x28749_S50x1902_0_6895 : ∀ a, (![0, 6895] : Fin 2 → Nat) a + S50x1902.size a ≤ S50x28749.size a
  h_S50x1902 : 0 < S50x1902.numel
  shapeCasts_S50x1902_S50x1902 : S50x1902.ShapeCasts S50x1902
  inb_S22x50_S1x50_3_0 : ∀ a, (![3, 0] : Fin 2 → Nat) a + S1x50.size a ≤ S22x50.size a
  slices_S64x57498_o0_8797_S64x1815 : S64x57498.Slices ![0, 8797] S64x1815
  slices_S64x57498_o0_37546_S64x1815 : S64x57498.Slices ![0, 37546] S64x1815
  concatenates_S64x1815_S64x1815_S128x1815_d0 : Shape.Concatenates [S64x1815, S64x1815] S128x1815 0
  inb_S50x28749_S50x1815_0_8797 : ∀ a, (![0, 8797] : Fin 2 → Nat) a + S50x1815.size a ≤ S50x28749.size a
  h_S50x1815 : 0 < S50x1815.numel
  shapeCasts_S50x1815_S50x1815 : S50x1815.ShapeCasts S50x1815
  inb_S22x50_S1x50_4_0 : ∀ a, (![4, 0] : Fin 2 → Nat) a + S1x50.size a ≤ S22x50.size a
  slices_S64x57498_o0_10612_S64x1708 : S64x57498.Slices ![0, 10612] S64x1708
  slices_S64x57498_o0_39361_S64x1708 : S64x57498.Slices ![0, 39361] S64x1708
  concatenates_S64x1708_S64x1708_S128x1708_d0 : Shape.Concatenates [S64x1708, S64x1708] S128x1708 0
  inb_S50x28749_S50x1708_0_10612 : ∀ a, (![0, 10612] : Fin 2 → Nat) a + S50x1708.size a ≤ S50x28749.size a
  h_S50x1708 : 0 < S50x1708.numel
  shapeCasts_S50x1708_S50x1708 : S50x1708.ShapeCasts S50x1708
  inb_S22x50_S1x50_5_0 : ∀ a, (![5, 0] : Fin 2 → Nat) a + S1x50.size a ≤ S22x50.size a
  slices_S64x57498_o0_12320_S64x1593 : S64x57498.Slices ![0, 12320] S64x1593
  slices_S64x57498_o0_41069_S64x1593 : S64x57498.Slices ![0, 41069] S64x1593
  concatenates_S64x1593_S64x1593_S128x1593_d0 : Shape.Concatenates [S64x1593, S64x1593] S128x1593 0
  inb_S50x28749_S50x1593_0_12320 : ∀ a, (![0, 12320] : Fin 2 → Nat) a + S50x1593.size a ≤ S50x28749.size a
  h_S50x1593 : 0 < S50x1593.numel
  shapeCasts_S50x1593_S50x1593 : S50x1593.ShapeCasts S50x1593
  inb_S22x50_S1x50_6_0 : ∀ a, (![6, 0] : Fin 2 → Nat) a + S1x50.size a ≤ S22x50.size a
  slices_S64x57498_o0_13913_S64x1451 : S64x57498.Slices ![0, 13913] S64x1451
  slices_S64x57498_o0_42662_S64x1451 : S64x57498.Slices ![0, 42662] S64x1451
  concatenates_S64x1451_S64x1451_S128x1451_d0 : Shape.Concatenates [S64x1451, S64x1451] S128x1451 0
  inb_S50x28749_S50x1451_0_13913 : ∀ a, (![0, 13913] : Fin 2 → Nat) a + S50x1451.size a ≤ S50x28749.size a
  h_S50x1451 : 0 < S50x1451.numel
  shapeCasts_S50x1451_S50x1451 : S50x1451.ShapeCasts S50x1451
  inb_S22x50_S1x50_7_0 : ∀ a, (![7, 0] : Fin 2 → Nat) a + S1x50.size a ≤ S22x50.size a
  slices_S64x57498_o0_15364_S64x1384 : S64x57498.Slices ![0, 15364] S64x1384
  slices_S64x57498_o0_44113_S64x1384 : S64x57498.Slices ![0, 44113] S64x1384
  concatenates_S64x1384_S64x1384_S128x1384_d0 : Shape.Concatenates [S64x1384, S64x1384] S128x1384 0
  inb_S50x28749_S50x1384_0_15364 : ∀ a, (![0, 15364] : Fin 2 → Nat) a + S50x1384.size a ≤ S50x28749.size a
  h_S50x1384 : 0 < S50x1384.numel
  shapeCasts_S50x1384_S50x1384 : S50x1384.ShapeCasts S50x1384
  inb_S22x50_S1x50_8_0 : ∀ a, (![8, 0] : Fin 2 → Nat) a + S1x50.size a ≤ S22x50.size a
  slices_S64x57498_o0_16748_S64x1338 : S64x57498.Slices ![0, 16748] S64x1338
  slices_S64x57498_o0_45497_S64x1338 : S64x57498.Slices ![0, 45497] S64x1338
  concatenates_S64x1338_S64x1338_S128x1338_d0 : Shape.Concatenates [S64x1338, S64x1338] S128x1338 0
  inb_S50x28749_S50x1338_0_16748 : ∀ a, (![0, 16748] : Fin 2 → Nat) a + S50x1338.size a ≤ S50x28749.size a
  h_S50x1338 : 0 < S50x1338.numel
  shapeCasts_S50x1338_S50x1338 : S50x1338.ShapeCasts S50x1338
  inb_S22x50_S1x50_9_0 : ∀ a, (![9, 0] : Fin 2 → Nat) a + S1x50.size a ≤ S22x50.size a
  slices_S64x57498_o0_18086_S64x1351 : S64x57498.Slices ![0, 18086] S64x1351
  slices_S64x57498_o0_46835_S64x1351 : S64x57498.Slices ![0, 46835] S64x1351
  concatenates_S64x1351_S64x1351_S128x1351_d0 : Shape.Concatenates [S64x1351, S64x1351] S128x1351 0
  inb_S50x28749_S50x1351_0_18086 : ∀ a, (![0, 18086] : Fin 2 → Nat) a + S50x1351.size a ≤ S50x28749.size a
  h_S50x1351 : 0 < S50x1351.numel
  shapeCasts_S50x1351_S50x1351 : S50x1351.ShapeCasts S50x1351
  inb_S22x50_S1x50_10_0 : ∀ a, (![10, 0] : Fin 2 → Nat) a + S1x50.size a ≤ S22x50.size a
  slices_S64x57498_o0_19437_S64x1333 : S64x57498.Slices ![0, 19437] S64x1333
  slices_S64x57498_o0_48186_S64x1333 : S64x57498.Slices ![0, 48186] S64x1333
  concatenates_S64x1333_S64x1333_S128x1333_d0 : Shape.Concatenates [S64x1333, S64x1333] S128x1333 0
  inb_S50x28749_S50x1333_0_19437 : ∀ a, (![0, 19437] : Fin 2 → Nat) a + S50x1333.size a ≤ S50x28749.size a
  h_S50x1333 : 0 < S50x1333.numel
  shapeCasts_S50x1333_S50x1333 : S50x1333.ShapeCasts S50x1333
  inb_S22x50_S1x50_11_0 : ∀ a, (![11, 0] : Fin 2 → Nat) a + S1x50.size a ≤ S22x50.size a
  slices_S64x57498_o0_20770_S64x1144 : S64x57498.Slices ![0, 20770] S64x1144
  slices_S64x57498_o0_49519_S64x1144 : S64x57498.Slices ![0, 49519] S64x1144
  concatenates_S64x1144_S64x1144_S128x1144_d0 : Shape.Concatenates [S64x1144, S64x1144] S128x1144 0
  inb_S50x28749_S50x1144_0_20770 : ∀ a, (![0, 20770] : Fin 2 → Nat) a + S50x1144.size a ≤ S50x28749.size a
  h_S50x1144 : 0 < S50x1144.numel
  shapeCasts_S50x1144_S50x1144 : S50x1144.ShapeCasts S50x1144
  inb_S22x50_S1x50_12_0 : ∀ a, (![12, 0] : Fin 2 → Nat) a + S1x50.size a ≤ S22x50.size a
  slices_S64x57498_o0_21914_S64x1070 : S64x57498.Slices ![0, 21914] S64x1070
  slices_S64x57498_o0_50663_S64x1070 : S64x57498.Slices ![0, 50663] S64x1070
  concatenates_S64x1070_S64x1070_S128x1070_d0 : Shape.Concatenates [S64x1070, S64x1070] S128x1070 0
  inb_S50x28749_S50x1070_0_21914 : ∀ a, (![0, 21914] : Fin 2 → Nat) a + S50x1070.size a ≤ S50x28749.size a
  h_S50x1070 : 0 < S50x1070.numel
  shapeCasts_S50x1070_S50x1070 : S50x1070.ShapeCasts S50x1070
  inb_S22x50_S1x50_13_0 : ∀ a, (![13, 0] : Fin 2 → Nat) a + S1x50.size a ≤ S22x50.size a
  slices_S64x57498_o0_22984_S64x1020 : S64x57498.Slices ![0, 22984] S64x1020
  slices_S64x57498_o0_51733_S64x1020 : S64x57498.Slices ![0, 51733] S64x1020
  concatenates_S64x1020_S64x1020_S128x1020_d0 : Shape.Concatenates [S64x1020, S64x1020] S128x1020 0
  inb_S50x28749_S50x1020_0_22984 : ∀ a, (![0, 22984] : Fin 2 → Nat) a + S50x1020.size a ≤ S50x28749.size a
  h_S50x1020 : 0 < S50x1020.numel
  shapeCasts_S50x1020_S50x1020 : S50x1020.ShapeCasts S50x1020
  inb_S22x50_S1x50_14_0 : ∀ a, (![14, 0] : Fin 2 → Nat) a + S1x50.size a ≤ S22x50.size a
  slices_S64x57498_o0_24004_S64x903 : S64x57498.Slices ![0, 24004] S64x903
  slices_S64x57498_o0_52753_S64x903 : S64x57498.Slices ![0, 52753] S64x903
  concatenates_S64x903_S64x903_S128x903_d0 : Shape.Concatenates [S64x903, S64x903] S128x903 0
  inb_S50x28749_S50x903_0_24004 : ∀ a, (![0, 24004] : Fin 2 → Nat) a + S50x903.size a ≤ S50x28749.size a
  h_S50x903 : 0 < S50x903.numel
  shapeCasts_S50x903_S50x903 : S50x903.ShapeCasts S50x903
  inb_S22x50_S1x50_15_0 : ∀ a, (![15, 0] : Fin 2 → Nat) a + S1x50.size a ≤ S22x50.size a
  slices_S64x57498_o0_24907_S64x833 : S64x57498.Slices ![0, 24907] S64x833
  slices_S64x57498_o0_53656_S64x833 : S64x57498.Slices ![0, 53656] S64x833
  concatenates_S64x833_S64x833_S128x833_d0 : Shape.Concatenates [S64x833, S64x833] S128x833 0
  inb_S50x28749_S50x833_0_24907 : ∀ a, (![0, 24907] : Fin 2 → Nat) a + S50x833.size a ≤ S50x28749.size a
  h_S50x833 : 0 < S50x833.numel
  shapeCasts_S50x833_S50x833 : S50x833.ShapeCasts S50x833
  inb_S22x50_S1x50_16_0 : ∀ a, (![16, 0] : Fin 2 → Nat) a + S1x50.size a ≤ S22x50.size a
  slices_S64x57498_o0_25740_S64x804 : S64x57498.Slices ![0, 25740] S64x804
  slices_S64x57498_o0_54489_S64x804 : S64x57498.Slices ![0, 54489] S64x804
  concatenates_S64x804_S64x804_S128x804_d0 : Shape.Concatenates [S64x804, S64x804] S128x804 0
  inb_S50x28749_S50x804_0_25740 : ∀ a, (![0, 25740] : Fin 2 → Nat) a + S50x804.size a ≤ S50x28749.size a
  h_S50x804 : 0 < S50x804.numel
  shapeCasts_S50x804_S50x804 : S50x804.ShapeCasts S50x804
  inb_S22x50_S1x50_17_0 : ∀ a, (![17, 0] : Fin 2 → Nat) a + S1x50.size a ≤ S22x50.size a
  slices_S64x57498_o0_26544_S64x586 : S64x57498.Slices ![0, 26544] S64x586
  slices_S64x57498_o0_55293_S64x586 : S64x57498.Slices ![0, 55293] S64x586
  concatenates_S64x586_S64x586_S128x586_d0 : Shape.Concatenates [S64x586, S64x586] S128x586 0
  inb_S50x28749_S50x586_0_26544 : ∀ a, (![0, 26544] : Fin 2 → Nat) a + S50x586.size a ≤ S50x28749.size a
  h_S50x586 : 0 < S50x586.numel
  shapeCasts_S50x586_S50x586 : S50x586.ShapeCasts S50x586
  inb_S22x50_S1x50_18_0 : ∀ a, (![18, 0] : Fin 2 → Nat) a + S1x50.size a ≤ S22x50.size a
  slices_S64x57498_o0_27130_S64x644 : S64x57498.Slices ![0, 27130] S64x644
  slices_S64x57498_o0_55879_S64x644 : S64x57498.Slices ![0, 55879] S64x644
  concatenates_S64x644_S64x644_S128x644_d0 : Shape.Concatenates [S64x644, S64x644] S128x644 0
  inb_S50x28749_S50x644_0_27130 : ∀ a, (![0, 27130] : Fin 2 → Nat) a + S50x644.size a ≤ S50x28749.size a
  h_S50x644 : 0 < S50x644.numel
  shapeCasts_S50x644_S50x644 : S50x644.ShapeCasts S50x644
  inb_S22x50_S1x50_19_0 : ∀ a, (![19, 0] : Fin 2 → Nat) a + S1x50.size a ≤ S22x50.size a
  slices_S64x57498_o0_27774_S64x467 : S64x57498.Slices ![0, 27774] S64x467
  slices_S64x57498_o0_56523_S64x467 : S64x57498.Slices ![0, 56523] S64x467
  concatenates_S64x467_S64x467_S128x467_d0 : Shape.Concatenates [S64x467, S64x467] S128x467 0
  inb_S50x28749_S50x467_0_27774 : ∀ a, (![0, 27774] : Fin 2 → Nat) a + S50x467.size a ≤ S50x28749.size a
  h_S50x467 : 0 < S50x467.numel
  shapeCasts_S50x467_S50x467 : S50x467.ShapeCasts S50x467
  inb_S22x50_S1x50_20_0 : ∀ a, (![20, 0] : Fin 2 → Nat) a + S1x50.size a ≤ S22x50.size a
  slices_S64x57498_o0_28241_S64x508 : S64x57498.Slices ![0, 28241] S64x508
  slices_S64x57498_o0_56990_S64x508 : S64x57498.Slices ![0, 56990] S64x508
  concatenates_S64x508_S64x508_S128x508_d0 : Shape.Concatenates [S64x508, S64x508] S128x508 0
  inb_S50x28749_S50x508_0_28241 : ∀ a, (![0, 28241] : Fin 2 → Nat) a + S50x508.size a ≤ S50x28749.size a
  h_S50x508 : 0 < S50x508.numel
  shapeCasts_S50x508_S50x508 : S50x508.ShapeCasts S50x508
  inb_S22x50_S1x50_21_0 : ∀ a, (![21, 0] : Fin 2 → Nat) a + S1x50.size a ≤ S22x50.size a
  concatenates_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x50_S64x2200_d1 : Shape.Concatenates (S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: S64x50 :: []) S64x2200 1
  inb_S2200x2200_S2200x2200_0_0 : ∀ a, (![0, 0] : Fin 2 → Nat) a + S2200x2200.size a ≤ S2200x2200.size a
  h_S2200x2200 : 0 < S2200x2200.numel
  shapeCasts_S2200x2200_S2200x2200 : S2200x2200.ShapeCasts S2200x2200
  inb_S2200_S2200_0 : ∀ a, (![0] : Fin 1 → Nat) a + S2200.size a ≤ S2200.size a
  h_S2200 : 0 < S2200.numel
  shapeCasts_S2200_S1x2200 : S2200.ShapeCasts S1x2200
  broadcasts_S1x2200_S64x2200 : S1x2200.Broadcasts S64x2200
  inb_S1000x2200_S1000x2200_0_0 : ∀ a, (![0, 0] : Fin 2 → Nat) a + S1000x2200.size a ≤ S1000x2200.size a
  h_S1000x2200 : 0 < S1000x2200.numel
  shapeCasts_S1000x2200_S1000x2200 : S1000x2200.ShapeCasts S1000x2200
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S64x1000 : S1x1000.Broadcasts S64x1000
  inb_S50x1000_S50x1000_0_0 : ∀ a, (![0, 0] : Fin 2 → Nat) a + S50x1000.size a ≤ S50x1000.size a
  h_S50x1000 : 0 < S50x1000.numel
  shapeCasts_S50x1000_S50x1000 : S50x1000.ShapeCasts S50x1000
  inb_S50_S50_0 : ∀ a, (![0] : Fin 1 → Nat) a + S50.size a ≤ S50.size a
  h_S50 : 0 < S50.numel
  broadcasts_S1x50_S64x50 : S1x50.Broadcasts S64x50
  inb_S13x50_S13x50_0_0 : ∀ a, (![0, 0] : Fin 2 → Nat) a + S13x50.size a ≤ S13x50.size a
  h_S13x50 : 0 < S13x50.numel
  shapeCasts_S13x50_S13x50 : S13x50.ShapeCasts S13x50
  inb_S13_S13_0 : ∀ a, (![0] : Fin 1 → Nat) a + S13.size a ≤ S13.size a
  h_S13 : 0 < S13.numel
  shapeCasts_S13_S1x13 : S13.ShapeCasts S1x13
  broadcasts_S1x13_S64x13 : S1x13.Broadcasts S64x13
  inb_S64x13_S64x13_0_0 : ∀ a, (![0, 0] : Fin 2 → Nat) a + S64x13.size a ≤ S64x13.size a
  h_S64x13 : 0 < S64x13.numel
  dot_S128x2490_S50x2490_S128x50_1_1_0_0_n_n_wf : DotDims.WF S128x2490 S50x2490 S128x50 [1] [1] [0] [0] [] []
  dot_S128x2422_S50x2422_S128x50_1_1_0_0_n_n_wf : DotDims.WF S128x2422 S50x2422 S128x50 [1] [1] [0] [0] [] []
  dot_S128x1983_S50x1983_S128x50_1_1_0_0_n_n_wf : DotDims.WF S128x1983 S50x1983 S128x50 [1] [1] [0] [0] [] []
  dot_S128x1902_S50x1902_S128x50_1_1_0_0_n_n_wf : DotDims.WF S128x1902 S50x1902 S128x50 [1] [1] [0] [0] [] []
  dot_S128x1815_S50x1815_S128x50_1_1_0_0_n_n_wf : DotDims.WF S128x1815 S50x1815 S128x50 [1] [1] [0] [0] [] []
  dot_S128x1708_S50x1708_S128x50_1_1_0_0_n_n_wf : DotDims.WF S128x1708 S50x1708 S128x50 [1] [1] [0] [0] [] []
  dot_S128x1593_S50x1593_S128x50_1_1_0_0_n_n_wf : DotDims.WF S128x1593 S50x1593 S128x50 [1] [1] [0] [0] [] []
  dot_S128x1451_S50x1451_S128x50_1_1_0_0_n_n_wf : DotDims.WF S128x1451 S50x1451 S128x50 [1] [1] [0] [0] [] []
  dot_S128x1384_S50x1384_S128x50_1_1_0_0_n_n_wf : DotDims.WF S128x1384 S50x1384 S128x50 [1] [1] [0] [0] [] []
  dot_S128x1338_S50x1338_S128x50_1_1_0_0_n_n_wf : DotDims.WF S128x1338 S50x1338 S128x50 [1] [1] [0] [0] [] []
  dot_S128x1351_S50x1351_S128x50_1_1_0_0_n_n_wf : DotDims.WF S128x1351 S50x1351 S128x50 [1] [1] [0] [0] [] []
  dot_S128x1333_S50x1333_S128x50_1_1_0_0_n_n_wf : DotDims.WF S128x1333 S50x1333 S128x50 [1] [1] [0] [0] [] []
  dot_S128x1144_S50x1144_S128x50_1_1_0_0_n_n_wf : DotDims.WF S128x1144 S50x1144 S128x50 [1] [1] [0] [0] [] []
  dot_S128x1070_S50x1070_S128x50_1_1_0_0_n_n_wf : DotDims.WF S128x1070 S50x1070 S128x50 [1] [1] [0] [0] [] []
  dot_S128x1020_S50x1020_S128x50_1_1_0_0_n_n_wf : DotDims.WF S128x1020 S50x1020 S128x50 [1] [1] [0] [0] [] []
  dot_S128x903_S50x903_S128x50_1_1_0_0_n_n_wf : DotDims.WF S128x903 S50x903 S128x50 [1] [1] [0] [0] [] []
  dot_S128x833_S50x833_S128x50_1_1_0_0_n_n_wf : DotDims.WF S128x833 S50x833 S128x50 [1] [1] [0] [0] [] []
  dot_S128x804_S50x804_S128x50_1_1_0_0_n_n_wf : DotDims.WF S128x804 S50x804 S128x50 [1] [1] [0] [0] [] []
  dot_S128x586_S50x586_S128x50_1_1_0_0_n_n_wf : DotDims.WF S128x586 S50x586 S128x50 [1] [1] [0] [0] [] []
  dot_S128x644_S50x644_S128x50_1_1_0_0_n_n_wf : DotDims.WF S128x644 S50x644 S128x50 [1] [1] [0] [0] [] []
  dot_S128x467_S50x467_S128x50_1_1_0_0_n_n_wf : DotDims.WF S128x467 S50x467 S128x50 [1] [1] [0] [0] [] []
  dot_S128x508_S50x508_S128x50_1_1_0_0_n_n_wf : DotDims.WF S128x508 S50x508 S128x50 [1] [1] [0] [0] [] []
  dot_S64x2200_S2200x2200_S64x2200_1_1_0_0_n_n_wf : DotDims.WF S64x2200 S2200x2200 S64x2200 [1] [1] [0] [0] [] []
  dot_S64x2200_S1000x2200_S64x1000_1_1_0_0_n_n_wf : DotDims.WF S64x2200 S1000x2200 S64x1000 [1] [1] [0] [0] [] []
  dot_S64x1000_S50x1000_S64x50_1_1_0_0_n_n_wf : DotDims.WF S64x1000 S50x1000 S64x50 [1] [1] [0] [0] [] []
  dot_S64x50_S13x50_S64x13_1_1_0_0_n_n_wf : DotDims.WF S64x50 S13x50 S64x13 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x57498.size a ≤ S2048x57498.size a
  hwx0_0 : ∀ i : grid0.Coords, EltTy.bits .f32 = 32 ∨ (Rect.block (s := S2048x57498) S64x57498.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x28749.size a ≤ S50x28749.size a
  hwx0_1 : ∀ i : grid0.Coords, EltTy.bits .bf16 = 32 ∨ (Rect.block (s := S50x28749) S50x28749.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S22x50.size a ≤ S22x50.size a
  hwx0_2 : ∀ i : grid0.Coords, EltTy.bits .f32 = 32 ∨ (Rect.block (s := S22x50) S22x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2200x2200.size a ≤ S2200x2200.size a
  hwx0_3 : ∀ i : grid0.Coords, EltTy.bits .bf16 = 32 ∨ (Rect.block (s := S2200x2200) S2200x2200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2200.size a ≤ S2200.size a
  hwx0_4 : ∀ i : grid0.Coords, EltTy.bits .f32 = 32 ∨ (Rect.block (s := S2200) S2200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000x2200.size a ≤ S1000x2200.size a
  hwx0_5 : ∀ i : grid0.Coords, EltTy.bits .bf16 = 32 ∨ (Rect.block (s := S1000x2200) S1000x2200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1000.size a ≤ S1000.size a
  hwx0_6 : ∀ i : grid0.Coords, EltTy.bits .f32 = 32 ∨ (Rect.block (s := S1000) S1000.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x1000.size a ≤ S50x1000.size a
  hwx0_7 : ∀ i : grid0.Coords, EltTy.bits .bf16 = 32 ∨ (Rect.block (s := S50x1000) S50x1000.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50.size a ≤ S50.size a
  hwx0_8 : ∀ i : grid0.Coords, EltTy.bits .f32 = 32 ∨ (Rect.block (s := S50) S50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S13x50.size a ≤ S13x50.size a
  hwx0_9 : ∀ i : grid0.Coords, EltTy.bits .bf16 = 32 ∨ (Rect.block (s := S13x50) S13x50.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S13.size a ≤ S13.size a
  hwx0_10 : ∀ i : grid0.Coords, EltTy.bits .f32 = 32 ∨ (Rect.block (s := S13) S13.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x13.size a ≤ S2048x13.size a
  hwx0_11 : ∀ i : grid0.Coords, EltTy.bits .f32 = 32 ∨ (Rect.block (s := S2048x13) S64x13.size (cc0_transform_11 i) (hinb0_11 i)).WholeWords (EltTy.packing .f32)

variable [Facts₀]

def dot_S128x2490_S50x2490_S128x50_1_1_0_0_n_n : DotDims S128x2490 S50x2490 S128x50 where
  lhsContracting := [1]
  rhsContracting := [1]
  lhsNonContracting := [0]
  rhsNonContracting := [0]
  lhsBatch := []
  rhsBatch := []
  wf := dot_S128x2490_S50x2490_S128x50_1_1_0_0_n_n_wf
def dot_S128x2422_S50x2422_S128x50_1_1_0_0_n_n : DotDims S128x2422 S50x2422 S128x50 where
  lhsContracting := [1]
  rhsContracting := [1]
  lhsNonContracting := [0]
  rhsNonContracting := [0]
  lhsBatch := []
  rhsBatch := []
  wf := dot_S128x2422_S50x2422_S128x50_1_1_0_0_n_n_wf
def dot_S128x1983_S50x1983_S128x50_1_1_0_0_n_n : DotDims S128x1983 S50x1983 S128x50 where
  lhsContracting := [1]
  rhsContracting := [1]
  lhsNonContracting := [0]
  rhsNonContracting := [0]
  lhsBatch := []
  rhsBatch := []
  wf := dot_S128x1983_S50x1983_S128x50_1_1_0_0_n_n_wf
def dot_S128x1902_S50x1902_S128x50_1_1_0_0_n_n : DotDims S128x1902 S50x1902 S128x50 where
  lhsContracting := [1]
  rhsContracting := [1]
  lhsNonContracting := [0]
  rhsNonContracting := [0]
  lhsBatch := []
  rhsBatch := []
  wf := dot_S128x1902_S50x1902_S128x50_1_1_0_0_n_n_wf
def dot_S128x1815_S50x1815_S128x50_1_1_0_0_n_n : DotDims S128x1815 S50x1815 S128x50 where
  lhsContracting := [1]
  rhsContracting := [1]
  lhsNonContracting := [0]
  rhsNonContracting := [0]
  lhsBatch := []
  rhsBatch := []
  wf := dot_S128x1815_S50x1815_S128x50_1_1_0_0_n_n_wf
def dot_S128x1708_S50x1708_S128x50_1_1_0_0_n_n : DotDims S128x1708 S50x1708 S128x50 where
  lhsContracting := [1]
  rhsContracting := [1]
  lhsNonContracting := [0]
  rhsNonContracting := [0]
  lhsBatch := []
  rhsBatch := []
  wf := dot_S128x1708_S50x1708_S128x50_1_1_0_0_n_n_wf
def dot_S128x1593_S50x1593_S128x50_1_1_0_0_n_n : DotDims S128x1593 S50x1593 S128x50 where
  lhsContracting := [1]
  rhsContracting := [1]
  lhsNonContracting := [0]
  rhsNonContracting := [0]
  lhsBatch := []
  rhsBatch := []
  wf := dot_S128x1593_S50x1593_S128x50_1_1_0_0_n_n_wf
def dot_S128x1451_S50x1451_S128x50_1_1_0_0_n_n : DotDims S128x1451 S50x1451 S128x50 where
  lhsContracting := [1]
  rhsContracting := [1]
  lhsNonContracting := [0]
  rhsNonContracting := [0]
  lhsBatch := []
  rhsBatch := []
  wf := dot_S128x1451_S50x1451_S128x50_1_1_0_0_n_n_wf
def dot_S128x1384_S50x1384_S128x50_1_1_0_0_n_n : DotDims S128x1384 S50x1384 S128x50 where
  lhsContracting := [1]
  rhsContracting := [1]
  lhsNonContracting := [0]
  rhsNonContracting := [0]
  lhsBatch := []
  rhsBatch := []
  wf := dot_S128x1384_S50x1384_S128x50_1_1_0_0_n_n_wf
def dot_S128x1338_S50x1338_S128x50_1_1_0_0_n_n : DotDims S128x1338 S50x1338 S128x50 where
  lhsContracting := [1]
  rhsContracting := [1]
  lhsNonContracting := [0]
  rhsNonContracting := [0]
  lhsBatch := []
  rhsBatch := []
  wf := dot_S128x1338_S50x1338_S128x50_1_1_0_0_n_n_wf
def dot_S128x1351_S50x1351_S128x50_1_1_0_0_n_n : DotDims S128x1351 S50x1351 S128x50 where
  lhsContracting := [1]
  rhsContracting := [1]
  lhsNonContracting := [0]
  rhsNonContracting := [0]
  lhsBatch := []
  rhsBatch := []
  wf := dot_S128x1351_S50x1351_S128x50_1_1_0_0_n_n_wf
def dot_S128x1333_S50x1333_S128x50_1_1_0_0_n_n : DotDims S128x1333 S50x1333 S128x50 where
  lhsContracting := [1]
  rhsContracting := [1]
  lhsNonContracting := [0]
  rhsNonContracting := [0]
  lhsBatch := []
  rhsBatch := []
  wf := dot_S128x1333_S50x1333_S128x50_1_1_0_0_n_n_wf
def dot_S128x1144_S50x1144_S128x50_1_1_0_0_n_n : DotDims S128x1144 S50x1144 S128x50 where
  lhsContracting := [1]
  rhsContracting := [1]
  lhsNonContracting := [0]
  rhsNonContracting := [0]
  lhsBatch := []
  rhsBatch := []
  wf := dot_S128x1144_S50x1144_S128x50_1_1_0_0_n_n_wf
def dot_S128x1070_S50x1070_S128x50_1_1_0_0_n_n : DotDims S128x1070 S50x1070 S128x50 where
  lhsContracting := [1]
  rhsContracting := [1]
  lhsNonContracting := [0]
  rhsNonContracting := [0]
  lhsBatch := []
  rhsBatch := []
  wf := dot_S128x1070_S50x1070_S128x50_1_1_0_0_n_n_wf
def dot_S128x1020_S50x1020_S128x50_1_1_0_0_n_n : DotDims S128x1020 S50x1020 S128x50 where
  lhsContracting := [1]
  rhsContracting := [1]
  lhsNonContracting := [0]
  rhsNonContracting := [0]
  lhsBatch := []
  rhsBatch := []
  wf := dot_S128x1020_S50x1020_S128x50_1_1_0_0_n_n_wf
def dot_S128x903_S50x903_S128x50_1_1_0_0_n_n : DotDims S128x903 S50x903 S128x50 where
  lhsContracting := [1]
  rhsContracting := [1]
  lhsNonContracting := [0]
  rhsNonContracting := [0]
  lhsBatch := []
  rhsBatch := []
  wf := dot_S128x903_S50x903_S128x50_1_1_0_0_n_n_wf
def dot_S128x833_S50x833_S128x50_1_1_0_0_n_n : DotDims S128x833 S50x833 S128x50 where
  lhsContracting := [1]
  rhsContracting := [1]
  lhsNonContracting := [0]
  rhsNonContracting := [0]
  lhsBatch := []
  rhsBatch := []
  wf := dot_S128x833_S50x833_S128x50_1_1_0_0_n_n_wf
def dot_S128x804_S50x804_S128x50_1_1_0_0_n_n : DotDims S128x804 S50x804 S128x50 where
  lhsContracting := [1]
  rhsContracting := [1]
  lhsNonContracting := [0]
  rhsNonContracting := [0]
  lhsBatch := []
  rhsBatch := []
  wf := dot_S128x804_S50x804_S128x50_1_1_0_0_n_n_wf
def dot_S128x586_S50x586_S128x50_1_1_0_0_n_n : DotDims S128x586 S50x586 S128x50 where
  lhsContracting := [1]
  rhsContracting := [1]
  lhsNonContracting := [0]
  rhsNonContracting := [0]
  lhsBatch := []
  rhsBatch := []
  wf := dot_S128x586_S50x586_S128x50_1_1_0_0_n_n_wf
def dot_S128x644_S50x644_S128x50_1_1_0_0_n_n : DotDims S128x644 S50x644 S128x50 where
  lhsContracting := [1]
  rhsContracting := [1]
  lhsNonContracting := [0]
  rhsNonContracting := [0]
  lhsBatch := []
  rhsBatch := []
  wf := dot_S128x644_S50x644_S128x50_1_1_0_0_n_n_wf
def dot_S128x467_S50x467_S128x50_1_1_0_0_n_n : DotDims S128x467 S50x467 S128x50 where
  lhsContracting := [1]
  rhsContracting := [1]
  lhsNonContracting := [0]
  rhsNonContracting := [0]
  lhsBatch := []
  rhsBatch := []
  wf := dot_S128x467_S50x467_S128x50_1_1_0_0_n_n_wf
def dot_S128x508_S50x508_S128x50_1_1_0_0_n_n : DotDims S128x508 S50x508 S128x50 where
  lhsContracting := [1]
  rhsContracting := [1]
  lhsNonContracting := [0]
  rhsNonContracting := [0]
  lhsBatch := []
  rhsBatch := []
  wf := dot_S128x508_S50x508_S128x50_1_1_0_0_n_n_wf
def dot_S64x2200_S2200x2200_S64x2200_1_1_0_0_n_n : DotDims S64x2200 S2200x2200 S64x2200 where
  lhsContracting := [1]
  rhsContracting := [1]
  lhsNonContracting := [0]
  rhsNonContracting := [0]
  lhsBatch := []
  rhsBatch := []
  wf := dot_S64x2200_S2200x2200_S64x2200_1_1_0_0_n_n_wf
def dot_S64x2200_S1000x2200_S64x1000_1_1_0_0_n_n : DotDims S64x2200 S1000x2200 S64x1000 where
  lhsContracting := [1]
  rhsContracting := [1]
  lhsNonContracting := [0]
  rhsNonContracting := [0]
  lhsBatch := []
  rhsBatch := []
  wf := dot_S64x2200_S1000x2200_S64x1000_1_1_0_0_n_n_wf
def dot_S64x1000_S50x1000_S64x50_1_1_0_0_n_n : DotDims S64x1000 S50x1000 S64x50 where
  lhsContracting := [1]
  rhsContracting := [1]
  lhsNonContracting := [0]
  rhsNonContracting := [0]
  lhsBatch := []
  rhsBatch := []
  wf := dot_S64x1000_S50x1000_S64x50_1_1_0_0_n_n_wf
def dot_S64x50_S13x50_S64x13_1_1_0_0_n_n : DotDims S64x50 S13x50 S64x13 where
  lhsContracting := [1]
  rhsContracting := [1]
  lhsNonContracting := [0]
  rhsNonContracting := [0]
  lhsBatch := []
  rhsBatch := []
  wf := dot_S64x50_S13x50_S64x13_1_1_0_0_n_n_wf

abbrev win0_0 : Pipeline.Window sig grid0 :=
  Pipeline.Window.ofSpec (Memref.whole main_v0) S64x57498.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50x28749.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S22x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2200x2200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1000x2200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S50x1000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S13x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S13.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S64x13.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2048x2x28749 : Shape := ⟨3, ![2048, 2, 28749]⟩
abbrev S50x28749 : Shape := ⟨2, ![50, 28749]⟩
abbrev S22x50 : Shape := ⟨2, ![22, 50]⟩
abbrev S2200x2200 : Shape := ⟨2, ![2200, 2200]⟩
abbrev S2200 : Shape := ⟨1, ![2200]⟩
abbrev S1000x2200 : Shape := ⟨2, ![1000, 2200]⟩
abbrev S1000 : Shape := ⟨1, ![1000]⟩
abbrev S50x1000 : Shape := ⟨2, ![50, 1000]⟩
abbrev S50 : Shape := ⟨1, ![50]⟩
abbrev S13x50 : Shape := ⟨2, ![13, 50]⟩
abbrev S13 : Shape := ⟨1, ![13]⟩
abbrev S2048x2x2490 : Shape := ⟨3, ![2048, 2, 2490]⟩
abbrev S50x2490 : Shape := ⟨2, ![50, 2490]⟩
abbrev S2048x2x50 : Shape := ⟨3, ![2048, 2, 50]⟩
abbrev S1x50 : Shape := ⟨2, ![1, 50]⟩
abbrev S1x1x50 : Shape := ⟨3, ![1, 1, 50]⟩
abbrev S2048x100 : Shape := ⟨2, ![2048, 100]⟩
abbrev S2048x2x2422 : Shape := ⟨3, ![2048, 2, 2422]⟩
abbrev S50x2422 : Shape := ⟨2, ![50, 2422]⟩
abbrev S2048x2x1983 : Shape := ⟨3, ![2048, 2, 1983]⟩
abbrev S50x1983 : Shape := ⟨2, ![50, 1983]⟩
abbrev S2048x2x1902 : Shape := ⟨3, ![2048, 2, 1902]⟩
abbrev S50x1902 : Shape := ⟨2, ![50, 1902]⟩
abbrev S2048x2x1815 : Shape := ⟨3, ![2048, 2, 1815]⟩
abbrev S50x1815 : Shape := ⟨2, ![50, 1815]⟩
abbrev S2048x2x1708 : Shape := ⟨3, ![2048, 2, 1708]⟩
abbrev S50x1708 : Shape := ⟨2, ![50, 1708]⟩
abbrev S2048x2x1593 : Shape := ⟨3, ![2048, 2, 1593]⟩
abbrev S50x1593 : Shape := ⟨2, ![50, 1593]⟩
abbrev S2048x2x1451 : Shape := ⟨3, ![2048, 2, 1451]⟩
abbrev S50x1451 : Shape := ⟨2, ![50, 1451]⟩
abbrev S2048x2x1384 : Shape := ⟨3, ![2048, 2, 1384]⟩
abbrev S50x1384 : Shape := ⟨2, ![50, 1384]⟩
abbrev S2048x2x1338 : Shape := ⟨3, ![2048, 2, 1338]⟩
abbrev S50x1338 : Shape := ⟨2, ![50, 1338]⟩
abbrev S2048x2x1351 : Shape := ⟨3, ![2048, 2, 1351]⟩
abbrev S50x1351 : Shape := ⟨2, ![50, 1351]⟩
abbrev S2048x2x1333 : Shape := ⟨3, ![2048, 2, 1333]⟩
abbrev S50x1333 : Shape := ⟨2, ![50, 1333]⟩
abbrev S2048x2x1144 : Shape := ⟨3, ![2048, 2, 1144]⟩
abbrev S50x1144 : Shape := ⟨2, ![50, 1144]⟩
abbrev S2048x2x1070 : Shape := ⟨3, ![2048, 2, 1070]⟩
abbrev S50x1070 : Shape := ⟨2, ![50, 1070]⟩
abbrev S2048x2x1020 : Shape := ⟨3, ![2048, 2, 1020]⟩
abbrev S50x1020 : Shape := ⟨2, ![50, 1020]⟩
abbrev S2048x2x903 : Shape := ⟨3, ![2048, 2, 903]⟩
abbrev S50x903 : Shape := ⟨2, ![50, 903]⟩
abbrev S2048x2x833 : Shape := ⟨3, ![2048, 2, 833]⟩
abbrev S50x833 : Shape := ⟨2, ![50, 833]⟩
abbrev S2048x2x804 : Shape := ⟨3, ![2048, 2, 804]⟩
abbrev S50x804 : Shape := ⟨2, ![50, 804]⟩
abbrev S2048x2x586 : Shape := ⟨3, ![2048, 2, 586]⟩
abbrev S50x586 : Shape := ⟨2, ![50, 586]⟩
abbrev S2048x2x644 : Shape := ⟨3, ![2048, 2, 644]⟩
abbrev S50x644 : Shape := ⟨2, ![50, 644]⟩
abbrev S2048x2x467 : Shape := ⟨3, ![2048, 2, 467]⟩
abbrev S50x467 : Shape := ⟨2, ![50, 467]⟩
abbrev S2048x2x508 : Shape := ⟨3, ![2048, 2, 508]⟩
abbrev S50x508 : Shape := ⟨2, ![50, 508]⟩
abbrev S2048x1600 : Shape := ⟨2, ![2048, 1600]⟩
abbrev S2048x600 : Shape := ⟨2, ![2048, 600]⟩
abbrev S2048x2200 : Shape := ⟨2, ![2048, 2200]⟩
abbrev S1x2200 : Shape := ⟨2, ![1, 2200]⟩
abbrev S2200x1000 : Shape := ⟨2, ![2200, 1000]⟩
abbrev S2048x1000 : Shape := ⟨2, ![2048, 1000]⟩
abbrev S1x1000 : Shape := ⟨2, ![1, 1000]⟩
abbrev S_ : Shape := ⟨0, ![]⟩
abbrev S1000x50 : Shape := ⟨2, ![1000, 50]⟩
abbrev S2048x50 : Shape := ⟨2, ![2048, 50]⟩
abbrev S50x13 : Shape := ⟨2, ![50, 13]⟩
abbrev S2048x13 : Shape := ⟨2, ![2048, 13]⟩
abbrev S1x13 : Shape := ⟨2, ![1, 13]⟩

abbrev nBuf : Space → Nat
  | .hbm => 248
  | .vmem => 0
  | .smem => 0
  | _ => 0

abbrev hbmTy0_0 (i : Nat) : BufTy := match i % 128 with
  | 0 => ⟨S2048x2x28749, .f32⟩
  | 1 => ⟨S50x28749, .f32⟩
  | 2 => ⟨S22x50, .f32⟩
  | 3 => ⟨S2200x2200, .f32⟩
  | 4 => ⟨S2200, .f32⟩
  | 5 => ⟨S1000x2200, .f32⟩
  | 6 => ⟨S1000, .f32⟩
  | 7 => ⟨S50x1000, .f32⟩
  | 8 => ⟨S50, .f32⟩
  | 9 => ⟨S13x50, .f32⟩
  | 10 => ⟨S13, .f32⟩
  | 11 => ⟨S2048x2x2490, .f32⟩
  | 12 => ⟨S50x2490, .f32⟩
  | 13 => ⟨S2048x2x50, .f32⟩
  | 14 => ⟨S1x50, .f32⟩
  | 15 => ⟨S50, .f32⟩
  | 16 => ⟨S1x1x50, .f32⟩
  | 17 => ⟨S2048x2x50, .f32⟩
  | 18 => ⟨S2048x2x50, .f32⟩
  | 19 => ⟨S2048x100, .f32⟩
  | 20 => ⟨S2048x2x2422, .f32⟩
  | 21 => ⟨S50x2422, .f32⟩
  | 22 => ⟨S2048x2x50, .f32⟩
  | 23 => ⟨S1x50, .f32⟩
  | 24 => ⟨S50, .f32⟩
  | 25 => ⟨S1x1x50, .f32⟩
  | 26 => ⟨S2048x2x50, .f32⟩
  | 27 => ⟨S2048x2x50, .f32⟩
  | 28 => ⟨S2048x100, .f32⟩
  | 29 => ⟨S2048x2x1983, .f32⟩
  | 30 => ⟨S50x1983, .f32⟩
  | 31 => ⟨S2048x2x50, .f32⟩
  | 32 => ⟨S1x50, .f32⟩
  | 33 => ⟨S50, .f32⟩
  | 34 => ⟨S1x1x50, .f32⟩
  | 35 => ⟨S2048x2x50, .f32⟩
  | 36 => ⟨S2048x2x50, .f32⟩
  | 37 => ⟨S2048x100, .f32⟩
  | 38 => ⟨S2048x2x1902, .f32⟩
  | 39 => ⟨S50x1902, .f32⟩
  | 40 => ⟨S2048x2x50, .f32⟩
  | 41 => ⟨S1x50, .f32⟩
  | 42 => ⟨S50, .f32⟩
  | 43 => ⟨S1x1x50, .f32⟩
  | 44 => ⟨S2048x2x50, .f32⟩
  | 45 => ⟨S2048x2x50, .f32⟩
  | 46 => ⟨S2048x100, .f32⟩
  | 47 => ⟨S2048x2x1815, .f32⟩
  | 48 => ⟨S50x1815, .f32⟩
  | 49 => ⟨S2048x2x50, .f32⟩
  | 50 => ⟨S1x50, .f32⟩
  | 51 => ⟨S50, .f32⟩
  | 52 => ⟨S1x1x50, .f32⟩
  | 53 => ⟨S2048x2x50, .f32⟩
  | 54 => ⟨S2048x2x50, .f32⟩
  | 55 => ⟨S2048x100, .f32⟩
  | 56 => ⟨S2048x2x1708, .f32⟩
  | 57 => ⟨S50x1708, .f32⟩
  | 58 => ⟨S2048x2x50, .f32⟩
  | 59 => ⟨S1x50, .f32⟩
  | 60 => ⟨S50, .f32⟩
  | 61 => ⟨S1x1x50, .f32⟩
  | 62 => ⟨S2048x2x50, .f32⟩
  | 63 => ⟨S2048x2x50, .f32⟩
  | 64 => ⟨S2048x100, .f32⟩
  | 65 => ⟨S2048x2x1593, .f32⟩
  | 66 => ⟨S50x1593, .f32⟩
  | 67 => ⟨S2048x2x50, .f32⟩
  | 68 => ⟨S1x50, .f32⟩
  | 69 => ⟨S50, .f32⟩
  | 70 => ⟨S1x1x50, .f32⟩
  | 71 => ⟨S2048x2x50, .f32⟩
  | 72 => ⟨S2048x2x50, .f32⟩
  | 73 => ⟨S2048x100, .f32⟩
  | 74 => ⟨S2048x2x1451, .f32⟩
  | 75 => ⟨S50x1451, .f32⟩
  | 76 => ⟨S2048x2x50, .f32⟩
  | 77 => ⟨S1x50, .f32⟩
  | 78 => ⟨S50, .f32⟩
  | 79 => ⟨S1x1x50, .f32⟩
  | 80 => ⟨S2048x2x50, .f32⟩
  | 81 => ⟨S2048x2x50, .f32⟩
  | 82 => ⟨S2048x100, .f32⟩
  | 83 => ⟨S2048x2x1384, .f32⟩
  | 84 => ⟨S50x1384, .f32⟩
  | 85 => ⟨S2048x2x50, .f32⟩
  | 86 => ⟨S1x50, .f32⟩
  | 87 => ⟨S50, .f32⟩
  | 88 => ⟨S1x1x50, .f32⟩
  | 89 => ⟨S2048x2x50, .f32⟩
  | 90 => ⟨S2048x2x50, .f32⟩
  | 91 => ⟨S2048x100, .f32⟩
  | 92 => ⟨S2048x2x1338, .f32⟩
  | 93 => ⟨S50x1338, .f32⟩
  | 94 => ⟨S2048x2x50, .f32⟩
  | 95 => ⟨S1x50, .f32⟩
  | 96 => ⟨S50, .f32⟩
  | 97 => ⟨S1x1x50, .f32⟩
  | 98 => ⟨S2048x2x50, .f32⟩
  | 99 => ⟨S2048x2x50, .f32⟩
  | 100 => ⟨S2048x100, .f32⟩
  | 101 => ⟨S2048x2x1351, .f32⟩
  | 102 => ⟨S50x1351, .f32⟩
  | 103 => ⟨S2048x2x50, .f32⟩
  | 104 => ⟨S1x50, .f32⟩
  | 105 => ⟨S50, .f32⟩
  | 106 => ⟨S1x1x50, .f32⟩
  | 107 => ⟨S2048x2x50, .f32⟩
  | 108 => ⟨S2048x2x50, .f32⟩
  | 109 => ⟨S2048x100, .f32⟩
  | 110 => ⟨S2048x2x1333, .f32⟩
  | 111 => ⟨S50x1333, .f32⟩
  | 112 => ⟨S2048x2x50, .f32⟩
  | 113 => ⟨S1x50, .f32⟩
  | 114 => ⟨S50, .f32⟩
  | 115 => ⟨S1x1x50, .f32⟩
  | 116 => ⟨S2048x2x50, .f32⟩
  | 117 => ⟨S2048x2x50, .f32⟩
  | 118 => ⟨S2048x100, .f32⟩
  | 119 => ⟨S2048x2x1144, .f32⟩
  | 120 => ⟨S50x1144, .f32⟩
  | 121 => ⟨S2048x2x50, .f32⟩
  | 122 => ⟨S1x50, .f32⟩
  | 123 => ⟨S50, .f32⟩
  | 124 => ⟨S1x1x50, .f32⟩
  | 125 => ⟨S2048x2x50, .f32⟩
  | 126 => ⟨S2048x2x50, .f32⟩
  | 127 => ⟨S2048x100, .f32⟩
  | _ => ⟨S2048x2x28749, .f32⟩

abbrev hbmTy0_1 (i : Nat) : BufTy := match i % 128 with
  | 0 => ⟨S2048x2x1070, .f32⟩
  | 1 => ⟨S50x1070, .f32⟩
  | 2 => ⟨S2048x2x50, .f32⟩
  | 3 => ⟨S1x50, .f32⟩
  | 4 => ⟨S50, .f32⟩
  | 5 => ⟨S1x1x50, .f32⟩
  | 6 => ⟨S2048x2x50, .f32⟩
  | 7 => ⟨S2048x2x50, .f32⟩
  | 8 => ⟨S2048x100, .f32⟩
  | 9 => ⟨S2048x2x1020, .f32⟩
  | 10 => ⟨S50x1020, .f32⟩
  | 11 => ⟨S2048x2x50, .f32⟩
  | 12 => ⟨S1x50, .f32⟩
  | 13 => ⟨S50, .f32⟩
  | 14 => ⟨S1x1x50, .f32⟩
  | 15 => ⟨S2048x2x50, .f32⟩
  | 16 => ⟨S2048x2x50, .f32⟩
  | 17 => ⟨S2048x100, .f32⟩
  | 18 => ⟨S2048x2x903, .f32⟩
  | 19 => ⟨S50x903, .f32⟩
  | 20 => ⟨S2048x2x50, .f32⟩
  | 21 => ⟨S1x50, .f32⟩
  | 22 => ⟨S50, .f32⟩
  | 23 => ⟨S1x1x50, .f32⟩
  | 24 => ⟨S2048x2x50, .f32⟩
  | 25 => ⟨S2048x2x50, .f32⟩
  | 26 => ⟨S2048x100, .f32⟩
  | 27 => ⟨S2048x2x833, .f32⟩
  | 28 => ⟨S50x833, .f32⟩
  | 29 => ⟨S2048x2x50, .f32⟩
  | 30 => ⟨S1x50, .f32⟩
  | 31 => ⟨S50, .f32⟩
  | 32 => ⟨S1x1x50, .f32⟩
  | 33 => ⟨S2048x2x50, .f32⟩
  | 34 => ⟨S2048x2x50, .f32⟩
  | 35 => ⟨S2048x100, .f32⟩
  | 36 => ⟨S2048x2x804, .f32⟩
  | 37 => ⟨S50x804, .f32⟩
  | 38 => ⟨S2048x2x50, .f32⟩
  | 39 => ⟨S1x50, .f32⟩
  | 40 => ⟨S50, .f32⟩
  | 41 => ⟨S1x1x50, .f32⟩
  | 42 => ⟨S2048x2x50, .f32⟩
  | 43 => ⟨S2048x2x50, .f32⟩
  | 44 => ⟨S2048x100, .f32⟩
  | 45 => ⟨S2048x2x586, .f32⟩
  | 46 => ⟨S50x586, .f32⟩
  | 47 => ⟨S2048x2x50, .f32⟩
  | 48 => ⟨S1x50, .f32⟩
  | 49 => ⟨S50, .f32⟩
  | 50 => ⟨S1x1x50, .f32⟩
  | 51 => ⟨S2048x2x50, .f32⟩
  | 52 => ⟨S2048x2x50, .f32⟩
  | 53 => ⟨S2048x100, .f32⟩
  | 54 => ⟨S2048x2x644, .f32⟩
  | 55 => ⟨S50x644, .f32⟩
  | 56 => ⟨S2048x2x50, .f32⟩
  | 57 => ⟨S1x50, .f32⟩
  | 58 => ⟨S50, .f32⟩
  | 59 => ⟨S1x1x50, .f32⟩
  | 60 => ⟨S2048x2x50, .f32⟩
  | 61 => ⟨S2048x2x50, .f32⟩
  | 62 => ⟨S2048x100, .f32⟩
  | 63 => ⟨S2048x2x467, .f32⟩
  | 64 => ⟨S50x467, .f32⟩
  | 65 => ⟨S2048x2x50, .f32⟩
  | 66 => ⟨S1x50, .f32⟩
  | 67 => ⟨S50, .f32⟩
  | 68 => ⟨S1x1x50, .f32⟩
  | 69 => ⟨S2048x2x50, .f32⟩
  | 70 => ⟨S2048x2x50, .f32⟩
  | 71 => ⟨S2048x100, .f32⟩
  | 72 => ⟨S2048x2x508, .f32⟩
  | 73 => ⟨S50x508, .f32⟩
  | 74 => ⟨S2048x2x50, .f32⟩
  | 75 => ⟨S1x50, .f32⟩
  | 76 => ⟨S50, .f32⟩
  | 77 => ⟨S1x1x50, .f32⟩
  | 78 => ⟨S2048x2x50, .f32⟩
  | 79 => ⟨S2048x2x50, .f32⟩
  | 80 => ⟨S2048x100, .f32⟩
  | 81 => ⟨S2048x1600, .f32⟩
  | 82 => ⟨S2048x600, .f32⟩
  | 83 => ⟨S2048x2200, .f32⟩
  | 84 => ⟨S2200x2200, .f32⟩
  | 85 => ⟨S2048x2200, .f32⟩
  | 86 => ⟨S1x2200, .f32⟩
  | 87 => ⟨S2048x2200, .f32⟩
  | 88 => ⟨S2048x2200, .f32⟩
  | 89 => ⟨S2200x1000, .f32⟩
  | 90 => ⟨S2048x1000, .f32⟩
  | 91 => ⟨S1x1000, .f32⟩
  | 92 => ⟨S2048x1000, .f32⟩
  | 93 => ⟨S2048x1000, .f32⟩
  | 94 => ⟨S_, .f32⟩
  | 95 => ⟨S_, .f32⟩
  | 96 => ⟨S2048x1000, .f32⟩
  | 97 => ⟨S2048x1000, .i1⟩
  | 98 => ⟨S_, .f32⟩
  | 99 => ⟨S2048x1000, .f32⟩
  | 100 => ⟨S2048x1000, .f32⟩
  | 101 => ⟨S2048x1000, .f32⟩
  | 102 => ⟨S1000x50, .f32⟩
  | 103 => ⟨S2048x50, .f32⟩
  | 104 => ⟨S1x50, .f32⟩
  | 105 => ⟨S2048x50, .f32⟩
  | 106 => ⟨S2048x50, .f32⟩
  | 107 => ⟨S_, .f32⟩
  | 108 => ⟨S_, .f32⟩
  | 109 => ⟨S2048x50, .f32⟩
  | 110 => ⟨S2048x50, .i1⟩
  | 111 => ⟨S_, .f32⟩
  | 112 => ⟨S2048x50, .f32⟩
  | 113 => ⟨S2048x50, .f32⟩
  | 114 => ⟨S2048x50, .f32⟩
  | 115 => ⟨S50x13, .f32⟩
  | 116 => ⟨S2048x13, .f32⟩
  | 117 => ⟨S1x13, .f32⟩
  | 118 => ⟨S2048x13, .f32⟩
  | 119 => ⟨S2048x13, .f32⟩
  | _ => ⟨S2048x2x28749, .f32⟩

abbrev hbmTy (i : Nat) : BufTy := match i / 128 with
  | 0 => hbmTy0_0 i
  | 1 => hbmTy0_1 i
  | _ => ⟨S2048x2x28749, .f32⟩

abbrev bufTy : (tb : Table) → Fin (tcTables nBuf tb) → BufTy
  | .hbm, ⟨i, _⟩ => hbmTy i
  | _, _ => ⟨S2048x2x28749, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_cst : Ref sig .tc := ⟨.hbm, 222, rfl⟩
abbrev main_call0_cst : Ref sig .tc := ⟨.hbm, 223, rfl⟩
abbrev main_call0_v0 : Ref sig .tc := ⟨.hbm, 224, rfl⟩
abbrev main_call0_v1 : Ref sig .tc := ⟨.hbm, 225, rfl⟩
abbrev main_call0_v2 : Ref sig .tc := ⟨.hbm, 226, rfl⟩
abbrev main_call0_v3 : Ref sig .tc := ⟨.hbm, 227, rfl⟩
abbrev main_call0_v4 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_cst_0 : Ref sig .tc := ⟨.hbm, 235, rfl⟩
abbrev main_call1_cst : Ref sig .tc := ⟨.hbm, 236, rfl⟩
abbrev main_call1_v0 : Ref sig .tc := ⟨.hbm, 237, rfl⟩
abbrev main_call1_v1 : Ref sig .tc := ⟨.hbm, 238, rfl⟩
abbrev main_call1_v2 : Ref sig .tc := ⟨.hbm, 239, rfl⟩
abbrev main_call1_v3 : Ref sig .tc := ⟨.hbm, 240, rfl⟩
abbrev main_call1_v4 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩

abbrev nD : Nat := 1
abbrev τ : Topo := Topo.v7x

variable {F : FTy → Type} [FloatOps F]

class Facts₀ : Prop where
  slices_S2048x2x28749_S2048x2x2490_0_0_0 : S2048x2x28749.Slices ![0, 0, 0] S2048x2x2490
  slices_S50x28749_S50x2490_0_0 : S50x28749.Slices ![0, 0] S50x2490
  slices_S22x50_S1x50_0_0 : S22x50.Slices ![0, 0] S1x50
  shapeCasts_S1x50_S50 : S1x50.ShapeCasts S50
  bcast_S50_S1x1x50_2 : S50.BroadcastsInDim S1x1x50 (![2] : Fin 1 → Fin S1x1x50.rank)
  bcast_S1x1x50_S2048x2x50_0_1_2 : S1x1x50.BroadcastsInDim S2048x2x50 (![0, 1, 2] : Fin 3 → Fin S2048x2x50.rank)
  shapeCasts_S2048x2x50_S2048x100 : S2048x2x50.ShapeCasts S2048x100
  slices_S2048x2x28749_S2048x2x2422_0_0_2490 : S2048x2x28749.Slices ![0, 0, 2490] S2048x2x2422
  slices_S50x28749_S50x2422_0_2490 : S50x28749.Slices ![0, 2490] S50x2422
  slices_S22x50_S1x50_1_0 : S22x50.Slices ![1, 0] S1x50
  slices_S2048x2x28749_S2048x2x1983_0_0_4912 : S2048x2x28749.Slices ![0, 0, 4912] S2048x2x1983
  slices_S50x28749_S50x1983_0_4912 : S50x28749.Slices ![0, 4912] S50x1983
  slices_S22x50_S1x50_2_0 : S22x50.Slices ![2, 0] S1x50
  slices_S2048x2x28749_S2048x2x1902_0_0_6895 : S2048x2x28749.Slices ![0, 0, 6895] S2048x2x1902
  slices_S50x28749_S50x1902_0_6895 : S50x28749.Slices ![0, 6895] S50x1902
  slices_S22x50_S1x50_3_0 : S22x50.Slices ![3, 0] S1x50
  slices_S2048x2x28749_S2048x2x1815_0_0_8797 : S2048x2x28749.Slices ![0, 0, 8797] S2048x2x1815
  slices_S50x28749_S50x1815_0_8797 : S50x28749.Slices ![0, 8797] S50x1815
  slices_S22x50_S1x50_4_0 : S22x50.Slices ![4, 0] S1x50
  slices_S2048x2x28749_S2048x2x1708_0_0_10612 : S2048x2x28749.Slices ![0, 0, 10612] S2048x2x1708
  slices_S50x28749_S50x1708_0_10612 : S50x28749.Slices ![0, 10612] S50x1708
  slices_S22x50_S1x50_5_0 : S22x50.Slices ![5, 0] S1x50
  slices_S2048x2x28749_S2048x2x1593_0_0_12320 : S2048x2x28749.Slices ![0, 0, 12320] S2048x2x1593
  slices_S50x28749_S50x1593_0_12320 : S50x28749.Slices ![0, 12320] S50x1593
  slices_S22x50_S1x50_6_0 : S22x50.Slices ![6, 0] S1x50
  slices_S2048x2x28749_S2048x2x1451_0_0_13913 : S2048x2x28749.Slices ![0, 0, 13913] S2048x2x1451
  slices_S50x28749_S50x1451_0_13913 : S50x28749.Slices ![0, 13913] S50x1451
  slices_S22x50_S1x50_7_0 : S22x50.Slices ![7, 0] S1x50
  slices_S2048x2x28749_S2048x2x1384_0_0_15364 : S2048x2x28749.Slices ![0, 0, 15364] S2048x2x1384
  slices_S50x28749_S50x1384_0_15364 : S50x28749.Slices ![0, 15364] S50x1384
  slices_S22x50_S1x50_8_0 : S22x50.Slices ![8, 0] S1x50
  slices_S2048x2x28749_S2048x2x1338_0_0_16748 : S2048x2x28749.Slices ![0, 0, 16748] S2048x2x1338
  slices_S50x28749_S50x1338_0_16748 : S50x28749.Slices ![0, 16748] S50x1338
  slices_S22x50_S1x50_9_0 : S22x50.Slices ![9, 0] S1x50
  slices_S2048x2x28749_S2048x2x1351_0_0_18086 : S2048x2x28749.Slices ![0, 0, 18086] S2048x2x1351
  slices_S50x28749_S50x1351_0_18086 : S50x28749.Slices ![0, 18086] S50x1351
  slices_S22x50_S1x50_10_0 : S22x50.Slices ![10, 0] S1x50
  slices_S2048x2x28749_S2048x2x1333_0_0_19437 : S2048x2x28749.Slices ![0, 0, 19437] S2048x2x1333
  slices_S50x28749_S50x1333_0_19437 : S50x28749.Slices ![0, 19437] S50x1333
  slices_S22x50_S1x50_11_0 : S22x50.Slices ![11, 0] S1x50
  slices_S2048x2x28749_S2048x2x1144_0_0_20770 : S2048x2x28749.Slices ![0, 0, 20770] S2048x2x1144
  slices_S50x28749_S50x1144_0_20770 : S50x28749.Slices ![0, 20770] S50x1144
  slices_S22x50_S1x50_12_0 : S22x50.Slices ![12, 0] S1x50
  slices_S2048x2x28749_S2048x2x1070_0_0_21914 : S2048x2x28749.Slices ![0, 0, 21914] S2048x2x1070
  slices_S50x28749_S50x1070_0_21914 : S50x28749.Slices ![0, 21914] S50x1070
  slices_S22x50_S1x50_13_0 : S22x50.Slices ![13, 0] S1x50
  slices_S2048x2x28749_S2048x2x1020_0_0_22984 : S2048x2x28749.Slices ![0, 0, 22984] S2048x2x1020
  slices_S50x28749_S50x1020_0_22984 : S50x28749.Slices ![0, 22984] S50x1020
  slices_S22x50_S1x50_14_0 : S22x50.Slices ![14, 0] S1x50
  slices_S2048x2x28749_S2048x2x903_0_0_24004 : S2048x2x28749.Slices ![0, 0, 24004] S2048x2x903
  slices_S50x28749_S50x903_0_24004 : S50x28749.Slices ![0, 24004] S50x903
  slices_S22x50_S1x50_15_0 : S22x50.Slices ![15, 0] S1x50
  slices_S2048x2x28749_S2048x2x833_0_0_24907 : S2048x2x28749.Slices ![0, 0, 24907] S2048x2x833
  slices_S50x28749_S50x833_0_24907 : S50x28749.Slices ![0, 24907] S50x833
  slices_S22x50_S1x50_16_0 : S22x50.Slices ![16, 0] S1x50
  slices_S2048x2x28749_S2048x2x804_0_0_25740 : S2048x2x28749.Slices ![0, 0, 25740] S2048x2x804
  slices_S50x28749_S50x804_0_25740 : S50x28749.Slices ![0, 25740] S50x804
  slices_S22x50_S1x50_17_0 : S22x50.Slices ![17, 0] S1x50
  slices_S2048x2x28749_S2048x2x586_0_0_26544 : S2048x2x28749.Slices ![0, 0, 26544] S2048x2x586
  slices_S50x28749_S50x586_0_26544 : S50x28749.Slices ![0, 26544] S50x586
  slices_S22x50_S1x50_18_0 : S22x50.Slices ![18, 0] S1x50
  slices_S2048x2x28749_S2048x2x644_0_0_27130 : S2048x2x28749.Slices ![0, 0, 27130] S2048x2x644
  slices_S50x28749_S50x644_0_27130 : S50x28749.Slices ![0, 27130] S50x644
  slices_S22x50_S1x50_19_0 : S22x50.Slices ![19, 0] S1x50
  slices_S2048x2x28749_S2048x2x467_0_0_27774 : S2048x2x28749.Slices ![0, 0, 27774] S2048x2x467
  slices_S50x28749_S50x467_0_27774 : S50x28749.Slices ![0, 27774] S50x467
  slices_S22x50_S1x50_20_0 : S22x50.Slices ![20, 0] S1x50
  slices_S2048x2x28749_S2048x2x508_0_0_28241 : S2048x2x28749.Slices ![0, 0, 28241] S2048x2x508
  slices_S50x28749_S50x508_0_28241 : S50x28749.Slices ![0, 28241] S50x508
  slices_S22x50_S1x50_21_0 : S22x50.Slices ![21, 0] S1x50
  concatenates_S2048x100_S2048x100_S2048x100_S2048x100_S2048x100_S2048x100_S2048x100_S2048x100_S2048x100_S2048x100_S2048x100_S2048x100_S2048x100_S2048x100_S2048x100_S2048x100_S2048x1600_d1 : Shape.Concatenates [S2048x100, S2048x100, S2048x100, S2048x100, S2048x100, S2048x100, S2048x100, S2048x100, S2048x100, S2048x100, S2048x100, S2048x100, S2048x100, S2048x100, S2048x100, S2048x100] S2048x1600 1
  concatenates_S2048x100_S2048x100_S2048x100_S2048x100_S2048x100_S2048x100_S2048x600_d1 : Shape.Concatenates [S2048x100, S2048x100, S2048x100, S2048x100, S2048x100, S2048x100] S2048x600 1
  concatenates_S2048x1600_S2048x600_S2048x2200_d1 : Shape.Concatenates [S2048x1600, S2048x600] S2048x2200 1
  transposes_S2200x2200_S2200x2200_1_0 : S2200x2200.Transposes [1, 0] S2200x2200
  bcast_S2200_S1x2200_1 : S2200.BroadcastsInDim S1x2200 (![1] : Fin 1 → Fin S1x2200.rank)
  bcast_S1x2200_S2048x2200_0_1 : S1x2200.BroadcastsInDim S2048x2200 (![0, 1] : Fin 2 → Fin S2048x2200.rank)
  transposes_S1000x2200_S2200x1000_1_0 : S1000x2200.Transposes [1, 0] S2200x1000
  bcast_S1000_S1x1000_1 : S1000.BroadcastsInDim S1x1000 (![1] : Fin 1 → Fin S1x1000.rank)
  bcast_S1x1000_S2048x1000_0_1 : S1x1000.BroadcastsInDim S2048x1000 (![0, 1] : Fin 2 → Fin S2048x1000.rank)
  bcast_S_S2048x1000 : S_.BroadcastsInDim S2048x1000 (![] : Fin 0 → Fin S2048x1000.rank)
  transposes_S50x1000_S1000x50_1_0 : S50x1000.Transposes [1, 0] S1000x50
  bcast_S50_S1x50_1 : S50.BroadcastsInDim S1x50 (![1] : Fin 1 → Fin S1x50.rank)
  bcast_S1x50_S2048x50_0_1 : S1x50.BroadcastsInDim S2048x50 (![0, 1] : Fin 2 → Fin S2048x50.rank)
  bcast_S_S2048x50 : S_.BroadcastsInDim S2048x50 (![] : Fin 0 → Fin S2048x50.rank)
  transposes_S13x50_S50x13_1_0 : S13x50.Transposes [1, 0] S50x13
  bcast_S13_S1x13_1 : S13.BroadcastsInDim S1x13 (![1] : Fin 1 → Fin S1x13.rank)
  bcast_S1x13_S2048x13_0_1 : S1x13.BroadcastsInDim S2048x13 (![0, 1] : Fin 2 → Fin S2048x13.rank)
  dot_S2048x2x2490_S50x2490_S2048x2x50_2_1_01_0_n_n_wf : DotDims.WF S2048x2x2490 S50x2490 S2048x2x50 [2] [1] [0, 1] [0] [] []
  dot_S2048x2x2422_S50x2422_S2048x2x50_2_1_01_0_n_n_wf : DotDims.WF S2048x2x2422 S50x2422 S2048x2x50 [2] [1] [0, 1] [0] [] []
  dot_S2048x2x1983_S50x1983_S2048x2x50_2_1_01_0_n_n_wf : DotDims.WF S2048x2x1983 S50x1983 S2048x2x50 [2] [1] [0, 1] [0] [] []
  dot_S2048x2x1902_S50x1902_S2048x2x50_2_1_01_0_n_n_wf : DotDims.WF S2048x2x1902 S50x1902 S2048x2x50 [2] [1] [0, 1] [0] [] []
  dot_S2048x2x1815_S50x1815_S2048x2x50_2_1_01_0_n_n_wf : DotDims.WF S2048x2x1815 S50x1815 S2048x2x50 [2] [1] [0, 1] [0] [] []
  dot_S2048x2x1708_S50x1708_S2048x2x50_2_1_01_0_n_n_wf : DotDims.WF S2048x2x1708 S50x1708 S2048x2x50 [2] [1] [0, 1] [0] [] []
  dot_S2048x2x1593_S50x1593_S2048x2x50_2_1_01_0_n_n_wf : DotDims.WF S2048x2x1593 S50x1593 S2048x2x50 [2] [1] [0, 1] [0] [] []
  dot_S2048x2x1451_S50x1451_S2048x2x50_2_1_01_0_n_n_wf : DotDims.WF S2048x2x1451 S50x1451 S2048x2x50 [2] [1] [0, 1] [0] [] []
  dot_S2048x2x1384_S50x1384_S2048x2x50_2_1_01_0_n_n_wf : DotDims.WF S2048x2x1384 S50x1384 S2048x2x50 [2] [1] [0, 1] [0] [] []
  dot_S2048x2x1338_S50x1338_S2048x2x50_2_1_01_0_n_n_wf : DotDims.WF S2048x2x1338 S50x1338 S2048x2x50 [2] [1] [0, 1] [0] [] []
  dot_S2048x2x1351_S50x1351_S2048x2x50_2_1_01_0_n_n_wf : DotDims.WF S2048x2x1351 S50x1351 S2048x2x50 [2] [1] [0, 1] [0] [] []
  dot_S2048x2x1333_S50x1333_S2048x2x50_2_1_01_0_n_n_wf : DotDims.WF S2048x2x1333 S50x1333 S2048x2x50 [2] [1] [0, 1] [0] [] []
  dot_S2048x2x1144_S50x1144_S2048x2x50_2_1_01_0_n_n_wf : DotDims.WF S2048x2x1144 S50x1144 S2048x2x50 [2] [1] [0, 1] [0] [] []
  dot_S2048x2x1070_S50x1070_S2048x2x50_2_1_01_0_n_n_wf : DotDims.WF S2048x2x1070 S50x1070 S2048x2x50 [2] [1] [0, 1] [0] [] []
  dot_S2048x2x1020_S50x1020_S2048x2x50_2_1_01_0_n_n_wf : DotDims.WF S2048x2x1020 S50x1020 S2048x2x50 [2] [1] [0, 1] [0] [] []
  dot_S2048x2x903_S50x903_S2048x2x50_2_1_01_0_n_n_wf : DotDims.WF S2048x2x903 S50x903 S2048x2x50 [2] [1] [0, 1] [0] [] []
  dot_S2048x2x833_S50x833_S2048x2x50_2_1_01_0_n_n_wf : DotDims.WF S2048x2x833 S50x833 S2048x2x50 [2] [1] [0, 1] [0] [] []
  dot_S2048x2x804_S50x804_S2048x2x50_2_1_01_0_n_n_wf : DotDims.WF S2048x2x804 S50x804 S2048x2x50 [2] [1] [0, 1] [0] [] []
  dot_S2048x2x586_S50x586_S2048x2x50_2_1_01_0_n_n_wf : DotDims.WF S2048x2x586 S50x586 S2048x2x50 [2] [1] [0, 1] [0] [] []
  dot_S2048x2x644_S50x644_S2048x2x50_2_1_01_0_n_n_wf : DotDims.WF S2048x2x644 S50x644 S2048x2x50 [2] [1] [0, 1] [0] [] []
  dot_S2048x2x467_S50x467_S2048x2x50_2_1_01_0_n_n_wf : DotDims.WF S2048x2x467 S50x467 S2048x2x50 [2] [1] [0, 1] [0] [] []
  dot_S2048x2x508_S50x508_S2048x2x50_2_1_01_0_n_n_wf : DotDims.WF S2048x2x508 S50x508 S2048x2x50 [2] [1] [0, 1] [0] [] []
  dot_S2048x2200_S2200x2200_S2048x2200_1_0_0_1_n_n_wf : DotDims.WF S2048x2200 S2200x2200 S2048x2200 [1] [0] [0] [1] [] []
  dot_S2048x2200_S2200x1000_S2048x1000_1_0_0_1_n_n_wf : DotDims.WF S2048x2200 S2200x1000 S2048x1000 [1] [0] [0] [1] [] []
  dot_S2048x1000_S1000x50_S2048x50_1_0_0_1_n_n_wf : DotDims.WF S2048x1000 S1000x50 S2048x50 [1] [0] [0] [1] [] []
  dot_S2048x50_S50x13_S2048x13_1_0_0_1_n_n_wf : DotDims.WF S2048x50 S50x13 S2048x13 [1] [0] [0] [1] [] []

variable [Facts₀]

def dot_S2048x2x2490_S50x2490_S2048x2x50_2_1_01_0_n_n : DotDims S2048x2x2490 S50x2490 S2048x2x50 where
  lhsContracting := [2]
  rhsContracting := [1]
  lhsNonContracting := [0, 1]
  rhsNonContracting := [0]
  lhsBatch := []
  rhsBatch := []
  wf := dot_S2048x2x2490_S50x2490_S2048x2x50_2_1_01_0_n_n_wf
def dot_S2048x2x2422_S50x2422_S2048x2x50_2_1_01_0_n_n : DotDims S2048x2x2422 S50x2422 S2048x2x50 where
  lhsContracting := [2]
  rhsContracting := [1]
  lhsNonContracting := [0, 1]
  rhsNonContracting := [0]
  lhsBatch := []
  rhsBatch := []
  wf := dot_S2048x2x2422_S50x2422_S2048x2x50_2_1_01_0_n_n_wf
def dot_S2048x2x1983_S50x1983_S2048x2x50_2_1_01_0_n_n : DotDims S2048x2x1983 S50x1983 S2048x2x50 where
  lhsContracting := [2]
  rhsContracting := [1]
  lhsNonContracting := [0, 1]
  rhsNonContracting := [0]
  lhsBatch := []
  rhsBatch := []
  wf := dot_S2048x2x1983_S50x1983_S2048x2x50_2_1_01_0_n_n_wf
def dot_S2048x2x1902_S50x1902_S2048x2x50_2_1_01_0_n_n : DotDims S2048x2x1902 S50x1902 S2048x2x50 where
  lhsContracting := [2]
  rhsContracting := [1]
  lhsNonContracting := [0, 1]
  rhsNonContracting := [0]
  lhsBatch := []
  rhsBatch := []
  wf := dot_S2048x2x1902_S50x1902_S2048x2x50_2_1_01_0_n_n_wf
def dot_S2048x2x1815_S50x1815_S2048x2x50_2_1_01_0_n_n : DotDims S2048x2x1815 S50x1815 S2048x2x50 where
  lhsContracting := [2]
  rhsContracting := [1]
  lhsNonContracting := [0, 1]
  rhsNonContracting := [0]
  lhsBatch := []
  rhsBatch := []
  wf := dot_S2048x2x1815_S50x1815_S2048x2x50_2_1_01_0_n_n_wf
def dot_S2048x2x1708_S50x1708_S2048x2x50_2_1_01_0_n_n : DotDims S2048x2x1708 S50x1708 S2048x2x50 where
  lhsContracting := [2]
  rhsContracting := [1]
  lhsNonContracting := [0, 1]
  rhsNonContracting := [0]
  lhsBatch := []
  rhsBatch := []
  wf := dot_S2048x2x1708_S50x1708_S2048x2x50_2_1_01_0_n_n_wf
def dot_S2048x2x1593_S50x1593_S2048x2x50_2_1_01_0_n_n : DotDims S2048x2x1593 S50x1593 S2048x2x50 where
  lhsContracting := [2]
  rhsContracting := [1]
  lhsNonContracting := [0, 1]
  rhsNonContracting := [0]
  lhsBatch := []
  rhsBatch := []
  wf := dot_S2048x2x1593_S50x1593_S2048x2x50_2_1_01_0_n_n_wf
def dot_S2048x2x1451_S50x1451_S2048x2x50_2_1_01_0_n_n : DotDims S2048x2x1451 S50x1451 S2048x2x50 where
  lhsContracting := [2]
  rhsContracting := [1]
  lhsNonContracting := [0, 1]
  rhsNonContracting := [0]
  lhsBatch := []
  rhsBatch := []
  wf := dot_S2048x2x1451_S50x1451_S2048x2x50_2_1_01_0_n_n_wf
def dot_S2048x2x1384_S50x1384_S2048x2x50_2_1_01_0_n_n : DotDims S2048x2x1384 S50x1384 S2048x2x50 where
  lhsContracting := [2]
  rhsContracting := [1]
  lhsNonContracting := [0, 1]
  rhsNonContracting := [0]
  lhsBatch := []
  rhsBatch := []
  wf := dot_S2048x2x1384_S50x1384_S2048x2x50_2_1_01_0_n_n_wf
def dot_S2048x2x1338_S50x1338_S2048x2x50_2_1_01_0_n_n : DotDims S2048x2x1338 S50x1338 S2048x2x50 where
  lhsContracting := [2]
  rhsContracting := [1]
  lhsNonContracting := [0, 1]
  rhsNonContracting := [0]
  lhsBatch := []
  rhsBatch := []
  wf := dot_S2048x2x1338_S50x1338_S2048x2x50_2_1_01_0_n_n_wf
def dot_S2048x2x1351_S50x1351_S2048x2x50_2_1_01_0_n_n : DotDims S2048x2x1351 S50x1351 S2048x2x50 where
  lhsContracting := [2]
  rhsContracting := [1]
  lhsNonContracting := [0, 1]
  rhsNonContracting := [0]
  lhsBatch := []
  rhsBatch := []
  wf := dot_S2048x2x1351_S50x1351_S2048x2x50_2_1_01_0_n_n_wf
def dot_S2048x2x1333_S50x1333_S2048x2x50_2_1_01_0_n_n : DotDims S2048x2x1333 S50x1333 S2048x2x50 where
  lhsContracting := [2]
  rhsContracting := [1]
  lhsNonContracting := [0, 1]
  rhsNonContracting := [0]
  lhsBatch := []
  rhsBatch := []
  wf := dot_S2048x2x1333_S50x1333_S2048x2x50_2_1_01_0_n_n_wf
def dot_S2048x2x1144_S50x1144_S2048x2x50_2_1_01_0_n_n : DotDims S2048x2x1144 S50x1144 S2048x2x50 where
  lhsContracting := [2]
  rhsContracting := [1]
  lhsNonContracting := [0, 1]
  rhsNonContracting := [0]
  lhsBatch := []
  rhsBatch := []
  wf := dot_S2048x2x1144_S50x1144_S2048x2x50_2_1_01_0_n_n_wf
def dot_S2048x2x1070_S50x1070_S2048x2x50_2_1_01_0_n_n : DotDims S2048x2x1070 S50x1070 S2048x2x50 where
  lhsContracting := [2]
  rhsContracting := [1]
  lhsNonContracting := [0, 1]
  rhsNonContracting := [0]
  lhsBatch := []
  rhsBatch := []
  wf := dot_S2048x2x1070_S50x1070_S2048x2x50_2_1_01_0_n_n_wf
def dot_S2048x2x1020_S50x1020_S2048x2x50_2_1_01_0_n_n : DotDims S2048x2x1020 S50x1020 S2048x2x50 where
  lhsContracting := [2]
  rhsContracting := [1]
  lhsNonContracting := [0, 1]
  rhsNonContracting := [0]
  lhsBatch := []
  rhsBatch := []
  wf := dot_S2048x2x1020_S50x1020_S2048x2x50_2_1_01_0_n_n_wf
def dot_S2048x2x903_S50x903_S2048x2x50_2_1_01_0_n_n : DotDims S2048x2x903 S50x903 S2048x2x50 where
  lhsContracting := [2]
  rhsContracting := [1]
  lhsNonContracting := [0, 1]
  rhsNonContracting := [0]
  lhsBatch := []
  rhsBatch := []
  wf := dot_S2048x2x903_S50x903_S2048x2x50_2_1_01_0_n_n_wf
def dot_S2048x2x833_S50x833_S2048x2x50_2_1_01_0_n_n : DotDims S2048x2x833 S50x833 S2048x2x50 where
  lhsContracting := [2]
  rhsContracting := [1]
  lhsNonContracting := [0, 1]
  rhsNonContracting := [0]
  lhsBatch := []
  rhsBatch := []
  wf := dot_S2048x2x833_S50x833_S2048x2x50_2_1_01_0_n_n_wf
def dot_S2048x2x804_S50x804_S2048x2x50_2_1_01_0_n_n : DotDims S2048x2x804 S50x804 S2048x2x50 where
  lhsContracting := [2]
  rhsContracting := [1]
  lhsNonContracting := [0, 1]
  rhsNonContracting := [0]
  lhsBatch := []
  rhsBatch := []
  wf := dot_S2048x2x804_S50x804_S2048x2x50_2_1_01_0_n_n_wf
def dot_S2048x2x586_S50x586_S2048x2x50_2_1_01_0_n_n : DotDims S2048x2x586 S50x586 S2048x2x50 where
  lhsContracting := [2]
  rhsContracting := [1]
  lhsNonContracting := [0, 1]
  rhsNonContracting := [0]
  lhsBatch := []
  rhsBatch := []
  wf := dot_S2048x2x586_S50x586_S2048x2x50_2_1_01_0_n_n_wf
def dot_S2048x2x644_S50x644_S2048x2x50_2_1_01_0_n_n : DotDims S2048x2x644 S50x644 S2048x2x50 where
  lhsContracting := [2]
  rhsContracting := [1]
  lhsNonContracting := [0, 1]
  rhsNonContracting := [0]
  lhsBatch := []
  rhsBatch := []
  wf := dot_S2048x2x644_S50x644_S2048x2x50_2_1_01_0_n_n_wf
def dot_S2048x2x467_S50x467_S2048x2x50_2_1_01_0_n_n : DotDims S2048x2x467 S50x467 S2048x2x50 where
  lhsContracting := [2]
  rhsContracting := [1]
  lhsNonContracting := [0, 1]
  rhsNonContracting := [0]
  lhsBatch := []
  rhsBatch := []
  wf := dot_S2048x2x467_S50x467_S2048x2x50_2_1_01_0_n_n_wf
def dot_S2048x2x508_S50x508_S2048x2x50_2_1_01_0_n_n : DotDims S2048x2x508 S50x508 S2048x2x50 where
  lhsContracting := [2]
  rhsContracting := [1]
  lhsNonContracting := [0, 1]
  rhsNonContracting := [0]
  lhsBatch := []
  rhsBatch := []
  wf := dot_S2048x2x508_S50x508_S2048x2x50_2_1_01_0_n_n_wf
def dot_S2048x2200_S2200x2200_S2048x2200_1_0_0_1_n_n : DotDims S2048x2200 S2200x2200 S2048x2200 where
  lhsContracting := [1]
  rhsContracting := [0]
  lhsNonContracting := [0]
  rhsNonContracting := [1]
  lhsBatch := []
  rhsBatch := []
  wf := dot_S2048x2200_S2200x2200_S2048x2200_1_0_0_1_n_n_wf
def dot_S2048x2200_S2200x1000_S2048x1000_1_0_0_1_n_n : DotDims S2048x2200 S2200x1000 S2048x1000 where
  lhsContracting := [1]
  rhsContracting := [0]
  lhsNonContracting := [0]
  rhsNonContracting := [1]
  lhsBatch := []
  rhsBatch := []
  wf := dot_S2048x2200_S2200x1000_S2048x1000_1_0_0_1_n_n_wf
def dot_S2048x1000_S1000x50_S2048x50_1_0_0_1_n_n : DotDims S2048x1000 S1000x50 S2048x50 where
  lhsContracting := [1]
  rhsContracting := [0]
  lhsNonContracting := [0]
  rhsNonContracting := [1]
  lhsBatch := []
  rhsBatch := []
  wf := dot_S2048x1000_S1000x50_S2048x50_1_0_0_1_n_n_wf
def dot_S2048x50_S50x13_S2048x13_1_0_0_1_n_n : DotDims S2048x50 S50x13 S2048x13 where
  lhsContracting := [1]
  rhsContracting := [0]
  lhsNonContracting := [0]
  rhsNonContracting := [1]
  lhsBatch := []
  rhsBatch := []
  wf := dot_S2048x50_S50x13_S2048x13_1_0_0_1_n_n_wf

class Facts : Prop extends Facts₀ where

variable [Facts]
-- ==== Proof.Spec.lean ====
/-
  The common value of the fused network, written once over plain finite index types.

  One sample is a pair of channel rows `x c : Fin 28749 → EReal` (c = 0, 1). The 28749 bins are cut into 22
  consecutive segments (segment i starts at `headOff i` and has `headLen i` bins). Head i sends a channel row to
  the 50 numbers  o ↦ (∑ l < L_i, x c (a_i + l) · hw o (a_i + l)) + hb i o.  The 44 results (head 0 on channel 0,
  head 0 on channel 1, head 1 on channel 0, …) laid side by side are the 2200 combined features; three affine layers with
  a leaky rectifier between them and a last affine layer give the 13 outputs.  Every sum is a finite sum of extended
  reals, so no order or grouping is part of the definition.
-/
import Idealize.ShloMosaic.PureOps.Ideal
import Idealize.ShloMosaic.Lib.ValueIdx

noncomputable section

open scoped BigOperators

namespace Cert.Fused

open Idealize.ShloMosaic Idealize.ShloMosaic.ValueIdx

/-- A function on `Fin N` read at a natural number (zero outside the range). -/
def ext {N : Nat} {α : Type} [Zero α] (f : Fin N → α) (n : Nat) : α := if h : n < N then f ⟨n, h⟩ else 0

theorem ext_eq {N : Nat} {α : Type} [Zero α] (f : Fin N → α) (n : Nat) (h : n < N) : ext f n = f ⟨n, h⟩ := dif_pos h

/-- One affine layer: `out n = (∑ k, v k · w n k) + b n` (the weight matrix is stored output-major). -/
def lin {K N : Nat} (v : Fin K → EReal) (w : Fin N → Fin K → EReal) (b : Fin N → EReal) (n : Fin N) : EReal :=
  (∑ k : Fin K, v k * w n k) + b n

/-- The leaky rectifier with slope the single-precision number nearest 0.01: `v` where `v ≥ 0`, else slope · v. -/
def leaky (v : EReal) : EReal :=
  Scalar.select (FloatOps.cmpf (F := Ideal) (φ := .f32) .oge v (Ideal.ofBits .f32 0x00000000#32)) v
    (Ideal.ofBits .f32 0x3C23D70A#32 * v)

/-- One head on one channel row: the segment `[a, a + L)` of the row against the same segment of each of the 50
    weight rows, plus the head's bias. -/
def headVal (a L : Nat) (xc : Fin 28749 → EReal) (hw : Fin 50 → Fin 28749 → EReal) (hbi : Fin 50 → EReal)
    (o : Fin 50) : EReal :=
  (∑ l : Fin L, ext xc (a + l.val) * ext (hw o) (a + l.val)) + hbi o

/-- Where each of the 22 segments starts. -/
def headOffs : List Nat := [0, 2490, 4912, 6895, 8797, 10612, 12320, 13913, 15364, 16748, 18086, 19437, 20770, 21914,
  22984, 24004, 24907, 25740, 26544, 27130, 27774, 28241]
/-- How many bins each of the 22 segments has. -/
def headLens : List Nat := [2490, 2422, 1983, 1902, 1815, 1708, 1593, 1451, 1384, 1338, 1351, 1333, 1144, 1070, 1020,
  903, 833, 804, 586, 644, 467, 508]
def headOff (i : Nat) : Nat := headOffs.getD i 0
def headLen (i : Nat) : Nat := headLens.getD i 0

/-- Piece `p = 2 i + c` of the combined features: head `i` on channel `c`. -/
def piece (x : Fin 2 → Fin 28749 → EReal) (hw : Fin 50 → Fin 28749 → EReal) (hb : Fin 22 → Fin 50 → EReal)
    (p : Nat) : Fin 50 → EReal :=
  headVal (headOff (p / 2)) (headLen (p / 2)) (ext x (p % 2)) hw (ext hb (p / 2))

theorem piece_at (x : Fin 2 → Fin 28749 → EReal) (hw : Fin 50 → Fin 28749 → EReal) (hb : Fin 22 → Fin 50 → EReal)
    (i : Fin 22) (c : Fin 2) :
    piece x hw hb (2 * i.val + c.val) = headVal (headOff i.val) (headLen i.val) (x c) hw (hb i) := by
  have h1 : (2 * i.val + c.val) / 2 = i.val := by have := c.isLt; omega
  have h2 : (2 * i.val + c.val) % 2 = c.val := by have := c.isLt; omega
  unfold piece
  rw [h1, h2, ext_eq x c.val c.isLt, ext_eq hb i.val i.isLt]

/-- The 2200 combined features of one sample: feature `j` is entry `j % 50` of piece `j / 50`. -/
def comb (x : Fin 2 → Fin 28749 → EReal) (hw : Fin 50 → Fin 28749 → EReal) (hb : Fin 22 → Fin 50 → EReal)
    (j : Fin 2200) : EReal :=
  piece x hw hb (j.val / 50) ⟨j.val % 50, Nat.mod_lt _ (by norm_num)⟩

/-- The three hidden layers and the output layer on a vector of combined features. -/
def mlp (cv : Fin 2200 → EReal) (cw : Fin 2200 → Fin 2200 → EReal) (cb : Fin 2200 → EReal)
    (w1 : Fin 1000 → Fin 2200 → EReal) (b1 : Fin 1000 → EReal) (w2 : Fin 50 → Fin 1000 → EReal) (b2 : Fin 50 → EReal)
    (w3 : Fin 13 → Fin 50 → EReal) (b3 : Fin 13 → EReal) : Fin 13 → EReal :=
  lin (fun k => leaky (lin (fun k => leaky (lin (lin cv cw cb) w1 b1 k)) w2 b2 k)) w3 b3

/-- The whole network on one sample. -/
def model (x : Fin 2 → Fin 28749 → EReal) (hw : Fin 50 → Fin 28749 → EReal) (hb : Fin 22 → Fin 50 → EReal)
    (cw : Fin 2200 → Fin 2200 → EReal) (cb : Fin 2200 → EReal)
    (w1 : Fin 1000 → Fin 2200 → EReal) (b1 : Fin 1000 → EReal) (w2 : Fin 50 → Fin 1000 → EReal) (b2 : Fin 50 → EReal)
    (w3 : Fin 13 → Fin 50 → EReal) (b3 : Fin 13 → EReal) : Fin 13 → EReal :=
  mlp (comb x hw hb) cw cb w1 b1 w2 b2 w3 b3

/-- Output `(b, o)` of the network on the batch: the model on sample `b` of the input array. -/
def GRow (a0 : (⟨3, ![2048, 2, 28749]⟩ : Shape).Idx → EReal) (a1 : (⟨2, ![50, 28749]⟩ : Shape).Idx → EReal)
    (a2 : (⟨2, ![22, 50]⟩ : Shape).Idx → EReal) (a3 : (⟨2, ![2200, 2200]⟩ : Shape).Idx → EReal)
    (a4 : (⟨1, ![2200]⟩ : Shape).Idx → EReal) (a5 : (⟨2, ![1000, 2200]⟩ : Shape).Idx → EReal)
    (a6 : (⟨1, ![1000]⟩ : Shape).Idx → EReal) (a7 : (⟨2, ![50, 1000]⟩ : Shape).Idx → EReal)
    (a8 : (⟨1, ![50]⟩ : Shape).Idx → EReal) (a9 : (⟨2, ![13, 50]⟩ : Shape).Idx → EReal)
    (a10 : (⟨1, ![13]⟩ : Shape).Idx → EReal) (b : Fin 2048) (o : Fin 13) : EReal :=
  model (fun c l => a0 (ix3 b c l)) (fun q l => a1 (ix2 q l)) (fun i q => a2 (ix2 i q)) (fun n k => a3 (ix2 n k))
    (fun n => a4 (ix1 n)) (fun n k => a5 (ix2 n k)) (fun n => a6 (ix1 n)) (fun n k => a7 (ix2 n k))
    (fun n => a8 (ix1 n)) (fun n k => a9 (ix2 n k)) (fun n => a10 (ix1 n)) o

/-- The network's output array as one function of the eleven argument arrays. -/
def G (a0 : (⟨3, ![2048, 2, 28749]⟩ : Shape).Idx → EReal) (a1 : (⟨2, ![50, 28749]⟩ : Shape).Idx → EReal)
    (a2 : (⟨2, ![22, 50]⟩ : Shape).Idx → EReal) (a3 : (⟨2, ![2200, 2200]⟩ : Shape).Idx → EReal)
    (a4 : (⟨1, ![2200]⟩ : Shape).Idx → EReal) (a5 : (⟨2, ![1000, 2200]⟩ : Shape).Idx → EReal)
    (a6 : (⟨1, ![1000]⟩ : Shape).Idx → EReal) (a7 : (⟨2, ![50, 1000]⟩ : Shape).Idx → EReal)
    (a8 : (⟨1, ![50]⟩ : Shape).Idx → EReal) (a9 : (⟨2, ![13, 50]⟩ : Shape).Idx → EReal)
    (a10 : (⟨1, ![13]⟩ : Shape).Idx → EReal) : (⟨2, ![2048, 13]⟩ : Shape).Idx → EReal :=
  fun j => GRow a0 a1 a2 a3 a4 a5 a6 a7 a8 a9 a10 (j 0) (j 1)

theorem G_apply (a0 : (⟨3, ![2048, 2, 28749]⟩ : Shape).Idx → EReal) (a1 : (⟨2, ![50, 28749]⟩ : Shape).Idx → EReal)
    (a2 : (⟨2, ![22, 50]⟩ : Shape).Idx → EReal) (a3 : (⟨2, ![2200, 2200]⟩ : Shape).Idx → EReal)
    (a4 : (⟨1, ![2200]⟩ : Shape).Idx → EReal) (a5 : (⟨2, ![1000, 2200]⟩ : Shape).Idx → EReal)
    (a6 : (⟨1, ![1000]⟩ : Shape).Idx → EReal) (a7 : (⟨2, ![50, 1000]⟩ : Shape).Idx → EReal)
    (a8 : (⟨1, ![50]⟩ : Shape).Idx → EReal) (a9 : (⟨2, ![13, 50]⟩ : Shape).Idx → EReal)
    (a10 : (⟨1, ![13]⟩ : Shape).Idx → EReal) (b : Fin 2048) (o : Fin 13) :
    G a0 a1 a2 a3 a4 a5 a6 a7 a8 a9 a10 (ix2 b o) = GRow a0 a1 a2 a3 a4 a5 a6 a7 a8 a9 a10 b o := rfl

end Cert.Fused

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.KLib.lean ====
/-
  One head as the kernel computes it, read at an entry — stated once for any segment.

  The kernel stacks the two channel segments of a 64-row block (columns [a, a+L) and [a', a'+L) of the block) into a
  128-row operand, multiplies it by the 50 × L weight segment contracted along the segment, adds the bias row to all 128
  rows, and cuts the result into its upper 64 rows (channel 0) and lower 64 rows (channel 1). At row r and output o
  the upper half is (∑ l, U (r, a + l) · W (o, l)) + B (0, o), the lower half the same from offset a'.
-/
import proofs.«414676_j67216238182882_3_alg».proof.Proof.LibDotNT
import Idealize.ShloMosaic.Lib.Pipeline.Value

noncomputable section

open scoped BigOperators

namespace Cert.KLib

open Idealize.ShloMosaic Idealize.ShloMosaic.ValueIdx

variable {φ φ' : FTy}

/-- The upper 64 rows of one head's 128 × 50 result, at (r, o). -/
theorem head_lo (C L a a' : Nat) (D : DotDims ⟨2, ![128, L]⟩ ⟨2, ![50, L]⟩ ⟨2, ![128, 50]⟩)
    (hD : D = DotDims.transposedRhs 128 L 50)
    (U : FVec Ideal ⟨2, ![64, C]⟩ φ) (W : FVec Ideal ⟨2, ![50, L]⟩ φ') (Bv : FVec Ideal ⟨2, ![1, 50]⟩ .f32)
    (h1 : (⟨2, ![64, C]⟩ : Shape).Slices ![0, a] ⟨2, ![64, L]⟩) (h2 : (⟨2, ![64, C]⟩ : Shape).Slices ![0, a'] ⟨2, ![64, L]⟩)
    (hc : Shape.Concatenates [(⟨2, ![64, L]⟩ : Shape), ⟨2, ![64, L]⟩] ⟨2, ![128, L]⟩ 0)
    (hs : (⟨2, ![50, L]⟩ : Shape).ShapeCasts ⟨2, ![50, L]⟩)
    (h3 : (⟨2, ![1, 50]⟩ : Shape).ShapeCasts ⟨1, ![50]⟩) (h4 : (⟨1, ![50]⟩ : Shape).ShapeCasts ⟨2, ![1, 50]⟩)
    (h5 : (⟨2, ![1, 50]⟩ : Shape).Broadcasts ⟨2, ![128, 50]⟩)
    (h6 : (⟨2, ![128, 50]⟩ : Shape).Slices ![0, 0] ⟨2, ![64, 50]⟩)
    (hb : a + L ≤ C) (r : Fin 64) (o : Fin 50) :
    extractStridedSlice ⟨2, ![64, 50]⟩ ![0, 0]
        (addf (matmul D none
            (concatenate ⟨2, ![128, L]⟩ 0 [⟨⟨2, ![64, L]⟩, extractStridedSlice ⟨2, ![64, L]⟩ ![0, a] U h1⟩,
              ⟨⟨2, ![64, L]⟩, extractStridedSlice ⟨2, ![64, L]⟩ ![0, a'] U h2⟩] hc)
            (shapeCast ⟨2, ![50, L]⟩ W hs) (constant ⟨2, ![128, 50]⟩ .f32 0x00000000#32))
          (broadcastTo ⟨2, ![128, 50]⟩ (shapeCast ⟨2, ![1, 50]⟩ (shapeCast ⟨1, ![50]⟩ Bv h3) h4) h5)) h6 (ix2 r o)
      = (∑ l : Fin L, U (ix2 r ⟨a + l.val, by have := l.isLt; omega⟩) * W (ix2 o l)) + Bv (ix2 0 o) := by
  subst hD
  have hr128 : r.val < 128 := by have := r.isLt; omega
  refine (extractStridedSlice_apply ![0, 0] _ h6 (ix2 r o) (ix2 (⟨r.val, hr128⟩ : Fin 128) o) ?_).trans ?_
  · intro ax
    match ax with
    | ⟨0, _⟩ => simp
    | ⟨1, _⟩ => simp
  rw [addf_apply]
  congr 1
  · simp only [matmul]
    refine (Cert.LibDotNT.matmul_nt_apply 128 L 50 none _ _ (⟨r.val, hr128⟩ : Fin 128) o).trans ?_
    refine Finset.sum_congr rfl fun l _ => ?_
    congr 1
    · refine (concatenate_pair_apply_left (t := ⟨2, ![128, L]⟩) (s₁ := ⟨2, ![64, L]⟩) (s₂ := ⟨2, ![64, L]⟩) (0 : Fin 2) _ _ hc
        (ix2 (⟨r.val, hr128⟩ : Fin 128) l) (rfl : (2 : Nat) = 2) (ix2 r l) ?_).trans ?_
      · intro ax
        match ax with
        | ⟨0, _⟩ => rfl
        | ⟨1, _⟩ => rfl
      refine extractStridedSlice_apply ![0, a] U h1 (ix2 r l) (ix2 r ⟨a + l.val, by have := l.isLt; omega⟩) ?_
      intro ax
      match ax with
      | ⟨0, _⟩ => simp
      | ⟨1, _⟩ => simp
    · rw [shapeCast_self]
  · refine (broadcastTo_apply _ h5 (ix2 (⟨r.val, hr128⟩ : Fin 128) o) (ix2 0 o) ?_).trans ?_
    · intro ax
      match ax with
      | ⟨0, _⟩ => simp
      | ⟨1, _⟩ => simp
    rw [shapeCast_shapeCast]

/-- The lower 64 rows of one head's 128 × 50 result, at (r, o). -/
theorem head_hi (C L a a' : Nat) (D : DotDims ⟨2, ![128, L]⟩ ⟨2, ![50, L]⟩ ⟨2, ![128, 50]⟩)
    (hD : D = DotDims.transposedRhs 128 L 50)
    (U : FVec Ideal ⟨2, ![64, C]⟩ φ) (W : FVec Ideal ⟨2, ![50, L]⟩ φ') (Bv : FVec Ideal ⟨2, ![1, 50]⟩ .f32)
    (h1 : (⟨2, ![64, C]⟩ : Shape).Slices ![0, a] ⟨2, ![64, L]⟩) (h2 : (⟨2, ![64, C]⟩ : Shape).Slices ![0, a'] ⟨2, ![64, L]⟩)
    (hc : Shape.Concatenates [(⟨2, ![64, L]⟩ : Shape), ⟨2, ![64, L]⟩] ⟨2, ![128, L]⟩ 0)
    (hs : (⟨2, ![50, L]⟩ : Shape).ShapeCasts ⟨2, ![50, L]⟩)
    (h3 : (⟨2, ![1, 50]⟩ : Shape).ShapeCasts ⟨1, ![50]⟩) (h4 : (⟨1, ![50]⟩ : Shape).ShapeCasts ⟨2, ![1, 50]⟩)
    (h5 : (⟨2, ![1, 50]⟩ : Shape).Broadcasts ⟨2, ![128, 50]⟩)
    (h7 : (⟨2, ![128, 50]⟩ : Shape).Slices ![64, 0] ⟨2, ![64, 50]⟩)
    (hb : a' + L ≤ C) (r : Fin 64) (o : Fin 50) :
    extractStridedSlice ⟨2, ![64, 50]⟩ ![64, 0]
        (addf (matmul D none
            (concatenate ⟨2, ![128, L]⟩ 0 [⟨⟨2, ![64, L]⟩, extractStridedSlice ⟨2, ![64, L]⟩ ![0, a] U h1⟩,
              ⟨⟨2, ![64, L]⟩, extractStridedSlice ⟨2, ![64, L]⟩ ![0, a'] U h2⟩] hc)
            (shapeCast ⟨2, ![50, L]⟩ W hs) (constant ⟨2, ![128, 50]⟩ .f32 0x00000000#32))
          (broadcastTo ⟨2, ![128, 50]⟩ (shapeCast ⟨2, ![1, 50]⟩ (shapeCast ⟨1, ![50]⟩ Bv h3) h4) h5)) h7 (ix2 r o)
      = (∑ l : Fin L, U (ix2 r ⟨a' + l.val, by have := l.isLt; omega⟩) * W (ix2 o l)) + Bv (ix2 0 o) := by
  subst hD
  have hr128 : 64 + r.val < 128 := by have := r.isLt; omega
  refine (extractStridedSlice_apply ![64, 0] _ h7 (ix2 r o) (ix2 (⟨64 + r.val, hr128⟩ : Fin 128) o) ?_).trans ?_
  · intro ax
    match ax with
    | ⟨0, _⟩ => simp
    | ⟨1, _⟩ => simp
  rw [addf_apply]
  congr 1
  · simp only [matmul]
    refine (Cert.LibDotNT.matmul_nt_apply 128 L 50 none _ _ (⟨64 + r.val, hr128⟩ : Fin 128) o).trans ?_
    refine Finset.sum_congr rfl fun l _ => ?_
    congr 1
    · refine (concatenate_pair_apply_right (t := ⟨2, ![128, L]⟩) (s₁ := ⟨2, ![64, L]⟩) (s₂ := ⟨2, ![64, L]⟩) (0 : Fin 2) _ _ hc
        (ix2 (⟨64 + r.val, hr128⟩ : Fin 128) l) (rfl : (2 : Nat) = 2) (rfl : (2 : Nat) = 2) (ix2 r l) ?_ ?_).trans ?_
      · intro ax hax
        match ax, hax with
        | ⟨0, _⟩, hax => exact absurd rfl hax
        | ⟨1, _⟩, _ => rfl
      · show r.val + 64 = 64 + r.val
        omega
      refine extractStridedSlice_apply ![0, a'] U h2 (ix2 r l) (ix2 r ⟨a' + l.val, by have := l.isLt; omega⟩) ?_
      intro ax
      match ax with
      | ⟨0, _⟩ => simp
      | ⟨1, _⟩ => simp
    · rw [shapeCast_self]
  · refine (broadcastTo_apply _ h5 (ix2 (⟨64 + r.val, hr128⟩ : Fin 128) o) (ix2 0 o) ?_).trans ?_
    · intro ax
      match ax with
      | ⟨0, _⟩ => simp
      | ⟨1, _⟩ => simp
    rw [shapeCast_shapeCast]

end Cert.KLib

end
-- ==== Proof.KTail.lean ====
/-
  The kernel's last three dense layers at an entry: from the (rounded) first dense layer's 64 × 2200 block, output (r, o)
  is two rectified affine layers and the output layer applied to row r. Each product contracts the last axis of both
  operands (weights are stored output-major); a rounding to a shorter format is the identity over the extended reals.
-/
import proofs.«414676_j67216238182882_3_alg».proof.Proof.Gen.KernelIdeal.Skeleton
import proofs.«414676_j67216238182882_3_alg».proof.Proof.Spec
import proofs.«414676_j67216238182882_3_alg».proof.Proof.LibDotNT
import Idealize.ShloMosaic.Lib.Pipeline.Value
import Idealize.ShloMosaic.Lib.ValueLayout

noncomputable section

open scoped BigOperators

namespace Cert.KernelIdeal.KTail

open Cert.KernelIdeal Cert.KernelIdeal.Gen Idealize.ShloMosaic Idealize.ShloMosaic.ValueIdx Cert.Fused

/-- One dense layer at an entry: a product contracting the last axis of both operands into a zero accumulator, plus a
    bias row repeated over the rows, is the affine layer of the specification on row `r` of the left operand. -/
theorem dense_apply {φ₁ φ₂ : FTy} (M K N : Nat) (D : DotDims ⟨2, ![M, K]⟩ ⟨2, ![N, K]⟩ ⟨2, ![M, N]⟩)
    (hD : D = DotDims.transposedRhs M K N)
    (X : FVec Ideal ⟨2, ![M, K]⟩ φ₁) (W : FVec Ideal ⟨2, ![N, K]⟩ φ₂) (bias : FVec Ideal ⟨1, ![N]⟩ .f32)
    (h : (⟨1, ![N]⟩ : Shape).ShapeCasts ⟨2, ![1, N]⟩) (h' : (⟨2, ![1, N]⟩ : Shape).Broadcasts ⟨2, ![M, N]⟩)
    (r : Fin M) (n : Fin N) :
    addf (matmul D none X W (constant ⟨2, ![M, N]⟩ .f32 0x00000000#32))
        (broadcastTo ⟨2, ![M, N]⟩ (shapeCast ⟨2, ![1, N]⟩ bias h) h') (ix2 r n)
      = lin (fun k => X (ix2 r k)) (fun n k => W (ix2 n k)) (fun n => bias (ix1 n)) n := by
  subst hD
  rw [addf_apply, broadcastTo_1b_ab_apply, shapeCast_a_1a_apply]
  exact congrArg (· + bias (ix1 n)) (Cert.LibDotNT.matmul_nt_apply M K N none X W r n)

/-- The rectifier at an index: the select between a value and the slope times it, on the value's sign, is the
    specification's leaky rectifier of the entry. -/
theorem leaky_apply {s : Shape} (v : FVec Ideal s .f32) (i : s.Idx) :
    select (cmpf .oge v (broadcast s (Scalar.ofBits .f32 0x00000000#32))) v
        (mulf (broadcast s (Scalar.ofBits .f32 0x3C23D70A#32)) v) i = leaky (v i) := rfl

theorem pay1_apply (v298 : FVec Ideal S64x2200 .bf16) (v300 : FVec Ideal S1000x2200 .bf16) (v302 : Vec Ideal S1000 .f32)
    (v312 : Vec Ideal S50x1000 .bf16) (v315 : Vec Ideal S50 .f32) (v325 : Vec Ideal S13x50 .bf16) (v328 : Vec Ideal S13 .f32)
    (r : Fin 64) (o : Fin 13) :
    k0_pay1 v298 v300 v302 v312 v315 v325 v328 (ix2 r o)
      = lin (fun k => leaky (lin (fun k => leaky (lin (fun k => v298 (ix2 r k)) (fun n k => v300 (ix2 n k)) (fun n => v302 (ix1 n)) k))
            (fun n k => v312 (ix2 n k)) (fun n => v315 (ix1 n)) k))
          (fun n k => v325 (ix2 n k)) (fun n => v328 (ix1 n)) o := by
  unfold k0_pay1
  refine (dense_apply 64 50 13 _ rfl _ _ _ _ _ r o).trans ?_
  rw [shapeCast_self v325]
  refine congrArg (fun f => lin f _ _ o) (funext fun k => ?_)
  rw [truncf_apply, leaky_apply]
  refine congrArg leaky ?_
  refine (dense_apply 64 1000 50 _ rfl _ _ _ _ _ r k).trans ?_
  rw [shapeCast_self v312]
  refine congrArg (fun f => lin f _ _ k) (funext fun k => ?_)
  rw [truncf_apply, leaky_apply]
  refine congrArg leaky ?_
  exact dense_apply 64 2200 1000 _ rfl _ _ _ _ _ r k

end Cert.KernelIdeal.KTail

end
-- ==== Proof.KPieces.lean ====
/-
  The kernel's first nineteen heads, each half read at an entry.

  Every head stacks two channel segments of the 64 × 57498 block (columns [a, a+L) and [a+28749, a+28749+L)) into a
  128-row operand, multiplies it by the head's 50 × L weight block contracted along the segment, adds the head's bias row,
  and cuts the result into its upper and lower 64 rows. At row r and output o the upper half is
  (∑ l, block (r, a + l) · w (o, l)) + bias (0, o), the lower half the same from column a + 28749. For the first three
  heads the block enters through a same-shape cast and a rounding, both the identity over the extended reals.
-/
import proofs.«414676_j67216238182882_3_alg».proof.Proof.Gen.KernelIdeal.Skeleton
import proofs.«414676_j67216238182882_3_alg».proof.Proof.KLib
import Idealize.ShloMosaic.Lib.Pipeline.Value
import Idealize.ShloMosaic.Lib.ValueIdx

noncomputable section

open scoped BigOperators

namespace Cert.KernelIdeal.KPieces

open Cert.KernelIdeal Cert.KernelIdeal.Gen Idealize.ShloMosaic Idealize.ShloMosaic.ValueIdx

/-- The block as the first three heads read it — cast to its own shape, then rounded — is the block itself, entry by entry. -/
theorem pay2_apply (v0 : Vec Ideal S64x57498 .f32) (i : S64x57498.Idx) : k0_pay2 v0 i = v0 i := by
  unfold k0_pay2
  rw [shapeCast_self]
  rfl

/-! Head 0: columns [0, 2490) and [28749, 31239). -/

theorem pay4_apply (v0 : Vec Ideal S64x57498 .f32) (w : Vec Ideal S50x2490 .bf16) (bv : Vec Ideal S1x50 .f32) (r : Fin 64) (o : Fin 50) :
    k0_pay4 v0 w bv (ix2 r o) = (∑ l : Fin 2490, v0 (ix2 r ⟨0 + l.val, by have := l.isLt; omega⟩) * w (ix2 o l)) + bv (ix2 0 o) := by
  unfold k0_pay4 k0_pay3
  refine (Cert.KLib.head_lo 57498 2490 0 28749 _ rfl (k0_pay2 v0) w bv _ _ _ _ _ _ _ _ (by norm_num) r o).trans ?_
  simp only [pay2_apply]

theorem pay5_apply (v0 : Vec Ideal S64x57498 .f32) (w : Vec Ideal S50x2490 .bf16) (bv : Vec Ideal S1x50 .f32) (r : Fin 64) (o : Fin 50) :
    k0_pay5 v0 w bv (ix2 r o) = (∑ l : Fin 2490, v0 (ix2 r ⟨28749 + l.val, by have := l.isLt; omega⟩) * w (ix2 o l)) + bv (ix2 0 o) := by
  unfold k0_pay5 k0_pay3
  refine (Cert.KLib.head_hi 57498 2490 0 28749 _ rfl (k0_pay2 v0) w bv _ _ _ _ _ _ _ _ (by norm_num) r o).trans ?_
  simp only [pay2_apply]

/-! Head 1: columns [2490, 4912) and [31239, 33661). -/

theorem pay7_apply (v0 : Vec Ideal S64x57498 .f32) (w : Vec Ideal S50x2422 .bf16) (bv : Vec Ideal S1x50 .f32) (r : Fin 64) (o : Fin 50) :
    k0_pay7 v0 w bv (ix2 r o) = (∑ l : Fin 2422, v0 (ix2 r ⟨2490 + l.val, by have := l.isLt; omega⟩) * w (ix2 o l)) + bv (ix2 0 o) := by
  unfold k0_pay7 k0_pay6
  refine (Cert.KLib.head_lo 57498 2422 2490 31239 _ rfl (k0_pay2 v0) w bv _ _ _ _ _ _ _ _ (by norm_num) r o).trans ?_
  simp only [pay2_apply]

theorem pay8_apply (v0 : Vec Ideal S64x57498 .f32) (w : Vec Ideal S50x2422 .bf16) (bv : Vec Ideal S1x50 .f32) (r : Fin 64) (o : Fin 50) :
    k0_pay8 v0 w bv (ix2 r o) = (∑ l : Fin 2422, v0 (ix2 r ⟨31239 + l.val, by have := l.isLt; omega⟩) * w (ix2 o l)) + bv (ix2 0 o) := by
  unfold k0_pay8 k0_pay6
  refine (Cert.KLib.head_hi 57498 2422 2490 31239 _ rfl (k0_pay2 v0) w bv _ _ _ _ _ _ _ _ (by norm_num) r o).trans ?_
  simp only [pay2_apply]

/-! Head 2: columns [4912, 6895) and [33661, 35644). -/

theorem pay10_apply (v0 : Vec Ideal S64x57498 .f32) (w : Vec Ideal S50x1983 .bf16) (bv : Vec Ideal S1x50 .f32) (r : Fin 64) (o : Fin 50) :
    k0_pay10 v0 w bv (ix2 r o) = (∑ l : Fin 1983, v0 (ix2 r ⟨4912 + l.val, by have := l.isLt; omega⟩) * w (ix2 o l)) + bv (ix2 0 o) := by
  unfold k0_pay10 k0_pay9
  refine (Cert.KLib.head_lo 57498 1983 4912 33661 _ rfl (k0_pay2 v0) w bv _ _ _ _ _ _ _ _ (by norm_num) r o).trans ?_
  simp only [pay2_apply]

theorem pay11_apply (v0 : Vec Ideal S64x57498 .f32) (w : Vec Ideal S50x1983 .bf16) (bv : Vec Ideal S1x50 .f32) (r : Fin 64) (o : Fin 50) :
    k0_pay11 v0 w bv (ix2 r o) = (∑ l : Fin 1983, v0 (ix2 r ⟨33661 + l.val, by have := l.isLt; omega⟩) * w (ix2 o l)) + bv (ix2 0 o) := by
  unfold k0_pay11 k0_pay9
  refine (Cert.KLib.head_hi 57498 1983 4912 33661 _ rfl (k0_pay2 v0) w bv _ _ _ _ _ _ _ _ (by norm_num) r o).trans ?_
  simp only [pay2_apply]

/-! Head 3: columns [6895, 8797) and [35644, 37546). -/

theorem pay13_apply (v2 : FVec Ideal S64x57498 .bf16) (w : Vec Ideal S50x1902 .bf16) (bv : Vec Ideal S1x50 .f32) (r : Fin 64) (o : Fin 50) :
    k0_pay13 v2 w bv (ix2 r o) = (∑ l : Fin 1902, v2 (ix2 r ⟨6895 + l.val, by have := l.isLt; omega⟩) * w (ix2 o l)) + bv (ix2 0 o) := by
  unfold k0_pay13 k0_pay12
  exact Cert.KLib.head_lo 57498 1902 6895 35644 _ rfl v2 w bv _ _ _ _ _ _ _ _ (by norm_num) r o

theorem pay14_apply (v2 : FVec Ideal S64x57498 .bf16) (w : Vec Ideal S50x1902 .bf16) (bv : Vec Ideal S1x50 .f32) (r : Fin 64) (o : Fin 50) :
    k0_pay14 v2 w bv (ix2 r o) = (∑ l : Fin 1902, v2 (ix2 r ⟨35644 + l.val, by have := l.isLt; omega⟩) * w (ix2 o l)) + bv (ix2 0 o) := by
  unfold k0_pay14 k0_pay12
  exact Cert.KLib.head_hi 57498 1902 6895 35644 _ rfl v2 w bv _ _ _ _ _ _ _ _ (by norm_num) r o

/-! Head 4: columns [8797, 10612) and [37546, 39361). -/

theorem pay16_apply (v2 : FVec Ideal S64x57498 .bf16) (w : Vec Ideal S50x1815 .bf16) (bv : Vec Ideal S1x50 .f32) (r : Fin 64) (o : Fin 50) :
    k0_pay16 v2 w bv (ix2 r o) = (∑ l : Fin 1815, v2 (ix2 r ⟨8797 + l.val, by have := l.isLt; omega⟩) * w (ix2 o l)) + bv (ix2 0 o) := by
  unfold k0_pay16 k0_pay15
  exact Cert.KLib.head_lo 57498 1815 8797 37546 _ rfl v2 w bv _ _ _ _ _ _ _ _ (by norm_num) r o

theorem pay17_apply (v2 : FVec Ideal S64x57498 .bf16) (w : Vec Ideal S50x1815 .bf16) (bv : Vec Ideal S1x50 .f32) (r : Fin 64) (o : Fin 50) :
    k0_pay17 v2 w bv (ix2 r o) = (∑ l : Fin 1815, v2 (ix2 r ⟨37546 + l.val, by have := l.isLt; omega⟩) * w (ix2 o l)) + bv (ix2 0 o) := by
  unfold k0_pay17 k0_pay15
  exact Cert.KLib.head_hi 57498 1815 8797 37546 _ rfl v2 w bv _ _ _ _ _ _ _ _ (by norm_num) r o

/-! Head 5: columns [10612, 12320) and [39361, 41069). -/

theorem pay19_apply (v2 : FVec Ideal S64x57498 .bf16) (w : Vec Ideal S50x1708 .bf16) (bv : Vec Ideal S1x50 .f32) (r : Fin 64) (o : Fin 50) :
    k0_pay19 v2 w bv (ix2 r o) = (∑ l : Fin 1708, v2 (ix2 r ⟨10612 + l.val, by have := l.isLt; omega⟩) * w (ix2 o l)) + bv (ix2 0 o) := by
  unfold k0_pay19 k0_pay18
  exact Cert.KLib.head_lo 57498 1708 10612 39361 _ rfl v2 w bv _ _ _ _ _ _ _ _ (by norm_num) r o

theorem pay20_apply (v2 : FVec Ideal S64x57498 .bf16) (w : Vec Ideal S50x1708 .bf16) (bv : Vec Ideal S1x50 .f32) (r : Fin 64) (o : Fin 50) :
    k0_pay20 v2 w bv (ix2 r o) = (∑ l : Fin 1708, v2 (ix2 r ⟨39361 + l.val, by have := l.isLt; omega⟩) * w (ix2 o l)) + bv (ix2 0 o) := by
  unfold k0_pay20 k0_pay18
  exact Cert.KLib.head_hi 57498 1708 10612 39361 _ rfl v2 w bv _ _ _ _ _ _ _ _ (by norm_num) r o

/-! Head 6: columns [12320, 13913) and [41069, 42662). -/

theorem pay23_apply (v2 : FVec Ideal S64x57498 .bf16) (w : Vec Ideal S50x1593 .bf16) (bv : Vec Ideal S1x50 .f32) (r : Fin 64) (o : Fin 50) :
    k0_pay23 (k0_pay21 v2) w bv (ix2 r o) = (∑ l : Fin 1593, v2 (ix2 r ⟨12320 + l.val, by have := l.isLt; omega⟩) * w (ix2 o l)) + bv (ix2 0 o) := by
  unfold k0_pay23 k0_pay22 k0_pay21
  exact Cert.KLib.head_lo 57498 1593 12320 41069 _ rfl v2 w bv _ _ _ _ _ _ _ _ (by norm_num) r o

theorem pay24_apply (v2 : FVec Ideal S64x57498 .bf16) (w : Vec Ideal S50x1593 .bf16) (bv : Vec Ideal S1x50 .f32) (r : Fin 64) (o : Fin 50) :
    k0_pay24 (k0_pay21 v2) w bv (ix2 r o) = (∑ l : Fin 1593, v2 (ix2 r ⟨41069 + l.val, by have := l.isLt; omega⟩) * w (ix2 o l)) + bv (ix2 0 o) := by
  unfold k0_pay24 k0_pay22 k0_pay21
  exact Cert.KLib.head_hi 57498 1593 12320 41069 _ rfl v2 w bv _ _ _ _ _ _ _ _ (by norm_num) r o

/-! Head 7: columns [13913, 15364) and [42662, 44113). -/

theorem pay26_apply (v2 : FVec Ideal S64x57498 .bf16) (w : Vec Ideal S50x1451 .bf16) (bv : Vec Ideal S1x50 .f32) (r : Fin 64) (o : Fin 50) :
    k0_pay26 v2 w bv (ix2 r o) = (∑ l : Fin 1451, v2 (ix2 r ⟨13913 + l.val, by have := l.isLt; omega⟩) * w (ix2 o l)) + bv (ix2 0 o) := by
  unfold k0_pay26 k0_pay25
  exact Cert.KLib.head_lo 57498 1451 13913 42662 _ rfl v2 w bv _ _ _ _ _ _ _ _ (by norm_num) r o

theorem pay27_apply (v2 : FVec Ideal S64x57498 .bf16) (w : Vec Ideal S50x1451 .bf16) (bv : Vec Ideal S1x50 .f32) (r : Fin 64) (o : Fin 50) :
    k0_pay27 v2 w bv (ix2 r o) = (∑ l : Fin 1451, v2 (ix2 r ⟨42662 + l.val, by have := l.isLt; omega⟩) * w (ix2 o l)) + bv (ix2 0 o) := by
  unfold k0_pay27 k0_pay25
  exact Cert.KLib.head_hi 57498 1451 13913 42662 _ rfl v2 w bv _ _ _ _ _ _ _ _ (by norm_num) r o

/-! Head 8: columns [15364, 16748) and [44113, 45497). -/

theorem pay29_apply (v2 : FVec Ideal S64x57498 .bf16) (w : Vec Ideal S50x1384 .bf16) (bv : Vec Ideal S1x50 .f32) (r : Fin 64) (o : Fin 50) :
    k0_pay29 v2 w bv (ix2 r o) = (∑ l : Fin 1384, v2 (ix2 r ⟨15364 + l.val, by have := l.isLt; omega⟩) * w (ix2 o l)) + bv (ix2 0 o) := by
  unfold k0_pay29 k0_pay28
  exact Cert.KLib.head_lo 57498 1384 15364 44113 _ rfl v2 w bv _ _ _ _ _ _ _ _ (by norm_num) r o

theorem pay30_apply (v2 : FVec Ideal S64x57498 .bf16) (w : Vec Ideal S50x1384 .bf16) (bv : Vec Ideal S1x50 .f32) (r : Fin 64) (o : Fin 50) :
    k0_pay30 v2 w bv (ix2 r o) = (∑ l : Fin 1384, v2 (ix2 r ⟨44113 + l.val, by have := l.isLt; omega⟩) * w (ix2 o l)) + bv (ix2 0 o) := by
  unfold k0_pay30 k0_pay28
  exact Cert.KLib.head_hi 57498 1384 15364 44113 _ rfl v2 w bv _ _ _ _ _ _ _ _ (by norm_num) r o

/-! Head 9: columns [16748, 18086) and [45497, 46835). -/

theorem pay33_apply (v2 : FVec Ideal S64x57498 .bf16) (w : Vec Ideal S50x1338 .bf16) (bv : Vec Ideal S1x50 .f32) (r : Fin 64) (o : Fin 50) :
    k0_pay33 (k0_pay31 v2 w) bv (ix2 r o) = (∑ l : Fin 1338, v2 (ix2 r ⟨16748 + l.val, by have := l.isLt; omega⟩) * w (ix2 o l)) + bv (ix2 0 o) := by
  unfold k0_pay33 k0_pay32 k0_pay31
  exact Cert.KLib.head_lo 57498 1338 16748 45497 _ rfl v2 w bv _ _ _ _ _ _ _ _ (by norm_num) r o

theorem pay34_apply (v2 : FVec Ideal S64x57498 .bf16) (w : Vec Ideal S50x1338 .bf16) (bv : Vec Ideal S1x50 .f32) (r : Fin 64) (o : Fin 50) :
    k0_pay34 (k0_pay31 v2 w) bv (ix2 r o) = (∑ l : Fin 1338, v2 (ix2 r ⟨45497 + l.val, by have := l.isLt; omega⟩) * w (ix2 o l)) + bv (ix2 0 o) := by
  unfold k0_pay34 k0_pay32 k0_pay31
  exact Cert.KLib.head_hi 57498 1338 16748 45497 _ rfl v2 w bv _ _ _ _ _ _ _ _ (by norm_num) r o

/-! Head 10: columns [18086, 19437) and [46835, 48186). -/

theorem pay36_apply (v2 : FVec Ideal S64x57498 .bf16) (w : Vec Ideal S50x1351 .bf16) (bv : Vec Ideal S1x50 .f32) (r : Fin 64) (o : Fin 50) :
    k0_pay36 v2 w bv (ix2 r o) = (∑ l : Fin 1351, v2 (ix2 r ⟨18086 + l.val, by have := l.isLt; omega⟩) * w (ix2 o l)) + bv (ix2 0 o) := by
  unfold k0_pay36 k0_pay35
  exact Cert.KLib.head_lo 57498 1351 18086 46835 _ rfl v2 w bv _ _ _ _ _ _ _ _ (by norm_num) r o

theorem pay37_apply (v2 : FVec Ideal S64x57498 .bf16) (w : Vec Ideal S50x1351 .bf16) (bv : Vec Ideal S1x50 .f32) (r : Fin 64) (o : Fin 50) :
    k0_pay37 v2 w bv (ix2 r o) = (∑ l : Fin 1351, v2 (ix2 r ⟨46835 + l.val, by have := l.isLt; omega⟩) * w (ix2 o l)) + bv (ix2 0 o) := by
  unfold k0_pay37 k0_pay35
  exact Cert.KLib.head_hi 57498 1351 18086 46835 _ rfl v2 w bv _ _ _ _ _ _ _ _ (by norm_num) r o

/-! Head 11: columns [19437, 20770) and [48186, 49519). -/

theorem pay39_apply (v2 : FVec Ideal S64x57498 .bf16) (w : Vec Ideal S50x1333 .bf16) (bv : Vec Ideal S1x50 .f32) (r : Fin 64) (o : Fin 50) :
    k0_pay39 v2 w bv (ix2 r o) = (∑ l : Fin 1333, v2 (ix2 r ⟨19437 + l.val, by have := l.isLt; omega⟩) * w (ix2 o l)) + bv (ix2 0 o) := by
  unfold k0_pay39 k0_pay38
  exact Cert.KLib.head_lo 57498 1333 19437 48186 _ rfl v2 w bv _ _ _ _ _ _ _ _ (by norm_num) r o

theorem pay40_apply (v2 : FVec Ideal S64x57498 .bf16) (w : Vec Ideal S50x1333 .bf16) (bv : Vec Ideal S1x50 .f32) (r : Fin 64) (o : Fin 50) :
    k0_pay40 v2 w bv (ix2 r o) = (∑ l : Fin 1333, v2 (ix2 r ⟨48186 + l.val, by have := l.isLt; omega⟩) * w (ix2 o l)) + bv (ix2 0 o) := by
  unfold k0_pay40 k0_pay38
  exact Cert.KLib.head_hi 57498 1333 19437 48186 _ rfl v2 w bv _ _ _ _ _ _ _ _ (by norm_num) r o

/-! Head 12: columns [20770, 21914) and [49519, 50663). -/

theorem pay42_apply (v2 : FVec Ideal S64x57498 .bf16) (w : Vec Ideal S50x1144 .bf16) (bv : Vec Ideal S1x50 .f32) (r : Fin 64) (o : Fin 50) :
    k0_pay42 v2 w bv (ix2 r o) = (∑ l : Fin 1144, v2 (ix2 r ⟨20770 + l.val, by have := l.isLt; omega⟩) * w (ix2 o l)) + bv (ix2 0 o) := by
  unfold k0_pay42 k0_pay41
  exact Cert.KLib.head_lo 57498 1144 20770 49519 _ rfl v2 w bv _ _ _ _ _ _ _ _ (by norm_num) r o

theorem pay43_apply (v2 : FVec Ideal S64x57498 .bf16) (w : Vec Ideal S50x1144 .bf16) (bv : Vec Ideal S1x50 .f32) (r : Fin 64) (o : Fin 50) :
    k0_pay43 v2 w bv (ix2 r o) = (∑ l : Fin 1144, v2 (ix2 r ⟨49519 + l.val, by have := l.isLt; omega⟩) * w (ix2 o l)) + bv (ix2 0 o) := by
  unfold k0_pay43 k0_pay41
  exact Cert.KLib.head_hi 57498 1144 20770 49519 _ rfl v2 w bv _ _ _ _ _ _ _ _ (by norm_num) r o

/-! Head 13: columns [21914, 22984) and [50663, 51733). -/

theorem pay45_apply (v2 : FVec Ideal S64x57498 .bf16) (w : Vec Ideal S50x1070 .bf16) (bv : Vec Ideal S1x50 .f32) (r : Fin 64) (o : Fin 50) :
    k0_pay45 v2 w bv (ix2 r o) = (∑ l : Fin 1070, v2 (ix2 r ⟨21914 + l.val, by have := l.isLt; omega⟩) * w (ix2 o l)) + bv (ix2 0 o) := by
  unfold k0_pay45 k0_pay44
  exact Cert.KLib.head_lo 57498 1070 21914 50663 _ rfl v2 w bv _ _ _ _ _ _ _ _ (by norm_num) r o

theorem pay46_apply (v2 : FVec Ideal S64x57498 .bf16) (w : Vec Ideal S50x1070 .bf16) (bv : Vec Ideal S1x50 .f32) (r : Fin 64) (o : Fin 50) :
    k0_pay46 v2 w bv (ix2 r o) = (∑ l : Fin 1070, v2 (ix2 r ⟨50663 + l.val, by have := l.isLt; omega⟩) * w (ix2 o l)) + bv (ix2 0 o) := by
  unfold k0_pay46 k0_pay44
  exact Cert.KLib.head_hi 57498 1070 21914 50663 _ rfl v2 w bv _ _ _ _ _ _ _ _ (by norm_num) r o

/-! Head 14: columns [22984, 24004) and [51733, 52753). -/

theorem pay48_apply (v2 : FVec Ideal S64x57498 .bf16) (w : Vec Ideal S50x1020 .bf16) (bv : Vec Ideal S1x50 .f32) (r : Fin 64) (o : Fin 50) :
    k0_pay48 v2 w bv (ix2 r o) = (∑ l : Fin 1020, v2 (ix2 r ⟨22984 + l.val, by have := l.isLt; omega⟩) * w (ix2 o l)) + bv (ix2 0 o) := by
  unfold k0_pay48 k0_pay47
  exact Cert.KLib.head_lo 57498 1020 22984 51733 _ rfl v2 w bv _ _ _ _ _ _ _ _ (by norm_num) r o

theorem pay49_apply (v2 : FVec Ideal S64x57498 .bf16) (w : Vec Ideal S50x1020 .bf16) (bv : Vec Ideal S1x50 .f32) (r : Fin 64) (o : Fin 50) :
    k0_pay49 v2 w bv (ix2 r o) = (∑ l : Fin 1020, v2 (ix2 r ⟨51733 + l.val, by have := l.isLt; omega⟩) * w (ix2 o l)) + bv (ix2 0 o) := by
  unfold k0_pay49 k0_pay47
  exact Cert.KLib.head_hi 57498 1020 22984 51733 _ rfl v2 w bv _ _ _ _ _ _ _ _ (by norm_num) r o

/-! Head 15: columns [24004, 24907) and [52753, 53656). -/

theorem pay51_apply (v2 : FVec Ideal S64x57498 .bf16) (w : Vec Ideal S50x903 .bf16) (bv : Vec Ideal S1x50 .f32) (r : Fin 64) (o : Fin 50) :
    k0_pay51 v2 w bv (ix2 r o) = (∑ l : Fin 903, v2 (ix2 r ⟨24004 + l.val, by have := l.isLt; omega⟩) * w (ix2 o l)) + bv (ix2 0 o) := by
  unfold k0_pay51 k0_pay50
  exact Cert.KLib.head_lo 57498 903 24004 52753 _ rfl v2 w bv _ _ _ _ _ _ _ _ (by norm_num) r o

theorem pay52_apply (v2 : FVec Ideal S64x57498 .bf16) (w : Vec Ideal S50x903 .bf16) (bv : Vec Ideal S1x50 .f32) (r : Fin 64) (o : Fin 50) :
    k0_pay52 v2 w bv (ix2 r o) = (∑ l : Fin 903, v2 (ix2 r ⟨52753 + l.val, by have := l.isLt; omega⟩) * w (ix2 o l)) + bv (ix2 0 o) := by
  unfold k0_pay52 k0_pay50
  exact Cert.KLib.head_hi 57498 903 24004 52753 _ rfl v2 w bv _ _ _ _ _ _ _ _ (by norm_num) r o

/-! Head 16: columns [24907, 25740) and [53656, 54489). -/

theorem pay55_apply (v2 : FVec Ideal S64x57498 .bf16) (w : Vec Ideal S50x833 .bf16) (bv : Vec Ideal S1x50 .f32) (r : Fin 64) (o : Fin 50) :
    k0_pay55 (k0_pay53 v2) w bv (ix2 r o) = (∑ l : Fin 833, v2 (ix2 r ⟨24907 + l.val, by have := l.isLt; omega⟩) * w (ix2 o l)) + bv (ix2 0 o) := by
  unfold k0_pay55 k0_pay54 k0_pay53
  exact Cert.KLib.head_lo 57498 833 24907 53656 _ rfl v2 w bv _ _ _ _ _ _ _ _ (by norm_num) r o

theorem pay56_apply (v2 : FVec Ideal S64x57498 .bf16) (w : Vec Ideal S50x833 .bf16) (bv : Vec Ideal S1x50 .f32) (r : Fin 64) (o : Fin 50) :
    k0_pay56 (k0_pay53 v2) w bv (ix2 r o) = (∑ l : Fin 833, v2 (ix2 r ⟨53656 + l.val, by have := l.isLt; omega⟩) * w (ix2 o l)) + bv (ix2 0 o) := by
  unfold k0_pay56 k0_pay54 k0_pay53
  exact Cert.KLib.head_hi 57498 833 24907 53656 _ rfl v2 w bv _ _ _ _ _ _ _ _ (by norm_num) r o

/-! Head 17: columns [25740, 26544) and [54489, 55293). -/

theorem pay58_apply (v2 : FVec Ideal S64x57498 .bf16) (w : Vec Ideal S50x804 .bf16) (bv : Vec Ideal S1x50 .f32) (r : Fin 64) (o : Fin 50) :
    k0_pay58 v2 w bv (ix2 r o) = (∑ l : Fin 804, v2 (ix2 r ⟨25740 + l.val, by have := l.isLt; omega⟩) * w (ix2 o l)) + bv (ix2 0 o) := by
  unfold k0_pay58 k0_pay57
  exact Cert.KLib.head_lo 57498 804 25740 54489 _ rfl v2 w bv _ _ _ _ _ _ _ _ (by norm_num) r o

theorem pay59_apply (v2 : FVec Ideal S64x57498 .bf16) (w : Vec Ideal S50x804 .bf16) (bv : Vec Ideal S1x50 .f32) (r : Fin 64) (o : Fin 50) :
    k0_pay59 v2 w bv (ix2 r o) = (∑ l : Fin 804, v2 (ix2 r ⟨54489 + l.val, by have := l.isLt; omega⟩) * w (ix2 o l)) + bv (ix2 0 o) := by
  unfold k0_pay59 k0_pay57
  exact Cert.KLib.head_hi 57498 804 25740 54489 _ rfl v2 w bv _ _ _ _ _ _ _ _ (by norm_num) r o

/-! Head 18: columns [26544, 27130) and [55293, 55879). -/

theorem pay61_apply (v2 : FVec Ideal S64x57498 .bf16) (w : Vec Ideal S50x586 .bf16) (bv : Vec Ideal S1x50 .f32) (r : Fin 64) (o : Fin 50) :
    k0_pay61 v2 w bv (ix2 r o) = (∑ l : Fin 586, v2 (ix2 r ⟨26544 + l.val, by have := l.isLt; omega⟩) * w (ix2 o l)) + bv (ix2 0 o) := by
  unfold k0_pay61 k0_pay60
  exact Cert.KLib.head_lo 57498 586 26544 55293 _ rfl v2 w bv _ _ _ _ _ _ _ _ (by norm_num) r o

theorem pay62_apply (v2 : FVec Ideal S64x57498 .bf16) (w : Vec Ideal S50x586 .bf16) (bv : Vec Ideal S1x50 .f32) (r : Fin 64) (o : Fin 50) :
    k0_pay62 v2 w bv (ix2 r o) = (∑ l : Fin 586, v2 (ix2 r ⟨55293 + l.val, by have := l.isLt; omega⟩) * w (ix2 o l)) + bv (ix2 0 o) := by
  unfold k0_pay62 k0_pay60
  exact Cert.KLib.head_hi 57498 586 26544 55293 _ rfl v2 w bv _ _ _ _ _ _ _ _ (by norm_num) r o

end Cert.KernelIdeal.KPieces

end
-- ==== Proof.KBody.lean ====
/-
  The kernel body's result block read at an entry: row r of the 64-row output block is the network applied to row r of
  the 64-row input block (the two channels side by side in one row of 57498 columns) with the weight and bias blocks.
-/
import proofs.«414676_j67216238182882_3_alg».proof.Proof.Gen.KernelIdeal.Frame
import proofs.«414676_j67216238182882_3_alg».proof.Proof.Spec
import proofs.«414676_j67216238182882_3_alg».proof.Proof.KLib
import proofs.«414676_j67216238182882_3_alg».proof.Proof.KTail
import proofs.«414676_j67216238182882_3_alg».proof.Proof.KPieces

noncomputable section

open scoped BigOperators

namespace Cert.KernelIdeal.KBody

open Cert.KernelIdeal Cert.KernelIdeal.Gen Idealize.ShloMosaic Idealize.ShloMosaic.ValueIdx Cert.Fused

/-! ## Loads through literal rectangles -/

theorem hz2 : (![0, 0] : Fin 2 → Nat) = fun _ => 0 := funext fun a => by fin_cases a <;> rfl
theorem hz1 : (![0] : Fin 1 → Nat) = fun _ => 0 := funext fun a => by fin_cases a; rfl

section Loads
variable {Val : EltTy → Type} {e : EltTy}

/-- A load of the columns [a, a + L) of every row reads, at (o, l), the block at (o, a + l). -/
theorem ld_cols {N C L : Nat} (X : (⟨2, ![N, C]⟩ : Shape).Idx → Val e) (a : Nat)
    (inb : ∀ ax, (![0, a] : Fin 2 → Nat) ax + (![N, L] : Fin 2 → Nat) ax ≤ (⟨2, ![N, C]⟩ : Shape).size ax)
    (o : Fin N) (l : Fin L) (h : a + l.val < C) :
    View.ld X (Rect.unit (s := ⟨2, ![N, C]⟩) ![0, a] ![N, L] inb) (ix2 o l) = X (ix2 o ⟨a + l.val, h⟩) := by
  show X _ = X _
  congr 1
  funext ax
  apply Fin.ext
  match ax with
  | ⟨0, _⟩ => show 0 + 1 * o.val = o.val; omega
  | ⟨1, _⟩ => show a + 1 * l.val = a + l.val; omega

/-- A load of row i reads, at (0, o), the block at (i, o). -/
theorem ld_row {N C : Nat} (X : (⟨2, ![N, C]⟩ : Shape).Idx → Val e) (i : Nat)
    (inb : ∀ ax, (![i, 0] : Fin 2 → Nat) ax + (![1, C] : Fin 2 → Nat) ax ≤ (⟨2, ![N, C]⟩ : Shape).size ax)
    (u : Fin 1) (o : Fin C) (h : i < N) :
    View.ld X (Rect.unit (s := ⟨2, ![N, C]⟩) ![i, 0] ![1, C] inb) (ix2 u o) = X (ix2 ⟨i, h⟩ o) := by
  show X _ = X _
  congr 1
  funext ax
  apply Fin.ext
  match ax with
  | ⟨0, _⟩ => show i + 1 * u.val = i; omega
  | ⟨1, _⟩ => show 0 + 1 * o.val = o.val; omega

end Loads

/-! ## The first dense layer -/

theorem dot2200_eq : dot_S64x2200_S2200x2200_S64x2200_1_1_0_0_n_n = DotDims.transposedRhs 64 2200 2200 := rfl

/-- The first dense layer on a 64 × 2200 block of combined features, at (r, n): the affine layer on row r. -/
theorem dense1_apply (v289 : FVec Ideal S64x2200 .f32) (v291 : Vec Ideal S2200x2200 .bf16) (v294 : Vec Ideal S2200 .f32)
    (r : Fin 64) (n : Fin 2200) :
    (truncf .bf16 (addf (matmul dot_S64x2200_S2200x2200_S64x2200_1_1_0_0_n_n none (truncf .bf16 v289 bitsLt_bf16_f32)
        (shapeCast S2200x2200 v291 shapeCasts_S2200x2200_S2200x2200 : FVec Ideal S2200x2200 .bf16) (constant S64x2200 .f32 0x00000000#32))
      (broadcastTo S64x2200 (shapeCast S1x2200 v294 shapeCasts_S2200_S1x2200 : FVec Ideal S1x2200 .f32) broadcasts_S1x2200_S64x2200)) bitsLt_bf16_f32
      : FVec Ideal S64x2200 .bf16) (ix2 r n)
      = lin (fun k => v289 (ix2 r k)) (fun n k => v291 (ix2 n k)) (fun n => v294 (ix1 n)) n := by
  rw [truncf_apply, addf_apply]
  unfold lin
  congr 1
  · simp only [matmul]
    rw [dot2200_eq]
    refine (Cert.LibDotNT.matmul_nt_apply 64 2200 2200 none _ _ r n).trans ?_
    refine Finset.sum_congr rfl fun k _ => ?_
    rw [shapeCast_self]
    rfl
  · refine (broadcastTo_1b_ab_apply _ _ r n).trans ?_
    exact shapeCast_a_1a_apply v294 _ 0 n

/-! ## The combined features: 44 blocks side by side -/

/-- Blocks of 64 × 50 laid side by side, read at (r, j): block j / 50 at (r, j % 50). -/
theorem join_apply (f : Fin 44 → (S64x50.Idx → EReal))
    (h : Shape.Concatenates ((List.ofFn fun n : Fin 44 => (⟨S64x50, f n⟩ : (s : Shape) × (s.Idx → EReal))).map (·.1)) S64x2200 1)
    (r : Fin 64) (j : Fin 2200) :
    concatenate S64x2200 1 (List.ofFn fun n : Fin 44 => (⟨S64x50, f n⟩ : (s : Shape) × (s.Idx → EReal))) h (ix2 r j)
      = f ⟨j.val / 50, by have := j.isLt; omega⟩ (ix2 r ⟨j.val % 50, Nat.mod_lt _ (by norm_num)⟩) := by
  refine concatenate_ofFn_apply (t := S64x2200) (s₁ := S64x50) (1 : Fin 2) f h rfl 50 rfl (ix2 r j) ⟨j.val / 50, by have := j.isLt; omega⟩ rfl
    (ix2 r ⟨j.val % 50, Nat.mod_lt _ (by norm_num)⟩) rfl ?_
  intro b hb
  match b with
  | ⟨0, _⟩ => rfl
  | ⟨1, _⟩ => exact absurd rfl hb

/-- The 44 blocks the first dense layer reads: the 38 blocks of heads 0–18 as given, then the two halves of heads 19, 20, 21
    (head 19 from its product block and bias row, heads 20 and 21 from the rounded input block, their weight blocks and bias rows). -/
def feat (v2 : FVec Ideal S64x57498 .bf16) (v14 v15 v27 v28 v40 v41 v53 v54 v66 v67 v79 v80 v92 v93 v105 v106 v118 v119 v131 v132 v144 v145 v157 v158 v170 v171 v183 v184 v196 v197 v209 v210 v222 v223 v235 v236 v248 v249 : FVec Ideal S64x50 .f32)
    (v255 : FVec Ideal S128x50 .f32) (v256 : Vec Ideal S1x50 .f32) (v266 : Vec Ideal S50x467 .bf16) (v269 : Vec Ideal S1x50 .f32)
    (v279 : Vec Ideal S50x508 .bf16) (v282 : Vec Ideal S1x50 .f32) : Fin 44 → (S64x50.Idx → EReal) :=
  ![v14, v15, v27, v28, v40, v41, v53, v54, v66, v67, v79, v80, v92, v93, v105, v106, v118, v119, v131, v132, v144, v145, v157, v158, v170, v171, v183, v184, v196, v197, v209, v210, v222, v223, v235, v236, v248, v249,
    (extractStridedSlice S64x50 ![0, 0] (addf v255 (broadcastTo S128x50 (shapeCast S1x50 (shapeCast S50 v256 shapeCasts_S1x50_S50 : FVec Ideal S50 .f32) shapeCasts_S50_S1x50 : FVec Ideal S1x50 .f32) broadcasts_S1x50_S128x50)) slices_S128x50_o0_0_S64x50),
    (extractStridedSlice S64x50 ![64, 0] (addf v255 (broadcastTo S128x50 (shapeCast S1x50 (shapeCast S50 v256 shapeCasts_S1x50_S50 : FVec Ideal S50 .f32) shapeCasts_S50_S1x50 : FVec Ideal S1x50 .f32) broadcasts_S1x50_S128x50)) slices_S128x50_o64_0_S64x50),
    (extractStridedSlice S64x50 ![0, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 v266 shapeCasts_S50x467_S50x467 : FVec Ideal S50x467 .bf16) (constant S128x50 .f32 0x00000000#32))
      (broadcastTo S128x50 (shapeCast S1x50 (shapeCast S50 v269 shapeCasts_S1x50_S50 : FVec Ideal S50 .f32) shapeCasts_S50_S1x50 : FVec Ideal S1x50 .f32) broadcasts_S1x50_S128x50)) slices_S128x50_o0_0_S64x50),
    (extractStridedSlice S64x50 ![64, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 v266 shapeCasts_S50x467_S50x467 : FVec Ideal S50x467 .bf16) (constant S128x50 .f32 0x00000000#32))
      (broadcastTo S128x50 (shapeCast S1x50 (shapeCast S50 v269 shapeCasts_S1x50_S50 : FVec Ideal S50 .f32) shapeCasts_S50_S1x50 : FVec Ideal S1x50 .f32) broadcasts_S1x50_S128x50)) slices_S128x50_o64_0_S64x50),
    (extractStridedSlice S64x50 ![0, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 v279 shapeCasts_S50x508_S50x508 : FVec Ideal S50x508 .bf16) (constant S128x50 .f32 0x00000000#32))
      (broadcastTo S128x50 (shapeCast S1x50 (shapeCast S50 v282 shapeCasts_S1x50_S50 : FVec Ideal S50 .f32) shapeCasts_S50_S1x50 : FVec Ideal S1x50 .f32) broadcasts_S1x50_S128x50)) slices_S128x50_o0_0_S64x50),
    (extractStridedSlice S64x50 ![64, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 v279 shapeCasts_S50x508_S50x508 : FVec Ideal S50x508 .bf16) (constant S128x50 .f32 0x00000000#32))
      (broadcastTo S128x50 (shapeCast S1x50 (shapeCast S50 v282 shapeCasts_S1x50_S50 : FVec Ideal S50 .f32) shapeCasts_S50_S1x50 : FVec Ideal S1x50 .f32) broadcasts_S1x50_S128x50)) slices_S128x50_o64_0_S64x50)]

/-- The first dense layer's block at (r, n): the affine layer on the 2200 combined features of row r. -/
theorem pay64_apply (v2 : FVec Ideal S64x57498 .bf16) (v14 v15 v27 v28 v40 v41 v53 v54 v66 v67 v79 v80 v92 v93 v105 v106 v118 v119 v131 v132 v144 v145 v157 v158 v170 v171 v183 v184 v196 v197 v209 v210 v222 v223 v235 v236 v248 v249 : FVec Ideal S64x50 .f32)
    (v255 : FVec Ideal S128x50 .f32) (v256 : Vec Ideal S1x50 .f32) (v266 : Vec Ideal S50x467 .bf16) (v269 : Vec Ideal S1x50 .f32)
    (v279 : Vec Ideal S50x508 .bf16) (v282 : Vec Ideal S1x50 .f32)
    (v291 : Vec Ideal S2200x2200 .bf16) (v294 : Vec Ideal S2200 .f32) (r : Fin 64) (n : Fin 2200) :
    k0_pay64 v2 v14 v15 v27 v28 v40 v41 v53 v54 v66 v67 v79 v80 v92 v93 v105 v106 v118 v119 v131 v132 v144 v145 v157 v158 v170 v171 v183 v184 v196 v197 v209 v210 v222 v223 v235 v236 v248 v249 v255 v256 v266 v269 v279 v282 v291 v294 (ix2 r n)
      = lin (fun j => feat v2 v14 v15 v27 v28 v40 v41 v53 v54 v66 v67 v79 v80 v92 v93 v105 v106 v118 v119 v131 v132 v144 v145 v157 v158 v170 v171 v183 v184 v196 v197 v209 v210 v222 v223 v235 v236 v248 v249 v255 v256 v266 v269 v279 v282 ⟨j.val / 50, by have := j.isLt; omega⟩ (ix2 r ⟨j.val % 50, Nat.mod_lt _ (by norm_num)⟩))
          (fun n k => v291 (ix2 n k)) (fun n => v294 (ix1 n)) n := by
  unfold k0_pay64
  refine (dense1_apply _ v291 v294 r n).trans ?_
  congr 1
  funext j
  exact join_apply (feat v2 v14 v15 v27 v28 v40 v41 v53 v54 v66 v67 v79 v80 v92 v93 v105 v106 v118 v119 v131 v132 v144 v145 v157 v158 v170 v171 v183 v184 v196 v197 v209 v210 v222 v223 v235 v236 v248 v249 v255 v256 v266 v269 v279 v282) _ r j

/-! ## Heads 19, 20, 21, whose halves the first dense layer's block computes itself -/

theorem h19lo_apply (v2 : FVec Ideal S64x57498 .bf16) (w : Vec Ideal S50x644 .bf16) (bv : Vec Ideal S1x50 .f32) (r : Fin 64) (o : Fin 50) :
    (extractStridedSlice S64x50 ![0, 0] (addf (k0_pay63 v2 w) (broadcastTo S128x50 (shapeCast S1x50 (shapeCast S50 bv shapeCasts_S1x50_S50 : FVec Ideal S50 .f32) shapeCasts_S50_S1x50 : FVec Ideal S1x50 .f32) broadcasts_S1x50_S128x50)) slices_S128x50_o0_0_S64x50 : FVec Ideal S64x50 .f32) (ix2 r o)
      = (∑ l : Fin 644, v2 (ix2 r ⟨27130 + l.val, by have := l.isLt; omega⟩) * w (ix2 o l)) + bv (ix2 0 o) := by
  unfold k0_pay63
  exact Cert.KLib.head_lo 57498 644 27130 55879 _ rfl v2 w bv _ _ _ _ _ _ _ _ (by norm_num) r o

theorem h19hi_apply (v2 : FVec Ideal S64x57498 .bf16) (w : Vec Ideal S50x644 .bf16) (bv : Vec Ideal S1x50 .f32) (r : Fin 64) (o : Fin 50) :
    (extractStridedSlice S64x50 ![64, 0] (addf (k0_pay63 v2 w) (broadcastTo S128x50 (shapeCast S1x50 (shapeCast S50 bv shapeCasts_S1x50_S50 : FVec Ideal S50 .f32) shapeCasts_S50_S1x50 : FVec Ideal S1x50 .f32) broadcasts_S1x50_S128x50)) slices_S128x50_o64_0_S64x50 : FVec Ideal S64x50 .f32) (ix2 r o)
      = (∑ l : Fin 644, v2 (ix2 r ⟨55879 + l.val, by have := l.isLt; omega⟩) * w (ix2 o l)) + bv (ix2 0 o) := by
  unfold k0_pay63
  exact Cert.KLib.head_hi 57498 644 27130 55879 _ rfl v2 w bv _ _ _ _ _ _ _ _ (by norm_num) r o

theorem h20lo_apply (v2 : FVec Ideal S64x57498 .bf16) (w : Vec Ideal S50x467 .bf16) (bv : Vec Ideal S1x50 .f32) (r : Fin 64) (o : Fin 50) :
    (extractStridedSlice S64x50 ![0, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 w shapeCasts_S50x467_S50x467 : FVec Ideal S50x467 .bf16) (constant S128x50 .f32 0x00000000#32))
      (broadcastTo S128x50 (shapeCast S1x50 (shapeCast S50 bv shapeCasts_S1x50_S50 : FVec Ideal S50 .f32) shapeCasts_S50_S1x50 : FVec Ideal S1x50 .f32) broadcasts_S1x50_S128x50)) slices_S128x50_o0_0_S64x50 : FVec Ideal S64x50 .f32) (ix2 r o)
      = (∑ l : Fin 467, v2 (ix2 r ⟨27774 + l.val, by have := l.isLt; omega⟩) * w (ix2 o l)) + bv (ix2 0 o) := by
  exact Cert.KLib.head_lo 57498 467 27774 56523 _ rfl v2 w bv _ _ _ _ _ _ _ _ (by norm_num) r o

theorem h20hi_apply (v2 : FVec Ideal S64x57498 .bf16) (w : Vec Ideal S50x467 .bf16) (bv : Vec Ideal S1x50 .f32) (r : Fin 64) (o : Fin 50) :
    (extractStridedSlice S64x50 ![64, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 w shapeCasts_S50x467_S50x467 : FVec Ideal S50x467 .bf16) (constant S128x50 .f32 0x00000000#32))
      (broadcastTo S128x50 (shapeCast S1x50 (shapeCast S50 bv shapeCasts_S1x50_S50 : FVec Ideal S50 .f32) shapeCasts_S50_S1x50 : FVec Ideal S1x50 .f32) broadcasts_S1x50_S128x50)) slices_S128x50_o64_0_S64x50 : FVec Ideal S64x50 .f32) (ix2 r o)
      = (∑ l : Fin 467, v2 (ix2 r ⟨56523 + l.val, by have := l.isLt; omega⟩) * w (ix2 o l)) + bv (ix2 0 o) := by
  exact Cert.KLib.head_hi 57498 467 27774 56523 _ rfl v2 w bv _ _ _ _ _ _ _ _ (by norm_num) r o

theorem h21lo_apply (v2 : FVec Ideal S64x57498 .bf16) (w : Vec Ideal S50x508 .bf16) (bv : Vec Ideal S1x50 .f32) (r : Fin 64) (o : Fin 50) :
    (extractStridedSlice S64x50 ![0, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 w shapeCasts_S50x508_S50x508 : FVec Ideal S50x508 .bf16) (constant S128x50 .f32 0x00000000#32))
      (broadcastTo S128x50 (shapeCast S1x50 (shapeCast S50 bv shapeCasts_S1x50_S50 : FVec Ideal S50 .f32) shapeCasts_S50_S1x50 : FVec Ideal S1x50 .f32) broadcasts_S1x50_S128x50)) slices_S128x50_o0_0_S64x50 : FVec Ideal S64x50 .f32) (ix2 r o)
      = (∑ l : Fin 508, v2 (ix2 r ⟨28241 + l.val, by have := l.isLt; omega⟩) * w (ix2 o l)) + bv (ix2 0 o) := by
  exact Cert.KLib.head_lo 57498 508 28241 56990 _ rfl v2 w bv _ _ _ _ _ _ _ _ (by norm_num) r o

theorem h21hi_apply (v2 : FVec Ideal S64x57498 .bf16) (w : Vec Ideal S50x508 .bf16) (bv : Vec Ideal S1x50 .f32) (r : Fin 64) (o : Fin 50) :
    (extractStridedSlice S64x50 ![64, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 w shapeCasts_S50x508_S50x508 : FVec Ideal S50x508 .bf16) (constant S128x50 .f32 0x00000000#32))
      (broadcastTo S128x50 (shapeCast S1x50 (shapeCast S50 bv shapeCasts_S1x50_S50 : FVec Ideal S50 .f32) shapeCasts_S50_S1x50 : FVec Ideal S1x50 .f32) broadcasts_S1x50_S128x50)) slices_S128x50_o64_0_S64x50 : FVec Ideal S64x50 .f32) (ix2 r o)
      = (∑ l : Fin 508, v2 (ix2 r ⟨56990 + l.val, by have := l.isLt; omega⟩) * w (ix2 o l)) + bv (ix2 0 o) := by
  exact Cert.KLib.head_hi 57498 508 28241 56990 _ rfl v2 w bv _ _ _ _ _ _ _ _ (by norm_num) r o

/-! ## A head as the kernel computes it against the specification's piece -/

/-- One half of head i as the kernel computes it — the sum over the segment read from column t = c · 28749 + a of the
    block's row, against the loaded weight segment, plus the loaded bias row — is piece 2 i + c of the specification. -/
theorem bridge (x0 : Vec Ideal S64x57498 .f32) (x1 : Vec Ideal S50x28749 .bf16) (x2 : Vec Ideal S22x50 .f32) (r : Fin 64)
    (i c a L t : Nat) (hi : i < 22) (hc : c < 2) (ha : headOff i = a) (hL : headLen i = L) (hb : a + L ≤ 28749)
    (ht : t = c * 28749 + a)
    (U : S64x57498.Idx → EReal) (hU : ∀ k : Fin 57498, U (ix2 r k) = x0 (ix2 r k))
    (W : (⟨2, ![50, L]⟩ : Shape).Idx → EReal) (Bv : (⟨2, ![1, 50]⟩ : Shape).Idx → EReal)
    (hW : ∀ (o : Fin 50) (l : Fin L), W (ix2 o l) = x1 (ix2 o ⟨a + l.val, by have := l.isLt; omega⟩))
    (hB : ∀ o : Fin 50, Bv (ix2 0 o) = x2 (ix2 ⟨i, hi⟩ o)) (o : Fin 50) :
    (∑ l : Fin L, U (ix2 r ⟨t + l.val, by have := l.isLt; omega⟩) * W (ix2 o l)) + Bv (ix2 0 o)
      = piece (fun c l => x0 (ix2 r ⟨c.val * 28749 + l.val, by have := c.isLt; have := l.isLt; omega⟩))
          (fun q l => x1 (ix2 q l)) (fun i q => x2 (ix2 i q)) (2 * i + c) o := by
  subst ha hL ht
  rw [piece_at _ _ _ (⟨i, hi⟩ : Fin 22) (⟨c, hc⟩ : Fin 2)]
  unfold headVal
  rw [hB]
  congr 1
  refine Finset.sum_congr rfl fun l _ => ?_
  have h1 : headOff i + l.val < 28749 := by have := l.isLt; omega
  rw [ext_eq _ _ h1, ext_eq _ _ h1, hU, hW]
  exact congrArg (fun z => x0 (ix2 r z) * x1 (ix2 o ⟨headOff i + l.val, h1⟩)) (Fin.ext (Nat.add_assoc _ _ _))

/-- The 44 blocks at row r are a family Q of 50-vectors when each of them is. -/
theorem feat_forall (v2 : FVec Ideal S64x57498 .bf16) (v14 v15 v27 v28 v40 v41 v53 v54 v66 v67 v79 v80 v92 v93 v105 v106 v118 v119 v131 v132 v144 v145 v157 v158 v170 v171 v183 v184 v196 v197 v209 v210 v222 v223 v235 v236 v248 v249 : FVec Ideal S64x50 .f32)
    (v255 : FVec Ideal S128x50 .f32) (v256 : Vec Ideal S1x50 .f32) (v266 : Vec Ideal S50x467 .bf16) (v269 : Vec Ideal S1x50 .f32)
    (v279 : Vec Ideal S50x508 .bf16) (v282 : Vec Ideal S1x50 .f32) (r : Fin 64) (Q : Nat → Fin 50 → EReal)
    (h0 : ∀ o : Fin 50, v14 (ix2 r o) = Q 0 o)
    (h1 : ∀ o : Fin 50, v15 (ix2 r o) = Q 1 o)
    (h2 : ∀ o : Fin 50, v27 (ix2 r o) = Q 2 o)
    (h3 : ∀ o : Fin 50, v28 (ix2 r o) = Q 3 o)
    (h4 : ∀ o : Fin 50, v40 (ix2 r o) = Q 4 o)
    (h5 : ∀ o : Fin 50, v41 (ix2 r o) = Q 5 o)
    (h6 : ∀ o : Fin 50, v53 (ix2 r o) = Q 6 o)
    (h7 : ∀ o : Fin 50, v54 (ix2 r o) = Q 7 o)
    (h8 : ∀ o : Fin 50, v66 (ix2 r o) = Q 8 o)
    (h9 : ∀ o : Fin 50, v67 (ix2 r o) = Q 9 o)
    (h10 : ∀ o : Fin 50, v79 (ix2 r o) = Q 10 o)
    (h11 : ∀ o : Fin 50, v80 (ix2 r o) = Q 11 o)
    (h12 : ∀ o : Fin 50, v92 (ix2 r o) = Q 12 o)
    (h13 : ∀ o : Fin 50, v93 (ix2 r o) = Q 13 o)
    (h14 : ∀ o : Fin 50, v105 (ix2 r o) = Q 14 o)
    (h15 : ∀ o : Fin 50, v106 (ix2 r o) = Q 15 o)
    (h16 : ∀ o : Fin 50, v118 (ix2 r o) = Q 16 o)
    (h17 : ∀ o : Fin 50, v119 (ix2 r o) = Q 17 o)
    (h18 : ∀ o : Fin 50, v131 (ix2 r o) = Q 18 o)
    (h19 : ∀ o : Fin 50, v132 (ix2 r o) = Q 19 o)
    (h20 : ∀ o : Fin 50, v144 (ix2 r o) = Q 20 o)
    (h21 : ∀ o : Fin 50, v145 (ix2 r o) = Q 21 o)
    (h22 : ∀ o : Fin 50, v157 (ix2 r o) = Q 22 o)
    (h23 : ∀ o : Fin 50, v158 (ix2 r o) = Q 23 o)
    (h24 : ∀ o : Fin 50, v170 (ix2 r o) = Q 24 o)
    (h25 : ∀ o : Fin 50, v171 (ix2 r o) = Q 25 o)
    (h26 : ∀ o : Fin 50, v183 (ix2 r o) = Q 26 o)
    (h27 : ∀ o : Fin 50, v184 (ix2 r o) = Q 27 o)
    (h28 : ∀ o : Fin 50, v196 (ix2 r o) = Q 28 o)
    (h29 : ∀ o : Fin 50, v197 (ix2 r o) = Q 29 o)
    (h30 : ∀ o : Fin 50, v209 (ix2 r o) = Q 30 o)
    (h31 : ∀ o : Fin 50, v210 (ix2 r o) = Q 31 o)
    (h32 : ∀ o : Fin 50, v222 (ix2 r o) = Q 32 o)
    (h33 : ∀ o : Fin 50, v223 (ix2 r o) = Q 33 o)
    (h34 : ∀ o : Fin 50, v235 (ix2 r o) = Q 34 o)
    (h35 : ∀ o : Fin 50, v236 (ix2 r o) = Q 35 o)
    (h36 : ∀ o : Fin 50, v248 (ix2 r o) = Q 36 o)
    (h37 : ∀ o : Fin 50, v249 (ix2 r o) = Q 37 o)
    (h38 : ∀ o : Fin 50, (extractStridedSlice S64x50 ![0, 0] (addf v255 (broadcastTo S128x50 (shapeCast S1x50 (shapeCast S50 v256 shapeCasts_S1x50_S50 : FVec Ideal S50 .f32) shapeCasts_S50_S1x50 : FVec Ideal S1x50 .f32) broadcasts_S1x50_S128x50)) slices_S128x50_o0_0_S64x50 : FVec Ideal S64x50 .f32) (ix2 r o) = Q 38 o)
    (h39 : ∀ o : Fin 50, (extractStridedSlice S64x50 ![64, 0] (addf v255 (broadcastTo S128x50 (shapeCast S1x50 (shapeCast S50 v256 shapeCasts_S1x50_S50 : FVec Ideal S50 .f32) shapeCasts_S50_S1x50 : FVec Ideal S1x50 .f32) broadcasts_S1x50_S128x50)) slices_S128x50_o64_0_S64x50 : FVec Ideal S64x50 .f32) (ix2 r o) = Q 39 o)
    (h40 : ∀ o : Fin 50, (extractStridedSlice S64x50 ![0, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 v266 shapeCasts_S50x467_S50x467 : FVec Ideal S50x467 .bf16) (constant S128x50 .f32 0x00000000#32))
      (broadcastTo S128x50 (shapeCast S1x50 (shapeCast S50 v269 shapeCasts_S1x50_S50 : FVec Ideal S50 .f32) shapeCasts_S50_S1x50 : FVec Ideal S1x50 .f32) broadcasts_S1x50_S128x50)) slices_S128x50_o0_0_S64x50 : FVec Ideal S64x50 .f32) (ix2 r o) = Q 40 o)
    (h41 : ∀ o : Fin 50, (extractStridedSlice S64x50 ![64, 0] (addf (matmul dot_S128x467_S50x467_S128x50_1_1_0_0_n_n none
        (concatenate S128x467 0 [⟨S64x467, extractStridedSlice S64x467 ![0, 27774] v2 slices_S64x57498_o0_27774_S64x467⟩,
          ⟨S64x467, extractStridedSlice S64x467 ![0, 56523] v2 slices_S64x57498_o0_56523_S64x467⟩] concatenates_S64x467_S64x467_S128x467_d0)
        (shapeCast S50x467 v266 shapeCasts_S50x467_S50x467 : FVec Ideal S50x467 .bf16) (constant S128x50 .f32 0x00000000#32))
      (broadcastTo S128x50 (shapeCast S1x50 (shapeCast S50 v269 shapeCasts_S1x50_S50 : FVec Ideal S50 .f32) shapeCasts_S50_S1x50 : FVec Ideal S1x50 .f32) broadcasts_S1x50_S128x50)) slices_S128x50_o64_0_S64x50 : FVec Ideal S64x50 .f32) (ix2 r o) = Q 41 o)
    (h42 : ∀ o : Fin 50, (extractStridedSlice S64x50 ![0, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 v279 shapeCasts_S50x508_S50x508 : FVec Ideal S50x508 .bf16) (constant S128x50 .f32 0x00000000#32))
      (broadcastTo S128x50 (shapeCast S1x50 (shapeCast S50 v282 shapeCasts_S1x50_S50 : FVec Ideal S50 .f32) shapeCasts_S50_S1x50 : FVec Ideal S1x50 .f32) broadcasts_S1x50_S128x50)) slices_S128x50_o0_0_S64x50 : FVec Ideal S64x50 .f32) (ix2 r o) = Q 42 o)
    (h43 : ∀ o : Fin 50, (extractStridedSlice S64x50 ![64, 0] (addf (matmul dot_S128x508_S50x508_S128x50_1_1_0_0_n_n none
        (concatenate S128x508 0 [⟨S64x508, extractStridedSlice S64x508 ![0, 28241] v2 slices_S64x57498_o0_28241_S64x508⟩,
          ⟨S64x508, extractStridedSlice S64x508 ![0, 56990] v2 slices_S64x57498_o0_56990_S64x508⟩] concatenates_S64x508_S64x508_S128x508_d0)
        (shapeCast S50x508 v279 shapeCasts_S50x508_S50x508 : FVec Ideal S50x508 .bf16) (constant S128x50 .f32 0x00000000#32))
      (broadcastTo S128x50 (shapeCast S1x50 (shapeCast S50 v282 shapeCasts_S1x50_S50 : FVec Ideal S50 .f32) shapeCasts_S50_S1x50 : FVec Ideal S1x50 .f32) broadcasts_S1x50_S128x50)) slices_S128x50_o64_0_S64x50 : FVec Ideal S64x50 .f32) (ix2 r o) = Q 43 o)
    (p : Fin 44) (o : Fin 50) : feat v2 v14 v15 v27 v28 v40 v41 v53 v54 v66 v67 v79 v80 v92 v93 v105 v106 v118 v119 v131 v132 v144 v145 v157 v158 v170 v171 v183 v184 v196 v197 v209 v210 v222 v223 v235 v236 v248 v249 v255 v256 v266 v269 v279 v282 p (ix2 r o) = Q p.val o := by
  match p with
  | ⟨0, _⟩ => exact h0 o
  | ⟨1, _⟩ => exact h1 o
  | ⟨2, _⟩ => exact h2 o
  | ⟨3, _⟩ => exact h3 o
  | ⟨4, _⟩ => exact h4 o
  | ⟨5, _⟩ => exact h5 o
  | ⟨6, _⟩ => exact h6 o
  | ⟨7, _⟩ => exact h7 o
  | ⟨8, _⟩ => exact h8 o
  | ⟨9, _⟩ => exact h9 o
  | ⟨10, _⟩ => exact h10 o
  | ⟨11, _⟩ => exact h11 o
  | ⟨12, _⟩ => exact h12 o
  | ⟨13, _⟩ => exact h13 o
  | ⟨14, _⟩ => exact h14 o
  | ⟨15, _⟩ => exact h15 o
  | ⟨16, _⟩ => exact h16 o
  | ⟨17, _⟩ => exact h17 o
  | ⟨18, _⟩ => exact h18 o
  | ⟨19, _⟩ => exact h19 o
  | ⟨20, _⟩ => exact h20 o
  | ⟨21, _⟩ => exact h21 o
  | ⟨22, _⟩ => exact h22 o
  | ⟨23, _⟩ => exact h23 o
  | ⟨24, _⟩ => exact h24 o
  | ⟨25, _⟩ => exact h25 o
  | ⟨26, _⟩ => exact h26 o
  | ⟨27, _⟩ => exact h27 o
  | ⟨28, _⟩ => exact h28 o
  | ⟨29, _⟩ => exact h29 o
  | ⟨30, _⟩ => exact h30 o
  | ⟨31, _⟩ => exact h31 o
  | ⟨32, _⟩ => exact h32 o
  | ⟨33, _⟩ => exact h33 o
  | ⟨34, _⟩ => exact h34 o
  | ⟨35, _⟩ => exact h35 o
  | ⟨36, _⟩ => exact h36 o
  | ⟨37, _⟩ => exact h37 o
  | ⟨38, _⟩ => exact h38 o
  | ⟨39, _⟩ => exact h39 o
  | ⟨40, _⟩ => exact h40 o
  | ⟨41, _⟩ => exact h41 o
  | ⟨42, _⟩ => exact h42 o
  | ⟨43, _⟩ => exact h43 o
  | ⟨n + 44, h⟩ => exact absurd h (by omega)

/-- An affine layer of equal inputs, weights and biases. -/
theorem lin_congr {K N : Nat} {v v' : Fin K → EReal} {w w' : Fin N → Fin K → EReal} {b b' : Fin N → EReal}
    (hv : ∀ k, v k = v' k) (hw : ∀ n k, w n k = w' n k) (hb : ∀ n, b n = b' n) (n : Fin N) :
    lin v w b n = lin v' w' b' n := by
  have e1 : v = v' := funext hv
  have e2 : w = w' := funext fun n => funext (hw n)
  have e3 : b = b' := funext hb
  subst e1 e2 e3
  rfl

/-- What the body leaves in the output block, at row r and output o, as the network on row r of the input block. -/
theorem out_apply (x0 : Vec Ideal S64x57498 .f32) (x1 : Vec Ideal S50x28749 .bf16) (x2 : Vec Ideal S22x50 .f32)
    (x3 : Vec Ideal S2200x2200 .bf16) (x4 : Vec Ideal S2200 .f32) (x5 : Vec Ideal S1000x2200 .bf16) (x6 : Vec Ideal S1000 .f32)
    (x7 : Vec Ideal S50x1000 .bf16) (x8 : Vec Ideal S50 .f32) (x9 : Vec Ideal S13x50 .bf16) (x10 : Vec Ideal S13 .f32)
    (r : Fin 64) (o : Fin 13) :
    out0_11 x0 x1 x2 x3 x4 x5 x6 x7 x8 x9 x10 (ix2 r o)
      = model (fun c l => x0 (ix2 r ⟨c.val * 28749 + l.val, by have := c.isLt; have := l.isLt; omega⟩))
          (fun q l => x1 (ix2 q l)) (fun i q => x2 (ix2 i q)) (fun n k => x3 (ix2 n k)) (fun n => x4 (ix1 n))
          (fun n k => x5 (ix2 n k)) (fun n => x6 (ix1 n)) (fun n k => x7 (ix2 n k)) (fun n => x8 (ix1 n))
          (fun n k => x9 (ix2 n k)) (fun n => x10 (ix1 n)) o := by
  unfold out0_11
  rw [View.canon_unit_zero (S := S64x13) hz2]
  rw [KTail.pay1_apply]
  unfold model mlp
  have hx0 : View.ld x0 r0_0 = x0 := View.ld_unit_zero (S := S64x57498) hz2 _ x0
  have hU0 : ∀ k : Fin 57498, View.ld x0 r0_0 (ix2 r k) = x0 (ix2 r k) := fun k => congrFun hx0 _
  have hU2 : ∀ k : Fin 57498, k0_pay2 (View.ld x0 r0_0) (ix2 r k) = x0 (ix2 r k) := fun k =>
    (KPieces.pay2_apply _ _).trans (congrFun hx0 _)
  refine lin_congr (fun k => congrArg leaky (lin_congr (fun k => congrArg leaky (lin_congr (fun k => ?_) (fun n k => ?_) (fun n => ?_) k))
    (fun n k => ?_) (fun n => ?_) k)) (fun n k => ?_) (fun n => ?_) o
  · rw [pay64_apply]
    refine lin_congr (fun j => ?_) (fun n k => ?_) (fun n => ?_) k
    · show _ = piece _ _ _ (j.val / 50) ⟨j.val % 50, Nat.mod_lt _ (by norm_num)⟩
      refine feat_forall _ _ _ _ _ _ _ _ _ _ _ _ _ _ _ _ _ _ _ _ _ _ _ _ _ _ _ _ _ _ _ _ _ _ _ _ _ _ _ _ _ _ _ _ _ r
        (piece (fun c l => x0 (ix2 r ⟨c.val * 28749 + l.val, by have := c.isLt; have := l.isLt; omega⟩))
          (fun q l => x1 (ix2 q l)) (fun i q => x2 (ix2 i q)))
        ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ⟨j.val / 50, by have := j.isLt; omega⟩ ⟨j.val % 50, Nat.mod_lt _ (by norm_num)⟩
      · intro o
        exact (KPieces.pay4_apply _ _ _ r o).trans (bridge x0 x1 x2 r 0 0 0 2490 0 (by norm_num) (by norm_num) rfl rfl (by norm_num) (by norm_num) _ hU0 _ _
          (fun o l => ld_cols x1 0 _ o l _) (fun o => ld_row x2 0 _ 0 o _) o)
      · intro o
        exact (KPieces.pay5_apply _ _ _ r o).trans (bridge x0 x1 x2 r 0 1 0 2490 28749 (by norm_num) (by norm_num) rfl rfl (by norm_num) (by norm_num) _ hU0 _ _
          (fun o l => ld_cols x1 0 _ o l _) (fun o => ld_row x2 0 _ 0 o _) o)
      · intro o
        exact (KPieces.pay7_apply _ _ _ r o).trans (bridge x0 x1 x2 r 1 0 2490 2422 2490 (by norm_num) (by norm_num) rfl rfl (by norm_num) (by norm_num) _ hU0 _ _
          (fun o l => ld_cols x1 2490 _ o l _) (fun o => ld_row x2 1 _ 0 o _) o)
      · intro o
        exact (KPieces.pay8_apply _ _ _ r o).trans (bridge x0 x1 x2 r 1 1 2490 2422 31239 (by norm_num) (by norm_num) rfl rfl (by norm_num) (by norm_num) _ hU0 _ _
          (fun o l => ld_cols x1 2490 _ o l _) (fun o => ld_row x2 1 _ 0 o _) o)
      · intro o
        exact (KPieces.pay10_apply _ _ _ r o).trans (bridge x0 x1 x2 r 2 0 4912 1983 4912 (by norm_num) (by norm_num) rfl rfl (by norm_num) (by norm_num) _ hU0 _ _
          (fun o l => ld_cols x1 4912 _ o l _) (fun o => ld_row x2 2 _ 0 o _) o)
      · intro o
        exact (KPieces.pay11_apply _ _ _ r o).trans (bridge x0 x1 x2 r 2 1 4912 1983 33661 (by norm_num) (by norm_num) rfl rfl (by norm_num) (by norm_num) _ hU0 _ _
          (fun o l => ld_cols x1 4912 _ o l _) (fun o => ld_row x2 2 _ 0 o _) o)
      · intro o
        exact (KPieces.pay13_apply _ _ _ r o).trans (bridge x0 x1 x2 r 3 0 6895 1902 6895 (by norm_num) (by norm_num) rfl rfl (by norm_num) (by norm_num) _ hU2 _ _
          (fun o l => ld_cols x1 6895 _ o l _) (fun o => ld_row x2 3 _ 0 o _) o)
      · intro o
        exact (KPieces.pay14_apply _ _ _ r o).trans (bridge x0 x1 x2 r 3 1 6895 1902 35644 (by norm_num) (by norm_num) rfl rfl (by norm_num) (by norm_num) _ hU2 _ _
          (fun o l => ld_cols x1 6895 _ o l _) (fun o => ld_row x2 3 _ 0 o _) o)
      · intro o
        exact (KPieces.pay16_apply _ _ _ r o).trans (bridge x0 x1 x2 r 4 0 8797 1815 8797 (by norm_num) (by norm_num) rfl rfl (by norm_num) (by norm_num) _ hU2 _ _
          (fun o l => ld_cols x1 8797 _ o l _) (fun o => ld_row x2 4 _ 0 o _) o)
      · intro o
        exact (KPieces.pay17_apply _ _ _ r o).trans (bridge x0 x1 x2 r 4 1 8797 1815 37546 (by norm_num) (by norm_num) rfl rfl (by norm_num) (by norm_num) _ hU2 _ _
          (fun o l => ld_cols x1 8797 _ o l _) (fun o => ld_row x2 4 _ 0 o _) o)
      · intro o
        exact (KPieces.pay19_apply _ _ _ r o).trans (bridge x0 x1 x2 r 5 0 10612 1708 10612 (by norm_num) (by norm_num) rfl rfl (by norm_num) (by norm_num) _ hU2 _ _
          (fun o l => ld_cols x1 10612 _ o l _) (fun o => ld_row x2 5 _ 0 o _) o)
      · intro o
        exact (KPieces.pay20_apply _ _ _ r o).trans (bridge x0 x1 x2 r 5 1 10612 1708 39361 (by norm_num) (by norm_num) rfl rfl (by norm_num) (by norm_num) _ hU2 _ _
          (fun o l => ld_cols x1 10612 _ o l _) (fun o => ld_row x2 5 _ 0 o _) o)
      · intro o
        exact (KPieces.pay23_apply _ _ _ r o).trans (bridge x0 x1 x2 r 6 0 12320 1593 12320 (by norm_num) (by norm_num) rfl rfl (by norm_num) (by norm_num) _ hU2 _ _
          (fun o l => ld_cols x1 12320 _ o l _) (fun o => ld_row x2 6 _ 0 o _) o)
      · intro o
        exact (KPieces.pay24_apply _ _ _ r o).trans (bridge x0 x1 x2 r 6 1 12320 1593 41069 (by norm_num) (by norm_num) rfl rfl (by norm_num) (by norm_num) _ hU2 _ _
          (fun o l => ld_cols x1 12320 _ o l _) (fun o => ld_row x2 6 _ 0 o _) o)
      · intro o
        exact (KPieces.pay26_apply _ _ _ r o).trans (bridge x0 x1 x2 r 7 0 13913 1451 13913 (by norm_num) (by norm_num) rfl rfl (by norm_num) (by norm_num) _ hU2 _ _
          (fun o l => ld_cols x1 13913 _ o l _) (fun o => ld_row x2 7 _ 0 o _) o)
      · intro o
        exact (KPieces.pay27_apply _ _ _ r o).trans (bridge x0 x1 x2 r 7 1 13913 1451 42662 (by norm_num) (by norm_num) rfl rfl (by norm_num) (by norm_num) _ hU2 _ _
          (fun o l => ld_cols x1 13913 _ o l _) (fun o => ld_row x2 7 _ 0 o _) o)
      · intro o
        exact (KPieces.pay29_apply _ _ _ r o).trans (bridge x0 x1 x2 r 8 0 15364 1384 15364 (by norm_num) (by norm_num) rfl rfl (by norm_num) (by norm_num) _ hU2 _ _
          (fun o l => ld_cols x1 15364 _ o l _) (fun o => ld_row x2 8 _ 0 o _) o)
      · intro o
        exact (KPieces.pay30_apply _ _ _ r o).trans (bridge x0 x1 x2 r 8 1 15364 1384 44113 (by norm_num) (by norm_num) rfl rfl (by norm_num) (by norm_num) _ hU2 _ _
          (fun o l => ld_cols x1 15364 _ o l _) (fun o => ld_row x2 8 _ 0 o _) o)
      · intro o
        exact (KPieces.pay33_apply _ _ _ r o).trans (bridge x0 x1 x2 r 9 0 16748 1338 16748 (by norm_num) (by norm_num) rfl rfl (by norm_num) (by norm_num) _ hU2 _ _
          (fun o l => ld_cols x1 16748 _ o l _) (fun o => ld_row x2 9 _ 0 o _) o)
      · intro o
        exact (KPieces.pay34_apply _ _ _ r o).trans (bridge x0 x1 x2 r 9 1 16748 1338 45497 (by norm_num) (by norm_num) rfl rfl (by norm_num) (by norm_num) _ hU2 _ _
          (fun o l => ld_cols x1 16748 _ o l _) (fun o => ld_row x2 9 _ 0 o _) o)
      · intro o
        exact (KPieces.pay36_apply _ _ _ r o).trans (bridge x0 x1 x2 r 10 0 18086 1351 18086 (by norm_num) (by norm_num) rfl rfl (by norm_num) (by norm_num) _ hU2 _ _
          (fun o l => ld_cols x1 18086 _ o l _) (fun o => ld_row x2 10 _ 0 o _) o)
      · intro o
        exact (KPieces.pay37_apply _ _ _ r o).trans (bridge x0 x1 x2 r 10 1 18086 1351 46835 (by norm_num) (by norm_num) rfl rfl (by norm_num) (by norm_num) _ hU2 _ _
          (fun o l => ld_cols x1 18086 _ o l _) (fun o => ld_row x2 10 _ 0 o _) o)
      · intro o
        exact (KPieces.pay39_apply _ _ _ r o).trans (bridge x0 x1 x2 r 11 0 19437 1333 19437 (by norm_num) (by norm_num) rfl rfl (by norm_num) (by norm_num) _ hU2 _ _
          (fun o l => ld_cols x1 19437 _ o l _) (fun o => ld_row x2 11 _ 0 o _) o)
      · intro o
        exact (KPieces.pay40_apply _ _ _ r o).trans (bridge x0 x1 x2 r 11 1 19437 1333 48186 (by norm_num) (by norm_num) rfl rfl (by norm_num) (by norm_num) _ hU2 _ _
          (fun o l => ld_cols x1 19437 _ o l _) (fun o => ld_row x2 11 _ 0 o _) o)
      · intro o
        exact (KPieces.pay42_apply _ _ _ r o).trans (bridge x0 x1 x2 r 12 0 20770 1144 20770 (by norm_num) (by norm_num) rfl rfl (by norm_num) (by norm_num) _ hU2 _ _
          (fun o l => ld_cols x1 20770 _ o l _) (fun o => ld_row x2 12 _ 0 o _) o)
      · intro o
        exact (KPieces.pay43_apply _ _ _ r o).trans (bridge x0 x1 x2 r 12 1 20770 1144 49519 (by norm_num) (by norm_num) rfl rfl (by norm_num) (by norm_num) _ hU2 _ _
          (fun o l => ld_cols x1 20770 _ o l _) (fun o => ld_row x2 12 _ 0 o _) o)
      · intro o
        exact (KPieces.pay45_apply _ _ _ r o).trans (bridge x0 x1 x2 r 13 0 21914 1070 21914 (by norm_num) (by norm_num) rfl rfl (by norm_num) (by norm_num) _ hU2 _ _
          (fun o l => ld_cols x1 21914 _ o l _) (fun o => ld_row x2 13 _ 0 o _) o)
      · intro o
        exact (KPieces.pay46_apply _ _ _ r o).trans (bridge x0 x1 x2 r 13 1 21914 1070 50663 (by norm_num) (by norm_num) rfl rfl (by norm_num) (by norm_num) _ hU2 _ _
          (fun o l => ld_cols x1 21914 _ o l _) (fun o => ld_row x2 13 _ 0 o _) o)
      · intro o
        exact (KPieces.pay48_apply _ _ _ r o).trans (bridge x0 x1 x2 r 14 0 22984 1020 22984 (by norm_num) (by norm_num) rfl rfl (by norm_num) (by norm_num) _ hU2 _ _
          (fun o l => ld_cols x1 22984 _ o l _) (fun o => ld_row x2 14 _ 0 o _) o)
      · intro o
        exact (KPieces.pay49_apply _ _ _ r o).trans (bridge x0 x1 x2 r 14 1 22984 1020 51733 (by norm_num) (by norm_num) rfl rfl (by norm_num) (by norm_num) _ hU2 _ _
          (fun o l => ld_cols x1 22984 _ o l _) (fun o => ld_row x2 14 _ 0 o _) o)
      · intro o
        exact (KPieces.pay51_apply _ _ _ r o).trans (bridge x0 x1 x2 r 15 0 24004 903 24004 (by norm_num) (by norm_num) rfl rfl (by norm_num) (by norm_num) _ hU2 _ _
          (fun o l => ld_cols x1 24004 _ o l _) (fun o => ld_row x2 15 _ 0 o _) o)
      · intro o
        exact (KPieces.pay52_apply _ _ _ r o).trans (bridge x0 x1 x2 r 15 1 24004 903 52753 (by norm_num) (by norm_num) rfl rfl (by norm_num) (by norm_num) _ hU2 _ _
          (fun o l => ld_cols x1 24004 _ o l _) (fun o => ld_row x2 15 _ 0 o _) o)
      · intro o
        exact (KPieces.pay55_apply _ _ _ r o).trans (bridge x0 x1 x2 r 16 0 24907 833 24907 (by norm_num) (by norm_num) rfl rfl (by norm_num) (by norm_num) _ hU2 _ _
          (fun o l => ld_cols x1 24907 _ o l _) (fun o => ld_row x2 16 _ 0 o _) o)
      · intro o
        exact (KPieces.pay56_apply _ _ _ r o).trans (bridge x0 x1 x2 r 16 1 24907 833 53656 (by norm_num) (by norm_num) rfl rfl (by norm_num) (by norm_num) _ hU2 _ _
          (fun o l => ld_cols x1 24907 _ o l _) (fun o => ld_row x2 16 _ 0 o _) o)
      · intro o
        exact (KPieces.pay58_apply _ _ _ r o).trans (bridge x0 x1 x2 r 17 0 25740 804 25740 (by norm_num) (by norm_num) rfl rfl (by norm_num) (by norm_num) _ hU2 _ _
          (fun o l => ld_cols x1 25740 _ o l _) (fun o => ld_row x2 17 _ 0 o _) o)
      · intro o
        exact (KPieces.pay59_apply _ _ _ r o).trans (bridge x0 x1 x2 r 17 1 25740 804 54489 (by norm_num) (by norm_num) rfl rfl (by norm_num) (by norm_num) _ hU2 _ _
          (fun o l => ld_cols x1 25740 _ o l _) (fun o => ld_row x2 17 _ 0 o _) o)
      · intro o
        exact (KPieces.pay61_apply _ _ _ r o).trans (bridge x0 x1 x2 r 18 0 26544 586 26544 (by norm_num) (by norm_num) rfl rfl (by norm_num) (by norm_num) _ hU2 _ _
          (fun o l => ld_cols x1 26544 _ o l _) (fun o => ld_row x2 18 _ 0 o _) o)
      · intro o
        exact (KPieces.pay62_apply _ _ _ r o).trans (bridge x0 x1 x2 r 18 1 26544 586 55293 (by norm_num) (by norm_num) rfl rfl (by norm_num) (by norm_num) _ hU2 _ _
          (fun o l => ld_cols x1 26544 _ o l _) (fun o => ld_row x2 18 _ 0 o _) o)
      · intro o
        exact (h19lo_apply _ _ _ r o).trans (bridge x0 x1 x2 r 19 0 27130 644 27130 (by norm_num) (by norm_num) rfl rfl (by norm_num) (by norm_num) _ hU2 _ _
          (fun o l => ld_cols x1 27130 _ o l _) (fun o => ld_row x2 19 _ 0 o _) o)
      · intro o
        exact (h19hi_apply _ _ _ r o).trans (bridge x0 x1 x2 r 19 1 27130 644 55879 (by norm_num) (by norm_num) rfl rfl (by norm_num) (by norm_num) _ hU2 _ _
          (fun o l => ld_cols x1 27130 _ o l _) (fun o => ld_row x2 19 _ 0 o _) o)
      · intro o
        exact (h20lo_apply _ _ _ r o).trans (bridge x0 x1 x2 r 20 0 27774 467 27774 (by norm_num) (by norm_num) rfl rfl (by norm_num) (by norm_num) _ hU2 _ _
          (fun o l => ld_cols x1 27774 _ o l _) (fun o => ld_row x2 20 _ 0 o _) o)
      · intro o
        exact (h20hi_apply _ _ _ r o).trans (bridge x0 x1 x2 r 20 1 27774 467 56523 (by norm_num) (by norm_num) rfl rfl (by norm_num) (by norm_num) _ hU2 _ _
          (fun o l => ld_cols x1 27774 _ o l _) (fun o => ld_row x2 20 _ 0 o _) o)
      · intro o
        exact (h21lo_apply _ _ _ r o).trans (bridge x0 x1 x2 r 21 0 28241 508 28241 (by norm_num) (by norm_num) rfl rfl (by norm_num) (by norm_num) _ hU2 _ _
          (fun o l => ld_cols x1 28241 _ o l _) (fun o => ld_row x2 21 _ 0 o _) o)
      · intro o
        exact (h21hi_apply _ _ _ r o).trans (bridge x0 x1 x2 r 21 1 28241 508 56990 (by norm_num) (by norm_num) rfl rfl (by norm_num) (by norm_num) _ hU2 _ _
          (fun o l => ld_cols x1 28241 _ o l _) (fun o => ld_row x2 21 _ 0 o _) o)
    · exact congrFun (View.ld_unit_zero (S := S2200x2200) hz2 _ x3) _
    · exact congrFun (View.ld_unit_zero (S := S2200) hz1 _ x4) _
  · unfold k0_pay65
    rw [shapeCast_self]
    exact congrFun (View.ld_unit_zero (S := S1000x2200) hz2 _ x5) _
  · exact congrFun (View.ld_unit_zero (S := S1000) hz1 _ x6) _
  · exact congrFun (View.ld_unit_zero (S := S50x1000) hz2 _ x7) _
  · exact congrFun (View.ld_unit_zero (S := S50) hz1 _ x8) _
  · exact congrFun (View.ld_unit_zero (S := S13x50) hz2 _ x9) _
  · exact congrFun (View.ld_unit_zero (S := S13) hz1 _ x10) _

end Cert.KernelIdeal.KBody

end
-- ==== Proof.KArray.lean ====
/-
  From blocks to the whole output array: grid point t writes rows [64 t, 64 t + 64) of the output, and that block is the
  network on the same rows of the input, so after the run the output array is the network on every sample.
-/
import proofs.«414676_j67216238182882_3_alg».proof.Proof.Gen.KernelIdeal.Value
import proofs.«414676_j67216238182882_3_alg».proof.Proof.Spec
import proofs.«414676_j67216238182882_3_alg».proof.Proof.KBody

noncomputable section

namespace Cert.KernelIdeal.KArray

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The block index of every window at every grid point: the input and output row blocks move with the point, every
    weight and bias window stays at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-- The network's output array on the argument arrays as launched. -/
abbrev Gm (c : Dev nD) : S2048x13.Idx → EReal :=
  Cert.Fused.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The row-major position of entry (64 t + r, ch, l) of the input array is that of entry (64 t + r, ch · 28749 + l) of its
    reshape to two axes. -/
theorem pos_eq (k0 k1 k2 x0 x1 tv : Nat) (h0 : k0 = 64 * tv + x0) (h1 : k1 * 28749 + k2 = x1) :
    (k0 * 2 + k1) * 28749 + k2 = (tv * 64 + 1 * x0) * 57498 + (0 * 57498 + 1 * x1) := by
  subst h0; subst h1; ring

/-- Row r of the input block at point t is sample 64 t + r of the input array, its two channels side by side. -/
theorem iblk0_apply (c : Dev nD) (t : Fin cfg0.N) (x : S64x57498.Idx) (k : S2048x2x28749.Idx)
    (hk0 : (k 0).val = 64 * t.val + (x 0).val) (hk1 : (k 1).val * 28749 + (k 2).val = (x 1).val) :
    (iblk m c 0 t : Vec Ideal S64x57498 .f32) x = (m ((c : Thread nD τ).loc main_arg0) : S2048x2x28749.Idx → EReal) k := by
  obtain ⟨e0, e1, -⟩ := idx_facts t
  have e : (V m c main_v0 : S2048x57498.Idx → EReal) = shapeCast S2048x57498 (m ((c : Thread nD τ).loc main_arg0)) Facts₀.shapeCasts_S2048x2x28749_S2048x57498 := by
    dsimp only [Gen.V, Gen.hostOps0]; after_results; rfl
  unfold iblk
  rw [View.read_apply]
  show V m c main_v0 _ = _
  rw [e]
  refine shapeCast_apply _ _ _ k ?_
  rw [Shape.rowMajor_val_two, Shape.rowMajor_val_three]
  show ((k 0).val * 2 + (k 1).val) * 28749 + (k 2).val = (win0_0.index t 0 * 64 + 1 * (x 0).val) * 57498 + (win0_0.index t 1 * 57498 + 1 * (x 1).val)
  rw [e0, e1]
  exact pos_eq _ _ _ _ _ _ hk0 hk1

/-- The head weights' block at any point is the whole head-weight array (its rounding is the identity on extended reals). -/
theorem iblk1_apply (c : Dev nD) (t : Fin cfg0.N) (x : S50x28749.Idx) :
    (iblk m c 1 t : Vec Ideal S50x28749 .bf16) x = (m ((c : Thread nD τ).loc main_arg1) : S50x28749.Idx → EReal) x := by
  obtain ⟨-, -, e0, e1, -⟩ := idx_facts t
  have e : (V m c main_v1 : S50x28749.Idx → EReal) = (m ((c : Thread nD τ).loc main_arg1) : S50x28749.Idx → EReal) := by
    dsimp only [Gen.V, Gen.hostOps0]; after_results; rfl
  unfold iblk
  rw [View.read_apply]
  show V m c main_v1 _ = _
  rw [e]
  congr 1
  funext a; apply Fin.ext
  match a with
  | ⟨0, _⟩ => show win0_1.index t 0 * 50 + 1 * (x 0).val = (x 0).val; rw [e0]; omega
  | ⟨1, _⟩ => show win0_1.index t 1 * 28749 + 1 * (x 1).val = (x 1).val; rw [e1]; omega

/-- The head biases' block at any point is the whole head-bias array. -/
theorem iblk2_apply (c : Dev nD) (t : Fin cfg0.N) (x : S22x50.Idx) :
    (iblk m c 2 t : Vec Ideal S22x50 .f32) x = (m ((c : Thread nD τ).loc main_arg2) : S22x50.Idx → EReal) x := by
  obtain ⟨-, -, -, -, e0, e1, -⟩ := idx_facts t
  unfold iblk
  rw [View.read_apply]
  show V m c main_arg2 _ = _
  rw [V_main_arg2]
  congr 1
  funext a; apply Fin.ext
  match a with
  | ⟨0, _⟩ => show win0_2.index t 0 * 22 + 1 * (x 0).val = (x 0).val; rw [e0]; omega
  | ⟨1, _⟩ => show win0_2.index t 1 * 50 + 1 * (x 1).val = (x 1).val; rw [e1]; omega

/-- The combining layer's weight block at any point is its whole weight array. -/
theorem iblk3_apply (c : Dev nD) (t : Fin cfg0.N) (x : S2200x2200.Idx) :
    (iblk m c 3 t : Vec Ideal S2200x2200 .bf16) x = (m ((c : Thread nD τ).loc main_arg3) : S2200x2200.Idx → EReal) x := by
  obtain ⟨-, -, -, -, -, -, e0, e1, -⟩ := idx_facts t
  have e : (V m c main_v2 : S2200x2200.Idx → EReal) = (m ((c : Thread nD τ).loc main_arg3) : S2200x2200.Idx → EReal) := by
    dsimp only [Gen.V, Gen.hostOps0]; after_results; rfl
  unfold iblk
  rw [View.read_apply]
  show V m c main_v2 _ = _
  rw [e]
  congr 1
  funext a; apply Fin.ext
  match a with
  | ⟨0, _⟩ => show win0_3.index t 0 * 2200 + 1 * (x 0).val = (x 0).val; rw [e0]; omega
  | ⟨1, _⟩ => show win0_3.index t 1 * 2200 + 1 * (x 1).val = (x 1).val; rw [e1]; omega

/-- The combining layer's bias block at any point is its whole bias array. -/
theorem iblk4_apply (c : Dev nD) (t : Fin cfg0.N) (x : S2200.Idx) :
    (iblk m c 4 t : Vec Ideal S2200 .f32) x = (m ((c : Thread nD τ).loc main_arg4) : S2200.Idx → EReal) x := by
  obtain ⟨-, -, -, -, -, -, -, -, e0, -⟩ := idx_facts t
  unfold iblk
  rw [View.read_apply]
  show V m c main_arg4 _ = _
  rw [V_main_arg4]
  congr 1
  funext a; apply Fin.ext
  match a with
  | ⟨0, _⟩ => show win0_4.index t 0 * 2200 + 1 * (x 0).val = (x 0).val; rw [e0]; omega

/-- The first hidden layer's weight block at any point is its whole weight array. -/
theorem iblk5_apply (c : Dev nD) (t : Fin cfg0.N) (x : S1000x2200.Idx) :
    (iblk m c 5 t : Vec Ideal S1000x2200 .bf16) x = (m ((c : Thread nD τ).loc main_arg5) : S1000x2200.Idx → EReal) x := by
  obtain ⟨-, -, -, -, -, -, -, -, -, e0, e1, -⟩ := idx_facts t
  have e : (V m c main_v3 : S1000x2200.Idx → EReal) = (m ((c : Thread nD τ).loc main_arg5) : S1000x2200.Idx → EReal) := by
    dsimp only [Gen.V, Gen.hostOps0]; after_results; rfl
  unfold iblk
  rw [View.read_apply]
  show V m c main_v3 _ = _
  rw [e]
  congr 1
  funext a; apply Fin.ext
  match a with
  | ⟨0, _⟩ => show win0_5.index t 0 * 1000 + 1 * (x 0).val = (x 0).val; rw [e0]; omega
  | ⟨1, _⟩ => show win0_5.index t 1 * 2200 + 1 * (x 1).val = (x 1).val; rw [e1]; omega

/-- The first hidden layer's bias block at any point is its whole bias array. -/
theorem iblk6_apply (c : Dev nD) (t : Fin cfg0.N) (x : S1000.Idx) :
    (iblk m c 6 t : Vec Ideal S1000 .f32) x = (m ((c : Thread nD τ).loc main_arg6) : S1000.Idx → EReal) x := by
  obtain ⟨-, -, -, -, -, -, -, -, -, -, -, e0, -⟩ := idx_facts t
  unfold iblk
  rw [View.read_apply]
  show V m c main_arg6 _ = _
  rw [V_main_arg6]
  congr 1
  funext a; apply Fin.ext
  match a with
  | ⟨0, _⟩ => show win0_6.index t 0 * 1000 + 1 * (x 0).val = (x 0).val; rw [e0]; omega

/-- The second hidden layer's weight block at any point is its whole weight array. -/
theorem iblk7_apply (c : Dev nD) (t : Fin cfg0.N) (x : S50x1000.Idx) :
    (iblk m c 7 t : Vec Ideal S50x1000 .bf16) x = (m ((c : Thread nD τ).loc main_arg7) : S50x1000.Idx → EReal) x := by
  obtain ⟨-, -, -, -, -, -, -, -, -, -, -, -, e0, e1, -⟩ := idx_facts t
  have e : (V m c main_v4 : S50x1000.Idx → EReal) = (m ((c : Thread nD τ).loc main_arg7) : S50x1000.Idx → EReal) := by
    dsimp only [Gen.V, Gen.hostOps0]; after_results; rfl
  unfold iblk
  rw [View.read_apply]
  show V m c main_v4 _ = _
  rw [e]
  congr 1
  funext a; apply Fin.ext
  match a with
  | ⟨0, _⟩ => show win0_7.index t 0 * 50 + 1 * (x 0).val = (x 0).val; rw [e0]; omega
  | ⟨1, _⟩ => show win0_7.index t 1 * 1000 + 1 * (x 1).val = (x 1).val; rw [e1]; omega

/-- The second hidden layer's bias block at any point is its whole bias array. -/
theorem iblk8_apply (c : Dev nD) (t : Fin cfg0.N) (x : S50.Idx) :
    (iblk m c 8 t : Vec Ideal S50 .f32) x = (m ((c : Thread nD τ).loc main_arg8) : S50.Idx → EReal) x := by
  obtain ⟨-, -, -, -, -, -, -, -, -, -, -, -, -, -, e0, -⟩ := idx_facts t
  unfold iblk
  rw [View.read_apply]
  show V m c main_arg8 _ = _
  rw [V_main_arg8]
  congr 1
  funext a; apply Fin.ext
  match a with
  | ⟨0, _⟩ => show win0_8.index t 0 * 50 + 1 * (x 0).val = (x 0).val; rw [e0]; omega

/-- The output layer's weight block at any point is its whole weight array. -/
theorem iblk9_apply (c : Dev nD) (t : Fin cfg0.N) (x : S13x50.Idx) :
    (iblk m c 9 t : Vec Ideal S13x50 .bf16) x = (m ((c : Thread nD τ).loc main_arg9) : S13x50.Idx → EReal) x := by
  obtain ⟨-, -, -, -, -, -, -, -, -, -, -, -, -, -, -, e0, e1, -⟩ := idx_facts t
  have e : (V m c main_v5 : S13x50.Idx → EReal) = (m ((c : Thread nD τ).loc main_arg9) : S13x50.Idx → EReal) := by
    dsimp only [Gen.V, Gen.hostOps0]; after_results; rfl
  unfold iblk
  rw [View.read_apply]
  show V m c main_v5 _ = _
  rw [e]
  congr 1
  funext a; apply Fin.ext
  match a with
  | ⟨0, _⟩ => show win0_9.index t 0 * 13 + 1 * (x 0).val = (x 0).val; rw [e0]; omega
  | ⟨1, _⟩ => show win0_9.index t 1 * 50 + 1 * (x 1).val = (x 1).val; rw [e1]; omega

/-- The output layer's bias block at any point is its whole bias array. -/
theorem iblk10_apply (c : Dev nD) (t : Fin cfg0.N) (x : S13.Idx) :
    (iblk m c 10 t : Vec Ideal S13 .f32) x = (m ((c : Thread nD τ).loc main_arg10) : S13.Idx → EReal) x := by
  obtain ⟨-, -, -, -, -, -, -, -, -, -, -, -, -, -, -, -, -, e0, -⟩ := idx_facts t
  unfold iblk
  rw [View.read_apply]
  show V m c main_arg10 _ = _
  rw [V_main_arg10]
  congr 1
  funext a; apply Fin.ext
  match a with
  | ⟨0, _⟩ => show win0_10.index t 0 * 13 + 1 * (x 0).val = (x 0).val; rw [e0]; omega

/-- The body's output block at any entry, the entry's row and output read off the index. -/
theorem out_at (x0 : Vec Ideal S64x57498 .f32) (x1 : Vec Ideal S50x28749 .bf16) (x2 : Vec Ideal S22x50 .f32) (x3 : Vec Ideal S2200x2200 .bf16) (x4 : Vec Ideal S2200 .f32) (x5 : Vec Ideal S1000x2200 .bf16) (x6 : Vec Ideal S1000 .f32) (x7 : Vec Ideal S50x1000 .bf16) (x8 : Vec Ideal S50 .f32) (x9 : Vec Ideal S13x50 .bf16) (x10 : Vec Ideal S13 .f32) (y : S64x13.Idx) :
    out0_11 x0 x1 x2 x3 x4 x5 x6 x7 x8 x9 x10 y
      = Cert.Fused.model (fun ch l => x0 (ix2 (y 0 : Fin 64) ⟨ch.val * 28749 + l.val, by have := ch.isLt; have := l.isLt; omega⟩))
          (fun n k => x1 (ix2 n k)) (fun n k => x2 (ix2 n k)) (fun n k => x3 (ix2 n k)) (fun n => x4 (ix1 n)) (fun n k => x5 (ix2 n k)) (fun n => x6 (ix1 n)) (fun n k => x7 (ix2 n k)) (fun n => x8 (ix1 n)) (fun n k => x9 (ix2 n k)) (fun n => x10 (ix1 n)) (y 1 : Fin 13) :=
  (congrArg (out0_11 x0 x1 x2 x3 x4 x5 x6 x7 x8 x9 x10) (eq_ix2 y)).trans (KBody.out_apply x0 x1 x2 x3 x4 x5 x6 x7 x8 x9 x10 (y 0) (y 1))

/-- The network's output array at any entry, the entry's sample and output read off the index. -/
theorem G_at (a0 : S2048x2x28749.Idx → EReal) (a1 : S50x28749.Idx → EReal) (a2 : S22x50.Idx → EReal) (a3 : S2200x2200.Idx → EReal) (a4 : S2200.Idx → EReal) (a5 : S1000x2200.Idx → EReal) (a6 : S1000.Idx → EReal) (a7 : S50x1000.Idx → EReal) (a8 : S50.Idx → EReal) (a9 : S13x50.Idx → EReal) (a10 : S13.Idx → EReal) (i : S2048x13.Idx) :
    Cert.Fused.G a0 a1 a2 a3 a4 a5 a6 a7 a8 a9 a10 i
      = Cert.Fused.model (fun ch l => a0 (ix3 (i 0 : Fin 2048) ch l))
          (fun n k => a1 (ix2 n k)) (fun n k => a2 (ix2 n k)) (fun n k => a3 (ix2 n k)) (fun n => a4 (ix1 n)) (fun n k => a5 (ix2 n k)) (fun n => a6 (ix1 n)) (fun n k => a7 (ix2 n k)) (fun n => a8 (ix1 n)) (fun n k => a9 (ix2 n k)) (fun n => a10 (ix1 n)) (i 1 : Fin 13) := rfl

/-- An entry of the body's output block is the same entry of the network's output array, when the input block's row is
    the array's sample and the weight and bias blocks are the weight and bias arrays. -/
theorem row_eq (x0 : Vec Ideal S64x57498 .f32) (x1 : Vec Ideal S50x28749 .bf16) (x2 : Vec Ideal S22x50 .f32) (x3 : Vec Ideal S2200x2200 .bf16) (x4 : Vec Ideal S2200 .f32) (x5 : Vec Ideal S1000x2200 .bf16) (x6 : Vec Ideal S1000 .f32) (x7 : Vec Ideal S50x1000 .bf16) (x8 : Vec Ideal S50 .f32) (x9 : Vec Ideal S13x50 .bf16) (x10 : Vec Ideal S13 .f32)
    (a0 : S2048x2x28749.Idx → EReal) (a1 : S50x28749.Idx → EReal) (a2 : S22x50.Idx → EReal) (a3 : S2200x2200.Idx → EReal) (a4 : S2200.Idx → EReal) (a5 : S1000x2200.Idx → EReal) (a6 : S1000.Idx → EReal) (a7 : S50x1000.Idx → EReal) (a8 : S50.Idx → EReal) (a9 : S13x50.Idx → EReal) (a10 : S13.Idx → EReal)
    (y : S64x13.Idx) (i : S2048x13.Idx)
    (h0 : ∀ (ch : Fin 2) (l : Fin 28749), x0 (ix2 (y 0 : Fin 64) ⟨ch.val * 28749 + l.val, by have := ch.isLt; have := l.isLt; omega⟩) = a0 (ix3 (i 0 : Fin 2048) ch l))
    (h1 : ∀ j, x1 j = a1 j) (h2 : ∀ j, x2 j = a2 j) (h3 : ∀ j, x3 j = a3 j) (h4 : ∀ j, x4 j = a4 j) (h5 : ∀ j, x5 j = a5 j) (h6 : ∀ j, x6 j = a6 j) (h7 : ∀ j, x7 j = a7 j) (h8 : ∀ j, x8 j = a8 j) (h9 : ∀ j, x9 j = a9 j) (h10 : ∀ j, x10 j = a10 j)
    (ho : (y 1).val = (i 1).val) :
    out0_11 x0 x1 x2 x3 x4 x5 x6 x7 x8 x9 x10 y = Cert.Fused.G a0 a1 a2 a3 a4 a5 a6 a7 a8 a9 a10 i := by
  have ho' : (y 1 : Fin 13) = (i 1 : Fin 13) := Fin.ext ho
  rw [out_at, G_at, ho']
  simp only [h0, h1, h2, h3, h4, h5, h6, h7, h8, h9, h10]

/-- What grid point t writes back is block t of the network's output array. -/
theorem flushed_eq (c : Dev nD) (t : Fin cfg0.N) :
    (dats m 0 c).flushed 11 t = ((cfg0.win 11).blk t).view.read (Elt Ideal) (Gm m c) := by
  obtain ⟨-, -, -, -, -, -, -, -, -, -, -, -, -, -, -, -, -, -, f0, f1⟩ := idx_facts t
  rw [Value.flushed11]
  funext j
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) ((cfg0.win 11).xinj (grid0.coords t) j) = Gm m c (((cfg0.win 11).blk t).view.emb j)
  refine row_eq (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ((cfg0.win 11).xinj (grid0.coords t) j) (((cfg0.win 11).blk t).view.emb j) ?_
    (iblk1_apply m c t) (iblk2_apply m c t) (iblk3_apply m c t) (iblk4_apply m c t) (iblk5_apply m c t) (iblk6_apply m c t) (iblk7_apply m c t) (iblk8_apply m c t) (iblk9_apply m c t) (iblk10_apply m c t) ?_
  · intro ch l
    refine iblk0_apply m c t _ _ ?_ ?_
    · show win0_11.index t 0 * 64 + 1 * (j 0).val = 64 * t.val + (j 0).val
      rw [f0]; omega
    · rfl
  · show (j 1).val = win0_11.index t 1 * 13 + 1 * (j 1).val
    rw [f1]; omega

/-- An index of the output array is in point t's block iff each coordinate is in the block's range on its axis. -/
theorem mem_blk (t : Fin cfg0.N) (i : S2048x13.Idx) :
    i ∈ ((cfg0.win 11).blk t).view.set ↔ ∀ a : Fin 2, win0_11.index t a * S64x13.size a ≤ (i a).val ∧ (i a).val < win0_11.index t a * S64x13.size a + S64x13.size a := by
  show i ∈ ((View.whole main_v6).slice (win0_11.rect t)).set ↔ _
  rw [View.set_slice_whole, Rect.mem_set_unit]
  exact Iff.rfl

/-- Every entry of the output array is in some point's block: row b is in the block of point b / 64. -/
theorem cover (i : S2048x13.Idx) : ∃ t : Fin cfg0.N, (cfg0.win 11).flush t = true ∧ i ∈ ((cfg0.win 11).blk t).view.set := by
  have hi0 : (i 0).val < 2048 := (i 0).isLt
  have hi1 : (i 1).val < 13 := (i 1).isLt
  have hN : cfg0.N = 32 := N_0
  have ht : (i 0).val / 64 < cfg0.N := by rw [hN]; omega
  obtain ⟨-, -, -, -, -, -, -, -, -, -, -, -, -, -, -, -, -, -, f0, f1⟩ := idx_facts ⟨(i 0).val / 64, ht⟩
  refine ⟨⟨(i 0).val / 64, ht⟩, flush0_11 _, ?_⟩
  rw [mem_blk]
  intro a
  match a with
  | ⟨0, _⟩ =>
    show win0_11.index ⟨(i 0).val / 64, ht⟩ 0 * 64 ≤ (i 0).val ∧ (i 0).val < win0_11.index ⟨(i 0).val / 64, ht⟩ 0 * 64 + 64
    rw [f0]; show (i 0).val / 64 * 64 ≤ (i 0).val ∧ (i 0).val < (i 0).val / 64 * 64 + 64; omega
  | ⟨1, _⟩ =>
    show win0_11.index ⟨(i 0).val / 64, ht⟩ 1 * 13 ≤ (i 1).val ∧ (i 1).val < win0_11.index ⟨(i 0).val / 64, ht⟩ 1 * 13 + 13
    rw [f1]; omega

/-- After the run the output array is the network's output array. -/
theorem final (c : Dev nD) : (dats m 0 c).arrAt 11 cfg0.N = Gm m c :=
  (dats m 0 c).arrAt_eq_of_cover 11 (Gm m c) (fun t _ => flushed_eq m c t) cover

/-- Every weakly fair execution of the idealized kernel's program ends with the output array at the network's value on
    the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = Cert.Fused.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun r h c => ⟨(h c).1.trans (final m c), (h c).2⟩) (Value.run_blocks m ρ)

end Cert.KernelIdeal.KArray

end
-- ==== Proof.RTerm.lean ====
/-
  The reference program's result as ONE composed term of its eleven argument arrays, operation by operation as the
  program applies them: 22 heads (slice both operands, contract the last axes, add the broadcast bias row, flatten the
  channel and output axes), the heads joined along the feature axis (sixteen, then six, then the two halves), and
  three dense layers with a leaky rectifier (compare with zero, select between the value and slope · value) and a
  last dense layer. Nothing is proved here; the run states its result with this term and the value proof reads it.
-/
import proofs.«414676_j67216238182882_3_alg».proof.Proof.Gen.ReferenceIdeal

noncomputable section

namespace Cert.ReferenceIdeal.RefTerm

open Cert.ReferenceIdeal Cert.ReferenceIdeal.Gen Idealize.ShloMosaic

variable {F : FTy → Type} [FloatOps F]

/-- Head 0: segment [0, 0 + 2490) of both channels against the same segment of the 50 weight rows, plus bias row 0;
    the (sample, channel, output) result laid out as (sample, 50 · channel + output). -/
def head0 (a0 : FVec F S2048x2x28749 .f32) (a1 : FVec F S50x28749 .f32) (a2 : FVec F S22x50 .f32) : FVec F S2048x100 .f32 :=
  shapeCast S2048x100 (addf (Host.dotGeneral dot_S2048x2x2490_S50x2490_S2048x2x50_2_1_01_0_n_n none
      (extractStridedSlice S2048x2x2490 ![0, 0, 0] a0 slices_S2048x2x28749_S2048x2x2490_0_0_0)
      (extractStridedSlice S50x2490 ![0, 0] a1 slices_S50x28749_S50x2490_0_0))
    (broadcastInDim S2048x2x50 ![0, 1, 2] bcast_S1x1x50_S2048x2x50_0_1_2 (broadcastInDim S1x1x50 ![2] bcast_S50_S1x1x50_2
      (shapeCast S50 (extractStridedSlice S1x50 ![0, 0] a2 slices_S22x50_S1x50_0_0) shapeCasts_S1x50_S50)))) shapeCasts_S2048x2x50_S2048x100

/-- Head 1: segment [2490, 2490 + 2422) of both channels against the same segment of the 50 weight rows, plus bias row 1;
    the (sample, channel, output) result laid out as (sample, 50 · channel + output). -/
def head1 (a0 : FVec F S2048x2x28749 .f32) (a1 : FVec F S50x28749 .f32) (a2 : FVec F S22x50 .f32) : FVec F S2048x100 .f32 :=
  shapeCast S2048x100 (addf (Host.dotGeneral dot_S2048x2x2422_S50x2422_S2048x2x50_2_1_01_0_n_n none
      (extractStridedSlice S2048x2x2422 ![0, 0, 2490] a0 slices_S2048x2x28749_S2048x2x2422_0_0_2490)
      (extractStridedSlice S50x2422 ![0, 2490] a1 slices_S50x28749_S50x2422_0_2490))
    (broadcastInDim S2048x2x50 ![0, 1, 2] bcast_S1x1x50_S2048x2x50_0_1_2 (broadcastInDim S1x1x50 ![2] bcast_S50_S1x1x50_2
      (shapeCast S50 (extractStridedSlice S1x50 ![1, 0] a2 slices_S22x50_S1x50_1_0) shapeCasts_S1x50_S50)))) shapeCasts_S2048x2x50_S2048x100

/-- Head 2: segment [4912, 4912 + 1983) of both channels against the same segment of the 50 weight rows, plus bias row 2;
    the (sample, channel, output) result laid out as (sample, 50 · channel + output). -/
def head2 (a0 : FVec F S2048x2x28749 .f32) (a1 : FVec F S50x28749 .f32) (a2 : FVec F S22x50 .f32) : FVec F S2048x100 .f32 :=
  shapeCast S2048x100 (addf (Host.dotGeneral dot_S2048x2x1983_S50x1983_S2048x2x50_2_1_01_0_n_n none
      (extractStridedSlice S2048x2x1983 ![0, 0, 4912] a0 slices_S2048x2x28749_S2048x2x1983_0_0_4912)
      (extractStridedSlice S50x1983 ![0, 4912] a1 slices_S50x28749_S50x1983_0_4912))
    (broadcastInDim S2048x2x50 ![0, 1, 2] bcast_S1x1x50_S2048x2x50_0_1_2 (broadcastInDim S1x1x50 ![2] bcast_S50_S1x1x50_2
      (shapeCast S50 (extractStridedSlice S1x50 ![2, 0] a2 slices_S22x50_S1x50_2_0) shapeCasts_S1x50_S50)))) shapeCasts_S2048x2x50_S2048x100

/-- Head 3: segment [6895, 6895 + 1902) of both channels against the same segment of the 50 weight rows, plus bias row 3;
    the (sample, channel, output) result laid out as (sample, 50 · channel + output). -/
def head3 (a0 : FVec F S2048x2x28749 .f32) (a1 : FVec F S50x28749 .f32) (a2 : FVec F S22x50 .f32) : FVec F S2048x100 .f32 :=
  shapeCast S2048x100 (addf (Host.dotGeneral dot_S2048x2x1902_S50x1902_S2048x2x50_2_1_01_0_n_n none
      (extractStridedSlice S2048x2x1902 ![0, 0, 6895] a0 slices_S2048x2x28749_S2048x2x1902_0_0_6895)
      (extractStridedSlice S50x1902 ![0, 6895] a1 slices_S50x28749_S50x1902_0_6895))
    (broadcastInDim S2048x2x50 ![0, 1, 2] bcast_S1x1x50_S2048x2x50_0_1_2 (broadcastInDim S1x1x50 ![2] bcast_S50_S1x1x50_2
      (shapeCast S50 (extractStridedSlice S1x50 ![3, 0] a2 slices_S22x50_S1x50_3_0) shapeCasts_S1x50_S50)))) shapeCasts_S2048x2x50_S2048x100

/-- Head 4: segment [8797, 8797 + 1815) of both channels against the same segment of the 50 weight rows, plus bias row 4;
    the (sample, channel, output) result laid out as (sample, 50 · channel + output). -/
def head4 (a0 : FVec F S2048x2x28749 .f32) (a1 : FVec F S50x28749 .f32) (a2 : FVec F S22x50 .f32) : FVec F S2048x100 .f32 :=
  shapeCast S2048x100 (addf (Host.dotGeneral dot_S2048x2x1815_S50x1815_S2048x2x50_2_1_01_0_n_n none
      (extractStridedSlice S2048x2x1815 ![0, 0, 8797] a0 slices_S2048x2x28749_S2048x2x1815_0_0_8797)
      (extractStridedSlice S50x1815 ![0, 8797] a1 slices_S50x28749_S50x1815_0_8797))
    (broadcastInDim S2048x2x50 ![0, 1, 2] bcast_S1x1x50_S2048x2x50_0_1_2 (broadcastInDim S1x1x50 ![2] bcast_S50_S1x1x50_2
      (shapeCast S50 (extractStridedSlice S1x50 ![4, 0] a2 slices_S22x50_S1x50_4_0) shapeCasts_S1x50_S50)))) shapeCasts_S2048x2x50_S2048x100

/-- Head 5: segment [10612, 10612 + 1708) of both channels against the same segment of the 50 weight rows, plus bias row 5;
    the (sample, channel, output) result laid out as (sample, 50 · channel + output). -/
def head5 (a0 : FVec F S2048x2x28749 .f32) (a1 : FVec F S50x28749 .f32) (a2 : FVec F S22x50 .f32) : FVec F S2048x100 .f32 :=
  shapeCast S2048x100 (addf (Host.dotGeneral dot_S2048x2x1708_S50x1708_S2048x2x50_2_1_01_0_n_n none
      (extractStridedSlice S2048x2x1708 ![0, 0, 10612] a0 slices_S2048x2x28749_S2048x2x1708_0_0_10612)
      (extractStridedSlice S50x1708 ![0, 10612] a1 slices_S50x28749_S50x1708_0_10612))
    (broadcastInDim S2048x2x50 ![0, 1, 2] bcast_S1x1x50_S2048x2x50_0_1_2 (broadcastInDim S1x1x50 ![2] bcast_S50_S1x1x50_2
      (shapeCast S50 (extractStridedSlice S1x50 ![5, 0] a2 slices_S22x50_S1x50_5_0) shapeCasts_S1x50_S50)))) shapeCasts_S2048x2x50_S2048x100

/-- Head 6: segment [12320, 12320 + 1593) of both channels against the same segment of the 50 weight rows, plus bias row 6;
    the (sample, channel, output) result laid out as (sample, 50 · channel + output). -/
def head6 (a0 : FVec F S2048x2x28749 .f32) (a1 : FVec F S50x28749 .f32) (a2 : FVec F S22x50 .f32) : FVec F S2048x100 .f32 :=
  shapeCast S2048x100 (addf (Host.dotGeneral dot_S2048x2x1593_S50x1593_S2048x2x50_2_1_01_0_n_n none
      (extractStridedSlice S2048x2x1593 ![0, 0, 12320] a0 slices_S2048x2x28749_S2048x2x1593_0_0_12320)
      (extractStridedSlice S50x1593 ![0, 12320] a1 slices_S50x28749_S50x1593_0_12320))
    (broadcastInDim S2048x2x50 ![0, 1, 2] bcast_S1x1x50_S2048x2x50_0_1_2 (broadcastInDim S1x1x50 ![2] bcast_S50_S1x1x50_2
      (shapeCast S50 (extractStridedSlice S1x50 ![6, 0] a2 slices_S22x50_S1x50_6_0) shapeCasts_S1x50_S50)))) shapeCasts_S2048x2x50_S2048x100

/-- Head 7: segment [13913, 13913 + 1451) of both channels against the same segment of the 50 weight rows, plus bias row 7;
    the (sample, channel, output) result laid out as (sample, 50 · channel + output). -/
def head7 (a0 : FVec F S2048x2x28749 .f32) (a1 : FVec F S50x28749 .f32) (a2 : FVec F S22x50 .f32) : FVec F S2048x100 .f32 :=
  shapeCast S2048x100 (addf (Host.dotGeneral dot_S2048x2x1451_S50x1451_S2048x2x50_2_1_01_0_n_n none
      (extractStridedSlice S2048x2x1451 ![0, 0, 13913] a0 slices_S2048x2x28749_S2048x2x1451_0_0_13913)
      (extractStridedSlice S50x1451 ![0, 13913] a1 slices_S50x28749_S50x1451_0_13913))
    (broadcastInDim S2048x2x50 ![0, 1, 2] bcast_S1x1x50_S2048x2x50_0_1_2 (broadcastInDim S1x1x50 ![2] bcast_S50_S1x1x50_2
      (shapeCast S50 (extractStridedSlice S1x50 ![7, 0] a2 slices_S22x50_S1x50_7_0) shapeCasts_S1x50_S50)))) shapeCasts_S2048x2x50_S2048x100

/-- Head 8: segment [15364, 15364 + 1384) of both channels against the same segment of the 50 weight rows, plus bias row 8;
    the (sample, channel, output) result laid out as (sample, 50 · channel + output). -/
def head8 (a0 : FVec F S2048x2x28749 .f32) (a1 : FVec F S50x28749 .f32) (a2 : FVec F S22x50 .f32) : FVec F S2048x100 .f32 :=
  shapeCast S2048x100 (addf (Host.dotGeneral dot_S2048x2x1384_S50x1384_S2048x2x50_2_1_01_0_n_n none
      (extractStridedSlice S2048x2x1384 ![0, 0, 15364] a0 slices_S2048x2x28749_S2048x2x1384_0_0_15364)
      (extractStridedSlice S50x1384 ![0, 15364] a1 slices_S50x28749_S50x1384_0_15364))
    (broadcastInDim S2048x2x50 ![0, 1, 2] bcast_S1x1x50_S2048x2x50_0_1_2 (broadcastInDim S1x1x50 ![2] bcast_S50_S1x1x50_2
      (shapeCast S50 (extractStridedSlice S1x50 ![8, 0] a2 slices_S22x50_S1x50_8_0) shapeCasts_S1x50_S50)))) shapeCasts_S2048x2x50_S2048x100

/-- Head 9: segment [16748, 16748 + 1338) of both channels against the same segment of the 50 weight rows, plus bias row 9;
    the (sample, channel, output) result laid out as (sample, 50 · channel + output). -/
def head9 (a0 : FVec F S2048x2x28749 .f32) (a1 : FVec F S50x28749 .f32) (a2 : FVec F S22x50 .f32) : FVec F S2048x100 .f32 :=
  shapeCast S2048x100 (addf (Host.dotGeneral dot_S2048x2x1338_S50x1338_S2048x2x50_2_1_01_0_n_n none
      (extractStridedSlice S2048x2x1338 ![0, 0, 16748] a0 slices_S2048x2x28749_S2048x2x1338_0_0_16748)
      (extractStridedSlice S50x1338 ![0, 16748] a1 slices_S50x28749_S50x1338_0_16748))
    (broadcastInDim S2048x2x50 ![0, 1, 2] bcast_S1x1x50_S2048x2x50_0_1_2 (broadcastInDim S1x1x50 ![2] bcast_S50_S1x1x50_2
      (shapeCast S50 (extractStridedSlice S1x50 ![9, 0] a2 slices_S22x50_S1x50_9_0) shapeCasts_S1x50_S50)))) shapeCasts_S2048x2x50_S2048x100

/-- Head 10: segment [18086, 18086 + 1351) of both channels against the same segment of the 50 weight rows, plus bias row 10;
    the (sample, channel, output) result laid out as (sample, 50 · channel + output). -/
def head10 (a0 : FVec F S2048x2x28749 .f32) (a1 : FVec F S50x28749 .f32) (a2 : FVec F S22x50 .f32) : FVec F S2048x100 .f32 :=
  shapeCast S2048x100 (addf (Host.dotGeneral dot_S2048x2x1351_S50x1351_S2048x2x50_2_1_01_0_n_n none
      (extractStridedSlice S2048x2x1351 ![0, 0, 18086] a0 slices_S2048x2x28749_S2048x2x1351_0_0_18086)
      (extractStridedSlice S50x1351 ![0, 18086] a1 slices_S50x28749_S50x1351_0_18086))
    (broadcastInDim S2048x2x50 ![0, 1, 2] bcast_S1x1x50_S2048x2x50_0_1_2 (broadcastInDim S1x1x50 ![2] bcast_S50_S1x1x50_2
      (shapeCast S50 (extractStridedSlice S1x50 ![10, 0] a2 slices_S22x50_S1x50_10_0) shapeCasts_S1x50_S50)))) shapeCasts_S2048x2x50_S2048x100

/-- Head 11: segment [19437, 19437 + 1333) of both channels against the same segment of the 50 weight rows, plus bias row 11;
    the (sample, channel, output) result laid out as (sample, 50 · channel + output). -/
def head11 (a0 : FVec F S2048x2x28749 .f32) (a1 : FVec F S50x28749 .f32) (a2 : FVec F S22x50 .f32) : FVec F S2048x100 .f32 :=
  shapeCast S2048x100 (addf (Host.dotGeneral dot_S2048x2x1333_S50x1333_S2048x2x50_2_1_01_0_n_n none
      (extractStridedSlice S2048x2x1333 ![0, 0, 19437] a0 slices_S2048x2x28749_S2048x2x1333_0_0_19437)
      (extractStridedSlice S50x1333 ![0, 19437] a1 slices_S50x28749_S50x1333_0_19437))
    (broadcastInDim S2048x2x50 ![0, 1, 2] bcast_S1x1x50_S2048x2x50_0_1_2 (broadcastInDim S1x1x50 ![2] bcast_S50_S1x1x50_2
      (shapeCast S50 (extractStridedSlice S1x50 ![11, 0] a2 slices_S22x50_S1x50_11_0) shapeCasts_S1x50_S50)))) shapeCasts_S2048x2x50_S2048x100

/-- Head 12: segment [20770, 20770 + 1144) of both channels against the same segment of the 50 weight rows, plus bias row 12;
    the (sample, channel, output) result laid out as (sample, 50 · channel + output). -/
def head12 (a0 : FVec F S2048x2x28749 .f32) (a1 : FVec F S50x28749 .f32) (a2 : FVec F S22x50 .f32) : FVec F S2048x100 .f32 :=
  shapeCast S2048x100 (addf (Host.dotGeneral dot_S2048x2x1144_S50x1144_S2048x2x50_2_1_01_0_n_n none
      (extractStridedSlice S2048x2x1144 ![0, 0, 20770] a0 slices_S2048x2x28749_S2048x2x1144_0_0_20770)
      (extractStridedSlice S50x1144 ![0, 20770] a1 slices_S50x28749_S50x1144_0_20770))
    (broadcastInDim S2048x2x50 ![0, 1, 2] bcast_S1x1x50_S2048x2x50_0_1_2 (broadcastInDim S1x1x50 ![2] bcast_S50_S1x1x50_2
      (shapeCast S50 (extractStridedSlice S1x50 ![12, 0] a2 slices_S22x50_S1x50_12_0) shapeCasts_S1x50_S50)))) shapeCasts_S2048x2x50_S2048x100

/-- Head 13: segment [21914, 21914 + 1070) of both channels against the same segment of the 50 weight rows, plus bias row 13;
    the (sample, channel, output) result laid out as (sample, 50 · channel + output). -/
def head13 (a0 : FVec F S2048x2x28749 .f32) (a1 : FVec F S50x28749 .f32) (a2 : FVec F S22x50 .f32) : FVec F S2048x100 .f32 :=
  shapeCast S2048x100 (addf (Host.dotGeneral dot_S2048x2x1070_S50x1070_S2048x2x50_2_1_01_0_n_n none
      (extractStridedSlice S2048x2x1070 ![0, 0, 21914] a0 slices_S2048x2x28749_S2048x2x1070_0_0_21914)
      (extractStridedSlice S50x1070 ![0, 21914] a1 slices_S50x28749_S50x1070_0_21914))
    (broadcastInDim S2048x2x50 ![0, 1, 2] bcast_S1x1x50_S2048x2x50_0_1_2 (broadcastInDim S1x1x50 ![2] bcast_S50_S1x1x50_2
      (shapeCast S50 (extractStridedSlice S1x50 ![13, 0] a2 slices_S22x50_S1x50_13_0) shapeCasts_S1x50_S50)))) shapeCasts_S2048x2x50_S2048x100

/-- Head 14: segment [22984, 22984 + 1020) of both channels against the same segment of the 50 weight rows, plus bias row 14;
    the (sample, channel, output) result laid out as (sample, 50 · channel + output). -/
def head14 (a0 : FVec F S2048x2x28749 .f32) (a1 : FVec F S50x28749 .f32) (a2 : FVec F S22x50 .f32) : FVec F S2048x100 .f32 :=
  shapeCast S2048x100 (addf (Host.dotGeneral dot_S2048x2x1020_S50x1020_S2048x2x50_2_1_01_0_n_n none
      (extractStridedSlice S2048x2x1020 ![0, 0, 22984] a0 slices_S2048x2x28749_S2048x2x1020_0_0_22984)
      (extractStridedSlice S50x1020 ![0, 22984] a1 slices_S50x28749_S50x1020_0_22984))
    (broadcastInDim S2048x2x50 ![0, 1, 2] bcast_S1x1x50_S2048x2x50_0_1_2 (broadcastInDim S1x1x50 ![2] bcast_S50_S1x1x50_2
      (shapeCast S50 (extractStridedSlice S1x50 ![14, 0] a2 slices_S22x50_S1x50_14_0) shapeCasts_S1x50_S50)))) shapeCasts_S2048x2x50_S2048x100

/-- Head 15: segment [24004, 24004 + 903) of both channels against the same segment of the 50 weight rows, plus bias row 15;
    the (sample, channel, output) result laid out as (sample, 50 · channel + output). -/
def head15 (a0 : FVec F S2048x2x28749 .f32) (a1 : FVec F S50x28749 .f32) (a2 : FVec F S22x50 .f32) : FVec F S2048x100 .f32 :=
  shapeCast S2048x100 (addf (Host.dotGeneral dot_S2048x2x903_S50x903_S2048x2x50_2_1_01_0_n_n none
      (extractStridedSlice S2048x2x903 ![0, 0, 24004] a0 slices_S2048x2x28749_S2048x2x903_0_0_24004)
      (extractStridedSlice S50x903 ![0, 24004] a1 slices_S50x28749_S50x903_0_24004))
    (broadcastInDim S2048x2x50 ![0, 1, 2] bcast_S1x1x50_S2048x2x50_0_1_2 (broadcastInDim S1x1x50 ![2] bcast_S50_S1x1x50_2
      (shapeCast S50 (extractStridedSlice S1x50 ![15, 0] a2 slices_S22x50_S1x50_15_0) shapeCasts_S1x50_S50)))) shapeCasts_S2048x2x50_S2048x100

/-- Head 16: segment [24907, 24907 + 833) of both channels against the same segment of the 50 weight rows, plus bias row 16;
    the (sample, channel, output) result laid out as (sample, 50 · channel + output). -/
def head16 (a0 : FVec F S2048x2x28749 .f32) (a1 : FVec F S50x28749 .f32) (a2 : FVec F S22x50 .f32) : FVec F S2048x100 .f32 :=
  shapeCast S2048x100 (addf (Host.dotGeneral dot_S2048x2x833_S50x833_S2048x2x50_2_1_01_0_n_n none
      (extractStridedSlice S2048x2x833 ![0, 0, 24907] a0 slices_S2048x2x28749_S2048x2x833_0_0_24907)
      (extractStridedSlice S50x833 ![0, 24907] a1 slices_S50x28749_S50x833_0_24907))
    (broadcastInDim S2048x2x50 ![0, 1, 2] bcast_S1x1x50_S2048x2x50_0_1_2 (broadcastInDim S1x1x50 ![2] bcast_S50_S1x1x50_2
      (shapeCast S50 (extractStridedSlice S1x50 ![16, 0] a2 slices_S22x50_S1x50_16_0) shapeCasts_S1x50_S50)))) shapeCasts_S2048x2x50_S2048x100

/-- Head 17: segment [25740, 25740 + 804) of both channels against the same segment of the 50 weight rows, plus bias row 17;
    the (sample, channel, output) result laid out as (sample, 50 · channel + output). -/
def head17 (a0 : FVec F S2048x2x28749 .f32) (a1 : FVec F S50x28749 .f32) (a2 : FVec F S22x50 .f32) : FVec F S2048x100 .f32 :=
  shapeCast S2048x100 (addf (Host.dotGeneral dot_S2048x2x804_S50x804_S2048x2x50_2_1_01_0_n_n none
      (extractStridedSlice S2048x2x804 ![0, 0, 25740] a0 slices_S2048x2x28749_S2048x2x804_0_0_25740)
      (extractStridedSlice S50x804 ![0, 25740] a1 slices_S50x28749_S50x804_0_25740))
    (broadcastInDim S2048x2x50 ![0, 1, 2] bcast_S1x1x50_S2048x2x50_0_1_2 (broadcastInDim S1x1x50 ![2] bcast_S50_S1x1x50_2
      (shapeCast S50 (extractStridedSlice S1x50 ![17, 0] a2 slices_S22x50_S1x50_17_0) shapeCasts_S1x50_S50)))) shapeCasts_S2048x2x50_S2048x100

/-- Head 18: segment [26544, 26544 + 586) of both channels against the same segment of the 50 weight rows, plus bias row 18;
    the (sample, channel, output) result laid out as (sample, 50 · channel + output). -/
def head18 (a0 : FVec F S2048x2x28749 .f32) (a1 : FVec F S50x28749 .f32) (a2 : FVec F S22x50 .f32) : FVec F S2048x100 .f32 :=
  shapeCast S2048x100 (addf (Host.dotGeneral dot_S2048x2x586_S50x586_S2048x2x50_2_1_01_0_n_n none
      (extractStridedSlice S2048x2x586 ![0, 0, 26544] a0 slices_S2048x2x28749_S2048x2x586_0_0_26544)
      (extractStridedSlice S50x586 ![0, 26544] a1 slices_S50x28749_S50x586_0_26544))
    (broadcastInDim S2048x2x50 ![0, 1, 2] bcast_S1x1x50_S2048x2x50_0_1_2 (broadcastInDim S1x1x50 ![2] bcast_S50_S1x1x50_2
      (shapeCast S50 (extractStridedSlice S1x50 ![18, 0] a2 slices_S22x50_S1x50_18_0) shapeCasts_S1x50_S50)))) shapeCasts_S2048x2x50_S2048x100

/-- Head 19: segment [27130, 27130 + 644) of both channels against the same segment of the 50 weight rows, plus bias row 19;
    the (sample, channel, output) result laid out as (sample, 50 · channel + output). -/
def head19 (a0 : FVec F S2048x2x28749 .f32) (a1 : FVec F S50x28749 .f32) (a2 : FVec F S22x50 .f32) : FVec F S2048x100 .f32 :=
  shapeCast S2048x100 (addf (Host.dotGeneral dot_S2048x2x644_S50x644_S2048x2x50_2_1_01_0_n_n none
      (extractStridedSlice S2048x2x644 ![0, 0, 27130] a0 slices_S2048x2x28749_S2048x2x644_0_0_27130)
      (extractStridedSlice S50x644 ![0, 27130] a1 slices_S50x28749_S50x644_0_27130))
    (broadcastInDim S2048x2x50 ![0, 1, 2] bcast_S1x1x50_S2048x2x50_0_1_2 (broadcastInDim S1x1x50 ![2] bcast_S50_S1x1x50_2
      (shapeCast S50 (extractStridedSlice S1x50 ![19, 0] a2 slices_S22x50_S1x50_19_0) shapeCasts_S1x50_S50)))) shapeCasts_S2048x2x50_S2048x100

/-- Head 20: segment [27774, 27774 + 467) of both channels against the same segment of the 50 weight rows, plus bias row 20;
    the (sample, channel, output) result laid out as (sample, 50 · channel + output). -/
def head20 (a0 : FVec F S2048x2x28749 .f32) (a1 : FVec F S50x28749 .f32) (a2 : FVec F S22x50 .f32) : FVec F S2048x100 .f32 :=
  shapeCast S2048x100 (addf (Host.dotGeneral dot_S2048x2x467_S50x467_S2048x2x50_2_1_01_0_n_n none
      (extractStridedSlice S2048x2x467 ![0, 0, 27774] a0 slices_S2048x2x28749_S2048x2x467_0_0_27774)
      (extractStridedSlice S50x467 ![0, 27774] a1 slices_S50x28749_S50x467_0_27774))
    (broadcastInDim S2048x2x50 ![0, 1, 2] bcast_S1x1x50_S2048x2x50_0_1_2 (broadcastInDim S1x1x50 ![2] bcast_S50_S1x1x50_2
      (shapeCast S50 (extractStridedSlice S1x50 ![20, 0] a2 slices_S22x50_S1x50_20_0) shapeCasts_S1x50_S50)))) shapeCasts_S2048x2x50_S2048x100

/-- Head 21: segment [28241, 28241 + 508) of both channels against the same segment of the 50 weight rows, plus bias row 21;
    the (sample, channel, output) result laid out as (sample, 50 · channel + output). -/
def head21 (a0 : FVec F S2048x2x28749 .f32) (a1 : FVec F S50x28749 .f32) (a2 : FVec F S22x50 .f32) : FVec F S2048x100 .f32 :=
  shapeCast S2048x100 (addf (Host.dotGeneral dot_S2048x2x508_S50x508_S2048x2x50_2_1_01_0_n_n none
      (extractStridedSlice S2048x2x508 ![0, 0, 28241] a0 slices_S2048x2x28749_S2048x2x508_0_0_28241)
      (extractStridedSlice S50x508 ![0, 28241] a1 slices_S50x28749_S50x508_0_28241))
    (broadcastInDim S2048x2x50 ![0, 1, 2] bcast_S1x1x50_S2048x2x50_0_1_2 (broadcastInDim S1x1x50 ![2] bcast_S50_S1x1x50_2
      (shapeCast S50 (extractStridedSlice S1x50 ![21, 0] a2 slices_S22x50_S1x50_21_0) shapeCasts_S1x50_S50)))) shapeCasts_S2048x2x50_S2048x100

/-- Heads 0 to 15 side by side. -/
def comb16 (a0 : FVec F S2048x2x28749 .f32) (a1 : FVec F S50x28749 .f32) (a2 : FVec F S22x50 .f32) : FVec F S2048x1600 .f32 :=
  concatenate S2048x1600 1 [⟨S2048x100, head0 a0 a1 a2⟩, ⟨S2048x100, head1 a0 a1 a2⟩, ⟨S2048x100, head2 a0 a1 a2⟩, ⟨S2048x100, head3 a0 a1 a2⟩, ⟨S2048x100, head4 a0 a1 a2⟩, ⟨S2048x100, head5 a0 a1 a2⟩, ⟨S2048x100, head6 a0 a1 a2⟩, ⟨S2048x100, head7 a0 a1 a2⟩, ⟨S2048x100, head8 a0 a1 a2⟩, ⟨S2048x100, head9 a0 a1 a2⟩, ⟨S2048x100, head10 a0 a1 a2⟩, ⟨S2048x100, head11 a0 a1 a2⟩, ⟨S2048x100, head12 a0 a1 a2⟩, ⟨S2048x100, head13 a0 a1 a2⟩, ⟨S2048x100, head14 a0 a1 a2⟩, ⟨S2048x100, head15 a0 a1 a2⟩] concatenates_S2048x100_S2048x100_S2048x100_S2048x100_S2048x100_S2048x100_S2048x100_S2048x100_S2048x100_S2048x100_S2048x100_S2048x100_S2048x100_S2048x100_S2048x100_S2048x100_S2048x1600_d1

/-- Heads 16 to 21 side by side. -/
def comb6 (a0 : FVec F S2048x2x28749 .f32) (a1 : FVec F S50x28749 .f32) (a2 : FVec F S22x50 .f32) : FVec F S2048x600 .f32 :=
  concatenate S2048x600 1 [⟨S2048x100, head16 a0 a1 a2⟩, ⟨S2048x100, head17 a0 a1 a2⟩, ⟨S2048x100, head18 a0 a1 a2⟩, ⟨S2048x100, head19 a0 a1 a2⟩, ⟨S2048x100, head20 a0 a1 a2⟩, ⟨S2048x100, head21 a0 a1 a2⟩] concatenates_S2048x100_S2048x100_S2048x100_S2048x100_S2048x100_S2048x100_S2048x600_d1

/-- The 2200 combined features of every sample. -/
def combined (a0 : FVec F S2048x2x28749 .f32) (a1 : FVec F S50x28749 .f32) (a2 : FVec F S22x50 .f32) : FVec F S2048x2200 .f32 :=
  concatenate S2048x2200 1 [⟨S2048x1600, comb16 a0 a1 a2⟩, ⟨S2048x600, comb6 a0 a1 a2⟩] concatenates_S2048x1600_S2048x600_S2048x2200_d1

/-- First dense layer: features · conc_wᵀ + conc_b. -/
def dense0 (cv : FVec F S2048x2200 .f32) (a3 : FVec F S2200x2200 .f32) (a4 : FVec F S2200 .f32) : FVec F S2048x2200 .f32 :=
  addf (Host.dotGeneral dot_S2048x2200_S2200x2200_S2048x2200_1_0_0_1_n_n none cv (transpose S2200x2200 [1, 0] a3 transposes_S2200x2200_S2200x2200_1_0))
    (broadcastInDim S2048x2200 ![0, 1] bcast_S1x2200_S2048x2200_0_1 (broadcastInDim S1x2200 ![1] bcast_S2200_S1x2200_1 a4))

/-- Second dense layer before its rectifier: z · w1ᵀ + b1. -/
def dense1 (zv : FVec F S2048x2200 .f32) (a5 : FVec F S1000x2200 .f32) (a6 : FVec F S1000 .f32) : FVec F S2048x1000 .f32 :=
  addf (Host.dotGeneral dot_S2048x2200_S2200x1000_S2048x1000_1_0_0_1_n_n none zv (transpose S2200x1000 [1, 0] a5 transposes_S1000x2200_S2200x1000_1_0))
    (broadcastInDim S2048x1000 ![0, 1] bcast_S1x1000_S2048x1000_0_1 (broadcastInDim S1x1000 ![1] bcast_S1000_S1x1000_1 a6))

/-- The leaky rectifier on a 2048 × 1000 array: the value where it is at least zero, else slope · value. -/
def act1 (p : FVec F S2048x1000 .f32) : FVec F S2048x1000 .f32 :=
  select (cmpf .oge p (broadcastInDim S2048x1000 ![] bcast_S_S2048x1000 (constant S_ .f32 0x00000000#32))) p
    (mulf (broadcastInDim S2048x1000 ![] bcast_S_S2048x1000 (constant S_ .f32 0x3C23D70A#32)) p)

/-- Third dense layer before its rectifier: h1 · w2ᵀ + b2. -/
def dense2 (h1 : FVec F S2048x1000 .f32) (a7 : FVec F S50x1000 .f32) (a8 : FVec F S50 .f32) : FVec F S2048x50 .f32 :=
  addf (Host.dotGeneral dot_S2048x1000_S1000x50_S2048x50_1_0_0_1_n_n none h1 (transpose S1000x50 [1, 0] a7 transposes_S50x1000_S1000x50_1_0))
    (broadcastInDim S2048x50 ![0, 1] bcast_S1x50_S2048x50_0_1 (broadcastInDim S1x50 ![1] bcast_S50_S1x50_1 a8))

/-- The leaky rectifier on a 2048 × 50 array. -/
def act2 (p : FVec F S2048x50 .f32) : FVec F S2048x50 .f32 :=
  select (cmpf .oge p (broadcastInDim S2048x50 ![] bcast_S_S2048x50 (constant S_ .f32 0x00000000#32))) p
    (mulf (broadcastInDim S2048x50 ![] bcast_S_S2048x50 (constant S_ .f32 0x3C23D70A#32)) p)

/-- Output layer: h2 · w3ᵀ + b3. -/
def dense3 (h2 : FVec F S2048x50 .f32) (a9 : FVec F S13x50 .f32) (a10 : FVec F S13 .f32) : FVec F S2048x13 .f32 :=
  addf (Host.dotGeneral dot_S2048x50_S50x13_S2048x13_1_0_0_1_n_n none h2 (transpose S50x13 [1, 0] a9 transposes_S13x50_S50x13_1_0))
    (broadcastInDim S2048x13 ![0, 1] bcast_S1x13_S2048x13_0_1 (broadcastInDim S1x13 ![1] bcast_S13_S1x13_1 a10))

/-- The reference's result. -/
def out (a0 : FVec F S2048x2x28749 .f32) (a1 : FVec F S50x28749 .f32) (a2 : FVec F S22x50 .f32) (a3 : FVec F S2200x2200 .f32)
    (a4 : FVec F S2200 .f32) (a5 : FVec F S1000x2200 .f32) (a6 : FVec F S1000 .f32) (a7 : FVec F S50x1000 .f32)
    (a8 : FVec F S50 .f32) (a9 : FVec F S13x50 .f32) (a10 : FVec F S13 .f32) : FVec F S2048x13 .f32 :=
  dense3 (act2 (dense2 (act1 (dense1 (dense0 (combined a0 a1 a2) a3 a4) a5 a6)) a7 a8)) a9 a10

end Cert.ReferenceIdeal.RefTerm

end
-- ==== Proof.RRunOps.lean ====
/-
  The reference program's straight line of operations as lists, window by window: statement k of a window is entry k of
  its list, a call is the callee's operations over the call's own buffers, and the function of each concatenate is
  given a name (its operands are then plain arguments). Nothing is proved here.
-/
import proofs.«414676_j67216238182882_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes main_v198, named: a concatenate with its operands as plain arguments. -/
def fn_main_v198 : (main_v8 : Ref sig .tc).ty.Contents (Elt F) → (main_v17 : Ref sig .tc).ty.Contents (Elt F) → (main_v26 : Ref sig .tc).ty.Contents (Elt F) → (main_v35 : Ref sig .tc).ty.Contents (Elt F) → (main_v44 : Ref sig .tc).ty.Contents (Elt F) → (main_v53 : Ref sig .tc).ty.Contents (Elt F) → (main_v62 : Ref sig .tc).ty.Contents (Elt F) → (main_v71 : Ref sig .tc).ty.Contents (Elt F) → (main_v80 : Ref sig .tc).ty.Contents (Elt F) → (main_v89 : Ref sig .tc).ty.Contents (Elt F) → (main_v98 : Ref sig .tc).ty.Contents (Elt F) → (main_v107 : Ref sig .tc).ty.Contents (Elt F) → (main_v116 : Ref sig .tc).ty.Contents (Elt F) → (main_v125 : Ref sig .tc).ty.Contents (Elt F) → (main_v134 : Ref sig .tc).ty.Contents (Elt F) → (main_v143 : Ref sig .tc).ty.Contents (Elt F) → (main_v198 : Ref sig .tc).ty.Contents (Elt F) :=
  (fun u0 u1 u2 u3 u4 u5 u6 u7 u8 u9 u10 u11 u12 u13 u14 u15 => concatenate S2048x1600 1 [⟨S2048x100, u0⟩, ⟨S2048x100, u1⟩, ⟨S2048x100, u2⟩, ⟨S2048x100, u3⟩, ⟨S2048x100, u4⟩, ⟨S2048x100, u5⟩, ⟨S2048x100, u6⟩, ⟨S2048x100, u7⟩, ⟨S2048x100, u8⟩, ⟨S2048x100, u9⟩, ⟨S2048x100, u10⟩, ⟨S2048x100, u11⟩, ⟨S2048x100, u12⟩, ⟨S2048x100, u13⟩, ⟨S2048x100, u14⟩, ⟨S2048x100, u15⟩] concatenates_S2048x100_S2048x100_S2048x100_S2048x100_S2048x100_S2048x100_S2048x100_S2048x100_S2048x100_S2048x100_S2048x100_S2048x100_S2048x100_S2048x100_S2048x100_S2048x100_S2048x1600_d1)

/-- The function of the operation that writes main_v199, named: a concatenate with its operands as plain arguments. -/
def fn_main_v199 : (main_v152 : Ref sig .tc).ty.Contents (Elt F) → (main_v161 : Ref sig .tc).ty.Contents (Elt F) → (main_v170 : Ref sig .tc).ty.Contents (Elt F) → (main_v179 : Ref sig .tc).ty.Contents (Elt F) → (main_v188 : Ref sig .tc).ty.Contents (Elt F) → (main_v197 : Ref sig .tc).ty.Contents (Elt F) → (main_v199 : Ref sig .tc).ty.Contents (Elt F) :=
  (fun u0 u1 u2 u3 u4 u5 => concatenate S2048x600 1 [⟨S2048x100, u0⟩, ⟨S2048x100, u1⟩, ⟨S2048x100, u2⟩, ⟨S2048x100, u3⟩, ⟨S2048x100, u4⟩, ⟨S2048x100, u5⟩] concatenates_S2048x100_S2048x100_S2048x100_S2048x100_S2048x100_S2048x100_S2048x600_d1)

/-- The function of the operation that writes main_v200, named: a concatenate with its operands as plain arguments. -/
def fn_main_v200 : (⟨S2048x1600, .f32⟩ : BufTy).Contents (Elt F) → (⟨S2048x600, .f32⟩ : BufTy).Contents (Elt F) → (⟨S2048x2200, .f32⟩ : BufTy).Contents (Elt F) :=
  (fun a b => concatenate S2048x2200 1 [⟨S2048x1600, a⟩, ⟨S2048x600, b⟩] concatenates_S2048x1600_S2048x600_S2048x2200_d1)

/-- The operations of window 0 of @main (60 of 237). -/
abbrev ops_part0 : List (HloOp τ sig (Elt F)) :=
  [ unary main_arg0 main_v0 ((extractStridedSlice S2048x2x2490 ![0, 0, 0] · slices_S2048x2x28749_S2048x2x2490_0_0_0) : (⟨S2048x2x28749, .f32⟩ : BufTy).Contents (Elt F) → (⟨S2048x2x2490, .f32⟩ : BufTy).Contents (Elt F)),
    unary main_arg1 main_v1 ((extractStridedSlice S50x2490 ![0, 0] · slices_S50x28749_S50x2490_0_0) : (⟨S50x28749, .f32⟩ : BufTy).Contents (Elt F) → (⟨S50x2490, .f32⟩ : BufTy).Contents (Elt F)),
    binary main_v0 main_v1 main_v2 ((fun l r => Host.dotGeneral dot_S2048x2x2490_S50x2490_S2048x2x50_2_1_01_0_n_n none l r) : (⟨S2048x2x2490, .f32⟩ : BufTy).Contents (Elt F) → (⟨S50x2490, .f32⟩ : BufTy).Contents (Elt F) → (⟨S2048x2x50, .f32⟩ : BufTy).Contents (Elt F)),
    unary main_arg2 main_v3 ((extractStridedSlice S1x50 ![0, 0] · slices_S22x50_S1x50_0_0) : (⟨S22x50, .f32⟩ : BufTy).Contents (Elt F) → (⟨S1x50, .f32⟩ : BufTy).Contents (Elt F)),
    reshape main_v3 main_v4 rfl shapeCasts_S1x50_S50,
    unary main_v4 main_v5 (broadcastInDim S1x1x50 ![2] bcast_S50_S1x1x50_2 : (⟨S50, .f32⟩ : BufTy).Contents (Elt F) → (⟨S1x1x50, .f32⟩ : BufTy).Contents (Elt F)),
    unary main_v5 main_v6 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v2 main_v6 main_v7 (addf : (⟨S2048x2x50, .f32⟩ : BufTy).Contents (Elt F) → (⟨S2048x2x50, .f32⟩ : BufTy).Contents (Elt F) → (⟨S2048x2x50, .f32⟩ : BufTy).Contents (Elt F)),
    reshape main_v7 main_v8 rfl shapeCasts_S2048x2x50_S2048x100,
    unary main_arg0 main_v9 ((extractStridedSlice S2048x2x2422 ![0, 0, 2490] · slices_S2048x2x28749_S2048x2x2422_0_0_2490) : (⟨S2048x2x28749, .f32⟩ : BufTy).Contents (Elt F) → (⟨S2048x2x2422, .f32⟩ : BufTy).Contents (Elt F)),
    unary main_arg1 main_v10 ((extractStridedSlice S50x2422 ![0, 2490] · slices_S50x28749_S50x2422_0_2490) : (⟨S50x28749, .f32⟩ : BufTy).Contents (Elt F) → (⟨S50x2422, .f32⟩ : BufTy).Contents (Elt F)),
    binary main_v9 main_v10 main_v11 ((fun l r => Host.dotGeneral dot_S2048x2x2422_S50x2422_S2048x2x50_2_1_01_0_n_n none l r) : (⟨S2048x2x2422, .f32⟩ : BufTy).Contents (Elt F) → (⟨S50x2422, .f32⟩ : BufTy).Contents (Elt F) → (⟨S2048x2x50, .f32⟩ : BufTy).Contents (Elt F)),
    unary main_arg2 main_v12 ((extractStridedSlice S1x50 ![1, 0] · slices_S22x50_S1x50_1_0) : (⟨S22x50, .f32⟩ : BufTy).Contents (Elt F) → (⟨S1x50, .f32⟩ : BufTy).Contents (Elt F)),
    reshape main_v12 main_v13 rfl shapeCasts_S1x50_S50,
    unary main_v13 main_v14 (broadcastInDim S1x1x50 ![2] bcast_S50_S1x1x50_2 : (⟨S50, .f32⟩ : BufTy).Contents (Elt F) → (⟨S1x1x50, .f32⟩ : BufTy).Contents (Elt F)),
    unary main_v14 main_v15 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v11 main_v15 main_v16 (addf : (⟨S2048x2x50, .f32⟩ : BufTy).Contents (Elt F) → (⟨S2048x2x50, .f32⟩ : BufTy).Contents (Elt F) → (⟨S2048x2x50, .f32⟩ : BufTy).Contents (Elt F)),
    reshape main_v16 main_v17 rfl shapeCasts_S2048x2x50_S2048x100,
    unary main_arg0 main_v18 ((extractStridedSlice S2048x2x1983 ![0, 0, 4912] · slices_S2048x2x28749_S2048x2x1983_0_0_4912) : (⟨S2048x2x28749, .f32⟩ : BufTy).Contents (Elt F) → (⟨S2048x2x1983, .f32⟩ : BufTy).Contents (Elt F)),
    unary main_arg1 main_v19 ((extractStridedSlice S50x1983 ![0, 4912] · slices_S50x28749_S50x1983_0_4912) : (⟨S50x28749, .f32⟩ : BufTy).Contents (Elt F) → (⟨S50x1983, .f32⟩ : BufTy).Contents (Elt F)),
    binary main_v18 main_v19 main_v20 ((fun l r => Host.dotGeneral dot_S2048x2x1983_S50x1983_S2048x2x50_2_1_01_0_n_n none l r) : (⟨S2048x2x1983, .f32⟩ : BufTy).Contents (Elt F) → (⟨S50x1983, .f32⟩ : BufTy).Contents (Elt F) → (⟨S2048x2x50, .f32⟩ : BufTy).Contents (Elt F)),
    unary main_arg2 main_v21 ((extractStridedSlice S1x50 ![2, 0] · slices_S22x50_S1x50_2_0) : (⟨S22x50, .f32⟩ : BufTy).Contents (Elt F) → (⟨S1x50, .f32⟩ : BufTy).Contents (Elt F)),
    reshape main_v21 main_v22 rfl shapeCasts_S1x50_S50,
    unary main_v22 main_v23 (broadcastInDim S1x1x50 ![2] bcast_S50_S1x1x50_2 : (⟨S50, .f32⟩ : BufTy).Contents (Elt F) → (⟨S1x1x50, .f32⟩ : BufTy).Contents (Elt F)),
    unary main_v23 main_v24 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v20 main_v24 main_v25 (addf : (⟨S2048x2x50, .f32⟩ : BufTy).Contents (Elt F) → (⟨S2048x2x50, .f32⟩ : BufTy).Contents (Elt F) → (⟨S2048x2x50, .f32⟩ : BufTy).Contents (Elt F)),
    reshape main_v25 main_v26 rfl shapeCasts_S2048x2x50_S2048x100,
    unary main_arg0 main_v27 ((extractStridedSlice S2048x2x1902 ![0, 0, 6895] · slices_S2048x2x28749_S2048x2x1902_0_0_6895) : (⟨S2048x2x28749, .f32⟩ : BufTy).Contents (Elt F) → (⟨S2048x2x1902, .f32⟩ : BufTy).Contents (Elt F)),
    unary main_arg1 main_v28 ((extractStridedSlice S50x1902 ![0, 6895] · slices_S50x28749_S50x1902_0_6895) : (⟨S50x28749, .f32⟩ : BufTy).Contents (Elt F) → (⟨S50x1902, .f32⟩ : BufTy).Contents (Elt F)),
    binary main_v27 main_v28 main_v29 ((fun l r => Host.dotGeneral dot_S2048x2x1902_S50x1902_S2048x2x50_2_1_01_0_n_n none l r) : (⟨S2048x2x1902, .f32⟩ : BufTy).Contents (Elt F) → (⟨S50x1902, .f32⟩ : BufTy).Contents (Elt F) → (⟨S2048x2x50, .f32⟩ : BufTy).Contents (Elt F)),
    unary main_arg2 main_v30 ((extractStridedSlice S1x50 ![3, 0] · slices_S22x50_S1x50_3_0) : (⟨S22x50, .f32⟩ : BufTy).Contents (Elt F) → (⟨S1x50, .f32⟩ : BufTy).Contents (Elt F)),
    reshape main_v30 main_v31 rfl shapeCasts_S1x50_S50,
    unary main_v31 main_v32 (broadcastInDim S1x1x50 ![2] bcast_S50_S1x1x50_2 : (⟨S50, .f32⟩ : BufTy).Contents (Elt F) → (⟨S1x1x50, .f32⟩ : BufTy).Contents (Elt F)),
    unary main_v32 main_v33 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v29 main_v33 main_v34 (addf : (⟨S2048x2x50, .f32⟩ : BufTy).Contents (Elt F) → (⟨S2048x2x50, .f32⟩ : BufTy).Contents (Elt F) → (⟨S2048x2x50, .f32⟩ : BufTy).Contents (Elt F)),
    reshape main_v34 main_v35 rfl shapeCasts_S2048x2x50_S2048x100,
    unary main_arg0 main_v36 ((extractStridedSlice S2048x2x1815 ![0, 0, 8797] · slices_S2048x2x28749_S2048x2x1815_0_0_8797) : (⟨S2048x2x28749, .f32⟩ : BufTy).Contents (Elt F) → (⟨S2048x2x1815, .f32⟩ : BufTy).Contents (Elt F)),
    unary main_arg1 main_v37 ((extractStridedSlice S50x1815 ![0, 8797] · slices_S50x28749_S50x1815_0_8797) : (⟨S50x28749, .f32⟩ : BufTy).Contents (Elt F) → (⟨S50x1815, .f32⟩ : BufTy).Contents (Elt F)),
    binary main_v36 main_v37 main_v38 ((fun l r => Host.dotGeneral dot_S2048x2x1815_S50x1815_S2048x2x50_2_1_01_0_n_n none l r) : (⟨S2048x2x1815, .f32⟩ : BufTy).Contents (Elt F) → (⟨S50x1815, .f32⟩ : BufTy).Contents (Elt F) → (⟨S2048x2x50, .f32⟩ : BufTy).Contents (Elt F)),
    unary main_arg2 main_v39 ((extractStridedSlice S1x50 ![4, 0] · slices_S22x50_S1x50_4_0) : (⟨S22x50, .f32⟩ : BufTy).Contents (Elt F) → (⟨S1x50, .f32⟩ : BufTy).Contents (Elt F)),
    reshape main_v39 main_v40 rfl shapeCasts_S1x50_S50,
    unary main_v40 main_v41 (broadcastInDim S1x1x50 ![2] bcast_S50_S1x1x50_2 : (⟨S50, .f32⟩ : BufTy).Contents (Elt F) → (⟨S1x1x50, .f32⟩ : BufTy).Contents (Elt F)),
    unary main_v41 main_v42 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v38 main_v42 main_v43 (addf : (⟨S2048x2x50, .f32⟩ : BufTy).Contents (Elt F) → (⟨S2048x2x50, .f32⟩ : BufTy).Contents (Elt F) → (⟨S2048x2x50, .f32⟩ : BufTy).Contents (Elt F)),
    reshape main_v43 main_v44 rfl shapeCasts_S2048x2x50_S2048x100,
    unary main_arg0 main_v45 ((extractStridedSlice S2048x2x1708 ![0, 0, 10612] · slices_S2048x2x28749_S2048x2x1708_0_0_10612) : (⟨S2048x2x28749, .f32⟩ : BufTy).Contents (Elt F) → (⟨S2048x2x1708, .f32⟩ : BufTy).Contents (Elt F)),
    unary main_arg1 main_v46 ((extractStridedSlice S50x1708 ![0, 10612] · slices_S50x28749_S50x1708_0_10612) : (⟨S50x28749, .f32⟩ : BufTy).Contents (Elt F) → (⟨S50x1708, .f32⟩ : BufTy).Contents (Elt F)),
    binary main_v45 main_v46 main_v47 ((fun l r => Host.dotGeneral dot_S2048x2x1708_S50x1708_S2048x2x50_2_1_01_0_n_n none l r) : (⟨S2048x2x1708, .f32⟩ : BufTy).Contents (Elt F) → (⟨S50x1708, .f32⟩ : BufTy).Contents (Elt F) → (⟨S2048x2x50, .f32⟩ : BufTy).Contents (Elt F)),
    unary main_arg2 main_v48 ((extractStridedSlice S1x50 ![5, 0] · slices_S22x50_S1x50_5_0) : (⟨S22x50, .f32⟩ : BufTy).Contents (Elt F) → (⟨S1x50, .f32⟩ : BufTy).Contents (Elt F)),
    reshape main_v48 main_v49 rfl shapeCasts_S1x50_S50,
    unary main_v49 main_v50 (broadcastInDim S1x1x50 ![2] bcast_S50_S1x1x50_2 : (⟨S50, .f32⟩ : BufTy).Contents (Elt F) → (⟨S1x1x50, .f32⟩ : BufTy).Contents (Elt F)),
    unary main_v50 main_v51 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v47 main_v51 main_v52 (addf : (⟨S2048x2x50, .f32⟩ : BufTy).Contents (Elt F) → (⟨S2048x2x50, .f32⟩ : BufTy).Contents (Elt F) → (⟨S2048x2x50, .f32⟩ : BufTy).Contents (Elt F)),
    reshape main_v52 main_v53 rfl shapeCasts_S2048x2x50_S2048x100,
    unary main_arg0 main_v54 ((extractStridedSlice S2048x2x1593 ![0, 0, 12320] · slices_S2048x2x28749_S2048x2x1593_0_0_12320) : (⟨S2048x2x28749, .f32⟩ : BufTy).Contents (Elt F) → (⟨S2048x2x1593, .f32⟩ : BufTy).Contents (Elt F)),
    unary main_arg1 main_v55 ((extractStridedSlice S50x1593 ![0, 12320] · slices_S50x28749_S50x1593_0_12320) : (⟨S50x28749, .f32⟩ : BufTy).Contents (Elt F) → (⟨S50x1593, .f32⟩ : BufTy).Contents (Elt F)),
    binary main_v54 main_v55 main_v56 ((fun l r => Host.dotGeneral dot_S2048x2x1593_S50x1593_S2048x2x50_2_1_01_0_n_n none l r) : (⟨S2048x2x1593, .f32⟩ : BufTy).Contents (Elt F) → (⟨S50x1593, .f32⟩ : BufTy).Contents (Elt F) → (⟨S2048x2x50, .f32⟩ : BufTy).Contents (Elt F)),
    unary main_arg2 main_v57 ((extractStridedSlice S1x50 ![6, 0] · slices_S22x50_S1x50_6_0) : (⟨S22x50, .f32⟩ : BufTy).Contents (Elt F) → (⟨S1x50, .f32⟩ : BufTy).Contents (Elt F)),
    reshape main_v57 main_v58 rfl shapeCasts_S1x50_S50,
    unary main_v58 main_v59 (broadcastInDim S1x1x50 ![2] bcast_S50_S1x1x50_2 : (⟨S50, .f32⟩ : BufTy).Contents (Elt F) → (⟨S1x1x50, .f32⟩ : BufTy).Contents (Elt F)) ]

/-- The operations of window 1 of @main (60 of 237). -/
abbrev ops_part1 : List (HloOp τ sig (Elt F)) :=
  [ unary main_v59 main_v60 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v56 main_v60 main_v61 (addf : (⟨S2048x2x50, .f32⟩ : BufTy).Contents (Elt F) → (⟨S2048x2x50, .f32⟩ : BufTy).Contents (Elt F) → (⟨S2048x2x50, .f32⟩ : BufTy).Contents (Elt F)),
    reshape main_v61 main_v62 rfl shapeCasts_S2048x2x50_S2048x100,
    unary main_arg0 main_v63 ((extractStridedSlice S2048x2x1451 ![0, 0, 13913] · slices_S2048x2x28749_S2048x2x1451_0_0_13913) : (⟨S2048x2x28749, .f32⟩ : BufTy).Contents (Elt F) → (⟨S2048x2x1451, .f32⟩ : BufTy).Contents (Elt F)),
    unary main_arg1 main_v64 ((extractStridedSlice S50x1451 ![0, 13913] · slices_S50x28749_S50x1451_0_13913) : (⟨S50x28749, .f32⟩ : BufTy).Contents (Elt F) → (⟨S50x1451, .f32⟩ : BufTy).Contents (Elt F)),
    binary main_v63 main_v64 main_v65 ((fun l r => Host.dotGeneral dot_S2048x2x1451_S50x1451_S2048x2x50_2_1_01_0_n_n none l r) : (⟨S2048x2x1451, .f32⟩ : BufTy).Contents (Elt F) → (⟨S50x1451, .f32⟩ : BufTy).Contents (Elt F) → (⟨S2048x2x50, .f32⟩ : BufTy).Contents (Elt F)),
    unary main_arg2 main_v66 ((extractStridedSlice S1x50 ![7, 0] · slices_S22x50_S1x50_7_0) : (⟨S22x50, .f32⟩ : BufTy).Contents (Elt F) → (⟨S1x50, .f32⟩ : BufTy).Contents (Elt F)),
    reshape main_v66 main_v67 rfl shapeCasts_S1x50_S50,
    unary main_v67 main_v68 (broadcastInDim S1x1x50 ![2] bcast_S50_S1x1x50_2 : (⟨S50, .f32⟩ : BufTy).Contents (Elt F) → (⟨S1x1x50, .f32⟩ : BufTy).Contents (Elt F)),
    unary main_v68 main_v69 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v65 main_v69 main_v70 (addf : (⟨S2048x2x50, .f32⟩ : BufTy).Contents (Elt F) → (⟨S2048x2x50, .f32⟩ : BufTy).Contents (Elt F) → (⟨S2048x2x50, .f32⟩ : BufTy).Contents (Elt F)),
    reshape main_v70 main_v71 rfl shapeCasts_S2048x2x50_S2048x100,
    unary main_arg0 main_v72 ((extractStridedSlice S2048x2x1384 ![0, 0, 15364] · slices_S2048x2x28749_S2048x2x1384_0_0_15364) : (⟨S2048x2x28749, .f32⟩ : BufTy).Contents (Elt F) → (⟨S2048x2x1384, .f32⟩ : BufTy).Contents (Elt F)),
    unary main_arg1 main_v73 ((extractStridedSlice S50x1384 ![0, 15364] · slices_S50x28749_S50x1384_0_15364) : (⟨S50x28749, .f32⟩ : BufTy).Contents (Elt F) → (⟨S50x1384, .f32⟩ : BufTy).Contents (Elt F)),
    binary main_v72 main_v73 main_v74 ((fun l r => Host.dotGeneral dot_S2048x2x1384_S50x1384_S2048x2x50_2_1_01_0_n_n none l r) : (⟨S2048x2x1384, .f32⟩ : BufTy).Contents (Elt F) → (⟨S50x1384, .f32⟩ : BufTy).Contents (Elt F) → (⟨S2048x2x50, .f32⟩ : BufTy).Contents (Elt F)),
    unary main_arg2 main_v75 ((extractStridedSlice S1x50 ![8, 0] · slices_S22x50_S1x50_8_0) : (⟨S22x50, .f32⟩ : BufTy).Contents (Elt F) → (⟨S1x50, .f32⟩ : BufTy).Contents (Elt F)),
    reshape main_v75 main_v76 rfl shapeCasts_S1x50_S50,
    unary main_v76 main_v77 (broadcastInDim S1x1x50 ![2] bcast_S50_S1x1x50_2 : (⟨S50, .f32⟩ : BufTy).Contents (Elt F) → (⟨S1x1x50, .f32⟩ : BufTy).Contents (Elt F)),
    unary main_v77 main_v78 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v74 main_v78 main_v79 (addf : (⟨S2048x2x50, .f32⟩ : BufTy).Contents (Elt F) → (⟨S2048x2x50, .f32⟩ : BufTy).Contents (Elt F) → (⟨S2048x2x50, .f32⟩ : BufTy).Contents (Elt F)),
    reshape main_v79 main_v80 rfl shapeCasts_S2048x2x50_S2048x100,
    unary main_arg0 main_v81 ((extractStridedSlice S2048x2x1338 ![0, 0, 16748] · slices_S2048x2x28749_S2048x2x1338_0_0_16748) : (⟨S2048x2x28749, .f32⟩ : BufTy).Contents (Elt F) → (⟨S2048x2x1338, .f32⟩ : BufTy).Contents (Elt F)),
    unary main_arg1 main_v82 ((extractStridedSlice S50x1338 ![0, 16748] · slices_S50x28749_S50x1338_0_16748) : (⟨S50x28749, .f32⟩ : BufTy).Contents (Elt F) → (⟨S50x1338, .f32⟩ : BufTy).Contents (Elt F)),
    binary main_v81 main_v82 main_v83 ((fun l r => Host.dotGeneral dot_S2048x2x1338_S50x1338_S2048x2x50_2_1_01_0_n_n none l r) : (⟨S2048x2x1338, .f32⟩ : BufTy).Contents (Elt F) → (⟨S50x1338, .f32⟩ : BufTy).Contents (Elt F) → (⟨S2048x2x50, .f32⟩ : BufTy).Contents (Elt F)),
    unary main_arg2 main_v84 ((extractStridedSlice S1x50 ![9, 0] · slices_S22x50_S1x50_9_0) : (⟨S22x50, .f32⟩ : BufTy).Contents (Elt F) → (⟨S1x50, .f32⟩ : BufTy).Contents (Elt F)),
    reshape main_v84 main_v85 rfl shapeCasts_S1x50_S50,
    unary main_v85 main_v86 (broadcastInDim S1x1x50 ![2] bcast_S50_S1x1x50_2 : (⟨S50, .f32⟩ : BufTy).Contents (Elt F) → (⟨S1x1x50, .f32⟩ : BufTy).Contents (Elt F)),
    unary main_v86 main_v87 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v83 main_v87 main_v88 (addf : (⟨S2048x2x50, .f32⟩ : BufTy).Contents (Elt F) → (⟨S2048x2x50, .f32⟩ : BufTy).Contents (Elt F) → (⟨S2048x2x50, .f32⟩ : BufTy).Contents (Elt F)),
    reshape main_v88 main_v89 rfl shapeCasts_S2048x2x50_S2048x100,
    unary main_arg0 main_v90 ((extractStridedSlice S2048x2x1351 ![0, 0, 18086] · slices_S2048x2x28749_S2048x2x1351_0_0_18086) : (⟨S2048x2x28749, .f32⟩ : BufTy).Contents (Elt F) → (⟨S2048x2x1351, .f32⟩ : BufTy).Contents (Elt F)),
    unary main_arg1 main_v91 ((extractStridedSlice S50x1351 ![0, 18086] · slices_S50x28749_S50x1351_0_18086) : (⟨S50x28749, .f32⟩ : BufTy).Contents (Elt F) → (⟨S50x1351, .f32⟩ : BufTy).Contents (Elt F)),
    binary main_v90 main_v91 main_v92 ((fun l r => Host.dotGeneral dot_S2048x2x1351_S50x1351_S2048x2x50_2_1_01_0_n_n none l r) : (⟨S2048x2x1351, .f32⟩ : BufTy).Contents (Elt F) → (⟨S50x1351, .f32⟩ : BufTy).Contents (Elt F) → (⟨S2048x2x50, .f32⟩ : BufTy).Contents (Elt F)),
    unary main_arg2 main_v93 ((extractStridedSlice S1x50 ![10, 0] · slices_S22x50_S1x50_10_0) : (⟨S22x50, .f32⟩ : BufTy).Contents (Elt F) → (⟨S1x50, .f32⟩ : BufTy).Contents (Elt F)),
    reshape main_v93 main_v94 rfl shapeCasts_S1x50_S50,
    unary main_v94 main_v95 (broadcastInDim S1x1x50 ![2] bcast_S50_S1x1x50_2 : (⟨S50, .f32⟩ : BufTy).Contents (Elt F) → (⟨S1x1x50, .f32⟩ : BufTy).Contents (Elt F)),
    unary main_v95 main_v96 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v92 main_v96 main_v97 (addf : (⟨S2048x2x50, .f32⟩ : BufTy).Contents (Elt F) → (⟨S2048x2x50, .f32⟩ : BufTy).Contents (Elt F) → (⟨S2048x2x50, .f32⟩ : BufTy).Contents (Elt F)),
    reshape main_v97 main_v98 rfl shapeCasts_S2048x2x50_S2048x100,
    unary main_arg0 main_v99 ((extractStridedSlice S2048x2x1333 ![0, 0, 19437] · slices_S2048x2x28749_S2048x2x1333_0_0_19437) : (⟨S2048x2x28749, .f32⟩ : BufTy).Contents (Elt F) → (⟨S2048x2x1333, .f32⟩ : BufTy).Contents (Elt F)),
    unary main_arg1 main_v100 ((extractStridedSlice S50x1333 ![0, 19437] · slices_S50x28749_S50x1333_0_19437) : (⟨S50x28749, .f32⟩ : BufTy).Contents (Elt F) → (⟨S50x1333, .f32⟩ : BufTy).Contents (Elt F)),
    binary main_v99 main_v100 main_v101 ((fun l r => Host.dotGeneral dot_S2048x2x1333_S50x1333_S2048x2x50_2_1_01_0_n_n none l r) : (⟨S2048x2x1333, .f32⟩ : BufTy).Contents (Elt F) → (⟨S50x1333, .f32⟩ : BufTy).Contents (Elt F) → (⟨S2048x2x50, .f32⟩ : BufTy).Contents (Elt F)),
    unary main_arg2 main_v102 ((extractStridedSlice S1x50 ![11, 0] · slices_S22x50_S1x50_11_0) : (⟨S22x50, .f32⟩ : BufTy).Contents (Elt F) → (⟨S1x50, .f32⟩ : BufTy).Contents (Elt F)),
    reshape main_v102 main_v103 rfl shapeCasts_S1x50_S50,
    unary main_v103 main_v104 (broadcastInDim S1x1x50 ![2] bcast_S50_S1x1x50_2 : (⟨S50, .f32⟩ : BufTy).Contents (Elt F) → (⟨S1x1x50, .f32⟩ : BufTy).Contents (Elt F)),
    unary main_v104 main_v105 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v101 main_v105 main_v106 (addf : (⟨S2048x2x50, .f32⟩ : BufTy).Contents (Elt F) → (⟨S2048x2x50, .f32⟩ : BufTy).Contents (Elt F) → (⟨S2048x2x50, .f32⟩ : BufTy).Contents (Elt F)),
    reshape main_v106 main_v107 rfl shapeCasts_S2048x2x50_S2048x100,
    unary main_arg0 main_v108 ((extractStridedSlice S2048x2x1144 ![0, 0, 20770] · slices_S2048x2x28749_S2048x2x1144_0_0_20770) : (⟨S2048x2x28749, .f32⟩ : BufTy).Contents (Elt F) → (⟨S2048x2x1144, .f32⟩ : BufTy).Contents (Elt F)),
    unary main_arg1 main_v109 ((extractStridedSlice S50x1144 ![0, 20770] · slices_S50x28749_S50x1144_0_20770) : (⟨S50x28749, .f32⟩ : BufTy).Contents (Elt F) → (⟨S50x1144, .f32⟩ : BufTy).Contents (Elt F)),
    binary main_v108 main_v109 main_v110 ((fun l r => Host.dotGeneral dot_S2048x2x1144_S50x1144_S2048x2x50_2_1_01_0_n_n none l r) : (⟨S2048x2x1144, .f32⟩ : BufTy).Contents (Elt F) → (⟨S50x1144, .f32⟩ : BufTy).Contents (Elt F) → (⟨S2048x2x50, .f32⟩ : BufTy).Contents (Elt F)),
    unary main_arg2 main_v111 ((extractStridedSlice S1x50 ![12, 0] · slices_S22x50_S1x50_12_0) : (⟨S22x50, .f32⟩ : BufTy).Contents (Elt F) → (⟨S1x50, .f32⟩ : BufTy).Contents (Elt F)),
    reshape main_v111 main_v112 rfl shapeCasts_S1x50_S50,
    unary main_v112 main_v113 (broadcastInDim S1x1x50 ![2] bcast_S50_S1x1x50_2 : (⟨S50, .f32⟩ : BufTy).Contents (Elt F) → (⟨S1x1x50, .f32⟩ : BufTy).Contents (Elt F)),
    unary main_v113 main_v114 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v110 main_v114 main_v115 (addf : (⟨S2048x2x50, .f32⟩ : BufTy).Contents (Elt F) → (⟨S2048x2x50, .f32⟩ : BufTy).Contents (Elt F) → (⟨S2048x2x50, .f32⟩ : BufTy).Contents (Elt F)),
    reshape main_v115 main_v116 rfl shapeCasts_S2048x2x50_S2048x100,
    unary main_arg0 main_v117 ((extractStridedSlice S2048x2x1070 ![0, 0, 21914] · slices_S2048x2x28749_S2048x2x1070_0_0_21914) : (⟨S2048x2x28749, .f32⟩ : BufTy).Contents (Elt F) → (⟨S2048x2x1070, .f32⟩ : BufTy).Contents (Elt F)),
    unary main_arg1 main_v118 ((extractStridedSlice S50x1070 ![0, 21914] · slices_S50x28749_S50x1070_0_21914) : (⟨S50x28749, .f32⟩ : BufTy).Contents (Elt F) → (⟨S50x1070, .f32⟩ : BufTy).Contents (Elt F)),
    binary main_v117 main_v118 main_v119 ((fun l r => Host.dotGeneral dot_S2048x2x1070_S50x1070_S2048x2x50_2_1_01_0_n_n none l r) : (⟨S2048x2x1070, .f32⟩ : BufTy).Contents (Elt F) → (⟨S50x1070, .f32⟩ : BufTy).Contents (Elt F) → (⟨S2048x2x50, .f32⟩ : BufTy).Contents (Elt F)) ]

/-- The operations of window 2 of @main (60 of 237). -/
abbrev ops_part2 : List (HloOp τ sig (Elt F)) :=
  [ unary main_arg2 main_v120 ((extractStridedSlice S1x50 ![13, 0] · slices_S22x50_S1x50_13_0) : (⟨S22x50, .f32⟩ : BufTy).Contents (Elt F) → (⟨S1x50, .f32⟩ : BufTy).Contents (Elt F)),
    reshape main_v120 main_v121 rfl shapeCasts_S1x50_S50,
    unary main_v121 main_v122 (broadcastInDim S1x1x50 ![2] bcast_S50_S1x1x50_2 : (⟨S50, .f32⟩ : BufTy).Contents (Elt F) → (⟨S1x1x50, .f32⟩ : BufTy).Contents (Elt F)),
    unary main_v122 main_v123 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v119 main_v123 main_v124 (addf : (⟨S2048x2x50, .f32⟩ : BufTy).Contents (Elt F) → (⟨S2048x2x50, .f32⟩ : BufTy).Contents (Elt F) → (⟨S2048x2x50, .f32⟩ : BufTy).Contents (Elt F)),
    reshape main_v124 main_v125 rfl shapeCasts_S2048x2x50_S2048x100,
    unary main_arg0 main_v126 ((extractStridedSlice S2048x2x1020 ![0, 0, 22984] · slices_S2048x2x28749_S2048x2x1020_0_0_22984) : (⟨S2048x2x28749, .f32⟩ : BufTy).Contents (Elt F) → (⟨S2048x2x1020, .f32⟩ : BufTy).Contents (Elt F)),
    unary main_arg1 main_v127 ((extractStridedSlice S50x1020 ![0, 22984] · slices_S50x28749_S50x1020_0_22984) : (⟨S50x28749, .f32⟩ : BufTy).Contents (Elt F) → (⟨S50x1020, .f32⟩ : BufTy).Contents (Elt F)),
    binary main_v126 main_v127 main_v128 ((fun l r => Host.dotGeneral dot_S2048x2x1020_S50x1020_S2048x2x50_2_1_01_0_n_n none l r) : (⟨S2048x2x1020, .f32⟩ : BufTy).Contents (Elt F) → (⟨S50x1020, .f32⟩ : BufTy).Contents (Elt F) → (⟨S2048x2x50, .f32⟩ : BufTy).Contents (Elt F)),
    unary main_arg2 main_v129 ((extractStridedSlice S1x50 ![14, 0] · slices_S22x50_S1x50_14_0) : (⟨S22x50, .f32⟩ : BufTy).Contents (Elt F) → (⟨S1x50, .f32⟩ : BufTy).Contents (Elt F)),
    reshape main_v129 main_v130 rfl shapeCasts_S1x50_S50,
    unary main_v130 main_v131 (broadcastInDim S1x1x50 ![2] bcast_S50_S1x1x50_2 : (⟨S50, .f32⟩ : BufTy).Contents (Elt F) → (⟨S1x1x50, .f32⟩ : BufTy).Contents (Elt F)),
    unary main_v131 main_v132 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v128 main_v132 main_v133 (addf : (⟨S2048x2x50, .f32⟩ : BufTy).Contents (Elt F) → (⟨S2048x2x50, .f32⟩ : BufTy).Contents (Elt F) → (⟨S2048x2x50, .f32⟩ : BufTy).Contents (Elt F)),
    reshape main_v133 main_v134 rfl shapeCasts_S2048x2x50_S2048x100,
    unary main_arg0 main_v135 ((extractStridedSlice S2048x2x903 ![0, 0, 24004] · slices_S2048x2x28749_S2048x2x903_0_0_24004) : (⟨S2048x2x28749, .f32⟩ : BufTy).Contents (Elt F) → (⟨S2048x2x903, .f32⟩ : BufTy).Contents (Elt F)),
    unary main_arg1 main_v136 ((extractStridedSlice S50x903 ![0, 24004] · slices_S50x28749_S50x903_0_24004) : (⟨S50x28749, .f32⟩ : BufTy).Contents (Elt F) → (⟨S50x903, .f32⟩ : BufTy).Contents (Elt F)),
    binary main_v135 main_v136 main_v137 ((fun l r => Host.dotGeneral dot_S2048x2x903_S50x903_S2048x2x50_2_1_01_0_n_n none l r) : (⟨S2048x2x903, .f32⟩ : BufTy).Contents (Elt F) → (⟨S50x903, .f32⟩ : BufTy).Contents (Elt F) → (⟨S2048x2x50, .f32⟩ : BufTy).Contents (Elt F)),
    unary main_arg2 main_v138 ((extractStridedSlice S1x50 ![15, 0] · slices_S22x50_S1x50_15_0) : (⟨S22x50, .f32⟩ : BufTy).Contents (Elt F) → (⟨S1x50, .f32⟩ : BufTy).Contents (Elt F)),
    reshape main_v138 main_v139 rfl shapeCasts_S1x50_S50,
    unary main_v139 main_v140 (broadcastInDim S1x1x50 ![2] bcast_S50_S1x1x50_2 : (⟨S50, .f32⟩ : BufTy).Contents (Elt F) → (⟨S1x1x50, .f32⟩ : BufTy).Contents (Elt F)),
    unary main_v140 main_v141 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v137 main_v141 main_v142 (addf : (⟨S2048x2x50, .f32⟩ : BufTy).Contents (Elt F) → (⟨S2048x2x50, .f32⟩ : BufTy).Contents (Elt F) → (⟨S2048x2x50, .f32⟩ : BufTy).Contents (Elt F)),
    reshape main_v142 main_v143 rfl shapeCasts_S2048x2x50_S2048x100,
    unary main_arg0 main_v144 ((extractStridedSlice S2048x2x833 ![0, 0, 24907] · slices_S2048x2x28749_S2048x2x833_0_0_24907) : (⟨S2048x2x28749, .f32⟩ : BufTy).Contents (Elt F) → (⟨S2048x2x833, .f32⟩ : BufTy).Contents (Elt F)),
    unary main_arg1 main_v145 ((extractStridedSlice S50x833 ![0, 24907] · slices_S50x28749_S50x833_0_24907) : (⟨S50x28749, .f32⟩ : BufTy).Contents (Elt F) → (⟨S50x833, .f32⟩ : BufTy).Contents (Elt F)),
    binary main_v144 main_v145 main_v146 ((fun l r => Host.dotGeneral dot_S2048x2x833_S50x833_S2048x2x50_2_1_01_0_n_n none l r) : (⟨S2048x2x833, .f32⟩ : BufTy).Contents (Elt F) → (⟨S50x833, .f32⟩ : BufTy).Contents (Elt F) → (⟨S2048x2x50, .f32⟩ : BufTy).Contents (Elt F)),
    unary main_arg2 main_v147 ((extractStridedSlice S1x50 ![16, 0] · slices_S22x50_S1x50_16_0) : (⟨S22x50, .f32⟩ : BufTy).Contents (Elt F) → (⟨S1x50, .f32⟩ : BufTy).Contents (Elt F)),
    reshape main_v147 main_v148 rfl shapeCasts_S1x50_S50,
    unary main_v148 main_v149 (broadcastInDim S1x1x50 ![2] bcast_S50_S1x1x50_2 : (⟨S50, .f32⟩ : BufTy).Contents (Elt F) → (⟨S1x1x50, .f32⟩ : BufTy).Contents (Elt F)),
    unary main_v149 main_v150 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v146 main_v150 main_v151 (addf : (⟨S2048x2x50, .f32⟩ : BufTy).Contents (Elt F) → (⟨S2048x2x50, .f32⟩ : BufTy).Contents (Elt F) → (⟨S2048x2x50, .f32⟩ : BufTy).Contents (Elt F)),
    reshape main_v151 main_v152 rfl shapeCasts_S2048x2x50_S2048x100,
    unary main_arg0 main_v153 ((extractStridedSlice S2048x2x804 ![0, 0, 25740] · slices_S2048x2x28749_S2048x2x804_0_0_25740) : (⟨S2048x2x28749, .f32⟩ : BufTy).Contents (Elt F) → (⟨S2048x2x804, .f32⟩ : BufTy).Contents (Elt F)),
    unary main_arg1 main_v154 ((extractStridedSlice S50x804 ![0, 25740] · slices_S50x28749_S50x804_0_25740) : (⟨S50x28749, .f32⟩ : BufTy).Contents (Elt F) → (⟨S50x804, .f32⟩ : BufTy).Contents (Elt F)),
    binary main_v153 main_v154 main_v155 ((fun l r => Host.dotGeneral dot_S2048x2x804_S50x804_S2048x2x50_2_1_01_0_n_n none l r) : (⟨S2048x2x804, .f32⟩ : BufTy).Contents (Elt F) → (⟨S50x804, .f32⟩ : BufTy).Contents (Elt F) → (⟨S2048x2x50, .f32⟩ : BufTy).Contents (Elt F)),
    unary main_arg2 main_v156 ((extractStridedSlice S1x50 ![17, 0] · slices_S22x50_S1x50_17_0) : (⟨S22x50, .f32⟩ : BufTy).Contents (Elt F) → (⟨S1x50, .f32⟩ : BufTy).Contents (Elt F)),
    reshape main_v156 main_v157 rfl shapeCasts_S1x50_S50,
    unary main_v157 main_v158 (broadcastInDim S1x1x50 ![2] bcast_S50_S1x1x50_2 : (⟨S50, .f32⟩ : BufTy).Contents (Elt F) → (⟨S1x1x50, .f32⟩ : BufTy).Contents (Elt F)),
    unary main_v158 main_v159 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v155 main_v159 main_v160 (addf : (⟨S2048x2x50, .f32⟩ : BufTy).Contents (Elt F) → (⟨S2048x2x50, .f32⟩ : BufTy).Contents (Elt F) → (⟨S2048x2x50, .f32⟩ : BufTy).Contents (Elt F)),
    reshape main_v160 main_v161 rfl shapeCasts_S2048x2x50_S2048x100,
    unary main_arg0 main_v162 ((extractStridedSlice S2048x2x586 ![0, 0, 26544] · slices_S2048x2x28749_S2048x2x586_0_0_26544) : (⟨S2048x2x28749, .f32⟩ : BufTy).Contents (Elt F) → (⟨S2048x2x586, .f32⟩ : BufTy).Contents (Elt F)),
    unary main_arg1 main_v163 ((extractStridedSlice S50x586 ![0, 26544] · slices_S50x28749_S50x586_0_26544) : (⟨S50x28749, .f32⟩ : BufTy).Contents (Elt F) → (⟨S50x586, .f32⟩ : BufTy).Contents (Elt F)),
    binary main_v162 main_v163 main_v164 ((fun l r => Host.dotGeneral dot_S2048x2x586_S50x586_S2048x2x50_2_1_01_0_n_n none l r) : (⟨S2048x2x586, .f32⟩ : BufTy).Contents (Elt F) → (⟨S50x586, .f32⟩ : BufTy).Contents (Elt F) → (⟨S2048x2x50, .f32⟩ : BufTy).Contents (Elt F)),
    unary main_arg2 main_v165 ((extractStridedSlice S1x50 ![18, 0] · slices_S22x50_S1x50_18_0) : (⟨S22x50, .f32⟩ : BufTy).Contents (Elt F) → (⟨S1x50, .f32⟩ : BufTy).Contents (Elt F)),
    reshape main_v165 main_v166 rfl shapeCasts_S1x50_S50,
    unary main_v166 main_v167 (broadcastInDim S1x1x50 ![2] bcast_S50_S1x1x50_2 : (⟨S50, .f32⟩ : BufTy).Contents (Elt F) → (⟨S1x1x50, .f32⟩ : BufTy).Contents (Elt F)),
    unary main_v167 main_v168 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v164 main_v168 main_v169 (addf : (⟨S2048x2x50, .f32⟩ : BufTy).Contents (Elt F) → (⟨S2048x2x50, .f32⟩ : BufTy).Contents (Elt F) → (⟨S2048x2x50, .f32⟩ : BufTy).Contents (Elt F)),
    reshape main_v169 main_v170 rfl shapeCasts_S2048x2x50_S2048x100,
    unary main_arg0 main_v171 ((extractStridedSlice S2048x2x644 ![0, 0, 27130] · slices_S2048x2x28749_S2048x2x644_0_0_27130) : (⟨S2048x2x28749, .f32⟩ : BufTy).Contents (Elt F) → (⟨S2048x2x644, .f32⟩ : BufTy).Contents (Elt F)),
    unary main_arg1 main_v172 ((extractStridedSlice S50x644 ![0, 27130] · slices_S50x28749_S50x644_0_27130) : (⟨S50x28749, .f32⟩ : BufTy).Contents (Elt F) → (⟨S50x644, .f32⟩ : BufTy).Contents (Elt F)),
    binary main_v171 main_v172 main_v173 ((fun l r => Host.dotGeneral dot_S2048x2x644_S50x644_S2048x2x50_2_1_01_0_n_n none l r) : (⟨S2048x2x644, .f32⟩ : BufTy).Contents (Elt F) → (⟨S50x644, .f32⟩ : BufTy).Contents (Elt F) → (⟨S2048x2x50, .f32⟩ : BufTy).Contents (Elt F)),
    unary main_arg2 main_v174 ((extractStridedSlice S1x50 ![19, 0] · slices_S22x50_S1x50_19_0) : (⟨S22x50, .f32⟩ : BufTy).Contents (Elt F) → (⟨S1x50, .f32⟩ : BufTy).Contents (Elt F)),
    reshape main_v174 main_v175 rfl shapeCasts_S1x50_S50,
    unary main_v175 main_v176 (broadcastInDim S1x1x50 ![2] bcast_S50_S1x1x50_2 : (⟨S50, .f32⟩ : BufTy).Contents (Elt F) → (⟨S1x1x50, .f32⟩ : BufTy).Contents (Elt F)),
    unary main_v176 main_v177 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v173 main_v177 main_v178 (addf : (⟨S2048x2x50, .f32⟩ : BufTy).Contents (Elt F) → (⟨S2048x2x50, .f32⟩ : BufTy).Contents (Elt F) → (⟨S2048x2x50, .f32⟩ : BufTy).Contents (Elt F)),
    reshape main_v178 main_v179 rfl shapeCasts_S2048x2x50_S2048x100 ]

/-- The operations of window 3 of @main (57 of 237). -/
abbrev ops_part3 : List (HloOp τ sig (Elt F)) :=
  [ unary main_arg0 main_v180 ((extractStridedSlice S2048x2x467 ![0, 0, 27774] · slices_S2048x2x28749_S2048x2x467_0_0_27774) : (⟨S2048x2x28749, .f32⟩ : BufTy).Contents (Elt F) → (⟨S2048x2x467, .f32⟩ : BufTy).Contents (Elt F)),
    unary main_arg1 main_v181 ((extractStridedSlice S50x467 ![0, 27774] · slices_S50x28749_S50x467_0_27774) : (⟨S50x28749, .f32⟩ : BufTy).Contents (Elt F) → (⟨S50x467, .f32⟩ : BufTy).Contents (Elt F)),
    binary main_v180 main_v181 main_v182 ((fun l r => Host.dotGeneral dot_S2048x2x467_S50x467_S2048x2x50_2_1_01_0_n_n none l r) : (⟨S2048x2x467, .f32⟩ : BufTy).Contents (Elt F) → (⟨S50x467, .f32⟩ : BufTy).Contents (Elt F) → (⟨S2048x2x50, .f32⟩ : BufTy).Contents (Elt F)),
    unary main_arg2 main_v183 ((extractStridedSlice S1x50 ![20, 0] · slices_S22x50_S1x50_20_0) : (⟨S22x50, .f32⟩ : BufTy).Contents (Elt F) → (⟨S1x50, .f32⟩ : BufTy).Contents (Elt F)),
    reshape main_v183 main_v184 rfl shapeCasts_S1x50_S50,
    unary main_v184 main_v185 (broadcastInDim S1x1x50 ![2] bcast_S50_S1x1x50_2 : (⟨S50, .f32⟩ : BufTy).Contents (Elt F) → (⟨S1x1x50, .f32⟩ : BufTy).Contents (Elt F)),
    unary main_v185 main_v186 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v182 main_v186 main_v187 (addf : (⟨S2048x2x50, .f32⟩ : BufTy).Contents (Elt F) → (⟨S2048x2x50, .f32⟩ : BufTy).Contents (Elt F) → (⟨S2048x2x50, .f32⟩ : BufTy).Contents (Elt F)),
    reshape main_v187 main_v188 rfl shapeCasts_S2048x2x50_S2048x100,
    unary main_arg0 main_v189 ((extractStridedSlice S2048x2x508 ![0, 0, 28241] · slices_S2048x2x28749_S2048x2x508_0_0_28241) : (⟨S2048x2x28749, .f32⟩ : BufTy).Contents (Elt F) → (⟨S2048x2x508, .f32⟩ : BufTy).Contents (Elt F)),
    unary main_arg1 main_v190 ((extractStridedSlice S50x508 ![0, 28241] · slices_S50x28749_S50x508_0_28241) : (⟨S50x28749, .f32⟩ : BufTy).Contents (Elt F) → (⟨S50x508, .f32⟩ : BufTy).Contents (Elt F)),
    binary main_v189 main_v190 main_v191 ((fun l r => Host.dotGeneral dot_S2048x2x508_S50x508_S2048x2x50_2_1_01_0_n_n none l r) : (⟨S2048x2x508, .f32⟩ : BufTy).Contents (Elt F) → (⟨S50x508, .f32⟩ : BufTy).Contents (Elt F) → (⟨S2048x2x50, .f32⟩ : BufTy).Contents (Elt F)),
    unary main_arg2 main_v192 ((extractStridedSlice S1x50 ![21, 0] · slices_S22x50_S1x50_21_0) : (⟨S22x50, .f32⟩ : BufTy).Contents (Elt F) → (⟨S1x50, .f32⟩ : BufTy).Contents (Elt F)),
    reshape main_v192 main_v193 rfl shapeCasts_S1x50_S50,
    unary main_v193 main_v194 (broadcastInDim S1x1x50 ![2] bcast_S50_S1x1x50_2 : (⟨S50, .f32⟩ : BufTy).Contents (Elt F) → (⟨S1x1x50, .f32⟩ : BufTy).Contents (Elt F)),
    unary main_v194 main_v195 (broadcastInDim S2048x2x50 ![0, 1, 2] bcast_S1x1x50_S2048x2x50_0_1_2 : (⟨S1x1x50, .f32⟩ : BufTy).Contents (Elt F) → (⟨S2048x2x50, .f32⟩ : BufTy).Contents (Elt F)),
    binary main_v191 main_v195 main_v196 (addf : (⟨S2048x2x50, .f32⟩ : BufTy).Contents (Elt F) → (⟨S2048x2x50, .f32⟩ : BufTy).Contents (Elt F) → (⟨S2048x2x50, .f32⟩ : BufTy).Contents (Elt F)),
    reshape main_v196 main_v197 rfl shapeCasts_S2048x2x50_S2048x100,
    nary ![main_v8, main_v17, main_v26, main_v35, main_v44, main_v53, main_v62, main_v71, main_v80, main_v89, main_v98, main_v107, main_v116, main_v125, main_v134, main_v143] main_v198 (fun u => fn_main_v198 (F := F) (u 0) (u 1) (u 2) (u 3) (u 4) (u 5) (u 6) (u 7) (u 8) (u 9) (u 10) (u 11) (u 12) (u 13) (u 14) (u 15)),
    nary ![main_v152, main_v161, main_v170, main_v179, main_v188, main_v197] main_v199 (fun u => fn_main_v199 (F := F) (u 0) (u 1) (u 2) (u 3) (u 4) (u 5)),
    binary main_v198 main_v199 main_v200 (fn_main_v200 (F := F)),
    unary main_arg3 main_v201 ((transpose S2200x2200 [1, 0] · transposes_S2200x2200_S2200x2200_1_0) : (⟨S2200x2200, .f32⟩ : BufTy).Contents (Elt F) → (⟨S2200x2200, .f32⟩ : BufTy).Contents (Elt F)),
    binary main_v200 main_v201 main_v202 ((fun l r => Host.dotGeneral dot_S2048x2200_S2200x2200_S2048x2200_1_0_0_1_n_n none l r) : (⟨S2048x2200, .f32⟩ : BufTy).Contents (Elt F) → (⟨S2200x2200, .f32⟩ : BufTy).Contents (Elt F) → (⟨S2048x2200, .f32⟩ : BufTy).Contents (Elt F)),
    unary main_arg4 main_v203 (broadcastInDim S1x2200 ![1] bcast_S2200_S1x2200_1 : (⟨S2200, .f32⟩ : BufTy).Contents (Elt F) → (⟨S1x2200, .f32⟩ : BufTy).Contents (Elt F)),
    unary main_v203 main_v204 (broadcastInDim S2048x2200 ![0, 1] bcast_S1x2200_S2048x2200_0_1 : (⟨S1x2200, .f32⟩ : BufTy).Contents (Elt F) → (⟨S2048x2200, .f32⟩ : BufTy).Contents (Elt F)),
    binary main_v202 main_v204 main_v205 (addf : (⟨S2048x2200, .f32⟩ : BufTy).Contents (Elt F) → (⟨S2048x2200, .f32⟩ : BufTy).Contents (Elt F) → (⟨S2048x2200, .f32⟩ : BufTy).Contents (Elt F)),
    unary main_arg5 main_v206 ((transpose S2200x1000 [1, 0] · transposes_S1000x2200_S2200x1000_1_0) : (⟨S1000x2200, .f32⟩ : BufTy).Contents (Elt F) → (⟨S2200x1000, .f32⟩ : BufTy).Contents (Elt F)),
    binary main_v205 main_v206 main_v207 ((fun l r => Host.dotGeneral dot_S2048x2200_S2200x1000_S2048x1000_1_0_0_1_n_n none l r) : (⟨S2048x2200, .f32⟩ : BufTy).Contents (Elt F) → (⟨S2200x1000, .f32⟩ : BufTy).Contents (Elt F) → (⟨S2048x1000, .f32⟩ : BufTy).Contents (Elt F)),
    unary main_arg6 main_v208 (broadcastInDim S1x1000 ![1] bcast_S1000_S1x1000_1 : (⟨S1000, .f32⟩ : BufTy).Contents (Elt F) → (⟨S1x1000, .f32⟩ : BufTy).Contents (Elt F)),
    unary main_v208 main_v209 (broadcastInDim S2048x1000 ![0, 1] bcast_S1x1000_S2048x1000_0_1 : (⟨S1x1000, .f32⟩ : BufTy).Contents (Elt F) → (⟨S2048x1000, .f32⟩ : BufTy).Contents (Elt F)),
    binary main_v207 main_v209 main_v210 (addf : (⟨S2048x1000, .f32⟩ : BufTy).Contents (Elt F) → (⟨S2048x1000, .f32⟩ : BufTy).Contents (Elt F) → (⟨S2048x1000, .f32⟩ : BufTy).Contents (Elt F)),
    nullary main_cst (constant S_ .f32 0x3C23D70A#32),
    TRef.nullary main_call0.cst (constant S_ .f32 0x00000000#32),
    TRef.unary main_call0.cst main_call0.v0 (broadcastInDim S2048x1000 ![] bcast_S_S2048x1000),
    TRef.binary (.of main_v210) main_call0.v0 main_call0.v1 (cmpf .oge),
    TRef.unary (.of main_cst) main_call0.v2 id,
    TRef.unary main_call0.v2 main_call0.v3 (broadcastInDim S2048x1000 ![] bcast_S_S2048x1000),
    TRef.binary main_call0.v3 (.of main_v210) main_call0.v4 mulf,
    TRef.ternary main_call0.v1 (.of main_v210) main_call0.v4 main_call0.call0.v0 select,
    unary main_arg7 main_v212 ((transpose S1000x50 [1, 0] · transposes_S50x1000_S1000x50_1_0) : (⟨S50x1000, .f32⟩ : BufTy).Contents (Elt F) → (⟨S1000x50, .f32⟩ : BufTy).Contents (Elt F)),
    binary main_v211 main_v212 main_v213 ((fun l r => Host.dotGeneral dot_S2048x1000_S1000x50_S2048x50_1_0_0_1_n_n none l r) : (⟨S2048x1000, .f32⟩ : BufTy).Contents (Elt F) → (⟨S1000x50, .f32⟩ : BufTy).Contents (Elt F) → (⟨S2048x50, .f32⟩ : BufTy).Contents (Elt F)),
    unary main_arg8 main_v214 (broadcastInDim S1x50 ![1] bcast_S50_S1x50_1 : (⟨S50, .f32⟩ : BufTy).Contents (Elt F) → (⟨S1x50, .f32⟩ : BufTy).Contents (Elt F)),
    unary main_v214 main_v215 (broadcastInDim S2048x50 ![0, 1] bcast_S1x50_S2048x50_0_1 : (⟨S1x50, .f32⟩ : BufTy).Contents (Elt F) → (⟨S2048x50, .f32⟩ : BufTy).Contents (Elt F)),
    binary main_v213 main_v215 main_v216 (addf : (⟨S2048x50, .f32⟩ : BufTy).Contents (Elt F) → (⟨S2048x50, .f32⟩ : BufTy).Contents (Elt F) → (⟨S2048x50, .f32⟩ : BufTy).Contents (Elt F)),
    nullary main_cst_0 (constant S_ .f32 0x3C23D70A#32),
    TRef.nullary main_call1.cst (constant S_ .f32 0x00000000#32),
    TRef.unary main_call1.cst main_call1.v0 (broadcastInDim S2048x50 ![] bcast_S_S2048x50),
    TRef.binary (.of main_v216) main_call1.v0 main_call1.v1 (cmpf .oge),
    TRef.unary (.of main_cst_0) main_call1.v2 id,
    TRef.unary main_call1.v2 main_call1.v3 (broadcastInDim S2048x50 ![] bcast_S_S2048x50),
    TRef.binary main_call1.v3 (.of main_v216) main_call1.v4 mulf,
    TRef.ternary main_call1.v1 (.of main_v216) main_call1.v4 main_call1.call0.v0 select,
    unary main_arg9 main_v218 ((transpose S50x13 [1, 0] · transposes_S13x50_S50x13_1_0) : (⟨S13x50, .f32⟩ : BufTy).Contents (Elt F) → (⟨S50x13, .f32⟩ : BufTy).Contents (Elt F)),
    binary main_v217 main_v218 main_v219 ((fun l r => Host.dotGeneral dot_S2048x50_S50x13_S2048x13_1_0_0_1_n_n none l r) : (⟨S2048x50, .f32⟩ : BufTy).Contents (Elt F) → (⟨S50x13, .f32⟩ : BufTy).Contents (Elt F) → (⟨S2048x13, .f32⟩ : BufTy).Contents (Elt F)),
    unary main_arg10 main_v220 (broadcastInDim S1x13 ![1] bcast_S13_S1x13_1 : (⟨S13, .f32⟩ : BufTy).Contents (Elt F) → (⟨S1x13, .f32⟩ : BufTy).Contents (Elt F)),
    unary main_v220 main_v221 (broadcastInDim S2048x13 ![0, 1] bcast_S1x13_S2048x13_0_1 : (⟨S1x13, .f32⟩ : BufTy).Contents (Elt F) → (⟨S2048x13, .f32⟩ : BufTy).Contents (Elt F)),
    binary main_v219 main_v221 main_v222 (addf : (⟨S2048x13, .f32⟩ : BufTy).Contents (Elt F) → (⟨S2048x13, .f32⟩ : BufTy).Contents (Elt F) → (⟨S2048x13, .f32⟩ : BufTy).Contents (Elt F)) ]

/-- @main's 237 operations, in order. -/
abbrev ops : List (HloOp τ sig (Elt F)) :=
  ops_part0 ++ (ops_part1 ++ (ops_part2 ++ ops_part3))

end Cert.ReferenceIdeal.RRun

end
-- ==== Proof.RRun.lean ====
/-
  The reference program's run: its straight line of host operations executed in order leaves the result buffer at the
  composed term of the arguments (RTerm), and never writes an argument.

  The program is four windows of statements. Each window's list of operations is folded over the buffer contents the
  previous window left; after a window the buffers later windows read are stated as terms of the launch contents of the
  arguments: each finished head's flattened result, and the intermediates of the head a window boundary cuts. The last
  window joins the heads and runs the dense layers.
-/
import proofs.«414676_j67216238182882_3_alg».proof.Proof.Gen.ReferenceIdeal
import proofs.«414676_j67216238182882_3_alg».proof.Proof.RTerm
import proofs.«414676_j67216238182882_3_alg».proof.Proof.RRunOps
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## The program is its straight line -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of a literal list touches TensorCore references only: one builder fact per entry. -/
local macro "bufs_sub_all" : tactic =>
  `(tactic| (simp only [List.Forall, nullary_bufs_sub, unary_bufs_sub, binary_bufs_sub, ternary_bufs_sub, reshape_bufs_sub,
      nary_bufs_sub, and_self]))

set_option maxRecDepth 8192 in
theorem ops_part0_sub : (ops_part0 : List (HloOp τ sig (Elt F))).Forall fun op => op.bufs ⊆ tcRefs τ sig := by bufs_sub_all
set_option maxRecDepth 8192 in
theorem ops_part1_sub : (ops_part1 : List (HloOp τ sig (Elt F))).Forall fun op => op.bufs ⊆ tcRefs τ sig := by bufs_sub_all
set_option maxRecDepth 8192 in
theorem ops_part2_sub : (ops_part2 : List (HloOp τ sig (Elt F))).Forall fun op => op.bufs ⊆ tcRefs τ sig := by bufs_sub_all
set_option maxRecDepth 8192 in
theorem ops_part3_sub : (ops_part3 : List (HloOp τ sig (Elt F))).Forall fun op => op.bufs ⊆ tcRefs τ sig := by bufs_sub_all
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

/-- Each operation of a literal list writes a buffer of the window's list of written buffers. -/
local macro "writes_all" : tactic =>
  `(tactic| (simp only [List.Forall]
             repeat' apply And.intro
             all_goals (simp only [nullary_writes, unary_writes, binary_writes, ternary_writes, reshape_writes, nary_writes,
               Finset.singleton_subset_iff, List.mem_toFinset]; exact List.mem_map_of_mem (by decide))))

/-! ## After window 0: heads 0 to 5 finished, head 6 up to its product and its bias row -/

/-- The buffer contents after window 0. -/
def val1 (V0 : Valuation τ sig (Elt F)) : Valuation τ sig (Elt F) := after ops_part0 V0
/-- The buffers window 0 writes. -/
abbrev ops_part0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59]
set_option maxRecDepth 8192 in
theorem ops_part0_writes : (ops_part0 : List (HloOp τ sig (Elt F))).Forall fun op => op.writes ⊆ (ops_part0_W.map (Proc.devRef (τ := τ) .tc)).toFinset := by
  writes_all
/-- A buffer window 0 does not write keeps its contents through it. -/
theorem val1_keep (V0 : Valuation τ sig (Elt F)) (r : Ref sig .tc) (h : r ∉ ops_part0_W) : val1 V0 (Proc.devRef .tc r) = V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) := val1_keep V0 main_arg0 (by decide)
theorem val1_main_arg1 (V0 : Valuation τ sig (Elt F)) : val1 V0 (no_index (Proc.devRef .tc main_arg1)) = V0 (Proc.devRef .tc main_arg1) := val1_keep V0 main_arg1 (by decide)
theorem val1_main_arg2 (V0 : Valuation τ sig (Elt F)) : val1 V0 (no_index (Proc.devRef .tc main_arg2)) = V0 (Proc.devRef .tc main_arg2) := val1_keep V0 main_arg2 (by decide)
theorem val1_main_arg3 (V0 : Valuation τ sig (Elt F)) : val1 V0 (no_index (Proc.devRef .tc main_arg3)) = V0 (Proc.devRef .tc main_arg3) := val1_keep V0 main_arg3 (by decide)
theorem val1_main_arg4 (V0 : Valuation τ sig (Elt F)) : val1 V0 (no_index (Proc.devRef .tc main_arg4)) = V0 (Proc.devRef .tc main_arg4) := val1_keep V0 main_arg4 (by decide)
theorem val1_main_arg5 (V0 : Valuation τ sig (Elt F)) : val1 V0 (no_index (Proc.devRef .tc main_arg5)) = V0 (Proc.devRef .tc main_arg5) := val1_keep V0 main_arg5 (by decide)
theorem val1_main_arg6 (V0 : Valuation τ sig (Elt F)) : val1 V0 (no_index (Proc.devRef .tc main_arg6)) = V0 (Proc.devRef .tc main_arg6) := val1_keep V0 main_arg6 (by decide)
theorem val1_main_arg7 (V0 : Valuation τ sig (Elt F)) : val1 V0 (no_index (Proc.devRef .tc main_arg7)) = V0 (Proc.devRef .tc main_arg7) := val1_keep V0 main_arg7 (by decide)
theorem val1_main_arg8 (V0 : Valuation τ sig (Elt F)) : val1 V0 (no_index (Proc.devRef .tc main_arg8)) = V0 (Proc.devRef .tc main_arg8) := val1_keep V0 main_arg8 (by decide)
theorem val1_main_arg9 (V0 : Valuation τ sig (Elt F)) : val1 V0 (no_index (Proc.devRef .tc main_arg9)) = V0 (Proc.devRef .tc main_arg9) := val1_keep V0 main_arg9 (by decide)
theorem val1_main_arg10 (V0 : Valuation τ sig (Elt F)) : val1 V0 (no_index (Proc.devRef .tc main_arg10)) = V0 (Proc.devRef .tc main_arg10) := val1_keep V0 main_arg10 (by decide)
set_option maxRecDepth 8192 in
set_option maxHeartbeats 2000000 in
theorem val1_main_v8 (V0 : Valuation τ sig (Elt F)) : val1 V0 (no_index (Proc.devRef .tc main_v8)) = RefTerm.head0 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v17 (V0 : Valuation τ sig (Elt F)) : val1 V0 (no_index (Proc.devRef .tc main_v17)) = RefTerm.head1 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v26 (V0 : Valuation τ sig (Elt F)) : val1 V0 (no_index (Proc.devRef .tc main_v26)) = RefTerm.head2 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v35 (V0 : Valuation τ sig (Elt F)) : val1 V0 (no_index (Proc.devRef .tc main_v35)) = RefTerm.head3 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v44 (V0 : Valuation τ sig (Elt F)) : val1 V0 (no_index (Proc.devRef .tc main_v44)) = RefTerm.head4 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v53 (V0 : Valuation τ sig (Elt F)) : val1 V0 (no_index (Proc.devRef .tc main_v53)) = RefTerm.head5 (V0 (Proc.devRef .tc main_arg0)) (V0 (Proc.devRef .tc main_arg1)) (V0 (Proc.devRef .tc main_arg2)) := by
  unfold val1; simp only [ops_part0]; after_results_simp; rfl
set_option maxRecDepth 8192 in
set_option maxHeartbeats 2000000 in
theorem val1_main_v56 (V0 : Valuation τ sig (Elt F)) : val1 V0 (no_index (Proc.devRef .tc main_v56)) = Host.dotGeneral dot_S2048x2x1593_S50x1593_S2048x2x50_2_1_01_0_n_n none
      (extractStridedSlice S2048x2x1593 ![0, 0, 12320] (V0 (Proc.devRef .tc main_arg0)) slices_S2048x2x28749_S2048x2x1593_0_0_12320)
      (extractStridedSlice S50x1593 ![0, 12320] (V0 (Proc.devRef .tc main_arg1)) slices_S50x28749_S50x1593_0_12320) := by
  unfold val1; simp only [ops_part0]; after_results_simp
set_option maxRecDepth 8192 in
set_option maxHeartbeats 2000000 in
theorem val1_main_v59 (V0 : Valuation τ sig (Elt F)) : val1 V0 (no_index (Proc.devRef .tc main_v59)) = broadcastInDim S1x1x50 ![2] bcast_S50_S1x1x50_2
      (shapeCast S50 (extractStridedSlice S1x50 ![6, 0] (V0 (Proc.devRef .tc main_arg2)) slices_S22x50_S1x50_6_0) shapeCasts_S1x50_S50) := by
  unfold val1; simp only [ops_part0]; after_results_simp; rfl

/-! ## After window 1: heads 6 to 12 finished, head 13 up to its product -/

/-- The buffer contents after window 1. -/
def val2 (V0 : Valuation τ sig (Elt F)) : Valuation τ sig (Elt F) := after ops_part1 (val1 V0)
/-- The buffers window 1 writes. -/
abbrev ops_part1_W : List (Ref sig .tc) := [main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119]
set_option maxRecDepth 8192 in
theorem ops_part1_writes : (ops_part1 : List (HloOp τ sig (Elt F))).Forall fun op => op.writes ⊆ (ops_part1_W.map (Proc.devRef (τ := τ) .tc)).toFinset := by
  writes_all
/-- A buffer window 1 does not write keeps its contents through it. -/
theorem val2_keep (V0 : Valuation τ sig (Elt F)) (r : Ref sig .tc) (h : r ∉ ops_part1_W) : val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) := (val2_keep V0 main_arg0 (by decide)).trans (val1_main_arg0 V0)
theorem val2_main_arg1 (V0 : Valuation τ sig (Elt F)) : val2 V0 (no_index (Proc.devRef .tc main_arg1)) = V0 (Proc.devRef .tc main_arg1) := (val2_keep V0 main_arg1 (by decide)).trans (val1_main_arg1 V0)
theorem val2_main_arg2 (V0 : Valuation τ sig (Elt F)) : val2 V0 (no_index (Proc.devRef .tc main_arg2)) = V0 (Proc.devRef .tc main_arg2) := (val2_keep V0 main_arg2 (by decide)).trans (val1_main_arg2 V0)
theorem val2_main_arg3 (V0 : Valuation τ sig (Elt F)) : val2 V0 (no_index (Proc.devRef .tc main_arg3)) = V0 (Proc.devRef .tc main_arg3) := (val2_keep V0 main_arg3 (by decide)).trans (val1_main_arg3 V0)
theorem val2_main_arg4 (V0 : Valuation τ sig (Elt F)) : val2 V0 (no_index (Proc.devRef .tc main_arg4)) = V0 (Proc.devRef .tc main_arg4) := (val2_keep V0 main_arg4 (by decide)).trans (val1_main_arg4 V0)
theorem val2_main_arg5 (V0 : Valuation τ sig (Elt F)) : val2 V0 (no_index (Proc.devRef .tc main_arg5)) = V0 (Proc.devRef .tc main_arg5) := (val2_keep V0 main_arg5 (by decide)).trans (val1_main_arg5 V0)
theorem val2_main_arg6 (V0 : Valuation τ sig (Elt F)) : val2 V0 (no_index (Proc.devRef .tc main_arg6)) = V0 (Proc.devRef .tc main_arg6) := (val2_keep V0 main_arg6 (by decide)).trans (val1_main_arg6 V0)
theorem val2_main_arg7 (V0 : Valuation τ sig (Elt F)) : val2 V0 (no_index (Proc.devRef .tc main_arg7)) = V0 (Proc.devRef .tc main_arg7) := (val2_keep V0 main_arg7 (by decide)).trans (val1_main_arg7 V0)
theorem val2_main_arg8 (V0 : Valuation τ sig (Elt F)) : val2 V0 (no_index (Proc.devRef .tc main_arg8)) = V0 (Proc.devRef .tc main_arg8) := (val2_keep V0 main_arg8 (by decide)).trans (val1_main_arg8 V0)
theorem val2_main_arg9 (V0 : Valuation τ sig (Elt F)) : val2 V0 (no_index (Proc.devRef .tc main_arg9)) = V0 (Proc.devRef .tc main_arg9) := (val2_keep V0 main_arg9 (by decide)).trans (val1_main_arg9 V0)
theorem val2_main_arg10 (V0 : Valuation τ sig (Elt F)) : val2 V0 (no_index (Proc.devRef .tc main_arg10)) = V0 (Proc.devRef .tc main_arg10) := (val2_keep V0 main_arg10 (by decide)).trans (val1_main_arg10 V0)
theorem val2_main_v8 (V0 : Valuation τ sig (Elt F)) : val2 V0 (no_index (Proc.devRef .tc main_v8)) = RefTerm.head0 (V0 (Proc.devRef .tc main_arg0)) (V0 (Proc.devRef .tc main_arg1)) (V0 (Proc.devRef .tc main_arg2)) := (val2_keep V0 main_v8 (by decide)).trans (val1_main_v8 V0)
theorem val2_main_v17 (V0 : Valuation τ sig (Elt F)) : val2 V0 (no_index (Proc.devRef .tc main_v17)) = RefTerm.head1 (V0 (Proc.devRef .tc main_arg0)) (V0 (Proc.devRef .tc main_arg1)) (V0 (Proc.devRef .tc main_arg2)) := (val2_keep V0 main_v17 (by decide)).trans (val1_main_v17 V0)
theorem val2_main_v26 (V0 : Valuation τ sig (Elt F)) : val2 V0 (no_index (Proc.devRef .tc main_v26)) = RefTerm.head2 (V0 (Proc.devRef .tc main_arg0)) (V0 (Proc.devRef .tc main_arg1)) (V0 (Proc.devRef .tc main_arg2)) := (val2_keep V0 main_v26 (by decide)).trans (val1_main_v26 V0)
theorem val2_main_v35 (V0 : Valuation τ sig (Elt F)) : val2 V0 (no_index (Proc.devRef .tc main_v35)) = RefTerm.head3 (V0 (Proc.devRef .tc main_arg0)) (V0 (Proc.devRef .tc main_arg1)) (V0 (Proc.devRef .tc main_arg2)) := (val2_keep V0 main_v35 (by decide)).trans (val1_main_v35 V0)
theorem val2_main_v44 (V0 : Valuation τ sig (Elt F)) : val2 V0 (no_index (Proc.devRef .tc main_v44)) = RefTerm.head4 (V0 (Proc.devRef .tc main_arg0)) (V0 (Proc.devRef .tc main_arg1)) (V0 (Proc.devRef .tc main_arg2)) := (val2_keep V0 main_v44 (by decide)).trans (val1_main_v44 V0)
theorem val2_main_v53 (V0 : Valuation τ sig (Elt F)) : val2 V0 (no_index (Proc.devRef .tc main_v53)) = RefTerm.head5 (V0 (Proc.devRef .tc main_arg0)) (V0 (Proc.devRef .tc main_arg1)) (V0 (Proc.devRef .tc main_arg2)) := (val2_keep V0 main_v53 (by decide)).trans (val1_main_v53 V0)
set_option maxRecDepth 8192 in
set_option maxHeartbeats 2000000 in
theorem val2_main_v62 (V0 : Valuation τ sig (Elt F)) : val2 V0 (no_index (Proc.devRef .tc main_v62)) = RefTerm.head6 (V0 (Proc.devRef .tc main_arg0)) (V0 (Proc.devRef .tc main_arg1)) (V0 (Proc.devRef .tc main_arg2)) := by
  unfold val2; simp only [ops_part1]; after_results_simp; simp only [val1_main_v56, val1_main_v59]; rfl
set_option maxRecDepth 8192 in
set_option maxHeartbeats 2000000 in
theorem val2_main_v71 (V0 : Valuation τ sig (Elt F)) : val2 V0 (no_index (Proc.devRef .tc main_v71)) = RefTerm.head7 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v80 (V0 : Valuation τ sig (Elt F)) : val2 V0 (no_index (Proc.devRef .tc main_v80)) = RefTerm.head8 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v89 (V0 : Valuation τ sig (Elt F)) : val2 V0 (no_index (Proc.devRef .tc main_v89)) = RefTerm.head9 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v98 (V0 : Valuation τ sig (Elt F)) : val2 V0 (no_index (Proc.devRef .tc main_v98)) = RefTerm.head10 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v107 (V0 : Valuation τ sig (Elt F)) : val2 V0 (no_index (Proc.devRef .tc main_v107)) = RefTerm.head11 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v116 (V0 : Valuation τ sig (Elt F)) : val2 V0 (no_index (Proc.devRef .tc main_v116)) = RefTerm.head12 (V0 (Proc.devRef .tc main_arg0)) (V0 (Proc.devRef .tc main_arg1)) (V0 (Proc.devRef .tc main_arg2)) := by
  unfold val2; simp only [ops_part1]; after_results_simp; simp only [val1_main_arg0, val1_main_arg1, val1_main_arg2]; rfl
set_option maxRecDepth 8192 in
set_option maxHeartbeats 2000000 in
theorem val2_main_v119 (V0 : Valuation τ sig (Elt F)) : val2 V0 (no_index (Proc.devRef .tc main_v119)) = Host.dotGeneral dot_S2048x2x1070_S50x1070_S2048x2x50_2_1_01_0_n_n none
      (extractStridedSlice S2048x2x1070 ![0, 0, 21914] (V0 (Proc.devRef .tc main_arg0)) slices_S2048x2x28749_S2048x2x1070_0_0_21914)
      (extractStridedSlice S50x1070 ![0, 21914] (V0 (Proc.devRef .tc main_arg1)) slices_S50x28749_S50x1070_0_21914) := by
  unfold val2; simp only [ops_part1]; after_results_simp; simp only [val1_main_arg0, val1_main_arg1, val1_main_arg2]

/-! ## After window 2: heads 13 to 19 finished -/

/-- The buffer contents after window 2. -/
def val3 (V0 : Valuation τ sig (Elt F)) : Valuation τ sig (Elt F) := after ops_part2 (val2 V0)
/-- The buffers window 2 writes. -/
abbrev ops_part2_W : List (Ref sig .tc) := [main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179]
set_option maxRecDepth 8192 in
theorem ops_part2_writes : (ops_part2 : List (HloOp τ sig (Elt F))).Forall fun op => op.writes ⊆ (ops_part2_W.map (Proc.devRef (τ := τ) .tc)).toFinset := by
  writes_all
/-- A buffer window 2 does not write keeps its contents through it. -/
theorem val3_keep (V0 : Valuation τ sig (Elt F)) (r : Ref sig .tc) (h : r ∉ ops_part2_W) : val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) := (val3_keep V0 main_arg0 (by decide)).trans (val2_main_arg0 V0)
theorem val3_main_arg1 (V0 : Valuation τ sig (Elt F)) : val3 V0 (no_index (Proc.devRef .tc main_arg1)) = V0 (Proc.devRef .tc main_arg1) := (val3_keep V0 main_arg1 (by decide)).trans (val2_main_arg1 V0)
theorem val3_main_arg2 (V0 : Valuation τ sig (Elt F)) : val3 V0 (no_index (Proc.devRef .tc main_arg2)) = V0 (Proc.devRef .tc main_arg2) := (val3_keep V0 main_arg2 (by decide)).trans (val2_main_arg2 V0)
theorem val3_main_arg3 (V0 : Valuation τ sig (Elt F)) : val3 V0 (no_index (Proc.devRef .tc main_arg3)) = V0 (Proc.devRef .tc main_arg3) := (val3_keep V0 main_arg3 (by decide)).trans (val2_main_arg3 V0)
theorem val3_main_arg4 (V0 : Valuation τ sig (Elt F)) : val3 V0 (no_index (Proc.devRef .tc main_arg4)) = V0 (Proc.devRef .tc main_arg4) := (val3_keep V0 main_arg4 (by decide)).trans (val2_main_arg4 V0)
theorem val3_main_arg5 (V0 : Valuation τ sig (Elt F)) : val3 V0 (no_index (Proc.devRef .tc main_arg5)) = V0 (Proc.devRef .tc main_arg5) := (val3_keep V0 main_arg5 (by decide)).trans (val2_main_arg5 V0)
theorem val3_main_arg6 (V0 : Valuation τ sig (Elt F)) : val3 V0 (no_index (Proc.devRef .tc main_arg6)) = V0 (Proc.devRef .tc main_arg6) := (val3_keep V0 main_arg6 (by decide)).trans (val2_main_arg6 V0)
theorem val3_main_arg7 (V0 : Valuation τ sig (Elt F)) : val3 V0 (no_index (Proc.devRef .tc main_arg7)) = V0 (Proc.devRef .tc main_arg7) := (val3_keep V0 main_arg7 (by decide)).trans (val2_main_arg7 V0)
theorem val3_main_arg8 (V0 : Valuation τ sig (Elt F)) : val3 V0 (no_index (Proc.devRef .tc main_arg8)) = V0 (Proc.devRef .tc main_arg8) := (val3_keep V0 main_arg8 (by decide)).trans (val2_main_arg8 V0)
theorem val3_main_arg9 (V0 : Valuation τ sig (Elt F)) : val3 V0 (no_index (Proc.devRef .tc main_arg9)) = V0 (Proc.devRef .tc main_arg9) := (val3_keep V0 main_arg9 (by decide)).trans (val2_main_arg9 V0)
theorem val3_main_arg10 (V0 : Valuation τ sig (Elt F)) : val3 V0 (no_index (Proc.devRef .tc main_arg10)) = V0 (Proc.devRef .tc main_arg10) := (val3_keep V0 main_arg10 (by decide)).trans (val2_main_arg10 V0)
theorem val3_main_v8 (V0 : Valuation τ sig (Elt F)) : val3 V0 (no_index (Proc.devRef .tc main_v8)) = RefTerm.head0 (V0 (Proc.devRef .tc main_arg0)) (V0 (Proc.devRef .tc main_arg1)) (V0 (Proc.devRef .tc main_arg2)) := (val3_keep V0 main_v8 (by decide)).trans (val2_main_v8 V0)
theorem val3_main_v17 (V0 : Valuation τ sig (Elt F)) : val3 V0 (no_index (Proc.devRef .tc main_v17)) = RefTerm.head1 (V0 (Proc.devRef .tc main_arg0)) (V0 (Proc.devRef .tc main_arg1)) (V0 (Proc.devRef .tc main_arg2)) := (val3_keep V0 main_v17 (by decide)).trans (val2_main_v17 V0)
theorem val3_main_v26 (V0 : Valuation τ sig (Elt F)) : val3 V0 (no_index (Proc.devRef .tc main_v26)) = RefTerm.head2 (V0 (Proc.devRef .tc main_arg0)) (V0 (Proc.devRef .tc main_arg1)) (V0 (Proc.devRef .tc main_arg2)) := (val3_keep V0 main_v26 (by decide)).trans (val2_main_v26 V0)
theorem val3_main_v35 (V0 : Valuation τ sig (Elt F)) : val3 V0 (no_index (Proc.devRef .tc main_v35)) = RefTerm.head3 (V0 (Proc.devRef .tc main_arg0)) (V0 (Proc.devRef .tc main_arg1)) (V0 (Proc.devRef .tc main_arg2)) := (val3_keep V0 main_v35 (by decide)).trans (val2_main_v35 V0)
theorem val3_main_v44 (V0 : Valuation τ sig (Elt F)) : val3 V0 (no_index (Proc.devRef .tc main_v44)) = RefTerm.head4 (V0 (Proc.devRef .tc main_arg0)) (V0 (Proc.devRef .tc main_arg1)) (V0 (Proc.devRef .tc main_arg2)) := (val3_keep V0 main_v44 (by decide)).trans (val2_main_v44 V0)
theorem val3_main_v53 (V0 : Valuation τ sig (Elt F)) : val3 V0 (no_index (Proc.devRef .tc main_v53)) = RefTerm.head5 (V0 (Proc.devRef .tc main_arg0)) (V0 (Proc.devRef .tc main_arg1)) (V0 (Proc.devRef .tc main_arg2)) := (val3_keep V0 main_v53 (by decide)).trans (val2_main_v53 V0)
theorem val3_main_v62 (V0 : Valuation τ sig (Elt F)) : val3 V0 (no_index (Proc.devRef .tc main_v62)) = RefTerm.head6 (V0 (Proc.devRef .tc main_arg0)) (V0 (Proc.devRef .tc main_arg1)) (V0 (Proc.devRef .tc main_arg2)) := (val3_keep V0 main_v62 (by decide)).trans (val2_main_v62 V0)
theorem val3_main_v71 (V0 : Valuation τ sig (Elt F)) : val3 V0 (no_index (Proc.devRef .tc main_v71)) = RefTerm.head7 (V0 (Proc.devRef .tc main_arg0)) (V0 (Proc.devRef .tc main_arg1)) (V0 (Proc.devRef .tc main_arg2)) := (val3_keep V0 main_v71 (by decide)).trans (val2_main_v71 V0)
theorem val3_main_v80 (V0 : Valuation τ sig (Elt F)) : val3 V0 (no_index (Proc.devRef .tc main_v80)) = RefTerm.head8 (V0 (Proc.devRef .tc main_arg0)) (V0 (Proc.devRef .tc main_arg1)) (V0 (Proc.devRef .tc main_arg2)) := (val3_keep V0 main_v80 (by decide)).trans (val2_main_v80 V0)
theorem val3_main_v89 (V0 : Valuation τ sig (Elt F)) : val3 V0 (no_index (Proc.devRef .tc main_v89)) = RefTerm.head9 (V0 (Proc.devRef .tc main_arg0)) (V0 (Proc.devRef .tc main_arg1)) (V0 (Proc.devRef .tc main_arg2)) := (val3_keep V0 main_v89 (by decide)).trans (val2_main_v89 V0)
theorem val3_main_v98 (V0 : Valuation τ sig (Elt F)) : val3 V0 (no_index (Proc.devRef .tc main_v98)) = RefTerm.head10 (V0 (Proc.devRef .tc main_arg0)) (V0 (Proc.devRef .tc main_arg1)) (V0 (Proc.devRef .tc main_arg2)) := (val3_keep V0 main_v98 (by decide)).trans (val2_main_v98 V0)
theorem val3_main_v107 (V0 : Valuation τ sig (Elt F)) : val3 V0 (no_index (Proc.devRef .tc main_v107)) = RefTerm.head11 (V0 (Proc.devRef .tc main_arg0)) (V0 (Proc.devRef .tc main_arg1)) (V0 (Proc.devRef .tc main_arg2)) := (val3_keep V0 main_v107 (by decide)).trans (val2_main_v107 V0)
theorem val3_main_v116 (V0 : Valuation τ sig (Elt F)) : val3 V0 (no_index (Proc.devRef .tc main_v116)) = RefTerm.head12 (V0 (Proc.devRef .tc main_arg0)) (V0 (Proc.devRef .tc main_arg1)) (V0 (Proc.devRef .tc main_arg2)) := (val3_keep V0 main_v116 (by decide)).trans (val2_main_v116 V0)
set_option maxRecDepth 8192 in
set_option maxHeartbeats 2000000 in
theorem val3_main_v125 (V0 : Valuation τ sig (Elt F)) : val3 V0 (no_index (Proc.devRef .tc main_v125)) = RefTerm.head13 (V0 (Proc.devRef .tc main_arg0)) (V0 (Proc.devRef .tc main_arg1)) (V0 (Proc.devRef .tc main_arg2)) := by
  unfold val3; simp only [ops_part2]; after_results_simp; simp only [val2_main_v119, val2_main_arg0, val2_main_arg1, val2_main_arg2]; rfl
set_option maxRecDepth 8192 in
set_option maxHeartbeats 2000000 in
theorem val3_main_v134 (V0 : Valuation τ sig (Elt F)) : val3 V0 (no_index (Proc.devRef .tc main_v134)) = RefTerm.head14 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl
set_option maxRecDepth 8192 in
set_option maxHeartbeats 2000000 in
theorem val3_main_v143 (V0 : Valuation τ sig (Elt F)) : val3 V0 (no_index (Proc.devRef .tc main_v143)) = RefTerm.head15 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl
set_option maxRecDepth 8192 in
set_option maxHeartbeats 2000000 in
theorem val3_main_v152 (V0 : Valuation τ sig (Elt F)) : val3 V0 (no_index (Proc.devRef .tc main_v152)) = RefTerm.head16 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl
set_option maxRecDepth 8192 in
set_option maxHeartbeats 2000000 in
theorem val3_main_v161 (V0 : Valuation τ sig (Elt F)) : val3 V0 (no_index (Proc.devRef .tc main_v161)) = RefTerm.head17 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl
set_option maxRecDepth 8192 in
set_option maxHeartbeats 2000000 in
theorem val3_main_v170 (V0 : Valuation τ sig (Elt F)) : val3 V0 (no_index (Proc.devRef .tc main_v170)) = RefTerm.head18 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl
set_option maxRecDepth 8192 in
set_option maxHeartbeats 2000000 in
theorem val3_main_v179 (V0 : Valuation τ sig (Elt F)) : val3 V0 (no_index (Proc.devRef .tc main_v179)) = RefTerm.head19 (V0 (Proc.devRef .tc main_arg0)) (V0 (Proc.devRef .tc main_arg1)) (V0 (Proc.devRef .tc main_arg2)) := by
  unfold val3; simp only [ops_part2]; after_results_simp; simp only [val2_main_arg0, val2_main_arg1, val2_main_arg2]; rfl

/-! ## After window 3: the last two heads, the heads joined, the dense layers -/

/-- The buffer contents after window 3. -/
def val4 (V0 : Valuation τ sig (Elt F)) : Valuation τ sig (Elt F) := after ops_part3 (val3 V0)
/-- The buffers window 3 writes. -/
abbrev ops_part3_W : List (Ref sig .tc) := [main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_cst, main_cst_0, main_call0_cst, main_call0_v0, main_call0_v1, main_call0_v2, main_call0_v3, main_call0_v4, main_call1_cst, main_call1_v0, main_call1_v1, main_call1_v2, main_call1_v3, main_call1_v4]
set_option maxRecDepth 8192 in
theorem ops_part3_writes : (ops_part3 : List (HloOp τ sig (Elt F))).Forall fun op => op.writes ⊆ (ops_part3_W.map (Proc.devRef (τ := τ) .tc)).toFinset := by
  writes_all
/-- A buffer window 3 does not write keeps its contents through it. -/
theorem val4_keep (V0 : Valuation τ sig (Elt F)) (r : Ref sig .tc) (h : r ∉ ops_part3_W) : val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) := (val4_keep V0 main_arg0 (by decide)).trans (val3_main_arg0 V0)
theorem val4_main_arg1 (V0 : Valuation τ sig (Elt F)) : val4 V0 (no_index (Proc.devRef .tc main_arg1)) = V0 (Proc.devRef .tc main_arg1) := (val4_keep V0 main_arg1 (by decide)).trans (val3_main_arg1 V0)
theorem val4_main_arg2 (V0 : Valuation τ sig (Elt F)) : val4 V0 (no_index (Proc.devRef .tc main_arg2)) = V0 (Proc.devRef .tc main_arg2) := (val4_keep V0 main_arg2 (by decide)).trans (val3_main_arg2 V0)
theorem val4_main_arg3 (V0 : Valuation τ sig (Elt F)) : val4 V0 (no_index (Proc.devRef .tc main_arg3)) = V0 (Proc.devRef .tc main_arg3) := (val4_keep V0 main_arg3 (by decide)).trans (val3_main_arg3 V0)
theorem val4_main_arg4 (V0 : Valuation τ sig (Elt F)) : val4 V0 (no_index (Proc.devRef .tc main_arg4)) = V0 (Proc.devRef .tc main_arg4) := (val4_keep V0 main_arg4 (by decide)).trans (val3_main_arg4 V0)
theorem val4_main_arg5 (V0 : Valuation τ sig (Elt F)) : val4 V0 (no_index (Proc.devRef .tc main_arg5)) = V0 (Proc.devRef .tc main_arg5) := (val4_keep V0 main_arg5 (by decide)).trans (val3_main_arg5 V0)
theorem val4_main_arg6 (V0 : Valuation τ sig (Elt F)) : val4 V0 (no_index (Proc.devRef .tc main_arg6)) = V0 (Proc.devRef .tc main_arg6) := (val4_keep V0 main_arg6 (by decide)).trans (val3_main_arg6 V0)
theorem val4_main_arg7 (V0 : Valuation τ sig (Elt F)) : val4 V0 (no_index (Proc.devRef .tc main_arg7)) = V0 (Proc.devRef .tc main_arg7) := (val4_keep V0 main_arg7 (by decide)).trans (val3_main_arg7 V0)
theorem val4_main_arg8 (V0 : Valuation τ sig (Elt F)) : val4 V0 (no_index (Proc.devRef .tc main_arg8)) = V0 (Proc.devRef .tc main_arg8) := (val4_keep V0 main_arg8 (by decide)).trans (val3_main_arg8 V0)
theorem val4_main_arg9 (V0 : Valuation τ sig (Elt F)) : val4 V0 (no_index (Proc.devRef .tc main_arg9)) = V0 (Proc.devRef .tc main_arg9) := (val4_keep V0 main_arg9 (by decide)).trans (val3_main_arg9 V0)
theorem val4_main_arg10 (V0 : Valuation τ sig (Elt F)) : val4 V0 (no_index (Proc.devRef .tc main_arg10)) = V0 (Proc.devRef .tc main_arg10) := (val4_keep V0 main_arg10 (by decide)).trans (val3_main_arg10 V0)

set_option maxRecDepth 16384 in
set_option maxHeartbeats 4000000 in
theorem val4_main_v222 (V0 : Valuation τ sig (Elt F)) : val4 V0 (no_index (Proc.devRef .tc main_v222)) = RefTerm.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val4
  simp only [ops_part3]
  after_results_simp
  try dsimp only [Matrix.cons_val]
  try after_results_simp
  simp only [val3_main_v8, val3_main_v17, val3_main_v26, val3_main_v35, val3_main_v44, val3_main_v53, val3_main_v62, val3_main_v71, val3_main_v80, val3_main_v89, val3_main_v98, val3_main_v107, val3_main_v116, val3_main_v125, val3_main_v134, val3_main_v143, val3_main_v152, val3_main_v161, val3_main_v170, val3_main_v179, val3_main_arg0, val3_main_arg1, val3_main_arg2, val3_main_arg3, val3_main_arg4, val3_main_arg5, val3_main_arg6, val3_main_arg7, val3_main_arg8, val3_main_arg9, val3_main_arg10]
  rfl

/-! ## The whole line -/

/-- Folding two lists laid end to end is folding the first, then the second from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The four windows folded one after the other are the whole line folded. -/
theorem after_ops (V0 : Valuation τ sig (Elt F)) : after ops V0 = val4 V0 := by
  simp only [ops, after_append]
  rfl

set_option maxRecDepth 8192 in
/-- Every weakly fair execution of the reference terminates with the result at the composed term of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v222) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v222).trans (by simp only [after_ops]; exact val4_main_v222 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c)),
      (h c main_arg6).trans (by simp only [after_ops]; exact val4_main_arg6 (launchContents m c)),
      (h c main_arg7).trans (by simp only [after_ops]; exact val4_main_arg7 (launchContents m c)),
      (h c main_arg8).trans (by simp only [after_ops]; exact val4_main_arg8 (launchContents m c)),
      (h c main_arg9).trans (by simp only [after_ops]; exact val4_main_arg9 (launchContents m c)),
      (h c main_arg10).trans (by simp only [after_ops]; exact val4_main_arg10 (launchContents m c))⟩)
    (run_seq scopedRefs_eq scopedSems_eq defs main (fun _ => ops) main_eq (fun _ => ops_sub) m ρ)

end Cert.ReferenceIdeal.RRun

end
-- ==== Proof.LibHeadDot.lean ====
/-
  A contraction of a three-axis array with a matrix on their last axes, read at one entry. For the dimension numbers
  "(batch-free) [B, C, L] by [N, L], both contracted on the last axis, result [B, C, N]", the host's dot_general at
  (b, c, o) is the sum over the contracted coordinate j of the left operand at (b, c, j) times the right operand at
  (o, j). Stated over extended reals, where the contraction is the exact finite sum. The record's well-formedness fact
  is an argument, so any program's printed record of this kind is the record here at its own sizes.
-/
import Idealize.ShloMosaic.PureOps.Ideal.Laws
import Idealize.ShloMosaic.Lib.ValueIdx

noncomputable section

open scoped BigOperators

namespace Cert.LibHeadDot

open Idealize.ShloMosaic Idealize.ShloMosaic.ValueIdx

/-- The dimension numbers of a contraction of a [B, C, L] array with an [N, L] array, both on their last axis, with no
    batch axis: the result is [B, C, N]. The well-formedness fact is an argument, as a program states it. -/
abbrev headDims (B C L N : Nat)
    (wf : DotDims.WF ⟨3, ![B, C, L]⟩ ⟨2, ![N, L]⟩ ⟨3, ![B, C, N]⟩ [2] [1] [0, 1] [0] [] []) :
    DotDims ⟨3, ![B, C, L]⟩ ⟨2, ![N, L]⟩ ⟨3, ![B, C, N]⟩ :=
  { lhsContracting := [2], rhsContracting := [1], lhsNonContracting := [0, 1], rhsNonContracting := [0],
    lhsBatch := [], rhsBatch := [], wf := wf }

/-- A [B, C, L] array contracted with an [N, L] array on their last axes, read at entry (b, c, o): the sum over the
    contracted coordinate j of the left operand at (b, c, j) times the right operand at (o, j). Over extended reals,
    where the contraction is the exact sum. -/
theorem dotGeneral_head_apply {φ₁ φ₂ : FTy} (B C L N : Nat)
    (wf : DotDims.WF ⟨3, ![B, C, L]⟩ ⟨2, ![N, L]⟩ ⟨3, ![B, C, N]⟩ [2] [1] [0, 1] [0] [] [])
    (prec : Option ContractPrecision) (sched : HostSchedule)
    (A : FVec Ideal ⟨3, ![B, C, L]⟩ φ₁) (W : FVec Ideal ⟨2, ![N, L]⟩ φ₂) (b : Fin B) (c : Fin C) (o : Fin N) :
    FloatOps.dotGeneral (headDims B C L N wf) prec sched A W (ix3 b c o) = ∑ j : Fin L, A (ix3 b c j) * W (ix2 o j) := by
  rw [Ideal.dotGeneral_apply, ← Equiv.sum_comp (contrEquiv1 (headDims B C L N wf) L rfl rfl).symm]
  refine Finset.sum_congr rfl fun j _ => ?_
  have hj := contrEquiv1_symm_val (headDims B C L N wf) L rfl rfl j
  have hl : (headDims B C L N wf).lhsIdx (ix3 b c o) ((contrEquiv1 (headDims B C L N wf) L rfl rfl).symm j) = ix3 b c j := by
    funext ax; apply Fin.ext
    match ax with
    | ⟨0, _⟩ => rfl
    | ⟨1, _⟩ => rfl
    | ⟨2, _⟩ => refine Eq.trans ?_ hj; rfl
  have hr : (headDims B C L N wf).rhsIdx (ix3 b c o) ((contrEquiv1 (headDims B C L N wf) L rfl rfl).symm j) = ix2 o j := by
    funext ax; apply Fin.ext
    match ax with
    | ⟨0, _⟩ => rfl
    | ⟨1, _⟩ => refine Eq.trans ?_ hj; rfl
  rw [hl, hr]

end Cert.LibHeadDot

end
-- ==== Proof.RHeads.lean ====
/-
  The reference's 2200 combined features at an entry: sample b, feature j is entry j % 50 of piece j / 50 of the
  specification, i.e. head (j / 100) on channel ((j / 50) % 2) of sample b.
-/
import proofs.«414676_j67216238182882_3_alg».proof.Proof.RTerm
import proofs.«414676_j67216238182882_3_alg».proof.Proof.Spec
import proofs.«414676_j67216238182882_3_alg».proof.Proof.LibHeadDot
import Idealize.ShloMosaic.Lib.ValueLayout

noncomputable section

open scoped BigOperators

namespace Cert.ReferenceIdeal.RHeads

open Cert.ReferenceIdeal Cert.ReferenceIdeal.Gen Idealize.ShloMosaic Idealize.ShloMosaic.ValueIdx Cert.Fused

/-- One head of the reference at one entry. For a segment starting at `a` of length `L` and bias row `i`: the slices of
    the input and of the weights contracted on the segment, plus the broadcast bias row, flattened from
    (sample, channel, output) to (sample, 50 · channel + output), at sample `b` and column `50 c + o`, is the
    specification's head value on channel `c` of sample `b` at output `o`. -/
theorem head_apply (a L i : Nat) (hL : a + L ≤ 28749) (hi : i < 22)
    (wf : DotDims.WF ⟨3, ![2048, 2, L]⟩ ⟨2, ![50, L]⟩ ⟨3, ![2048, 2, 50]⟩ [2] [1] [0, 1] [0] [] [])
    (hs0 : S2048x2x28749.Slices ![0, 0, a] ⟨3, ![2048, 2, L]⟩)
    (hs1 : S50x28749.Slices ![0, a] ⟨2, ![50, L]⟩)
    (hs2 : S22x50.Slices ![i, 0] S1x50)
    (a0 : FVec Ideal S2048x2x28749 .f32) (a1 : FVec Ideal S50x28749 .f32) (a2 : FVec Ideal S22x50 .f32)
    (b : Fin 2048) (c : Fin 2) (o : Fin 50) (h100 : 50 * c.val + o.val < 100) :
    shapeCast S2048x100 (addf (Host.dotGeneral (F := Ideal) (Cert.LibHeadDot.headDims 2048 2 L 50 wf) none
        (extractStridedSlice ⟨3, ![2048, 2, L]⟩ ![0, 0, a] a0 hs0)
        (extractStridedSlice ⟨2, ![50, L]⟩ ![0, a] a1 hs1))
      (broadcastInDim S2048x2x50 ![0, 1, 2] bcast_S1x1x50_S2048x2x50_0_1_2 (broadcastInDim S1x1x50 ![2] bcast_S50_S1x1x50_2
        (shapeCast S50 (extractStridedSlice S1x50 ![i, 0] a2 hs2) shapeCasts_S1x50_S50)))) shapeCasts_S2048x2x50_S2048x100
      (ix2 b ⟨50 * c.val + o.val, h100⟩)
    = headVal a L (fun l => a0 (ix3 b c l)) (fun q l => a1 (ix2 q l)) (fun q => a2 (ix2 ⟨i, hi⟩ q)) o := by
  -- the flattening: (b, 50 c + o) of the [2048, 100] array is (b, c, o) of the [2048, 2, 50] array
  refine (shapeCast_apply _ shapeCasts_S2048x2x50_S2048x100 (ix2 b ⟨50 * c.val + o.val, h100⟩) (ix3 b c o) ?_).trans ?_
  · rw [Shape.rowMajor_val_three, Shape.rowMajor_val_two]
    show (b.val * 2 + c.val) * 50 + o.val = b.val * 100 + (50 * c.val + o.val)
    omega
  rw [addf_apply]
  unfold headVal
  -- the bias: both broadcasts and the [1, 50] → [50] cast read row i of the bias array at o
  have hbias : (broadcastInDim S2048x2x50 ![0, 1, 2] bcast_S1x1x50_S2048x2x50_0_1_2
      (broadcastInDim S1x1x50 ![2] bcast_S50_S1x1x50_2
        (shapeCast S50 (extractStridedSlice S1x50 ![i, 0] a2 hs2) shapeCasts_S1x50_S50))) (ix3 b c o)
      = a2 (ix2 ⟨i, hi⟩ o) := by
    refine (broadcastInDim_apply (s := S1x1x50) (t := S2048x2x50) ![0, 1, 2] bcast_S1x1x50_S2048x2x50_0_1_2 _
      (ix3 b c o) (ix3 (0 : Fin 1) (0 : Fin 1) o) ?_).trans ?_
    · intro ax
      match ax with
      | ⟨0, _⟩ => rfl
      | ⟨1, _⟩ => rfl
      | ⟨2, _⟩ => rfl
    refine (broadcastInDim_apply (s := S50) (t := S1x1x50) ![2] bcast_S50_S1x1x50_2 _
      (ix3 (0 : Fin 1) (0 : Fin 1) o) (ix1 o) ?_).trans ?_
    · intro ax
      match ax with
      | ⟨0, _⟩ => rfl
    refine (shapeCast_apply _ shapeCasts_S1x50_S50 (ix1 o) (ix2 (0 : Fin 1) o) ?_).trans ?_
    · rw [Shape.rowMajor_val_two, Shape.rowMajor_val_one]
      show 0 * 50 + o.val = o.val
      omega
    refine extractStridedSlice_apply _ _ hs2 (ix2 (0 : Fin 1) o) (ix2 ⟨i, hi⟩ o) ?_
    intro ax
    match ax with
    | ⟨0, _⟩ => rfl
    | ⟨1, _⟩ => show o.val = 0 + o.val; omega
  -- the contraction over the segment
  have hdot : Host.dotGeneral (F := Ideal) (Cert.LibHeadDot.headDims 2048 2 L 50 wf) none
        (extractStridedSlice ⟨3, ![2048, 2, L]⟩ ![0, 0, a] a0 hs0)
        (extractStridedSlice ⟨2, ![50, L]⟩ ![0, a] a1 hs1) (ix3 b c o)
      = ∑ l : Fin L, ext (fun l => a0 (ix3 b c l)) (a + l.val) * ext (fun l => a1 (ix2 o l)) (a + l.val) := by
    refine (Cert.LibHeadDot.dotGeneral_head_apply 2048 2 L 50 wf none .single _ _ b c o).trans ?_
    refine Finset.sum_congr rfl fun l _ => ?_
    have hl : a + l.val < 28749 := by have := l.isLt; omega
    rw [ext_eq _ _ hl, ext_eq _ _ hl]
    congr 1
    · refine extractStridedSlice_apply _ _ hs0 (ix3 b c l) (ix3 b c ⟨a + l.val, hl⟩) ?_
      intro ax
      match ax with
      | ⟨0, _⟩ => show b.val = 0 + b.val; omega
      | ⟨1, _⟩ => show c.val = 0 + c.val; omega
      | ⟨2, _⟩ => rfl
    · refine extractStridedSlice_apply _ _ hs1 (ix2 o l) (ix2 o ⟨a + l.val, hl⟩) ?_
      intro ax
      match ax with
      | ⟨0, _⟩ => show o.val = 0 + o.val; omega
      | ⟨1, _⟩ => rfl
  rw [hbias, hdot]

/-- The 22 heads of the reference as one family. -/
def heads (a0 : FVec Ideal S2048x2x28749 .f32) (a1 : FVec Ideal S50x28749 .f32) (a2 : FVec Ideal S22x50 .f32) :
    Fin 22 → FVec Ideal S2048x100 .f32 :=
  ![RefTerm.head0 (F := Ideal) a0 a1 a2,
    RefTerm.head1 (F := Ideal) a0 a1 a2,
    RefTerm.head2 (F := Ideal) a0 a1 a2,
    RefTerm.head3 (F := Ideal) a0 a1 a2,
    RefTerm.head4 (F := Ideal) a0 a1 a2,
    RefTerm.head5 (F := Ideal) a0 a1 a2,
    RefTerm.head6 (F := Ideal) a0 a1 a2,
    RefTerm.head7 (F := Ideal) a0 a1 a2,
    RefTerm.head8 (F := Ideal) a0 a1 a2,
    RefTerm.head9 (F := Ideal) a0 a1 a2,
    RefTerm.head10 (F := Ideal) a0 a1 a2,
    RefTerm.head11 (F := Ideal) a0 a1 a2,
    RefTerm.head12 (F := Ideal) a0 a1 a2,
    RefTerm.head13 (F := Ideal) a0 a1 a2,
    RefTerm.head14 (F := Ideal) a0 a1 a2,
    RefTerm.head15 (F := Ideal) a0 a1 a2,
    RefTerm.head16 (F := Ideal) a0 a1 a2,
    RefTerm.head17 (F := Ideal) a0 a1 a2,
    RefTerm.head18 (F := Ideal) a0 a1 a2,
    RefTerm.head19 (F := Ideal) a0 a1 a2,
    RefTerm.head20 (F := Ideal) a0 a1 a2,
    RefTerm.head21 (F := Ideal) a0 a1 a2]

/-- Head `n` at sample `b` and column `50 c + o`: the specification's head value of segment `n` on channel `c`. -/
theorem heads_apply (a0 : FVec Ideal S2048x2x28749 .f32) (a1 : FVec Ideal S50x28749 .f32) (a2 : FVec Ideal S22x50 .f32)
    (n : Fin 22) (b : Fin 2048) (c : Fin 2) (o : Fin 50) (h100 : 50 * c.val + o.val < 100) :
    heads a0 a1 a2 n (ix2 b ⟨50 * c.val + o.val, h100⟩)
      = headVal (headOff n.val) (headLen n.val) (fun l => a0 (ix3 b c l)) (fun q l => a1 (ix2 q l)) (fun q => a2 (ix2 n q)) o := by
  match n with
  | ⟨0, _⟩ => exact head_apply 0 2490 0 (by omega) (by omega) dot_S2048x2x2490_S50x2490_S2048x2x50_2_1_01_0_n_n_wf slices_S2048x2x28749_S2048x2x2490_0_0_0 slices_S50x28749_S50x2490_0_0 slices_S22x50_S1x50_0_0 a0 a1 a2 b c o h100
  | ⟨1, _⟩ => exact head_apply 2490 2422 1 (by omega) (by omega) dot_S2048x2x2422_S50x2422_S2048x2x50_2_1_01_0_n_n_wf slices_S2048x2x28749_S2048x2x2422_0_0_2490 slices_S50x28749_S50x2422_0_2490 slices_S22x50_S1x50_1_0 a0 a1 a2 b c o h100
  | ⟨2, _⟩ => exact head_apply 4912 1983 2 (by omega) (by omega) dot_S2048x2x1983_S50x1983_S2048x2x50_2_1_01_0_n_n_wf slices_S2048x2x28749_S2048x2x1983_0_0_4912 slices_S50x28749_S50x1983_0_4912 slices_S22x50_S1x50_2_0 a0 a1 a2 b c o h100
  | ⟨3, _⟩ => exact head_apply 6895 1902 3 (by omega) (by omega) dot_S2048x2x1902_S50x1902_S2048x2x50_2_1_01_0_n_n_wf slices_S2048x2x28749_S2048x2x1902_0_0_6895 slices_S50x28749_S50x1902_0_6895 slices_S22x50_S1x50_3_0 a0 a1 a2 b c o h100
  | ⟨4, _⟩ => exact head_apply 8797 1815 4 (by omega) (by omega) dot_S2048x2x1815_S50x1815_S2048x2x50_2_1_01_0_n_n_wf slices_S2048x2x28749_S2048x2x1815_0_0_8797 slices_S50x28749_S50x1815_0_8797 slices_S22x50_S1x50_4_0 a0 a1 a2 b c o h100
  | ⟨5, _⟩ => exact head_apply 10612 1708 5 (by omega) (by omega) dot_S2048x2x1708_S50x1708_S2048x2x50_2_1_01_0_n_n_wf slices_S2048x2x28749_S2048x2x1708_0_0_10612 slices_S50x28749_S50x1708_0_10612 slices_S22x50_S1x50_5_0 a0 a1 a2 b c o h100
  | ⟨6, _⟩ => exact head_apply 12320 1593 6 (by omega) (by omega) dot_S2048x2x1593_S50x1593_S2048x2x50_2_1_01_0_n_n_wf slices_S2048x2x28749_S2048x2x1593_0_0_12320 slices_S50x28749_S50x1593_0_12320 slices_S22x50_S1x50_6_0 a0 a1 a2 b c o h100
  | ⟨7, _⟩ => exact head_apply 13913 1451 7 (by omega) (by omega) dot_S2048x2x1451_S50x1451_S2048x2x50_2_1_01_0_n_n_wf slices_S2048x2x28749_S2048x2x1451_0_0_13913 slices_S50x28749_S50x1451_0_13913 slices_S22x50_S1x50_7_0 a0 a1 a2 b c o h100
  | ⟨8, _⟩ => exact head_apply 15364 1384 8 (by omega) (by omega) dot_S2048x2x1384_S50x1384_S2048x2x50_2_1_01_0_n_n_wf slices_S2048x2x28749_S2048x2x1384_0_0_15364 slices_S50x28749_S50x1384_0_15364 slices_S22x50_S1x50_8_0 a0 a1 a2 b c o h100
  | ⟨9, _⟩ => exact head_apply 16748 1338 9 (by omega) (by omega) dot_S2048x2x1338_S50x1338_S2048x2x50_2_1_01_0_n_n_wf slices_S2048x2x28749_S2048x2x1338_0_0_16748 slices_S50x28749_S50x1338_0_16748 slices_S22x50_S1x50_9_0 a0 a1 a2 b c o h100
  | ⟨10, _⟩ => exact head_apply 18086 1351 10 (by omega) (by omega) dot_S2048x2x1351_S50x1351_S2048x2x50_2_1_01_0_n_n_wf slices_S2048x2x28749_S2048x2x1351_0_0_18086 slices_S50x28749_S50x1351_0_18086 slices_S22x50_S1x50_10_0 a0 a1 a2 b c o h100
  | ⟨11, _⟩ => exact head_apply 19437 1333 11 (by omega) (by omega) dot_S2048x2x1333_S50x1333_S2048x2x50_2_1_01_0_n_n_wf slices_S2048x2x28749_S2048x2x1333_0_0_19437 slices_S50x28749_S50x1333_0_19437 slices_S22x50_S1x50_11_0 a0 a1 a2 b c o h100
  | ⟨12, _⟩ => exact head_apply 20770 1144 12 (by omega) (by omega) dot_S2048x2x1144_S50x1144_S2048x2x50_2_1_01_0_n_n_wf slices_S2048x2x28749_S2048x2x1144_0_0_20770 slices_S50x28749_S50x1144_0_20770 slices_S22x50_S1x50_12_0 a0 a1 a2 b c o h100
  | ⟨13, _⟩ => exact head_apply 21914 1070 13 (by omega) (by omega) dot_S2048x2x1070_S50x1070_S2048x2x50_2_1_01_0_n_n_wf slices_S2048x2x28749_S2048x2x1070_0_0_21914 slices_S50x28749_S50x1070_0_21914 slices_S22x50_S1x50_13_0 a0 a1 a2 b c o h100
  | ⟨14, _⟩ => exact head_apply 22984 1020 14 (by omega) (by omega) dot_S2048x2x1020_S50x1020_S2048x2x50_2_1_01_0_n_n_wf slices_S2048x2x28749_S2048x2x1020_0_0_22984 slices_S50x28749_S50x1020_0_22984 slices_S22x50_S1x50_14_0 a0 a1 a2 b c o h100
  | ⟨15, _⟩ => exact head_apply 24004 903 15 (by omega) (by omega) dot_S2048x2x903_S50x903_S2048x2x50_2_1_01_0_n_n_wf slices_S2048x2x28749_S2048x2x903_0_0_24004 slices_S50x28749_S50x903_0_24004 slices_S22x50_S1x50_15_0 a0 a1 a2 b c o h100
  | ⟨16, _⟩ => exact head_apply 24907 833 16 (by omega) (by omega) dot_S2048x2x833_S50x833_S2048x2x50_2_1_01_0_n_n_wf slices_S2048x2x28749_S2048x2x833_0_0_24907 slices_S50x28749_S50x833_0_24907 slices_S22x50_S1x50_16_0 a0 a1 a2 b c o h100
  | ⟨17, _⟩ => exact head_apply 25740 804 17 (by omega) (by omega) dot_S2048x2x804_S50x804_S2048x2x50_2_1_01_0_n_n_wf slices_S2048x2x28749_S2048x2x804_0_0_25740 slices_S50x28749_S50x804_0_25740 slices_S22x50_S1x50_17_0 a0 a1 a2 b c o h100
  | ⟨18, _⟩ => exact head_apply 26544 586 18 (by omega) (by omega) dot_S2048x2x586_S50x586_S2048x2x50_2_1_01_0_n_n_wf slices_S2048x2x28749_S2048x2x586_0_0_26544 slices_S50x28749_S50x586_0_26544 slices_S22x50_S1x50_18_0 a0 a1 a2 b c o h100
  | ⟨19, _⟩ => exact head_apply 27130 644 19 (by omega) (by omega) dot_S2048x2x644_S50x644_S2048x2x50_2_1_01_0_n_n_wf slices_S2048x2x28749_S2048x2x644_0_0_27130 slices_S50x28749_S50x644_0_27130 slices_S22x50_S1x50_19_0 a0 a1 a2 b c o h100
  | ⟨20, _⟩ => exact head_apply 27774 467 20 (by omega) (by omega) dot_S2048x2x467_S50x467_S2048x2x50_2_1_01_0_n_n_wf slices_S2048x2x28749_S2048x2x467_0_0_27774 slices_S50x28749_S50x467_0_27774 slices_S22x50_S1x50_20_0 a0 a1 a2 b c o h100
  | ⟨21, _⟩ => exact head_apply 28241 508 21 (by omega) (by omega) dot_S2048x2x508_S50x508_S2048x2x50_2_1_01_0_n_n_wf slices_S2048x2x28749_S2048x2x508_0_0_28241 slices_S50x28749_S50x508_0_28241 slices_S22x50_S1x50_21_0 a0 a1 a2 b c o h100
  | ⟨m + 22, h⟩ => exact absurd h (by omega)

/-- Head `n` at sample `b` and any column `k` below 100: channel `k / 50`, output `k % 50`. -/
theorem heads_apply_col (a0 : FVec Ideal S2048x2x28749 .f32) (a1 : FVec Ideal S50x28749 .f32) (a2 : FVec Ideal S22x50 .f32)
    (n : Fin 22) (b : Fin 2048) (k : Nat) (hk : k < 100) :
    heads a0 a1 a2 n (ix2 b (⟨k, hk⟩ : Fin 100))
      = headVal (headOff n.val) (headLen n.val) (fun l => a0 (ix3 b (⟨k / 50, by omega⟩ : Fin 2) l)) (fun q l => a1 (ix2 q l))
          (fun q => a2 (ix2 n q)) (⟨k % 50, by omega⟩ : Fin 50) := by
  have e : (⟨k, hk⟩ : Fin 100) = ⟨50 * (k / 50) + k % 50, by omega⟩ := Fin.ext (by show k = 50 * (k / 50) + k % 50; omega)
  rw [e]
  exact heads_apply a0 a1 a2 n b (⟨k / 50, by omega⟩ : Fin 2) (⟨k % 50, by omega⟩ : Fin 50) (by show 50 * (k / 50) + k % 50 < 100; omega)

/-- The first sixteen heads side by side, at sample `b` and column `k`: head `k / 100` at column `k % 100`. -/
theorem comb16_apply (a0 : FVec Ideal S2048x2x28749 .f32) (a1 : FVec Ideal S50x28749 .f32) (a2 : FVec Ideal S22x50 .f32)
    (b : Fin 2048) (k : Nat) (hk : k < 1600) :
    RefTerm.comb16 (F := Ideal) a0 a1 a2 (ix2 b (⟨k, hk⟩ : Fin 1600))
      = heads a0 a1 a2 ⟨k / 100, by omega⟩ (ix2 b (⟨k % 100, by omega⟩ : Fin 100)) := by
  have e : RefTerm.comb16 (F := Ideal) a0 a1 a2
      = concatenate S2048x1600 1 (List.ofFn fun n : Fin 16 =>
          (⟨S2048x100, heads a0 a1 a2 ⟨n.val, by omega⟩⟩ : (s : Shape) × (s.Idx → EReal)))
          concatenates_S2048x100_S2048x100_S2048x100_S2048x100_S2048x100_S2048x100_S2048x100_S2048x100_S2048x100_S2048x100_S2048x100_S2048x100_S2048x100_S2048x100_S2048x100_S2048x100_S2048x1600_d1 := rfl
  rw [e]
  refine (concatenate_ofFn_apply (t := S2048x1600) (s₁ := S2048x100) 1 (fun n : Fin 16 => heads a0 a1 a2 ⟨n.val, by omega⟩) _ rfl
    100 rfl (ix2 b (⟨k, hk⟩ : Fin 1600)) ⟨k / 100, by omega⟩ rfl (ix2 b (⟨k % 100, by omega⟩ : Fin 100)) rfl ?_)
  intro ax hax
  match ax with
  | ⟨0, _⟩ => rfl
  | ⟨1, _⟩ => exact absurd rfl hax

/-- The last six heads side by side, at sample `b` and column `k`: head `16 + k / 100` at column `k % 100`. -/
theorem comb6_apply (a0 : FVec Ideal S2048x2x28749 .f32) (a1 : FVec Ideal S50x28749 .f32) (a2 : FVec Ideal S22x50 .f32)
    (b : Fin 2048) (k : Nat) (hk : k < 600) :
    RefTerm.comb6 (F := Ideal) a0 a1 a2 (ix2 b (⟨k, hk⟩ : Fin 600))
      = heads a0 a1 a2 ⟨16 + k / 100, by omega⟩ (ix2 b (⟨k % 100, by omega⟩ : Fin 100)) := by
  have e : RefTerm.comb6 (F := Ideal) a0 a1 a2
      = concatenate S2048x600 1 (List.ofFn fun n : Fin 6 =>
          (⟨S2048x100, heads a0 a1 a2 ⟨16 + n.val, by omega⟩⟩ : (s : Shape) × (s.Idx → EReal)))
          concatenates_S2048x100_S2048x100_S2048x100_S2048x100_S2048x100_S2048x100_S2048x600_d1 := rfl
  rw [e]
  refine (concatenate_ofFn_apply (t := S2048x600) (s₁ := S2048x100) 1 (fun n : Fin 6 => heads a0 a1 a2 ⟨16 + n.val, by omega⟩) _ rfl
    100 rfl (ix2 b (⟨k, hk⟩ : Fin 600)) ⟨k / 100, by omega⟩ rfl (ix2 b (⟨k % 100, by omega⟩ : Fin 100)) rfl ?_)
  intro ax hax
  match ax with
  | ⟨0, _⟩ => rfl
  | ⟨1, _⟩ => exact absurd rfl hax

/-- The specification's combined feature `j`, named by its head `n = j / 100`, channel `c = (j % 100) / 50` and output
    `o = j % 50`: the head value of segment `n` on channel `c` at `o`. -/
theorem comb_eq (x : Fin 2 → Fin 28749 → EReal) (hw : Fin 50 → Fin 28749 → EReal) (hb : Fin 22 → Fin 50 → EReal)
    (j : Nat) (hj : j < 2200) (n : Fin 22) (c : Fin 2) (o : Fin 50)
    (hn : n.val = j / 100) (hc : c.val = j % 100 / 50) (ho : o.val = j % 50) :
    comb x hw hb (⟨j, hj⟩ : Fin 2200) = headVal (headOff n.val) (headLen n.val) (x c) hw (hb n) o := by
  have hp : j / 50 = 2 * n.val + c.val := by omega
  have hoe : (⟨j % 50, Nat.mod_lt _ (by norm_num)⟩ : Fin 50) = o := Fin.ext ho.symm
  show piece x hw hb (j / 50) ⟨j % 50, Nat.mod_lt _ (by norm_num)⟩ = _
  rw [hp, hoe]
  exact congrFun (piece_at x hw hb n c) o

theorem combined_apply (a0 : FVec Ideal S2048x2x28749 .f32) (a1 : FVec Ideal S50x28749 .f32) (a2 : FVec Ideal S22x50 .f32)
    (b : Fin 2048) (j : Fin 2200) :
    RefTerm.combined (F := Ideal) a0 a1 a2 (ix2 b j)
      = comb (fun c l => a0 (ix3 b c l)) (fun q l => a1 (ix2 q l)) (fun i q => a2 (ix2 i q)) j := by
  obtain ⟨j, hj⟩ := j
  by_cases hlt : j < 1600
  · -- the feature lies in the first sixteen heads
    have e1 : RefTerm.combined (F := Ideal) a0 a1 a2 (ix2 b (⟨j, hj⟩ : Fin 2200))
        = RefTerm.comb16 (F := Ideal) a0 a1 a2 (ix2 b (⟨j, hlt⟩ : Fin 1600)) := by
      unfold RefTerm.combined
      refine concatenate_pair_apply_left (t := S2048x2200) 1 _ _ concatenates_S2048x1600_S2048x600_S2048x2200_d1
        (ix2 b (⟨j, hj⟩ : Fin 2200)) rfl (ix2 b (⟨j, hlt⟩ : Fin 1600)) ?_
      intro ax
      match ax with
      | ⟨0, _⟩ => rfl
      | ⟨1, _⟩ => rfl
    rw [e1, comb16_apply, heads_apply_col]
    exact (comb_eq (fun c l => a0 (ix3 b c l)) (fun q l => a1 (ix2 q l)) (fun i q => a2 (ix2 i q)) j hj
      ⟨j / 100, by omega⟩ ⟨j % 100 / 50, by omega⟩ ⟨j % 100 % 50, by omega⟩ rfl rfl (by show j % 100 % 50 = j % 50; omega)).symm
  · -- the feature lies in the last six heads
    have hge : 1600 ≤ j := by omega
    have h600 : j - 1600 < 600 := by omega
    have e1 : RefTerm.combined (F := Ideal) a0 a1 a2 (ix2 b (⟨j, hj⟩ : Fin 2200))
        = RefTerm.comb6 (F := Ideal) a0 a1 a2 (ix2 b (⟨j - 1600, h600⟩ : Fin 600)) := by
      unfold RefTerm.combined
      refine concatenate_pair_apply_right (t := S2048x2200) 1 _ _ concatenates_S2048x1600_S2048x600_S2048x2200_d1
        (ix2 b (⟨j, hj⟩ : Fin 2200)) rfl rfl (ix2 b (⟨j - 1600, h600⟩ : Fin 600)) ?_ ?_
      · intro ax hax
        match ax with
        | ⟨0, _⟩ => rfl
        | ⟨1, _⟩ => exact absurd rfl hax
      · show j - 1600 + 1600 = j
        omega
    rw [e1, comb6_apply, heads_apply_col]
    exact (comb_eq (fun c l => a0 (ix3 b c l)) (fun q l => a1 (ix2 q l)) (fun i q => a2 (ix2 i q)) j hj
      ⟨16 + (j - 1600) / 100, by omega⟩ ⟨(j - 1600) % 100 / 50, by omega⟩ ⟨(j - 1600) % 100 % 50, by omega⟩
      (by show 16 + (j - 1600) / 100 = j / 100; omega) (by show (j - 1600) % 100 / 50 = j % 100 / 50; omega)
      (by show (j - 1600) % 100 % 50 = j % 50; omega)).symm

end Cert.ReferenceIdeal.RHeads

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.RTail.lean ====
/-
  The reference's four dense layers at an entry: on any 2048 × 2200 feature array, output (b, o) is the specification's
  layers applied to row b of the features.
-/
import proofs.«414676_j67216238182882_3_alg».proof.Proof.RTerm
import proofs.«414676_j67216238182882_3_alg».proof.Proof.Spec
import proofs.«414676_j67216238182882_3_alg».proof.Proof.LibPlainDot
import Idealize.ShloMosaic.Lib.ValueLayout

noncomputable section

open scoped BigOperators

namespace Cert.ReferenceIdeal.RTail

open Cert.ReferenceIdeal Cert.ReferenceIdeal.Gen Idealize.ShloMosaic Idealize.ShloMosaic.ValueIdx Cert.Fused

/-- One dense layer at an entry: the product of the input with the transposed weight matrix plus the broadcast bias
    row is, at (b, n), the sum over k of input (b, k) times weight (n, k), plus bias n. -/
theorem dense_apply (M K N : Nat) (D : DotDims ⟨2, ![M, K]⟩ ⟨2, ![K, N]⟩ ⟨2, ![M, N]⟩) (hD : D = DotDims.plain M K N)
    (hT : (⟨2, ![N, K]⟩ : Shape).Transposes [1, 0] ⟨2, ![K, N]⟩)
    (hB1 : (⟨1, ![N]⟩ : Shape).BroadcastsInDim ⟨2, ![1, N]⟩ (![1] : Fin 1 → Fin 2))
    (hB2 : (⟨2, ![1, N]⟩ : Shape).BroadcastsInDim ⟨2, ![M, N]⟩ (![0, 1] : Fin 2 → Fin 2))
    (X : FVec Ideal ⟨2, ![M, K]⟩ .f32) (W : FVec Ideal ⟨2, ![N, K]⟩ .f32) (bias : FVec Ideal ⟨1, ![N]⟩ .f32)
    (b : Fin M) (n : Fin N) :
    addf (Host.dotGeneral D none X (transpose ⟨2, ![K, N]⟩ [1, 0] W hT))
      (broadcastInDim ⟨2, ![M, N]⟩ ![0, 1] hB2 (broadcastInDim ⟨2, ![1, N]⟩ ![1] hB1 bias)) (ix2 b n)
      = lin (fun k => X (ix2 b k)) (fun n k => W (ix2 n k)) (fun n => bias (ix1 n)) n := by
  subst hD
  rw [addf_apply]
  show FloatOps.dotGeneral (DotDims.plain M K N) none .single X _ (ix2 b n) + _ = _
  rw [Cert.LibPlainDot.dotGeneral_plain_apply]
  unfold lin
  have hn := n.isLt
  congr 1
  · refine Finset.sum_congr rfl fun k _ => ?_
    rw [transpose_ix2_apply]
  · show _ = bias (ix1 n)
    rw [broadcastInDim_apply ![0, 1] hB2 _ (ix2 b n) (ix2 (0 : Fin 1) n) ?_,
      broadcastInDim_apply ![1] hB1 bias (ix2 (0 : Fin 1) n) (ix1 n) ?_]
    · intro a
      match a with
      | ⟨0, _⟩ => show n.val = if N = 1 then 0 else n.val; split <;> omega
    · intro a
      match a with
      | ⟨0, _⟩ => show (0 : Fin 1).val = if 1 = 1 then 0 else b.val; rfl
      | ⟨1, _⟩ => show n.val = if N = 1 then 0 else n.val; split <;> omega

/-- The leaky rectifier at an entry: compare with zero, keep the value or take slope · value. -/
theorem act_apply (M N : Nat) (hB : (⟨0, ![]⟩ : Shape).BroadcastsInDim ⟨2, ![M, N]⟩ (![] : Fin 0 → Fin 2))
    (p : FVec Ideal ⟨2, ![M, N]⟩ .f32) (j : (⟨2, ![M, N]⟩ : Shape).Idx) :
    select (cmpf .oge p (broadcastInDim ⟨2, ![M, N]⟩ ![] hB (constant (F := Ideal) S_ .f32 0x00000000#32))) p
      (mulf (broadcastInDim ⟨2, ![M, N]⟩ ![] hB (constant (F := Ideal) S_ .f32 0x3C23D70A#32)) p) j = leaky (p j) := rfl

theorem dense0_apply (cv : FVec Ideal S2048x2200 .f32) (a3 : FVec Ideal S2200x2200 .f32) (a4 : FVec Ideal S2200 .f32)
    (b : Fin 2048) (n : Fin 2200) :
    RefTerm.dense0 cv a3 a4 (ix2 b n) = lin (fun k => cv (ix2 b k)) (fun n k => a3 (ix2 n k)) (fun n => a4 (ix1 n)) n :=
  dense_apply 2048 2200 2200 _ rfl _ _ _ cv a3 a4 b n

theorem dense1_apply (zv : FVec Ideal S2048x2200 .f32) (a5 : FVec Ideal S1000x2200 .f32) (a6 : FVec Ideal S1000 .f32)
    (b : Fin 2048) (n : Fin 1000) :
    RefTerm.dense1 zv a5 a6 (ix2 b n) = lin (fun k => zv (ix2 b k)) (fun n k => a5 (ix2 n k)) (fun n => a6 (ix1 n)) n :=
  dense_apply 2048 2200 1000 _ rfl _ _ _ zv a5 a6 b n

theorem dense2_apply (h1 : FVec Ideal S2048x1000 .f32) (a7 : FVec Ideal S50x1000 .f32) (a8 : FVec Ideal S50 .f32)
    (b : Fin 2048) (n : Fin 50) :
    RefTerm.dense2 h1 a7 a8 (ix2 b n) = lin (fun k => h1 (ix2 b k)) (fun n k => a7 (ix2 n k)) (fun n => a8 (ix1 n)) n :=
  dense_apply 2048 1000 50 _ rfl _ _ _ h1 a7 a8 b n

theorem dense3_apply (h2 : FVec Ideal S2048x50 .f32) (a9 : FVec Ideal S13x50 .f32) (a10 : FVec Ideal S13 .f32)
    (b : Fin 2048) (n : Fin 13) :
    RefTerm.dense3 h2 a9 a10 (ix2 b n) = lin (fun k => h2 (ix2 b k)) (fun n k => a9 (ix2 n k)) (fun n => a10 (ix1 n)) n :=
  dense_apply 2048 50 13 _ rfl _ _ _ h2 a9 a10 b n

theorem act1_apply (p : FVec Ideal S2048x1000 .f32) (j : S2048x1000.Idx) : RefTerm.act1 p j = leaky (p j) :=
  act_apply 2048 1000 _ p j

theorem act2_apply (p : FVec Ideal S2048x50 .f32) (j : S2048x50.Idx) : RefTerm.act2 p j = leaky (p j) :=
  act_apply 2048 50 _ p j

theorem tail_apply (cv : FVec Ideal S2048x2200 .f32) (a3 : FVec Ideal S2200x2200 .f32)
    (a4 : FVec Ideal S2200 .f32) (a5 : FVec Ideal S1000x2200 .f32) (a6 : FVec Ideal S1000 .f32) (a7 : FVec Ideal S50x1000 .f32)
    (a8 : FVec Ideal S50 .f32) (a9 : FVec Ideal S13x50 .f32) (a10 : FVec Ideal S13 .f32) (b : Fin 2048) (o : Fin 13) :
    RefTerm.dense3 (F := Ideal) (RefTerm.act2 (RefTerm.dense2 (RefTerm.act1 (RefTerm.dense1 (RefTerm.dense0 cv a3 a4) a5 a6)) a7 a8)) a9 a10 (ix2 b o)
      = mlp (fun j => cv (ix2 b j)) (fun n k => a3 (ix2 n k)) (fun n => a4 (ix1 n)) (fun n k => a5 (ix2 n k)) (fun n => a6 (ix1 n))
          (fun n k => a7 (ix2 n k)) (fun n => a8 (ix1 n)) (fun n k => a9 (ix2 n k)) (fun n => a10 (ix1 n)) o := by
  unfold mlp
  simp only [dense3_apply, act2_apply, dense2_apply, act1_apply, dense1_apply, dense0_apply]

end Cert.ReferenceIdeal.RTail

end
-- ==== Proof.RValue.lean ====
/-
  The reference's composed term is the network's value: the features are the specification's (RHeads), the dense layers
  the specification's (RTail).
-/
import proofs.«414676_j67216238182882_3_alg».proof.Proof.RHeads
import proofs.«414676_j67216238182882_3_alg».proof.Proof.RTail

noncomputable section

namespace Cert.ReferenceIdeal.RValue

open Cert.ReferenceIdeal Cert.ReferenceIdeal.Gen Idealize.ShloMosaic Idealize.ShloMosaic.ValueIdx Cert.Fused

theorem out_eq (a0 : FVec Ideal S2048x2x28749 .f32) (a1 : FVec Ideal S50x28749 .f32) (a2 : FVec Ideal S22x50 .f32) (a3 : FVec Ideal S2200x2200 .f32)
    (a4 : FVec Ideal S2200 .f32) (a5 : FVec Ideal S1000x2200 .f32) (a6 : FVec Ideal S1000 .f32) (a7 : FVec Ideal S50x1000 .f32)
    (a8 : FVec Ideal S50 .f32) (a9 : FVec Ideal S13x50 .f32) (a10 : FVec Ideal S13 .f32) :
    RefTerm.out (F := Ideal) a0 a1 a2 a3 a4 a5 a6 a7 a8 a9 a10 = G a0 a1 a2 a3 a4 a5 a6 a7 a8 a9 a10 := by
  funext j
  obtain ⟨b, o, rfl⟩ : ∃ (b : Fin 2048) (o : Fin 13), j = ix2 b o := ⟨j 0, j 1, eq_ix2 j⟩
  rw [G_apply]
  unfold RefTerm.out GRow model
  rw [RTail.tail_apply]
  congr 1
  funext k
  exact RHeads.combined_apply a0 a1 a2 b k

end Cert.ReferenceIdeal.RValue

end
-- ==== Proof.lean ====
/-
  The fused network kernel against its plain reference, over the extended reals.

  Both programs compute, for each of the 2048 samples, the same function of the eleven argument arrays (Spec.lean's
  `G`): 22 heads, each a contraction of one segment of the two channel rows against the same segment of 50 weight rows
  plus a bias row; the 44 results side by side; three dense layers with a leaky rectifier and an output layer. The kernel
  works on blocks of 64 samples with the two channels laid side by side in one row, stacks the two channel segments of a
  head into one 128-row operand, and rounds to a shorter float format before each product; at the ideal reading a change
  of format is the identity and a product into a zero accumulator is the exact finite sum, so a block row of the kernel's
  output is the network on that sample (KBody), the blocks tile the output (KArray), the reference's straight line of
  host operations composes to one term (RRun, RTerm), and that term read entry by entry is the network too (RValue).
  No law beyond commutativity and associativity of finite sums is used, so the finiteness of the inputs is never opened.
  The idealization rewrote nothing, so there is nothing to preserve beyond the program's own text.
-/
import proofs.«414676_j67216238182882_3_alg».proof.Defs
import proofs.«414676_j67216238182882_3_alg».proof.Proof.Gen.Kernel
import proofs.«414676_j67216238182882_3_alg».proof.Proof.Gen.Kernel.Frame
import proofs.«414676_j67216238182882_3_alg».proof.Proof.Gen.KernelIdeal
import proofs.«414676_j67216238182882_3_alg».proof.Proof.Gen.KernelIdeal.Frame
import proofs.«414676_j67216238182882_3_alg».proof.Proof.Gen.ReferenceIdeal
import proofs.«414676_j67216238182882_3_alg».proof.Proof.Gen.Pre_finite_inputs
import proofs.«414676_j67216238182882_3_alg».proof.Proof.KArray
import proofs.«414676_j67216238182882_3_alg».proof.Proof.RRun
import proofs.«414676_j67216238182882_3_alg».proof.Proof.RValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.RRun.run (F := Ideal) m ρ)

/-- The idealization changed no operation. -/
theorem preserves : Cert.preserves_Kernel_KernelIdeal := trivial

/-- From memories that agree on the arguments both programs end with the network's value on those arguments. -/
theorem algebraic : Cert.algebraic_KernelIdeal_ReferenceIdeal := by
  intro m ρ m' ρ' _ hagree
  refine ⟨_, Cert.KernelIdeal.KArray.run m ρ, ?_⟩
  refine (θ_run Cert.ReferenceIdeal.defs _ _).mono (fun _ h c => ⟨(h c).1.trans ?_, (h c).2⟩)
    (Cert.ReferenceIdeal.RRun.run (F := Ideal) m' ρ')
  obtain ⟨h0, h1, h2, h3, h4, h5, h6, h7, h8, h9, h10⟩ := hagree c
  rw [Cert.ReferenceIdeal.RValue.out_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
